-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part4 {F : FTy → Type} [FloatOps F] (main_arg1 : IVec S2x640000 32) (main_v67 : IVec S_ 1) : IVec S_ 1 :=
  let main_c_26 : IVec S_ 32 := constantI S_ 32 10000#32
  let main_v68 : IVec S2x640000 32 := broadcastInDim S2x640000 ![] bcast_S_S2x640000 main_c_26
  let main_v69 : IVec S2x640000 1 := cmpi .slt main_arg1 main_v68
  let main_c_27 : IVec S_ 1 := constantI S_ 1 1#1
  let main_v70 : IVec S_ 1 := (fun x v => Host.reduce IntOp.andi x v reducesTo_S2x640000_S_d0_1 h_S_) main_v69 main_c_27
  let main_v71 : IVec S_ 1 := andi main_v67 main_v70
  main_v71

def fn_part3 {F : FTy → Type} [FloatOps F] (main_arg1 : IVec S2x640000 32) (main_arg12 : FVec F S256x256 .f32) (main_arg13 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_c_24 : IVec S_ 32 := constantI S_ 32 0#32
  let main_v64 : IVec S2x640000 32 := broadcastInDim S2x640000 ![] bcast_S_S2x640000 main_c_24
  let main_v65 : IVec S2x640000 1 := cmpi .sge main_arg1 main_v64
  let main_c_25 : IVec S_ 1 := constantI S_ 1 1#1
  let main_v66 : IVec S_ 1 := (fun x v => Host.reduce IntOp.andi x v reducesTo_S2x640000_S_d0_1 h_S_) main_v65 main_c_25
  let main_v67 : IVec S_ 1 := andi main_v63 main_v66
  fn_part4 (F := F) main_arg1 main_v67

def fn_part2 {F : FTy → Type} [FloatOps F] (main_arg1 : IVec S2x640000 32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg1 main_arg12 main_arg13 main_v48 main_v49 main_v50

def fn_part1 {F : FTy → Type} [FloatOps F] (main_arg1 : IVec S2x640000 32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S10000x128 .f32) (main_arg1 : IVec S2x640000 32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_arg8 main_arg9 main_arg10 main_arg11 main_arg12 main_arg13 main_v13 main_v16
-- ==== Kernel.lean ====
abbrev S10000x128 : Shape := ⟨2, ![10000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S_ : Shape := ⟨0, ![]⟩
abbrev S10240x10240 : Shape := ⟨2, ![10240, 10240]⟩
abbrev S640000x1 : Shape := ⟨2, ![640000, 1]⟩
abbrev S640000x2 : Shape := ⟨2, ![640000, 2]⟩
abbrev S10240x128 : Shape := ⟨2, ![10240, 128]⟩
abbrev S1x256 : Shape := ⟨2, ![1, 256]⟩
abbrev S10240x256 : Shape := ⟨2, ![10240, 256]⟩
abbrev S10000x256 : Shape := ⟨2, ![10000, 256]⟩
abbrev S1280x2560 : Shape := ⟨2, ![1280, 2560]⟩
abbrev S1280x128 : Shape := ⟨2, ![1280, 128]⟩
abbrev S1280x256 : Shape := ⟨2, ![1280, 256]⟩
abbrev S2560x128 : Shape := ⟨2, ![2560, 128]⟩
abbrev S2560x256 : Shape := ⟨2, ![2560, 256]⟩

abbrev nBuf : Space → Nat
  | .hbm => 64
  | .vmem => 42
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S_, .f32⟩
  | .hbm, ⟨19, _⟩ => ⟨S10240x10240, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x1, .i32⟩
  | .hbm, ⟨36, _⟩ => ⟨S640000x2, .i32⟩
  | .hbm, ⟨37, _⟩ => ⟨S_, .f32⟩
  | .hbm, ⟨38, _⟩ => ⟨S640000, .f32⟩
  | .hbm, ⟨39, _⟩ => ⟨S10240x10240, .f32⟩
  | .hbm, ⟨40, _⟩ => ⟨S10240x10240, .bf16⟩
  | .hbm, ⟨41, _⟩ => ⟨S_, .i32⟩
  | .hbm, ⟨42, _⟩ => ⟨S_, .f32⟩
  | .hbm, ⟨43, _⟩ => ⟨S10240x128, .f32⟩
  | .hbm, ⟨44, _⟩ => ⟨S10240x128, .bf16⟩
  | .hbm, ⟨45, _⟩ => ⟨S128x256, .bf16⟩
  | .hbm, ⟨46, _⟩ => ⟨S256x256, .bf16⟩
  | .hbm, ⟨47, _⟩ => ⟨S1x256, .f32⟩
  | .hbm, ⟨48, _⟩ => ⟨S1x256, .f32⟩
  | .hbm, ⟨49, _⟩ => ⟨S10240x256, .f32⟩
  | .hbm, ⟨50, _⟩ => ⟨S10240x256, .bf16⟩
  | .hbm, ⟨51, _⟩ => ⟨S256x256, .bf16⟩
  | .hbm, ⟨52, _⟩ => ⟨S256x256, .bf16⟩
  | .hbm, ⟨53, _⟩ => ⟨S1x256, .f32⟩
  | .hbm, ⟨54, _⟩ => ⟨S1x256, .f32⟩
  | .hbm, ⟨55, _⟩ => ⟨S10240x256, .f32⟩
  | .hbm, ⟨56, _⟩ => ⟨S10240x256, .bf16⟩
  | .hbm, ⟨57, _⟩ => ⟨S256x256, .bf16⟩
  | .hbm, ⟨58, _⟩ => ⟨S256x256, .bf16⟩
  | .hbm, ⟨59, _⟩ => ⟨S1x256, .f32⟩
  | .hbm, ⟨60, _⟩ => ⟨S1x256, .f32⟩
  | .hbm, ⟨61, _⟩ => ⟨S10240x256, .f32⟩
  | .hbm, ⟨62, _⟩ => ⟨S10240x256, .bf16⟩
  | .hbm, ⟨63, _⟩ => ⟨S10000x256, .f32⟩
  | .local _ .vmem, ⟨0, _⟩ => ⟨S1280x2560, .bf16⟩
  | .local _ .vmem, ⟨1, _⟩ => ⟨S1280x2560, .bf16⟩
  | .local _ .vmem, ⟨2, _⟩ => ⟨S10240x128, .bf16⟩
  | .local _ .vmem, ⟨3, _⟩ => ⟨S1280x128, .f32⟩
  | .local _ .vmem, ⟨4, _⟩ => ⟨S1280x128, .f32⟩
  | .local _ .vmem, ⟨5, _⟩ => ⟨S128x256, .bf16⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S1280x256, .f32⟩
  | .local _ .vmem, ⟨10, _⟩ => ⟨S1280x256, .f32⟩
  | .local _ .vmem, ⟨11, _⟩ => ⟨S1280x256, .bf16⟩
  | .local _ .vmem, ⟨12, _⟩ => ⟨S1280x256, .bf16⟩
  | .local _ .vmem, ⟨13, _⟩ => ⟨S1280x128, .f32⟩
  | .local _ .vmem, ⟨14, _⟩ => ⟨S1280x2560, .bf16⟩
  | .local _ .vmem, ⟨15, _⟩ => ⟨S1280x2560, .bf16⟩
  | .local _ .vmem, ⟨16, _⟩ => ⟨S10240x256, .bf16⟩
  | .local _ .vmem, ⟨17, _⟩ => ⟨S1280x256, .f32⟩
  | .local _ .vmem, ⟨18, _⟩ => ⟨S1280x256, .f32⟩
  | .local _ .vmem, ⟨19, _⟩ => ⟨S256x256, .bf16⟩
  | .local _ .vmem, ⟨20, _⟩ => ⟨S1x256, .f32⟩
  | .local _ .vmem, ⟨21, _⟩ => ⟨S256x256, .bf16⟩
  | .local _ .vmem, ⟨22, _⟩ => ⟨S1x256, .f32⟩
  | .local _ .vmem, ⟨23, _⟩ => ⟨S1280x256, .f32⟩
  | .local _ .vmem, ⟨24, _⟩ => ⟨S1280x256, .f32⟩
  | .local _ .vmem, ⟨25, _⟩ => ⟨S1280x256, .bf16⟩
  | .local _ .vmem, ⟨26, _⟩ => ⟨S1280x256, .bf16⟩
  | .local _ .vmem, ⟨27, _⟩ => ⟨S1280x256, .f32⟩
  | .local _ .vmem, ⟨28, _⟩ => ⟨S1280x2560, .bf16⟩
  | .local _ .vmem, ⟨29, _⟩ => ⟨S1280x2560, .bf16⟩
  | .local _ .vmem, ⟨30, _⟩ => ⟨S10240x256, .bf16⟩
  | .local _ .vmem, ⟨31, _⟩ => ⟨S1280x256, .f32⟩
  | .local _ .vmem, ⟨32, _⟩ => ⟨S1280x256, .f32⟩
  | .local _ .vmem, ⟨33, _⟩ => ⟨S256x256, .bf16⟩
  | .local _ .vmem, ⟨34, _⟩ => ⟨S1x256, .f32⟩
  | .local _ .vmem, ⟨35, _⟩ => ⟨S256x256, .bf16⟩
  | .local _ .vmem, ⟨36, _⟩ => ⟨S1x256, .f32⟩
  | .local _ .vmem, ⟨37, _⟩ => ⟨S1280x256, .f32⟩
  | .local _ .vmem, ⟨38, _⟩ => ⟨S1280x256, .f32⟩
  | .local _ .vmem, ⟨39, _⟩ => ⟨S1280x256, .bf16⟩
  | .local _ .vmem, ⟨40, _⟩ => ⟨S1280x256, .bf16⟩
  | .local _ .vmem, ⟨41, _⟩ => ⟨S1280x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_cst : Ref sig .tc := ⟨.hbm, 18, rfl⟩
abbrev main_call0_v4 : Ref sig .tc := ⟨.hbm, 19, rfl⟩
abbrev main_call0_c : Ref sig .tc := ⟨.hbm, 20, rfl⟩
abbrev main_call0_v5 : Ref sig .tc := ⟨.hbm, 21, rfl⟩
abbrev main_call0_v6 : Ref sig .tc := ⟨.hbm, 22, rfl⟩
abbrev main_call0_c_0 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_c_1 : Ref sig .tc := ⟨.hbm, 27, rfl⟩
abbrev main_call0_v10 : Ref sig .tc := ⟨.hbm, 28, rfl⟩
abbrev main_call0_v11 : Ref sig .tc := ⟨.hbm, 29, rfl⟩
abbrev main_call0_c_2 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_cst_3 : Ref sig .tc := ⟨.hbm, 37, rfl⟩
abbrev main_call0_v18 : Ref sig .tc := ⟨.hbm, 38, rfl⟩
abbrev main_call0_v19 : Ref sig .tc := ⟨.hbm, 39, rfl⟩
abbrev main_call0_v20 : Ref sig .tc := ⟨.hbm, 40, rfl⟩
abbrev main_call0_c_4 : Ref sig .tc := ⟨.hbm, 41, rfl⟩
abbrev main_call0_call0_v0 : Ref sig .tc := ⟨.hbm, 42, rfl⟩
abbrev main_call0_v21 : Ref sig .tc := ⟨.hbm, 43, rfl⟩
abbrev main_call0_v22 : Ref sig .tc := ⟨.hbm, 44, rfl⟩
abbrev main_call0_v23 : Ref sig .tc := ⟨.hbm, 45, rfl⟩
abbrev main_call0_v24 : Ref sig .tc := ⟨.hbm, 46, rfl⟩
abbrev main_call0_v25 : Ref sig .tc := ⟨.hbm, 47, rfl⟩
abbrev main_call0_v26 : Ref sig .tc := ⟨.hbm, 48, rfl⟩
abbrev main_call0_v27_0 : Ref sig .tc := ⟨.hbm, 49, rfl⟩
abbrev main_call0_v27_1 : Ref sig .tc := ⟨.hbm, 50, rfl⟩
abbrev main_call0_v28 : Ref sig .tc := ⟨.hbm, 51, rfl⟩
abbrev main_call0_v29 : Ref sig .tc := ⟨.hbm, 52, rfl⟩
abbrev main_call0_v30 : Ref sig .tc := ⟨.hbm, 53, rfl⟩
abbrev main_call0_v31 : Ref sig .tc := ⟨.hbm, 54, rfl⟩
abbrev main_call0_v32_0 : Ref sig .tc := ⟨.hbm, 55, rfl⟩
abbrev main_call0_v32_1 : Ref sig .tc := ⟨.hbm, 56, rfl⟩
abbrev main_call0_v33 : Ref sig .tc := ⟨.hbm, 57, rfl⟩
abbrev main_call0_v34 : Ref sig .tc := ⟨.hbm, 58, rfl⟩
abbrev main_call0_v35 : Ref sig .tc := ⟨.hbm, 59, rfl⟩
abbrev main_call0_v36 : Ref sig .tc := ⟨.hbm, 60, rfl⟩
abbrev main_call0_v37_0 : Ref sig .tc := ⟨.hbm, 61, rfl⟩
abbrev main_call0_v37_1 : Ref sig .tc := ⟨.hbm, 62, rfl⟩
abbrev main_v0 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_scratch0 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg7_1 : Ref sig .tc := ⟨.vmem, 38, rfl⟩
abbrev cc2_stg8_0 : Ref sig .tc := ⟨.vmem, 39, rfl⟩
abbrev cc2_stg8_1 : Ref sig .tc := ⟨.vmem, 40, rfl⟩
abbrev cc2_scratch0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem7_1 : DmaSem sig := 36
abbrev cc2_sem8_0 : DmaSem sig := 37
abbrev cc2_sem8_1 : DmaSem sig := 38

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2560_i32 : BitVec 32 := 2560#32
  let v3 : BitVec 32 := Scalar.muli arg1 c2560_i32
  v3
def k0_off1 (i : grid0.Coords) : Fin 2 → Nat :=
  let arg1 : BitVec 32 := BitVec.ofNat 32 (i 1).val
  let c2560_i32 : BitVec 32 := 2560#32
  let v3 : BitVec 32 := Scalar.muli arg1 c2560_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10240x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1280x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1280x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![8, 4], ![false, false]⟩

def k1_mult1 (i : grid1.Coords) : BitVec 32 :=
  let arg1 : BitVec 32 := BitVec.ofNat 32 (i 1).val
  let c2560_i32 : BitVec 32 := 2560#32
  let v3 : BitVec 32 := Scalar.muli arg1 c2560_i32
  v3
def k1_off1 (i : grid1.Coords) : Fin 2 → Nat :=
  let arg1 : BitVec 32 := BitVec.ofNat 32 (i 1).val
  let c2560_i32 : BitVec 32 := 2560#32
  let v3 : BitVec 32 := Scalar.muli arg1 c2560_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1280x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1280x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1280x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1280x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨2, ![8, 4], ![false, false]⟩

def k2_mult1 (i : grid2.Coords) : BitVec 32 :=
  let arg1 : BitVec 32 := BitVec.ofNat 32 (i 1).val
  let c2560_i32 : BitVec 32 := 2560#32
  let v3 : BitVec 32 := Scalar.muli arg1 c2560_i32
  v3
def k2_off1 (i : grid2.Coords) : Fin 2 → Nat :=
  let arg1 : BitVec 32 := BitVec.ofNat 32 (i 1).val
  let c2560_i32 : BitVec 32 := 2560#32
  let v3 : BitVec 32 := Scalar.muli arg1 c2560_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1280x2560 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S10240x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1280x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1280x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S1280x256 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S10240x10240 : S_.BroadcastsInDim S10240x10240 (![] : Fin 0 → Fin S10240x10240.rank)
  bcast_S_S640000 : S_.BroadcastsInDim S640000 (![] : Fin 0 → Fin S640000.rank)
  bcast_S640000_S640000x1_0 : S640000.BroadcastsInDim S640000x1 (![0] : Fin 1 → Fin S640000x1.rank)
  concatenates_S640000x1_S640000x1_S640000x2_d1 : Shape.Concatenates [S640000x1, S640000x1] S640000x2 1
  bitsLt_bf16_f32 : FTy.bits .bf16 < FTy.bits .f32
  pads_S10000x128_S10240x128_02400_000 : S10000x128.Pads (![0, 0] : Fin 2 → Nat) ![240, 0] ![0, 0] S10240x128
  h_S_ : 0 < S_.numel
  bcast_S256_S1x256_1 : S256.BroadcastsInDim S1x256 (![1] : Fin 1 → Fin S1x256.rank)
  slices_S10240x256_S10000x256_0_0 : S10240x256.Slices ![0, 0] S10000x256
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  h_S2560x128 : 0 < S2560x128.numel
  shapeCasts_S2560x128_S2560x128 : S2560x128.ShapeCasts S2560x128
  inb_S1280x2560_S1280x2560_0_0 : ∀ a, (![0, 0] : Fin 2 → Nat) a + S1280x2560.size a ≤ S1280x2560.size a
  h_S1280x2560 : 0 < S1280x2560.numel
  shapeCasts_S1280x2560_S1280x2560 : S1280x2560.ShapeCasts S1280x2560
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1280x256 : S1x256.Broadcasts S1280x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1280x256_S1280x256_0_0 : ∀ a, (![0, 0] : Fin 2 → Nat) a + S1280x256.size a ≤ S1280x256.size a
  h_S1280x256 : 0 < S1280x256.numel
  packedbf16_S1280x256_S1280x256_0_0 : (Rect.unit (s := S1280x256) ![0, 0] S1280x256.size inb_S1280x256_S1280x256_0_0).PackedRows (EltTy.packing .bf16)
  shapeCasts_S1280x256_S1280x256 : S1280x256.ShapeCasts S1280x256
  h_S2560x256 : 0 < S2560x256.numel
  shapeCasts_S2560x256_S2560x256 : S2560x256.ShapeCasts S2560x256
  scatter_S10240x10240_S640000x2_S640000_n_01_01_1_wf : ScatterDims.WF S10240x10240 S640000x2 S640000 [] [0, 1] [0, 1] 1
  dot_S1280x2560_S2560x128_S1280x128_1_0_0_1_n_n_wf : DotDims.WF S1280x2560 S2560x128 S1280x128 [1] [0] [0] [1] [] []
  dot_S1280x128_S128x256_S1280x256_1_0_0_1_n_n_wf : DotDims.WF S1280x128 S128x256 S1280x256 [1] [0] [0] [1] [] []
  dot_S1280x256_S256x256_S1280x256_1_0_0_1_n_n_wf : DotDims.WF S1280x256 S256x256 S1280x256 [1] [0] [0] [1] [] []
  dot_S1280x2560_S2560x256_S1280x256_1_0_0_1_n_n_wf : DotDims.WF S1280x2560 S2560x256 S1280x256 [1] [0] [0] [1] [] []
  hrank0 : 0 < grid0.rank
  k0_mult1_dvd : ∀ i : grid0.Coords, 2560 ∣ (k0_mult1 i).toNat
  k0_off1_inb : ∀ i : grid0.Coords, ∀ a, (k0_off1 i) a + S2560x128.size a ≤ S10240x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x2560.size a ≤ S10240x10240.size a
  hwx0_0 : ∀ i : grid0.Coords, EltTy.bits .bf16 = 32 ∨ (Rect.block (s := S10240x10240) S1280x2560.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x128.size a ≤ S10240x128.size a
  hwx0_1 : ∀ i : grid0.Coords, EltTy.bits .bf16 = 32 ∨ (Rect.block (s := S10240x128) S10240x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x128.size a ≤ S10240x128.size a
  hwx0_2 : ∀ i : grid0.Coords, EltTy.bits .f32 = 32 ∨ (Rect.block (s := S10240x128) S1280x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1280x256.size a ≤ S10240x256.size a
  hwx0_7 : ∀ i : grid0.Coords, EltTy.bits .f32 = 32 ∨ (Rect.block (s := S10240x256) S1280x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1280x256.size a ≤ S10240x256.size a
  hwx0_8 : ∀ i : grid0.Coords, EltTy.bits .bf16 = 32 ∨ (Rect.block (s := S10240x256) S1280x256.size (cc0_transform_8 i) (hinb0_8 i)).WholeWords (EltTy.packing .bf16)
  hrank1 : 0 < grid1.rank
  k1_mult1_dvd : ∀ i : grid1.Coords, 2560 ∣ (k1_mult1 i).toNat
  k1_off1_inb : ∀ i : grid1.Coords, ∀ a, (k1_off1 i) a + S2560x256.size a ≤ S10240x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x2560.size a ≤ S10240x10240.size a
  hwx1_0 : ∀ i : grid1.Coords, EltTy.bits .bf16 = 32 ∨ (Rect.block (s := S10240x10240) S1280x2560.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x256.size a ≤ S10240x256.size a
  hwx1_1 : ∀ i : grid1.Coords, EltTy.bits .bf16 = 32 ∨ (Rect.block (s := S10240x256) S10240x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1280x256.size a ≤ S10240x256.size a
  hwx1_2 : ∀ i : grid1.Coords, EltTy.bits .f32 = 32 ∨ (Rect.block (s := S10240x256) S1280x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1280x256.size a ≤ S10240x256.size a
  hwx1_7 : ∀ i : grid1.Coords, EltTy.bits .f32 = 32 ∨ (Rect.block (s := S10240x256) S1280x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1280x256.size a ≤ S10240x256.size a
  hwx1_8 : ∀ i : grid1.Coords, EltTy.bits .bf16 = 32 ∨ (Rect.block (s := S10240x256) S1280x256.size (cc1_transform_8 i) (hinb1_8 i)).WholeWords (EltTy.packing .bf16)
  hrank2 : 0 < grid2.rank
  k2_mult1_dvd : ∀ i : grid2.Coords, 2560 ∣ (k2_mult1 i).toNat
  k2_off1_inb : ∀ i : grid2.Coords, ∀ a, (k2_off1 i) a + S2560x256.size a ≤ S10240x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1280x2560.size a ≤ S10240x10240.size a
  hwx2_0 : ∀ i : grid2.Coords, EltTy.bits .bf16 = 32 ∨ (Rect.block (s := S10240x10240) S1280x2560.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10240x256.size a ≤ S10240x256.size a
  hwx2_1 : ∀ i : grid2.Coords, EltTy.bits .bf16 = 32 ∨ (Rect.block (s := S10240x256) S10240x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1280x256.size a ≤ S10240x256.size a
  hwx2_2 : ∀ i : grid2.Coords, EltTy.bits .f32 = 32 ∨ (Rect.block (s := S10240x256) S1280x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1280x256.size a ≤ S10240x256.size a
  hwx2_7 : ∀ i : grid2.Coords, EltTy.bits .f32 = 32 ∨ (Rect.block (s := S10240x256) S1280x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1280x256.size a ≤ S10240x256.size a
  hwx2_8 : ∀ i : grid2.Coords, EltTy.bits .bf16 = 32 ∨ (Rect.block (s := S10240x256) S1280x256.size (cc2_transform_8 i) (hinb2_8 i)).WholeWords (EltTy.packing .bf16)

variable [Facts₀]

def scatter_S10240x10240_S640000x2_S640000_n_01_01_1 : ScatterDims S10240x10240 S640000x2 S640000 where
  updateWindowDims := []
  insertedWindowDims := [0, 1]
  scatterDimsToOperandDims := [0, 1]
  indexVectorDim := 1
  wf := scatter_S10240x10240_S640000x2_S640000_n_01_01_1_wf
def dot_S1280x2560_S2560x128_S1280x128_1_0_0_1_n_n : DotDims S1280x2560 S2560x128 S1280x128 where
  lhsContracting := [1]
  rhsContracting := [0]
  lhsNonContracting := [0]
  rhsNonContracting := [1]
  lhsBatch := []
  rhsBatch := []
  wf := dot_S1280x2560_S2560x128_S1280x128_1_0_0_1_n_n_wf
def dot_S1280x128_S128x256_S1280x256_1_0_0_1_n_n : DotDims S1280x128 S128x256 S1280x256 where
  lhsContracting := [1]
  rhsContracting := [0]
  lhsNonContracting := [0]
  rhsNonContracting := [1]
  lhsBatch := []
  rhsBatch := []
  wf := dot_S1280x128_S128x256_S1280x256_1_0_0_1_n_n_wf
def dot_S1280x256_S256x256_S1280x256_1_0_0_1_n_n : DotDims S1280x256 S256x256 S1280x256 where
  lhsContracting := [1]
  rhsContracting := [0]
  lhsNonContracting := [0]
  rhsNonContracting := [1]
  lhsBatch := []
  rhsBatch := []
  wf := dot_S1280x256_S256x256_S1280x256_1_0_0_1_n_n_wf
def dot_S1280x2560_S2560x256_S1280x256_1_0_0_1_n_n : DotDims S1280x2560 S2560x256 S1280x256 where
  lhsContracting := [1]
  rhsContracting := [0]
  lhsNonContracting := [0]
  rhsNonContracting := [1]
  lhsBatch := []
  rhsBatch := []
  wf := dot_S1280x2560_S2560x256_S1280x256_1_0_0_1_n_n_wf

abbrev win0_0 : Pipeline.Window sig grid0 :=
  Pipeline.Window.ofSpec (Memref.whole main_call0_v20) S1280x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v22) S10240x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v21) S1280x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v23) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v24) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v26) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v27_0) S1280x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v27_1) S1280x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_call0_v20) S1280x2560.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v27_1) S10240x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v27_0) S1280x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v28) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v30) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v29) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v31) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v32_0) S1280x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_call0_v32_1) S1280x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun i => !(k1_cond2 i == 1#1) | ⟨_ + 9, h⟩ => absurd h (Nat.not_lt.2 (Nat.le_add_left _ _))

abbrev win2_0 : Pipeline.Window sig grid2 :=
  Pipeline.Window.ofSpec (Memref.whole main_call0_v20) S1280x2560.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v32_1) S10240x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v32_0) S1280x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v33) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v35) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v34) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v36) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v37_0) S1280x256.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_call0_v37_1) S1280x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

class Facts : Prop extends Facts₀ where

variable [Facts]
-- ==== ReferenceIdeal.lean ====
abbrev S10000x128 : Shape := ⟨2, ![10000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000x256 : Shape := ⟨2, ![10000, 256]⟩
abbrev S1x256 : Shape := ⟨2, ![1, 256]⟩
abbrev S640000x256 : Shape := ⟨2, ![640000, 256]⟩

abbrev nBuf : Space → Nat
  | .hbm => 99
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .f32⟩
  | .hbm, ⟨28, _⟩ => ⟨S10000x128, .f32⟩
  | .hbm, ⟨29, _⟩ => ⟨S640000x1, .i32⟩
  | .hbm, ⟨30, _⟩ => ⟨S10000x128, .f32⟩
  | .hbm, ⟨31, _⟩ => ⟨S10000x128, .f32⟩
  | .hbm, ⟨32, _⟩ => ⟨S10000x256, .f32⟩
  | .hbm, ⟨33, _⟩ => ⟨S1x256, .f32⟩
  | .hbm, ⟨34, _⟩ => ⟨S10000x256, .f32⟩
  | .hbm, ⟨35, _⟩ => ⟨S10000x256, .f32⟩
  | .hbm, ⟨36, _⟩ => ⟨S_, .f32⟩
  | .hbm, ⟨37, _⟩ => ⟨S10000x256, .f32⟩
  | .hbm, ⟨38, _⟩ => ⟨S10000x256, .f32⟩
  | .hbm, ⟨39, _⟩ => ⟨S10000x256, .f32⟩
  | .hbm, ⟨40, _⟩ => ⟨S1x256, .f32⟩
  | .hbm, ⟨41, _⟩ => ⟨S10000x256, .f32⟩
  | .hbm, ⟨42, _⟩ => ⟨S10000x256, .f32⟩
  | .hbm, ⟨43, _⟩ => ⟨S_, .f32⟩
  | .hbm, ⟨44, _⟩ => ⟨S10000x256, .f32⟩
  | .hbm, ⟨45, _⟩ => ⟨S10000x256, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x256, .f32⟩
  | .hbm, ⟨55, _⟩ => ⟨S_, .f32⟩
  | .hbm, ⟨56, _⟩ => ⟨S10000x256, .f32⟩
  | .hbm, ⟨57, _⟩ => ⟨S640000x1, .i32⟩
  | .hbm, ⟨58, _⟩ => ⟨S10000x256, .f32⟩
  | .hbm, ⟨59, _⟩ => ⟨S10000x256, .f32⟩
  | .hbm, ⟨60, _⟩ => ⟨S10000x256, .f32⟩
  | .hbm, ⟨61, _⟩ => ⟨S1x256, .f32⟩
  | .hbm, ⟨62, _⟩ => ⟨S10000x256, .f32⟩
  | .hbm, ⟨63, _⟩ => ⟨S10000x256, .f32⟩
  | .hbm, ⟨64, _⟩ => ⟨S_, .f32⟩
  | .hbm, ⟨65, _⟩ => ⟨S10000x256, .f32⟩
  | .hbm, ⟨66, _⟩ => ⟨S10000x256, .f32⟩
  | .hbm, ⟨67, _⟩ => ⟨S10000x256, .f32⟩
  | .hbm, ⟨68, _⟩ => ⟨S1x256, .f32⟩
  | .hbm, ⟨69, _⟩ => ⟨S10000x256, .f32⟩
  | .hbm, ⟨70, _⟩ => ⟨S10000x256, .f32⟩
  | .hbm, ⟨71, _⟩ => ⟨S_, .f32⟩
  | .hbm, ⟨72, _⟩ => ⟨S10000x256, .f32⟩
  | .hbm, ⟨73, _⟩ => ⟨S10000x256, .f32⟩
  | .hbm, ⟨74, _⟩ => ⟨S_, .i32⟩
  | .hbm, ⟨75, _⟩ => ⟨S640000, .i32⟩
  | .hbm, ⟨76, _⟩ => ⟨S640000, .i1⟩
  | .hbm, ⟨77, _⟩ => ⟨S_, .i32⟩
  | .hbm, ⟨78, _⟩ => ⟨S640000, .i32⟩
  | .hbm, ⟨79, _⟩ => ⟨S640000, .i32⟩
  | .hbm, ⟨80, _⟩ => ⟨S640000, .i32⟩
  | .hbm, ⟨81, _⟩ => ⟨S640000x1, .i32⟩
  | .hbm, ⟨82, _⟩ => ⟨S640000x256, .f32⟩
  | .hbm, ⟨83, _⟩ => ⟨S_, .f32⟩
  | .hbm, ⟨84, _⟩ => ⟨S10000x256, .f32⟩
  | .hbm, ⟨85, _⟩ => ⟨S640000x1, .i32⟩
  | .hbm, ⟨86, _⟩ => ⟨S10000x256, .f32⟩
  | .hbm, ⟨87, _⟩ => ⟨S10000x256, .f32⟩
  | .hbm, ⟨88, _⟩ => ⟨S10000x256, .f32⟩
  | .hbm, ⟨89, _⟩ => ⟨S1x256, .f32⟩
  | .hbm, ⟨90, _⟩ => ⟨S10000x256, .f32⟩
  | .hbm, ⟨91, _⟩ => ⟨S10000x256, .f32⟩
  | .hbm, ⟨92, _⟩ => ⟨S_, .f32⟩
  | .hbm, ⟨93, _⟩ => ⟨S10000x256, .f32⟩
  | .hbm, ⟨94, _⟩ => ⟨S10000x256, .f32⟩
  | .hbm, ⟨95, _⟩ => ⟨S10000x256, .f32⟩
  | .hbm, ⟨96, _⟩ => ⟨S1x256, .f32⟩
  | .hbm, ⟨97, _⟩ => ⟨S10000x256, .f32⟩
  | .hbm, ⟨98, _⟩ => ⟨S10000x256, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_c_3 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x256_S10000x256_1_0_0_1_n_n_wf : DotDims.WF S10000x128 S128x256 S10000x256 [1] [0] [0] [1] [] []
  dot_S10000x256_S256x256_S10000x256_1_0_0_1_n_n_wf : DotDims.WF S10000x256 S256x256 S10000x256 [1] [0] [0] [1] [] []
  gather_S10000x256_S640000x1_S640000x256_1_0_n_n_0_1_1256_wf : GatherDims.WF S10000x256 S640000x1 S640000x256 [1] [0] [] [0] [] 1 ![1, 256]
  scatter_S10000x256_S640000x1_S640000x256_1_0_0_1_wf : ScatterDims.WF S10000x256 S640000x1 S640000x256 [1] [0] [0] 1

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S640000x1_S640000x256_1_0_n_n_0_1_1256 : GatherDims S10000x256 S640000x1 S640000x256 where
  offsetDims := [1]
  collapsedSliceDims := [0]
  operandBatchingDims := []
  startIndicesBatchingDims := []
  startIndexMap := [0]
  indexVectorDim := 1
  sliceSizes := ![1, 256]
  wf := gather_S10000x256_S640000x1_S640000x256_1_0_n_n_0_1_1256_wf
def scatter_S10000x256_S640000x1_S640000x256_1_0_0_1 : ScatterDims S10000x256 S640000x1 S640000x256 where
  updateWindowDims := [1]
  insertedWindowDims := [0]
  scatterDimsToOperandDims := [0]
  indexVectorDim := 1
  wf := scatter_S10000x256_S640000x1_S640000x256_1_0_0_1_wf

class Facts : Prop extends Facts₀ where

variable [Facts]
-- ==== Proof.BRuns0.lean ====
/-
  Region 0 (one layer's fused kernel on its 8 × 4 grid), the part every case of its body shares.

  A grid point is (m, k): m picks a band of 1280 output rows, k one of four slices of 2560 columns of the
  adjacency band. The body has two conditionals on k alone: at k = 0 it clears the accumulator, at k = 3 it
  adds the own rows, runs the perceptron and stores both outputs; in between it only accumulates. So the grid's
  points fall in three cases: k = 0, k ∈ {1, 2}, k = 3. Stated here, at any contents `V` of the core's buffers at
  the region's entry: each window's block at a point, that every input window's buffer holds its block at every
  point (fetched there or kept from an earlier point with the same block index), the two conditions in closed
  form over the linear point number, where the two output windows are idle (no store, no write-back: k ≠ 3) and
  where live (k = 3), and the memrefs the body is called with.
-/
import proofs.«410393_j66864050864374_3_alg».proof.Proof.Gen.Kernel.Launch
import proofs.«410393_j66864050864374_3_alg».proof.Proof.Gen.Kernel.Skeleton
import proofs.«410393_j66864050864374_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "k = 0": the accumulator is cleared. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "k = 3": the epilogue runs. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Output 7 is stored only when k = 3: idle, and not written back, at the other points. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel
/-- Output 8 is stored only when k = 3: idle, and not written back, at the other points. -/
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel

/-! ## The memrefs the body is called with -/

/-- One buffer of each output window, through which its contents are stated. -/
abbrev VO0_7 : View sig .tc .vmem S1280x256 .f32 := (Memref.whole cc0_stg7_0 : Memref sig .tc .vmem S1280x256 .f32).view
abbrev VO0_8 : View sig .tc .vmem S1280x256 .bf16 := (Memref.whole cc0_stg8_0 : Memref sig .tc .vmem S1280x256 .bf16).view
abbrev ms0_0 (t : Fin cfg0.N) : Memref sig .tc .vmem S1280x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10240x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1280x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1280x256 .bf16 := win0_8.stage (cfg0.slots t 8)
abbrev hs0_8 (t : Fin cfg0.N) : (ms0_8 t).IsWhole := hstage0_8 ((cfg0.slots t 8).cast nbuf0_8)
/-- The accumulator: a whole buffer of the kernel's own, carried from point to point. -/
abbrev scM0_0 : Memref sig .tc .vmem S1280x128 .f32 := Memref.whole cc0_scratch0
abbrev VS0_0 : View sig .tc .vmem S1280x128 .f32 := scM0_0.view

/-- The core's other scoped buffers (the other two regions' staging buffers and accumulators), which this region
    never opens. -/
abbrev Rest0 (c : Dev nD) : sProp 𝕄 :=
  Pipeline.scopedRestBut (Ix := Unit) (Name := ℕ) (U := UR sig nD τ) (Lvl := ℕ) (Val := Elt F) spec0 c [cc0_scratch0]

/-- What the launch hands the body beside the windows: the accumulator at some contents, the other scoped
    buffers unopened, the generator register. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA; rw [scopedRest0_split]; simp only [scM0_0, owns_whole]; try rfl

end Cert.Kernel.Fr

end
-- ==== Proof.BRun0A.lean ====
/-
  Region 0's body run once in the case k = 0: the accumulator is cleared, then the band's first slice is added; the outputs are not touched.
  The run is symbolic: on whole memrefs holding the input blocks (and, past the first slice, the accumulator's
  contents) the body ends holding the inputs as they were and each buffer it stored into with its stores written,
  as a list of pieces the run itself finds.
-/
import proofs.«410393_j66864050864374_3_alg».proof.Proof.BRuns0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave, with the body's triple at those pieces. -/
noncomputable def kernelRun0_A (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) :
    Σ' (L7 : List (View.Piece (Elt F) S1280x256 .f32)) (L8 : List (View.Piece (Elt F) S1280x256 .bf16)), { LS0 : List (View.Piece (Elt F) S1280x128 .f32) //
      ∀ (xi7 : Vec F S1280x256 .f32) (xi8 : Vec F S1280x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__gin_fused_kernel i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc0__gin_fused_kernel_eq_skeleton]; unfold cc0__gin_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Fr

end
-- ==== Proof.BRun0B.lean ====
/-
  Region 0's body run once in the case k = 1, 2: one more slice is added to the accumulator; the outputs are not touched.
  The run is symbolic: on whole memrefs holding the input blocks (and, past the first slice, the accumulator's
  contents) the body ends holding the inputs as they were and each buffer it stored into with its stores written,
  as a list of pieces the run itself finds.
-/
import proofs.«410393_j66864050864374_3_alg».proof.Proof.BRuns0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave, with the body's triple at those pieces. -/
noncomputable def kernelRun0_B (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) :
    Σ' (L7 : List (View.Piece (Elt F) S1280x256 .f32)) (L8 : List (View.Piece (Elt F) S1280x256 .bf16)), { LS0 : List (View.Piece (Elt F) S1280x128 .f32) //
      ∀ (xi7 : Vec F S1280x256 .f32) (xi8 : Vec F S1280x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__gin_fused_kernel i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc0__gin_fused_kernel_eq_skeleton]; unfold cc0__gin_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Fr

end
-- ==== Proof.BRun0C.lean ====
/-
  Region 0's body run once in the case k = 3: the last slice is added, then the own rows, the perceptron, and both outputs are stored whole.
  The run is symbolic: on whole memrefs holding the input blocks (and, past the first slice, the accumulator's
  contents) the body ends holding the inputs as they were and each buffer it stored into with its stores written,
  as a list of pieces the run itself finds.
-/
import proofs.«410393_j66864050864374_3_alg».proof.Proof.BRuns0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave, with the body's triple at those pieces. -/
noncomputable def kernelRun0_C (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) :
    Σ' (L7 : List (View.Piece (Elt F) S1280x256 .f32)) (L8 : List (View.Piece (Elt F) S1280x256 .bf16)), { LS0 : List (View.Piece (Elt F) S1280x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__gin_fused_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__gin_fused_kernel_eq_skeleton]; unfold cc0__gin_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.Kernel.Fr

end
-- ==== Proof.BFrame0.lean ====
/-
  Region 0: what its buffers hold point by point, the proof data of its pipeline, and the body obligation.

  The accumulator is a scratch buffer the kernel carries from point to point: cleared and given the first slice's
  product at k = 0, one more slice's product added at k = 1, 2, 3; the two output blocks are stored whole at k = 3
  from the accumulator, the own rows and the perceptron's weights, and are neither stored nor written back at the
  other points. `outsAt0` says what the two output buffers and the accumulator hold after the body at linear
  point n, by recursion on n through the three cases; the region's invariant carries the accumulator at
  `outsAt0`'s third component from one point to the next, beside the core's other scoped buffers, unopened.
-/
import proofs.«410393_j66864050864374_3_alg».proof.Proof.BRun0A
import proofs.«410393_j66864050864374_3_alg».proof.Proof.BRun0B
import proofs.«410393_j66864050864374_3_alg».proof.Proof.BRun0C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into the outputs: placeholders nothing consults (the windows are idle there). -/
def out0_A_7 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) : Vec F S1280x256 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 x0 x1 x2 x3 x4 x5 x6).1)
def out0_A_8 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) : Vec F S1280x256 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 hc1 x0 x1 x2 x3 x4 x5 x6).2.1)

/-- Case A's stores into the accumulator tile it. -/
theorem scover0_A_0 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (y : S1280x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1 S1280x128.size (by sl_kernel_rfl) y
/-- What case A leaves in the accumulator. -/
def sout0_A_0 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) : Vec F S1280x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1)

/-- Case B stores nothing into the outputs: placeholders nothing consults (the windows are idle there). -/
def out0_B_7 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) : Vec F S1280x256 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1)
def out0_B_8 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) : Vec F S1280x256 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1)

/-- Case B's stores into the accumulator tile it. -/
theorem scover0_B_0 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) (y : S1280x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.2.1 S1280x128.size (by sl_kernel_rfl) y
/-- What case B leaves in the accumulator. -/
def sout0_B_0 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) : Vec F S1280x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.2.1)

/-- Case C's stores tile output 7's block. -/
theorem cover0_C_7 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) (y : S1280x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1 S1280x256.size (by sl_kernel_rfl) y
/-- What case C leaves in output 7's buffer. -/
def out0_C_7 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) : Vec F S1280x256 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1)
/-- Case C's stores tile output 8's block. -/
theorem cover0_C_8 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) (y : S1280x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1 S1280x256.size (by sl_kernel_rfl) y
/-- What case C leaves in output 8's buffer. -/
def out0_C_8 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) : Vec F S1280x256 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1)

/-- Case C's stores into the accumulator tile it. -/
theorem scover0_C_0 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) (y : S1280x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1 S1280x128.size (by sl_kernel_rfl) y
/-- What case C leaves in the accumulator. -/
def sout0_C_0 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) : Vec F S1280x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1)

/-! ## What the buffers hold after each point -/

/-- After the body at linear point `n`: output 7's buffer, output 8's buffer, the accumulator. -/
def outsAt0 (c : Dev nD) : (n : ℕ) → n < cfg0.N → Vec F S1280x256 .f32 × Vec F S1280x256 .bf16 × Vec F S1280x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 4 = 0 then
      if h1 : (n + 1) % 4 = 3 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 4 = 3 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2)

theorem outsAt0_A (c : Dev nD) (t : Fin cfg0.N) (h0 : t.val % 4 = 0) (h1 : ¬t.val % 4 = 3) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before linear point `n`: at the start what the launch hands over; afterwards the
    accumulator at what the point before left, the other scoped buffers unopened, the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ Rest0 c) ∗ (∃ r, prngReg c r)) := by
  cases n with
  | zero => exact absurd rfl hz
  | succ n => rfl

/-! ## The pipeline's proof data -/

/-- The arrays as the region finds them; after the body at a point each input's buffer at its block, the outputs'
    at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 16000000 in
/-- The body at any point: the inputs' buffers hold their blocks; the closed forms say which case the point is in; the
    invariant hands over the accumulator at what the point before left (at anything at the very first point) and
    takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [Dat.leavesExact_idle (dat0 V c) 8 t (idleAt0_8_A t ((hcond0_0 t).mpr h0) (fun h => h1 ((hcond0_1 t).mp h))) (noFlush0_8_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [show (dat0 V c).leavesExact 8 t = owns (c : Thread nD τ) (ms0_8 t) fullShare ((dat0 V c).after 8 t) from by
        unfold Dat.leavesExact; rw [liveAt0_8_C t (fun h => h0 ((hcond0_0 t).mp h)) ((hcond0_1 t).mpr h1)], after0_8]
      rw [outsAt0_C V c t h0 h1]
      unfold out0_C_7 out0_C_8 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dat0 V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ hne, PhiA0_eq]
  iintro ⟨⟨HS0, HR⟩, Hg⟩
  isplitl [HS0 HR]
  · isplitl [HS0]; · iexists _; iexact HS0
    iexact HR
  iexact Hg

end Cert.Kernel.Fr

end
-- ==== Proof.BRuns1.lean ====
/-
  Region 1 (one layer's fused kernel on its 8 × 4 grid), the part every case of its body shares.

  A grid point is (m, k): m picks a band of 1280 output rows, k one of four slices of 2560 columns of the
  adjacency band. The body has two conditionals on k alone: at k = 0 it clears the accumulator, at k = 3 it
  adds the own rows, runs the perceptron and stores both outputs; in between it only accumulates. So the grid's
  points fall in three cases: k = 0, k ∈ {1, 2}, k = 3. Stated here, at any contents `V` of the core's buffers at
  the region's entry: each window's block at a point, that every input window's buffer holds its block at every
  point (fetched there or kept from an earlier point with the same block index), the two conditions in closed
  form over the linear point number, where the two output windows are idle (no store, no write-back: k ≠ 3) and
  where live (k = 3), and the memrefs the body is called with.
-/
import proofs.«410393_j66864050864374_3_alg».proof.Proof.Gen.Kernel.Launch
import proofs.«410393_j66864050864374_3_alg».proof.Proof.Gen.Kernel.Skeleton
import proofs.«410393_j66864050864374_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "k = 0": the accumulator is cleared. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the epilogue runs. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Output 7 is stored only when k = 3: idle, and not written back, at the other points. -/
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
theorem liveAt1_7_C : ∀ t : Fin cfg1.N, ¬cond1_0 (grid1.coords t) → cond1_1 (grid1.coords t) → cfg1.idle 7 (grid1.coords t) = false := by decide +kernel
/-- Output 8 is stored only when k = 3: idle, and not written back, at the other points. -/
theorem idleAt1_8_A : ∀ t : Fin cfg1.N, cond1_0 (grid1.coords t) → ¬cond1_1 (grid1.coords t) → cfg1.idle 8 (grid1.coords t) = true := by decide +kernel
theorem noFlush1_8_A : ∀ t : Fin cfg1.N, cond1_0 (grid1.coords t) → ¬cond1_1 (grid1.coords t) → (cfg1.win 8).flush t = false := by decide +kernel
theorem idleAt1_8_B : ∀ t : Fin cfg1.N, ¬cond1_0 (grid1.coords t) → ¬cond1_1 (grid1.coords t) → cfg1.idle 8 (grid1.coords t) = true := by decide +kernel
theorem noFlush1_8_B : ∀ t : Fin cfg1.N, ¬cond1_0 (grid1.coords t) → ¬cond1_1 (grid1.coords t) → (cfg1.win 8).flush t = false := by decide +kernel
theorem liveAt1_8_C : ∀ t : Fin cfg1.N, ¬cond1_0 (grid1.coords t) → cond1_1 (grid1.coords t) → cfg1.idle 8 (grid1.coords t) = false := by decide +kernel

/-! ## The memrefs the body is called with -/

/-- One buffer of each output window, through which its contents are stated. -/
abbrev VO1_7 : View sig .tc .vmem S1280x256 .f32 := (Memref.whole cc1_stg7_0 : Memref sig .tc .vmem S1280x256 .f32).view
abbrev VO1_8 : View sig .tc .vmem S1280x256 .bf16 := (Memref.whole cc1_stg8_0 : Memref sig .tc .vmem S1280x256 .bf16).view
abbrev ms1_0 (t : Fin cfg1.N) : Memref sig .tc .vmem S1280x2560 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10240x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1280x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1280x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1280x256 .bf16 := win1_8.stage (cfg1.slots t 8)
abbrev hs1_8 (t : Fin cfg1.N) : (ms1_8 t).IsWhole := hstage1_8 ((cfg1.slots t 8).cast nbuf1_8)
/-- The accumulator: a whole buffer of the kernel's own, carried from point to point. -/
abbrev scM1_0 : Memref sig .tc .vmem S1280x256 .f32 := Memref.whole cc1_scratch0
abbrev VS1_0 : View sig .tc .vmem S1280x256 .f32 := scM1_0.view

/-- The core's other scoped buffers (the other two regions' staging buffers and accumulators), which this region
    never opens. -/
abbrev Rest1 (c : Dev nD) : sProp 𝕄 :=
  Pipeline.scopedRestBut (Ix := Unit) (Name := ℕ) (U := UR sig nD τ) (Lvl := ℕ) (Val := Elt F) spec1 c [cc1_scratch0]

/-- What the launch hands the body beside the windows: the accumulator at some contents, the other scoped
    buffers unopened, the generator register. -/
theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA; rw [scopedRest1_split]; simp only [scM1_0, owns_whole]; try rfl

end Cert.Kernel.Fr

end
-- ==== Proof.BRun1A.lean ====
/-
  Region 1's body run once in the case k = 0: the accumulator is cleared, then the band's first slice is added; the outputs are not touched.
  The run is symbolic: on whole memrefs holding the input blocks (and, past the first slice, the accumulator's
  contents) the body ends holding the inputs as they were and each buffer it stored into with its stores written,
  as a list of pieces the run itself finds.
-/
import proofs.«410393_j66864050864374_3_alg».proof.Proof.BRuns1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave, with the body's triple at those pieces. -/
noncomputable def kernelRun1_A (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) :
    Σ' (L7 : List (View.Piece (Elt F) S1280x256 .f32)) (L8 : List (View.Piece (Elt F) S1280x256 .bf16)), { LS0 : List (View.Piece (Elt F) S1280x256 .f32) //
      ∀ (xi7 : Vec F S1280x256 .f32) (xi8 : Vec F S1280x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1__gin_fused_kernel i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc1__gin_fused_kernel_eq_skeleton]; unfold cc1__gin_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Fr

end
-- ==== Proof.BRun1B.lean ====
/-
  Region 1's body run once in the case k = 1, 2: one more slice is added to the accumulator; the outputs are not touched.
  The run is symbolic: on whole memrefs holding the input blocks (and, past the first slice, the accumulator's
  contents) the body ends holding the inputs as they were and each buffer it stored into with its stores written,
  as a list of pieces the run itself finds.
-/
import proofs.«410393_j66864050864374_3_alg».proof.Proof.BRuns1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave, with the body's triple at those pieces. -/
noncomputable def kernelRun1_B (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) :
    Σ' (L7 : List (View.Piece (Elt F) S1280x256 .f32)) (L8 : List (View.Piece (Elt F) S1280x256 .bf16)), { LS0 : List (View.Piece (Elt F) S1280x256 .f32) //
      ∀ (xi7 : Vec F S1280x256 .f32) (xi8 : Vec F S1280x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1__gin_fused_kernel i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc1__gin_fused_kernel_eq_skeleton]; unfold cc1__gin_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Fr

end
-- ==== Proof.BRun1C.lean ====
/-
  Region 1's body run once in the case k = 3: the last slice is added, then the own rows, the perceptron, and both outputs are stored whole.
  The run is symbolic: on whole memrefs holding the input blocks (and, past the first slice, the accumulator's
  contents) the body ends holding the inputs as they were and each buffer it stored into with its stores written,
  as a list of pieces the run itself finds.
-/
import proofs.«410393_j66864050864374_3_alg».proof.Proof.BRuns1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave, with the body's triple at those pieces. -/
noncomputable def kernelRun1_C (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) :
    Σ' (L7 : List (View.Piece (Elt F) S1280x256 .f32)) (L8 : List (View.Piece (Elt F) S1280x256 .bf16)), { LS0 : List (View.Piece (Elt F) S1280x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1__gin_fused_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__gin_fused_kernel_eq_skeleton]; unfold cc1__gin_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.Kernel.Fr

end
-- ==== Proof.BFrame1.lean ====
/-
  Region 1: what its buffers hold point by point, the proof data of its pipeline, and the body obligation.

  The accumulator is a scratch buffer the kernel carries from point to point: cleared and given the first slice's
  product at k = 0, one more slice's product added at k = 1, 2, 3; the two output blocks are stored whole at k = 3
  from the accumulator, the own rows and the perceptron's weights, and are neither stored nor written back at the
  other points. `outsAt1` says what the two output buffers and the accumulator hold after the body at linear
  point n, by recursion on n through the three cases; the region's invariant carries the accumulator at
  `outsAt1`'s third component from one point to the next, beside the core's other scoped buffers, unopened.
-/
import proofs.«410393_j66864050864374_3_alg».proof.Proof.BRun1A
import proofs.«410393_j66864050864374_3_alg».proof.Proof.BRun1B
import proofs.«410393_j66864050864374_3_alg».proof.Proof.BRun1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into the outputs: placeholders nothing consults (the windows are idle there). -/
def out1_A_7 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) : Vec F S1280x256 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 hc1 x0 x1 x2 x3 x4 x5 x6).1)
def out1_A_8 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) : Vec F S1280x256 .bf16 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 hc1 x0 x1 x2 x3 x4 x5 x6).2.1)

/-- Case A's stores into the accumulator tile it. -/
theorem scover1_A_0 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (y : S1280x256.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1 S1280x256.size (by sl_kernel_rfl) y
/-- What case A leaves in the accumulator. -/
def sout1_A_0 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) : Vec F S1280x256 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1)

/-- Case B stores nothing into the outputs: placeholders nothing consults (the windows are idle there). -/
def out1_B_7 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0).1)
def out1_B_8 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .bf16 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.1)

/-- Case B's stores into the accumulator tile it. -/
theorem scover1_B_0 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) (y : S1280x256.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.2.1 S1280x256.size (by sl_kernel_rfl) y
/-- What case B leaves in the accumulator. -/
def sout1_B_0 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.2.1)

/-- Case C's stores tile output 7's block. -/
theorem cover1_C_7 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) (y : S1280x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0).1 S1280x256.size (by sl_kernel_rfl) y
/-- What case C leaves in output 7's buffer. -/
def out1_C_7 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0).1)
/-- Case C's stores tile output 8's block. -/
theorem cover1_C_8 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) (y : S1280x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.1 S1280x256.size (by sl_kernel_rfl) y
/-- What case C leaves in output 8's buffer. -/
def out1_C_8 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .bf16 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.1)

/-- Case C's stores into the accumulator tile it. -/
theorem scover1_C_0 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) (y : S1280x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.2.1 S1280x256.size (by sl_kernel_rfl) y
/-- What case C leaves in the accumulator. -/
def sout1_C_0 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.2.1)

/-! ## What the buffers hold after each point -/

/-- After the body at linear point `n`: output 7's buffer, output 8's buffer, the accumulator. -/
def outsAt1 (c : Dev nD) : (n : ℕ) → n < cfg1.N → Vec F S1280x256 .f32 × Vec F S1280x256 .bf16 × Vec F S1280x256 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 4 = 0 then
      if h1 : (n + 1) % 4 = 3 then
        False.elim (by omega)
      else
        (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 4 = 3 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2, out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2)
      else
        (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2, out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2)

theorem outsAt1_A (c : Dev nD) (t : Fin cfg1.N) (h0 : t.val % 4 = 0) (h1 : ¬t.val % 4 = 3) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2, out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before linear point `n`: at the start what the launch hands over; afterwards the
    accumulator at what the point before left, the other scoped buffers unopened, the generator register. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2) ∗ Rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ Rest1 c) ∗ (∃ r, prngReg c r)) := by
  cases n with
  | zero => exact absurd rfl hz
  | succ n => rfl

/-! ## The pipeline's proof data -/

/-- The arrays as the region finds them; after the body at a point each input's buffer at its block, the outputs'
    at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 16000000 in
/-- The body at any point: the inputs' buffers hold their blocks; the closed forms say which case the point is in; the
    invariant hands over the accumulator at what the point before left (at anything at the very first point) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [show (dat1 V c).leavesExact 8 t = owns (c : Thread nD τ) (ms1_8 t) fullShare ((dat1 V c).after 8 t) from by
        unfold Dat.leavesExact; rw [liveAt1_8_C t (fun h => h0 ((hcond1_0 t).mp h)) ((hcond1_1 t).mpr h1)], after1_8]
      rw [outsAt1_C V c t h0 h1]
      unfold out1_C_7 out1_C_8 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover1_C_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover1_C_8 c _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [Dat.leavesExact_idle (dat1 V c) 8 t (idleAt1_8_B t (fun h => h0 ((hcond1_0 t).mp h)) (fun h => h1 ((hcond1_1 t).mp h))) (noFlush1_8_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  iintro ⟨⟨HS0, HR⟩, Hg⟩
  isplitl [HS0 HR]
  · isplitl [HS0]; · iexists _; iexact HS0
    iexact HR
  iexact Hg

end Cert.Kernel.Fr

end
-- ==== Proof.BRuns2.lean ====
/-
  Region 2 (one layer's fused kernel on its 8 × 4 grid), the part every case of its body shares.

  A grid point is (m, k): m picks a band of 1280 output rows, k one of four slices of 2560 columns of the
  adjacency band. The body has two conditionals on k alone: at k = 0 it clears the accumulator, at k = 3 it
  adds the own rows, runs the perceptron and stores both outputs; in between it only accumulates. So the grid's
  points fall in three cases: k = 0, k ∈ {1, 2}, k = 3. Stated here, at any contents `V` of the core's buffers at
  the region's entry: each window's block at a point, that every input window's buffer holds its block at every
  point (fetched there or kept from an earlier point with the same block index), the two conditions in closed
  form over the linear point number, where the two output windows are idle (no store, no write-back: k ≠ 3) and
  where live (k = 3), and the memrefs the body is called with.
-/
import proofs.«410393_j66864050864374_3_alg».proof.Proof.Gen.Kernel.Launch
import proofs.«410393_j66864050864374_3_alg».proof.Proof.Gen.Kernel.Skeleton
import proofs.«410393_j66864050864374_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- "k = 0": the accumulator is cleared. -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- "k = 3": the epilogue runs. -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Output 7 is stored only when k = 3: idle, and not written back, at the other points. -/
theorem idleAt2_7_A : ∀ t : Fin cfg2.N, cond2_0 (grid2.coords t) → ¬cond2_1 (grid2.coords t) → cfg2.idle 7 (grid2.coords t) = true := by decide +kernel
theorem noFlush2_7_A : ∀ t : Fin cfg2.N, cond2_0 (grid2.coords t) → ¬cond2_1 (grid2.coords t) → (cfg2.win 7).flush t = false := by decide +kernel
theorem idleAt2_7_B : ∀ t : Fin cfg2.N, ¬cond2_0 (grid2.coords t) → ¬cond2_1 (grid2.coords t) → cfg2.idle 7 (grid2.coords t) = true := by decide +kernel
theorem noFlush2_7_B : ∀ t : Fin cfg2.N, ¬cond2_0 (grid2.coords t) → ¬cond2_1 (grid2.coords t) → (cfg2.win 7).flush t = false := by decide +kernel
theorem liveAt2_7_C : ∀ t : Fin cfg2.N, ¬cond2_0 (grid2.coords t) → cond2_1 (grid2.coords t) → cfg2.idle 7 (grid2.coords t) = false := by decide +kernel
/-- Output 8 is stored only when k = 3: idle, and not written back, at the other points. -/
theorem idleAt2_8_A : ∀ t : Fin cfg2.N, cond2_0 (grid2.coords t) → ¬cond2_1 (grid2.coords t) → cfg2.idle 8 (grid2.coords t) = true := by decide +kernel
theorem noFlush2_8_A : ∀ t : Fin cfg2.N, cond2_0 (grid2.coords t) → ¬cond2_1 (grid2.coords t) → (cfg2.win 8).flush t = false := by decide +kernel
theorem idleAt2_8_B : ∀ t : Fin cfg2.N, ¬cond2_0 (grid2.coords t) → ¬cond2_1 (grid2.coords t) → cfg2.idle 8 (grid2.coords t) = true := by decide +kernel
theorem noFlush2_8_B : ∀ t : Fin cfg2.N, ¬cond2_0 (grid2.coords t) → ¬cond2_1 (grid2.coords t) → (cfg2.win 8).flush t = false := by decide +kernel
theorem liveAt2_8_C : ∀ t : Fin cfg2.N, ¬cond2_0 (grid2.coords t) → cond2_1 (grid2.coords t) → cfg2.idle 8 (grid2.coords t) = false := by decide +kernel

/-! ## The memrefs the body is called with -/

/-- One buffer of each output window, through which its contents are stated. -/
abbrev VO2_7 : View sig .tc .vmem S1280x256 .f32 := (Memref.whole cc2_stg7_0 : Memref sig .tc .vmem S1280x256 .f32).view
abbrev VO2_8 : View sig .tc .vmem S1280x256 .bf16 := (Memref.whole cc2_stg8_0 : Memref sig .tc .vmem S1280x256 .bf16).view
abbrev ms2_0 (t : Fin cfg2.N) : Memref sig .tc .vmem S1280x2560 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10240x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1280x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x256 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256x256 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1280x256 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1280x256 .bf16 := win2_8.stage (cfg2.slots t 8)
abbrev hs2_8 (t : Fin cfg2.N) : (ms2_8 t).IsWhole := hstage2_8 ((cfg2.slots t 8).cast nbuf2_8)
/-- The accumulator: a whole buffer of the kernel's own, carried from point to point. -/
abbrev scM2_0 : Memref sig .tc .vmem S1280x256 .f32 := Memref.whole cc2_scratch0
abbrev VS2_0 : View sig .tc .vmem S1280x256 .f32 := scM2_0.view

/-- The core's other scoped buffers (the other two regions' staging buffers and accumulators), which this region
    never opens. -/
abbrev Rest2 (c : Dev nD) : sProp 𝕄 :=
  Pipeline.scopedRestBut (Ix := Unit) (Name := ℕ) (U := UR sig nD τ) (Lvl := ℕ) (Val := Elt F) spec2 c [cc2_scratch0]

/-- What the launch hands the body beside the windows: the accumulator at some contents, the other scoped
    buffers unopened, the generator register. -/
theorem PhiA2_eq (c : Dev nD) :
    (Pipeline.ΦA spec2 c : sProp 𝕄)
      = iprop(iprop((∃ d, owns (c : Thread nD τ) scM2_0 fullShare d) ∗ Rest2 c) ∗ (∃ r, prngReg c r)) := by
  unfold Pipeline.ΦA; rw [scopedRest2_split]; simp only [scM2_0, owns_whole]; try rfl

end Cert.Kernel.Fr

end
-- ==== Proof.BRun2A.lean ====
/-
  Region 2's body run once in the case k = 0: the accumulator is cleared, then the band's first slice is added; the outputs are not touched.
  The run is symbolic: on whole memrefs holding the input blocks (and, past the first slice, the accumulator's
  contents) the body ends holding the inputs as they were and each buffer it stored into with its stores written,
  as a list of pieces the run itself finds.
-/
import proofs.«410393_j66864050864374_3_alg».proof.Proof.BRuns2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave, with the body's triple at those pieces. -/
noncomputable def kernelRun2_A (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) :
    Σ' (L7 : List (View.Piece (Elt F) S1280x256 .f32)) (L8 : List (View.Piece (Elt F) S1280x256 .bf16)), { LS0 : List (View.Piece (Elt F) S1280x256 .f32) //
      ∀ (xi7 : Vec F S1280x256 .f32) (xi8 : Vec F S1280x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc2__gin_fused_kernel i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc2__gin_fused_kernel_eq_skeleton]; unfold cc2__gin_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Fr

end
-- ==== Proof.BRun2B.lean ====
/-
  Region 2's body run once in the case k = 1, 2: one more slice is added to the accumulator; the outputs are not touched.
  The run is symbolic: on whole memrefs holding the input blocks (and, past the first slice, the accumulator's
  contents) the body ends holding the inputs as they were and each buffer it stored into with its stores written,
  as a list of pieces the run itself finds.
-/
import proofs.«410393_j66864050864374_3_alg».proof.Proof.BRuns2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave, with the body's triple at those pieces. -/
noncomputable def kernelRun2_B (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) :
    Σ' (L7 : List (View.Piece (Elt F) S1280x256 .f32)) (L8 : List (View.Piece (Elt F) S1280x256 .bf16)), { LS0 : List (View.Piece (Elt F) S1280x256 .f32) //
      ∀ (xi7 : Vec F S1280x256 .f32) (xi8 : Vec F S1280x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc2__gin_fused_kernel i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc2__gin_fused_kernel_eq_skeleton]; unfold cc2__gin_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Fr

end
-- ==== Proof.BRun2C.lean ====
/-
  Region 2's body run once in the case k = 3: the last slice is added, then the own rows, the perceptron, and both outputs are stored whole.
  The run is symbolic: on whole memrefs holding the input blocks (and, past the first slice, the accumulator's
  contents) the body ends holding the inputs as they were and each buffer it stored into with its stores written,
  as a list of pieces the run itself finds.
-/
import proofs.«410393_j66864050864374_3_alg».proof.Proof.BRuns2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave, with the body's triple at those pieces. -/
noncomputable def kernelRun2_C (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) :
    Σ' (L7 : List (View.Piece (Elt F) S1280x256 .f32)) (L8 : List (View.Piece (Elt F) S1280x256 .bf16)), { LS0 : List (View.Piece (Elt F) S1280x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc2__gin_fused_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc2__gin_fused_kernel_eq_skeleton]; unfold cc2__gin_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.Kernel.Fr

end
-- ==== Proof.BFrame2.lean ====
/-
  Region 2: what its buffers hold point by point, the proof data of its pipeline, and the body obligation.

  The accumulator is a scratch buffer the kernel carries from point to point: cleared and given the first slice's
  product at k = 0, one more slice's product added at k = 1, 2, 3; the two output blocks are stored whole at k = 3
  from the accumulator, the own rows and the perceptron's weights, and are neither stored nor written back at the
  other points. `outsAt2` says what the two output buffers and the accumulator hold after the body at linear
  point n, by recursion on n through the three cases; the region's invariant carries the accumulator at
  `outsAt2`'s third component from one point to the next, beside the core's other scoped buffers, unopened.
-/
import proofs.«410393_j66864050864374_3_alg».proof.Proof.BRun2A
import proofs.«410393_j66864050864374_3_alg».proof.Proof.BRun2B
import proofs.«410393_j66864050864374_3_alg».proof.Proof.BRun2C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into the outputs: placeholders nothing consults (the windows are idle there). -/
def out2_A_7 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) : Vec F S1280x256 .f32 :=
  VO2_7.read (Elt F) (VO2_7.writes (Elt F) VO2_7.junk (kernelRun2_A c i arg2 harg2 arg3 harg3 arg4 harg4 arg5 harg5 arg6 harg6 arg7 harg7 arg8 harg8 arg9 harg9 arg10 harg10 arg11 harg11 hc0 hc1 x0 x1 x2 x3 x4 x5 x6).1)
def out2_A_8 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) : Vec F S1280x256 .bf16 :=
  VO2_8.read (Elt F) (VO2_8.writes (Elt F) VO2_8.junk (kernelRun2_A c i arg2 harg2 arg3 harg3 arg4 harg4 arg5 harg5 arg6 harg6 arg7 harg7 arg8 harg8 arg9 harg9 arg10 harg10 arg11 harg11 hc0 hc1 x0 x1 x2 x3 x4 x5 x6).2.1)

/-- Case A's stores into the accumulator tile it. -/
theorem scover2_A_0 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (y : S1280x256.Idx) :
    ∃ pc ∈ (kernelRun2_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun2_A c i arg2 harg2 arg3 harg3 arg4 harg4 arg5 harg5 arg6 harg6 arg7 harg7 arg8 harg8 arg9 harg9 arg10 harg10 arg11 harg11 hc0 hc1 x0 x1 x2 x3 x4 x5 x6).2.2.1 S1280x256.size (by sl_kernel_rfl) y
/-- What case A leaves in the accumulator. -/
def sout2_A_0 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) : Vec F S1280x256 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 hc0 hc1 x0 x1 x2 x3 x4 x5 x6).2.2.1)

/-- Case B stores nothing into the outputs: placeholders nothing consults (the windows are idle there). -/
def out2_B_7 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .f32 :=
  VO2_7.read (Elt F) (VO2_7.writes (Elt F) VO2_7.junk (kernelRun2_B c i arg2 harg2 arg3 harg3 arg4 harg4 arg5 harg5 arg6 harg6 arg7 harg7 arg8 harg8 arg9 harg9 arg10 harg10 arg11 harg11 hc0 hc1 x0 x1 x2 x3 x4 x5 x6 xs0).1)
def out2_B_8 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .bf16 :=
  VO2_8.read (Elt F) (VO2_8.writes (Elt F) VO2_8.junk (kernelRun2_B c i arg2 harg2 arg3 harg3 arg4 harg4 arg5 harg5 arg6 harg6 arg7 harg7 arg8 harg8 arg9 harg9 arg10 harg10 arg11 harg11 hc0 hc1 x0 x1 x2 x3 x4 x5 x6 xs0).2.1)

/-- Case B's stores into the accumulator tile it. -/
theorem scover2_B_0 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) (y : S1280x256.Idx) :
    ∃ pc ∈ (kernelRun2_B c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun2_B c i arg2 harg2 arg3 harg3 arg4 harg4 arg5 harg5 arg6 harg6 arg7 harg7 arg8 harg8 arg9 harg9 arg10 harg10 arg11 harg11 hc0 hc1 x0 x1 x2 x3 x4 x5 x6 xs0).2.2.1 S1280x256.size (by sl_kernel_rfl) y
/-- What case B leaves in the accumulator. -/
def sout2_B_0 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 hc0 hc1 x0 x1 x2 x3 x4 x5 x6 xs0).2.2.1)

/-- Case C's stores tile output 7's block. -/
theorem cover2_C_7 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) (y : S1280x256.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 x4 x5 x6 xs0).1 S1280x256.size (by sl_kernel_rfl) y
/-- What case C leaves in output 7's buffer. -/
def out2_C_7 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .f32 :=
  VO2_7.read (Elt F) (VO2_7.writes (Elt F) VO2_7.junk (kernelRun2_C c i arg2 harg2 arg3 harg3 arg4 harg4 arg5 harg5 arg6 harg6 arg7 harg7 arg8 harg8 arg9 harg9 arg10 harg10 arg11 harg11 hc0 hc1 x0 x1 x2 x3 x4 x5 x6 xs0).1)
/-- Case C's stores tile output 8's block. -/
theorem cover2_C_8 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) (y : S1280x256.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 x4 x5 x6 xs0).2.1 S1280x256.size (by sl_kernel_rfl) y
/-- What case C leaves in output 8's buffer. -/
def out2_C_8 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .bf16 :=
  VO2_8.read (Elt F) (VO2_8.writes (Elt F) VO2_8.junk (kernelRun2_C c i arg2 harg2 arg3 harg3 arg4 harg4 arg5 harg5 arg6 harg6 arg7 harg7 arg8 harg8 arg9 harg9 arg10 harg10 arg11 harg11 hc0 hc1 x0 x1 x2 x3 x4 x5 x6 xs0).2.1)

/-- Case C's stores into the accumulator tile it. -/
theorem scover2_C_0 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) (y : S1280x256.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 x4 x5 x6 xs0).2.2.1 S1280x256.size (by sl_kernel_rfl) y
/-- What case C leaves in the accumulator. -/
def sout2_C_0 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 hc0 hc1 x0 x1 x2 x3 x4 x5 x6 xs0).2.2.1)

/-! ## What the buffers hold after each point -/

/-- After the body at linear point `n`: output 7's buffer, output 8's buffer, the accumulator. -/
def outsAt2 (c : Dev nD) : (n : ℕ) → n < cfg2.N → Vec F S1280x256 .f32 × Vec F S1280x256 .bf16 × Vec F S1280x256 .f32
  | 0, hn => (out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 4 = 0 then
      if h1 : (n + 1) % 4 = 3 then
        False.elim (by omega)
      else
        (out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      if h1 : (n + 1) % 4 = 3 then
        (out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2, out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2)
      else
        (out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2, out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2)

theorem outsAt2_A (c : Dev nD) (t : Fin cfg2.N) (h0 : t.val % 4 = 0) (h1 : ¬t.val % 4 = 3) :
    outsAt2 V c t.val t.isLt = (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2, out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2, out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before linear point `n`: at the start what the launch hands over; afterwards the
    accumulator at what the point before left, the other scoped buffers unopened, the generator register. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2) ∗ Rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2.2) ∗ Rest2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2) ∗ Rest2 c) ∗ (∃ r, prngReg c r)) := by
  cases n with
  | zero => exact absurd rfl hz
  | succ n => rfl

/-! ## The pipeline's proof data -/

/-- The arrays as the region finds them; after the body at a point each input's buffer at its block, the outputs'
    at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
    | ⟨8, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
theorem after2_8 (c : Dev nD) (t : Fin cfg2.N) : (dat2 V c).after 8 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 16000000 in
/-- The body at any point: the inputs' buffers hold their blocks; the closed forms say which case the point is in; the
    invariant hands over the accumulator at what the point before left (at anything at the very first point) and
    takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [Dat.leavesExact_idle (dat2 V c) 7 t (idleAt2_7_A t ((hcond2_0 t).mpr h0) (fun h => h1 ((hcond2_1 t).mp h))) (noFlush2_7_A t ((hcond2_0 t).mpr h0) (fun h => h1 ((hcond2_1 t).mp h)))]
      rw [Dat.leavesExact_idle (dat2 V c) 8 t (idleAt2_8_A t ((hcond2_0 t).mpr h0) (fun h => h1 ((hcond2_1 t).mp h))) (noFlush2_8_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7_C t (fun h => h0 ((hcond2_0 t).mp h)) ((hcond2_1 t).mpr h1)], after2_7]
      rw [show (dat2 V c).leavesExact 8 t = owns (c : Thread nD τ) (ms2_8 t) fullShare ((dat2 V c).after 8 t) from by
        unfold Dat.leavesExact; rw [liveAt2_8_C t (fun h => h0 ((hcond2_0 t).mp h)) ((hcond2_1 t).mpr h1)], after2_8]
      rw [outsAt2_C V c t h0 h1]
      unfold out2_C_7 out2_C_8 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover2_C_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover2_C_8 c _ _ _ _ _ _ _ _ _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [Dat.leavesExact_idle (dat2 V c) 7 t (idleAt2_7_B t (fun h => h0 ((hcond2_0 t).mp h)) (fun h => h1 ((hcond2_1 t).mp h))) (noFlush2_7_B t (fun h => h0 ((hcond2_0 t).mp h)) (fun h => h1 ((hcond2_1 t).mp h)))]
      rw [Dat.leavesExact_idle (dat2 V c) 8 t (idleAt2_8_B t (fun h => h0 ((hcond2_0 t).mp h)) (fun h => h1 ((hcond2_1 t).mp h))) (noFlush2_8_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the launch's back: the accumulator's contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 32 := N_2; omega
  rw [show (dat2 V c).Φ (Fin.last cfg2.N) = PhiS2 V c (Fin.last cfg2.N).val (Nat.le_of_lt_succ (Fin.last cfg2.N).isLt) from rfl, PhiS2_pos V c _ _ hne, PhiA2_eq]
  iintro ⟨⟨HS0, HR⟩, Hg⟩
  isplitl [HS0 HR]
  · isplitl [HS0]; · iexists _; iexact HS0
    iexact HR
  iexact Hg

end Cert.Kernel.Fr

end
-- ==== Proof.BSegs.lean ====
/-
  The program's three kernel regions as segments of @main.

  Between two items of @main a core holds every unscoped buffer at named contents: the launch memory, then each host
  stretch applied, then, after a region, the region's output arrays at what its pipeline's write-backs leave and
  every other buffer untouched. The contents a region leaves feed the next region's proof data, so they are named
  in order: region 0's exit contents from the launch memory, region 1's from those, region 2's from those.
-/
import proofs.«410393_j66864050864374_3_alg».proof.Proof.BFrame0
import proofs.«410393_j66864050864374_3_alg».proof.Proof.BFrame1
import proofs.«410393_j66864050864374_3_alg».proof.Proof.BFrame2
import proofs.«410393_j66864050864374_3_alg».proof.Proof.Gen.Kernel.Regions
import Idealize.ShloMosaic.Lib.Pipeline.RegionsLoop

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between the items -/

/-- Region 0's entry contents, read at a TensorCore reference. -/
def U1 (c : Dev nD) (b : Ref sig .tc) : Buf (Elt F) ((c : Thread nD τ).loc b) := Gen.V1 m c b
theorem U1_eq (c : Dev nD) : U1 m c = (fun b : Ref sig .tc => Gen.V1 m c b) := rfl
/-- Region 0's exit contents: its arrays at what the pipeline leaves, every other buffer as entered. -/
def X2 (c : Dev nD) : Valuation τ sig (Elt F) :=
  Pipeline.withArrays spec0 c (Gen.V1 m c) fun w => (dat0 (U1 m) c).arrAt w cfg0.N
/-- What the regions leave, as far as region 0. -/
def o2 : Gen.Outs (F := F) := fun _ r c => X2 m c r
/-- Region 1's entry contents. -/
def U3 (c : Dev nD) (b : Ref sig .tc) : Buf (Elt F) ((c : Thread nD τ).loc b) := Gen.V3 m (o2 m) c b
theorem U3_eq (c : Dev nD) : U3 m c = (fun b : Ref sig .tc => Gen.V3 m (o2 m) c b) := rfl
def X4 (c : Dev nD) : Valuation τ sig (Elt F) :=
  Pipeline.withArrays spec1 c (Gen.V3 m (o2 m) c) fun w => (dat1 (U3 m) c).arrAt w cfg1.N
/-- What the regions leave, as far as region 1. -/
def o4 : Gen.Outs (F := F) := fun j r c => if j = 2 then X2 m c r else X4 m c r
/-- Region 2's entry contents. -/
def U5 (c : Dev nD) (b : Ref sig .tc) : Buf (Elt F) ((c : Thread nD τ).loc b) := Gen.V5 m (o4 m) c b
theorem U5_eq (c : Dev nD) : U5 m c = (fun b : Ref sig .tc => Gen.V5 m (o4 m) c b) := rfl
def X6 (c : Dev nD) : Valuation τ sig (Elt F) :=
  Pipeline.withArrays spec2 c (Gen.V5 m (o4 m) c) fun w => (dat2 (U5 m) c).arrAt w cfg2.N
/-- What the three regions leave. -/
def o6 : Gen.Outs (F := F) := fun j r c => if j = 2 then X2 m c r else if j = 4 then X4 m c r else X6 m c r

/-- Later regions do not change what earlier ones are entered from. -/
theorem V3_o4 (c : Dev nD) : Gen.V3 m (o4 m) c = Gen.V3 m (o2 m) c := rfl
theorem V3_o6 (c : Dev nD) : Gen.V3 m (o6 m) c = Gen.V3 m (o2 m) c := rfl
theorem V2_o6 (c : Dev nD) : Gen.V2 m (o6 m) c = Gen.V2 m (o2 m) c := rfl
theorem V4_o6 (c : Dev nD) : Gen.V4 m (o6 m) c = Gen.V4 m (o4 m) c := rfl
theorem V5_o6 (c : Dev nD) : Gen.V5 m (o6 m) c = Gen.V5 m (o4 m) c := rfl

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (U1 m) c
  | ⟨1, _⟩ => fun c => dat1 (U3 m) c
  | ⟨2, _⟩ => fun c => dat2 (U5 m) c

/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

/-- The contents after region 0, as one opaque valuation. -/
def P2 (c : Dev nD) : Valuation τ sig (Elt F) := Gen.V2 m (o2 m) c
theorem P2_eq (c : Dev nD) : P2 m c = Gen.V2 m (o2 m) c := rfl

/-- Region 0's output arrays at its exit are what the write-backs leave. -/
theorem hF0_7 (c : Dev nD) : (dat0 (U1 m) c).arrAt 7 cfg0.N = P2 m c (Pipeline.arrRef spec0 7) := by
  refine ((Pipeline.withArrays_arr spec0 launch0.win.arr_inj c (Gen.V1 m c) (fun w => (dat0 (U1 m) c).arrAt w cfg0.N) 7).symm.trans ?_)
  show X2 m c (Proc.devRef .tc main_call0_v27_0) = Gen.V2 m (o2 m) c main_call0_v27_0
  simp only [Gen.V2]
  rw [Function.update_of_ne (StableHlo.devRef_ne_of_ne (by decide) : (Proc.devRef .tc main_call0_v27_0 : DevRef τ sig) ≠ Proc.devRef .tc main_call0_v27_1), Function.update_self]
  rfl
theorem hF0_8 (c : Dev nD) : (dat0 (U1 m) c).arrAt 8 cfg0.N = P2 m c (Pipeline.arrRef spec0 8) := by
  refine ((Pipeline.withArrays_arr spec0 launch0.win.arr_inj c (Gen.V1 m c) (fun w => (dat0 (U1 m) c).arrAt w cfg0.N) 8).symm.trans ?_)
  show X2 m c (Proc.devRef .tc main_call0_v27_1) = Gen.V2 m (o2 m) c main_call0_v27_1
  simp only [Gen.V2]
  rw [Function.update_self]
  rfl
/-- Input window 0's array leaves the region as it entered. -/
theorem hF0_0 (c : Dev nD) : (dat0 (U1 m) c).arrAt 0 cfg0.N = P2 m c (Pipeline.arrRef spec0 0) := by
  refine ((dat0 (U1 m) c).arrAt_in 0 rfl _).trans ((A_eq0 (U1 m) c 0).trans ?_)
  exact (Gen.V2_of m (o2 m) c (Pipeline.arrRef spec0 0) (by decide)).symm
/-- Input window 1's array leaves the region as it entered. -/
theorem hF0_1 (c : Dev nD) : (dat0 (U1 m) c).arrAt 1 cfg0.N = P2 m c (Pipeline.arrRef spec0 1) := by
  refine ((dat0 (U1 m) c).arrAt_in 1 rfl _).trans ((A_eq0 (U1 m) c 1).trans ?_)
  exact (Gen.V2_of m (o2 m) c (Pipeline.arrRef spec0 1) (by decide)).symm
/-- Input window 2's array leaves the region as it entered. -/
theorem hF0_2 (c : Dev nD) : (dat0 (U1 m) c).arrAt 2 cfg0.N = P2 m c (Pipeline.arrRef spec0 2) := by
  refine ((dat0 (U1 m) c).arrAt_in 2 rfl _).trans ((A_eq0 (U1 m) c 2).trans ?_)
  exact (Gen.V2_of m (o2 m) c (Pipeline.arrRef spec0 2) (by decide)).symm
/-- Input window 3's array leaves the region as it entered. -/
theorem hF0_3 (c : Dev nD) : (dat0 (U1 m) c).arrAt 3 cfg0.N = P2 m c (Pipeline.arrRef spec0 3) := by
  refine ((dat0 (U1 m) c).arrAt_in 3 rfl _).trans ((A_eq0 (U1 m) c 3).trans ?_)
  exact (Gen.V2_of m (o2 m) c (Pipeline.arrRef spec0 3) (by decide)).symm
/-- Input window 4's array leaves the region as it entered. -/
theorem hF0_4 (c : Dev nD) : (dat0 (U1 m) c).arrAt 4 cfg0.N = P2 m c (Pipeline.arrRef spec0 4) := by
  refine ((dat0 (U1 m) c).arrAt_in 4 rfl _).trans ((A_eq0 (U1 m) c 4).trans ?_)
  exact (Gen.V2_of m (o2 m) c (Pipeline.arrRef spec0 4) (by decide)).symm
/-- Input window 5's array leaves the region as it entered. -/
theorem hF0_5 (c : Dev nD) : (dat0 (U1 m) c).arrAt 5 cfg0.N = P2 m c (Pipeline.arrRef spec0 5) := by
  refine ((dat0 (U1 m) c).arrAt_in 5 rfl _).trans ((A_eq0 (U1 m) c 5).trans ?_)
  exact (Gen.V2_of m (o2 m) c (Pipeline.arrRef spec0 5) (by decide)).symm
/-- Input window 6's array leaves the region as it entered. -/
theorem hF0_6 (c : Dev nD) : (dat0 (U1 m) c).arrAt 6 cfg0.N = P2 m c (Pipeline.arrRef spec0 6) := by
  refine ((dat0 (U1 m) c).arrAt_in 6 rfl _).trans ((A_eq0 (U1 m) c 6).trans ?_)
  exact (Gen.V2_of m (o2 m) c (Pipeline.arrRef spec0 6) (by decide)).symm

/-- Region 0's arrays at its exit are what the valuation after it names. -/
theorem hF0 (c : Dev nD) : ∀ w : Fin cfg0.W, (dat0 (U1 m) c).arrAt w cfg0.N = P2 m c (Pipeline.arrRef spec0 w)
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
  | ⟨6, _⟩ => hF0_6 m c
  | ⟨7, _⟩ => hF0_7 m c
  | ⟨8, _⟩ => hF0_8 m c

/-- Off the region's arrays nothing changes. -/
theorem hrest0 (c : Dev nD) : ∀ b, b ∉ Finset.univ.image (Pipeline.arrRef spec0) → P2 m c b = U1 m c b := fun b hb =>
  Gen.V2_of m (o2 m) c b (fun hm => hb (by
    simp only [List.mem_cons, List.mem_nil_iff, or_false] at hm
    rcases hm with rfl | rfl
    · exact Finset.mem_image.mpr ⟨7, Finset.mem_univ _, rfl⟩
    · exact Finset.mem_image.mpr ⟨8, Finset.mem_univ _, rfl⟩))

set_option backward.isDefEq.respectTransparency.types false in
/-- Region 0 as a segment: entered with every unscoped buffer at the contents before it, left with the region's
    arrays at what its write-backs leave and every other buffer untouched; the generator register goes into the
    region's invariant and comes back; nothing is owed; the kernel has no semaphore of its own. -/
def reg0 : RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (P2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U1 m c) fun _ => rfl
    rw [U1_eq m c, Pipeline.unscopedBufs_held] at hsplit
    rw [← U1_eq m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (U1 m) c)
    unfold Pipeline.ΦA
    iintro ⟨Hp, -, Hr⟩
    isplitl [Hr]; · iexact Hr
    iexact Hp
  hout c := by
    rw [Pipeline.ownSems0_none]
    refine (hout0 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U1 m c) (fun b => P2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The contents after region 1, as one opaque valuation. -/
def P4 (c : Dev nD) : Valuation τ sig (Elt F) := Gen.V4 m (o4 m) c
theorem P4_eq (c : Dev nD) : P4 m c = Gen.V4 m (o4 m) c := rfl

/-- Region 1's output arrays at its exit are what the write-backs leave. -/
theorem hF1_7 (c : Dev nD) : (dat1 (U3 m) c).arrAt 7 cfg1.N = P4 m c (Pipeline.arrRef spec1 7) := by
  refine ((Pipeline.withArrays_arr spec1 launch1.win.arr_inj c (Gen.V3 m (o2 m) c) (fun w => (dat1 (U3 m) c).arrAt w cfg1.N) 7).symm.trans ?_)
  show X4 m c (Proc.devRef .tc main_call0_v32_0) = Gen.V4 m (o4 m) c main_call0_v32_0
  simp only [Gen.V4]
  rw [Function.update_of_ne (StableHlo.devRef_ne_of_ne (by decide) : (Proc.devRef .tc main_call0_v32_0 : DevRef τ sig) ≠ Proc.devRef .tc main_call0_v32_1), Function.update_self]
  rfl
theorem hF1_8 (c : Dev nD) : (dat1 (U3 m) c).arrAt 8 cfg1.N = P4 m c (Pipeline.arrRef spec1 8) := by
  refine ((Pipeline.withArrays_arr spec1 launch1.win.arr_inj c (Gen.V3 m (o2 m) c) (fun w => (dat1 (U3 m) c).arrAt w cfg1.N) 8).symm.trans ?_)
  show X4 m c (Proc.devRef .tc main_call0_v32_1) = Gen.V4 m (o4 m) c main_call0_v32_1
  simp only [Gen.V4]
  rw [Function.update_self]
  rfl
/-- Input window 0's array leaves the region as it entered. -/
theorem hF1_0 (c : Dev nD) : (dat1 (U3 m) c).arrAt 0 cfg1.N = P4 m c (Pipeline.arrRef spec1 0) := by
  refine ((dat1 (U3 m) c).arrAt_in 0 rfl _).trans ((A_eq1 (U3 m) c 0).trans ?_)
  exact (Gen.V4_of m (o4 m) c (Pipeline.arrRef spec1 0) (by decide)).symm
/-- Input window 1's array leaves the region as it entered. -/
theorem hF1_1 (c : Dev nD) : (dat1 (U3 m) c).arrAt 1 cfg1.N = P4 m c (Pipeline.arrRef spec1 1) := by
  refine ((dat1 (U3 m) c).arrAt_in 1 rfl _).trans ((A_eq1 (U3 m) c 1).trans ?_)
  exact (Gen.V4_of m (o4 m) c (Pipeline.arrRef spec1 1) (by decide)).symm
/-- Input window 2's array leaves the region as it entered. -/
theorem hF1_2 (c : Dev nD) : (dat1 (U3 m) c).arrAt 2 cfg1.N = P4 m c (Pipeline.arrRef spec1 2) := by
  refine ((dat1 (U3 m) c).arrAt_in 2 rfl _).trans ((A_eq1 (U3 m) c 2).trans ?_)
  exact (Gen.V4_of m (o4 m) c (Pipeline.arrRef spec1 2) (by decide)).symm
/-- Input window 3's array leaves the region as it entered. -/
theorem hF1_3 (c : Dev nD) : (dat1 (U3 m) c).arrAt 3 cfg1.N = P4 m c (Pipeline.arrRef spec1 3) := by
  refine ((dat1 (U3 m) c).arrAt_in 3 rfl _).trans ((A_eq1 (U3 m) c 3).trans ?_)
  exact (Gen.V4_of m (o4 m) c (Pipeline.arrRef spec1 3) (by decide)).symm
/-- Input window 4's array leaves the region as it entered. -/
theorem hF1_4 (c : Dev nD) : (dat1 (U3 m) c).arrAt 4 cfg1.N = P4 m c (Pipeline.arrRef spec1 4) := by
  refine ((dat1 (U3 m) c).arrAt_in 4 rfl _).trans ((A_eq1 (U3 m) c 4).trans ?_)
  exact (Gen.V4_of m (o4 m) c (Pipeline.arrRef spec1 4) (by decide)).symm
/-- Input window 5's array leaves the region as it entered. -/
theorem hF1_5 (c : Dev nD) : (dat1 (U3 m) c).arrAt 5 cfg1.N = P4 m c (Pipeline.arrRef spec1 5) := by
  refine ((dat1 (U3 m) c).arrAt_in 5 rfl _).trans ((A_eq1 (U3 m) c 5).trans ?_)
  exact (Gen.V4_of m (o4 m) c (Pipeline.arrRef spec1 5) (by decide)).symm
/-- Input window 6's array leaves the region as it entered. -/
theorem hF1_6 (c : Dev nD) : (dat1 (U3 m) c).arrAt 6 cfg1.N = P4 m c (Pipeline.arrRef spec1 6) := by
  refine ((dat1 (U3 m) c).arrAt_in 6 rfl _).trans ((A_eq1 (U3 m) c 6).trans ?_)
  exact (Gen.V4_of m (o4 m) c (Pipeline.arrRef spec1 6) (by decide)).symm

/-- Region 1's arrays at its exit are what the valuation after it names. -/
theorem hF1 (c : Dev nD) : ∀ w : Fin cfg1.W, (dat1 (U3 m) c).arrAt w cfg1.N = P4 m c (Pipeline.arrRef spec1 w)
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
  | ⟨7, _⟩ => hF1_7 m c
  | ⟨8, _⟩ => hF1_8 m c

/-- Off the region's arrays nothing changes. -/
theorem hrest1 (c : Dev nD) : ∀ b, b ∉ Finset.univ.image (Pipeline.arrRef spec1) → P4 m c b = U3 m c b := fun b hb =>
  Gen.V4_of m (o4 m) c b (fun hm => hb (by
    simp only [List.mem_cons, List.mem_nil_iff, or_false] at hm
    rcases hm with rfl | rfl
    · exact Finset.mem_image.mpr ⟨7, Finset.mem_univ _, rfl⟩
    · exact Finset.mem_image.mpr ⟨8, Finset.mem_univ _, rfl⟩))

set_option backward.isDefEq.respectTransparency.types false in
/-- Region 1 as a segment: entered with every unscoped buffer at the contents before it, left with the region's
    arrays at what its write-backs leave and every other buffer untouched; the generator register goes into the
    region's invariant and comes back; nothing is owed; the kernel has no semaphore of its own. -/
def reg1 : RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (Gen.V3 m (o2 m) c) ∗ R c)
  post c := iprop(StableHlo.held (c : Thread nD τ) (Pipeline.ucRefs τ sig) (P4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (U3 m c) fun _ => rfl
    rw [U3_eq m c, Pipeline.unscopedBufs_held] at hsplit
    rw [← U3_eq m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (U3 m) c)
    unfold Pipeline.ΦA
    iintro ⟨Hp, -, Hr⟩
    isplitl [Hr]; · iexact Hr
    iexact Hp
  hout c := by
    rw [Pipeline.ownSems0_none]
    refine (hout1 (U3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U3 m c) (fun b => P4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The contents after region 2, as one opaque valuation. -/
def P6 (c : Dev nD) : Valuation τ sig (Elt F) := Gen.V6 m (o6 m) c
theorem P6_eq (c : Dev nD) : P6 m c = Gen.V6 m (o6 m) c := rfl

/-- Region 2's output arrays at its exit are what the write-backs leave. -/
theorem hF2_7 (c : Dev nD) : (dat2 (U5 m) c).arrAt 7 cfg2.N = P6 m c (Pipeline.arrRef spec2 7) := by
  refine ((Pipeline.withArrays_arr spec2 launch2.win.arr_inj c (Gen.V5 m (o4 m) c) (fun w => (dat2 (U5 m) c).arrAt w cfg2.N) 7).symm.trans ?_)
  show X6 m c (Proc.devRef .tc main_call0_v37_0) = Gen.V6 m (o6 m) c main_call0_v37_0
  simp only [Gen.V6]
  rw [Function.update_of_ne (StableHlo.devRef_ne_of_ne (by decide) : (Proc.devRef .tc main_call0_v37_0 : DevRef τ sig) ≠ Proc.devRef .tc main_call0_v37_1), Function.update_self]
  rfl
theorem hF2_8 (c : Dev nD) : (dat2 (U5 m) c).arrAt 8 cfg2.N = P6 m c (Pipeline.arrRef spec2 8) := by
  refine ((Pipeline.withArrays_arr spec2 launch2.win.arr_inj c (Gen.V5 m (o4 m) c) (fun w => (dat2 (U5 m) c).arrAt w cfg2.N) 8).symm.trans ?_)
  show X6 m c (Proc.devRef .tc main_call0_v37_1) = Gen.V6 m (o6 m) c main_call0_v37_1
  simp only [Gen.V6]
  rw [Function.update_self]
  rfl
/-- Input window 0's array leaves the region as it entered. -/
theorem hF2_0 (c : Dev nD) : (dat2 (U5 m) c).arrAt 0 cfg2.N = P6 m c (Pipeline.arrRef spec2 0) := by
  refine ((dat2 (U5 m) c).arrAt_in 0 rfl _).trans ((A_eq2 (U5 m) c 0).trans ?_)
  exact (Gen.V6_of m (o6 m) c (Pipeline.arrRef spec2 0) (by decide)).symm
/-- Input window 1's array leaves the region as it entered. -/
theorem hF2_1 (c : Dev nD) : (dat2 (U5 m) c).arrAt 1 cfg2.N = P6 m c (Pipeline.arrRef spec2 1) := by
  refine ((dat2 (U5 m) c).arrAt_in 1 rfl _).trans ((A_eq2 (U5 m) c 1).trans ?_)
  exact (Gen.V6_of m (o6 m) c (Pipeline.arrRef spec2 1) (by decide)).symm
/-- Input window 2's array leaves the region as it entered. -/
theorem hF2_2 (c : Dev nD) : (dat2 (U5 m) c).arrAt 2 cfg2.N = P6 m c (Pipeline.arrRef spec2 2) := by
  refine ((dat2 (U5 m) c).arrAt_in 2 rfl _).trans ((A_eq2 (U5 m) c 2).trans ?_)
  exact (Gen.V6_of m (o6 m) c (Pipeline.arrRef spec2 2) (by decide)).symm
/-- Input window 3's array leaves the region as it entered. -/
theorem hF2_3 (c : Dev nD) : (dat2 (U5 m) c).arrAt 3 cfg2.N = P6 m c (Pipeline.arrRef spec2 3) := by
  refine ((dat2 (U5 m) c).arrAt_in 3 rfl _).trans ((A_eq2 (U5 m) c 3).trans ?_)
  exact (Gen.V6_of m (o6 m) c (Pipeline.arrRef spec2 3) (by decide)).symm
/-- Input window 4's array leaves the region as it entered. -/
theorem hF2_4 (c : Dev nD) : (dat2 (U5 m) c).arrAt 4 cfg2.N = P6 m c (Pipeline.arrRef spec2 4) := by
  refine ((dat2 (U5 m) c).arrAt_in 4 rfl _).trans ((A_eq2 (U5 m) c 4).trans ?_)
  exact (Gen.V6_of m (o6 m) c (Pipeline.arrRef spec2 4) (by decide)).symm
/-- Input window 5's array leaves the region as it entered. -/
theorem hF2_5 (c : Dev nD) : (dat2 (U5 m) c).arrAt 5 cfg2.N = P6 m c (Pipeline.arrRef spec2 5) := by
  refine ((dat2 (U5 m) c).arrAt_in 5 rfl _).trans ((A_eq2 (U5 m) c 5).trans ?_)
  exact (Gen.V6_of m (o6 m) c (Pipeline.arrRef spec2 5) (by decide)).symm
/-- Input window 6's array leaves the region as it entered. -/
theorem hF2_6 (c : Dev nD) : (dat2 (U5 m) c).arrAt 6 cfg2.N = P6 m c (Pipeline.arrRef spec2 6) := by
  refine ((dat2 (U5 m) c).arrAt_in 6 rfl _).trans ((A_eq2 (U5 m) c 6).trans ?_)
  exact (Gen.V6_of m (o6 m) c (Pipeline.arrRef spec2 6) (by decide)).symm

/-- Region 2's arrays at its exit are what the valuation after it names. -/
theorem hF2 (c : Dev nD) : ∀ w : Fin cfg2.W, (dat2 (U5 m) c).arrAt w cfg2.N = P6 m c (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
  | ⟨7, _⟩ => hF2_7 m c
  | ⟨8, _⟩ => hF2_8 m c

/-- Off the region's arrays nothing changes. -/
theorem hrest2 (c : Dev nD) : ∀ b, b ∉ Finset.univ.image (Pipeline.arrRef spec2) → P6 m c b = U5 m c b := fun b hb =>
  Gen.V6_of m (o6 m) c b (fun hm => hb (by
    simp only [List.mem_cons, List.mem_nil_iff, or_false] at hm
    rcases hm with rfl | rfl
    · exact Finset.mem_image.mpr ⟨7, Finset.mem_univ _, rfl⟩
    · exact Finset.mem_image.mpr ⟨8, Finset.mem_univ _, rfl⟩))

set_option backward.isDefEq.respectTransparency.types false in
/-- Region 2 as a segment: entered with every unscoped buffer at the contents before it, left with the region's
    arrays at what its write-backs leave and every other buffer untouched; the generator register goes into the
    region's invariant and comes back; nothing is owed; the kernel has no semaphore of its own. -/
def reg2 : RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (Gen.V5 m (o4 m) c) ∗ R c)
  post c := iprop(StableHlo.held (c : Thread nD τ) (Pipeline.ucRefs τ sig) (P6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (U5 m c) fun _ => rfl
    rw [U5_eq m c, Pipeline.unscopedBufs_held] at hsplit
    rw [← U5_eq m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (U5 m) c)
    unfold Pipeline.ΦA
    iintro ⟨Hp, -, Hr⟩
    isplitl [Hr]; · iexact Hr
    iexact Hp
  hout c := by
    rw [Pipeline.ownSems0_none]
    refine (hout2 (U5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (U5 m c) (fun b => P6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.BFrameMain.lean ====
/-
  The launch: @main as its seven items (four host stretches, three kernel regions), run from any memory with zero
  semaphore counters. Every weakly fair execution ends, and every unscoped buffer of every core then holds the last
  valuation's contents — the launch memory pushed through the host stretches and the three regions' write-backs.
  The frame claim (every argument array ends as launched) is that statement read at the fourteen arguments, which
  no item writes.
-/
import proofs.«410393_j66864050864374_3_alg».proof.Proof.BSegs
import proofs.«410393_j66864050864374_3_alg».proof.Proof.BRegionsVal

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
set_option maxHeartbeats 4000000 in
/-- Every weakly fair execution of @main ends with every unscoped buffer at the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V7 m (o6 m) c b) :=
  Gen.run_cond m (emb₁ : Emb (UR sig nD τ) 𝕄) () Variants.none L lv (fun _ _ => rfl) ρ (o6 m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, H⟩; iexact H)
    (R0 := reg0 m) (hpre0 := fun c => .rfl) (hpost0 := fun c => by rw [V2_o6]; exact .rfl)
    (R1 := reg1 m) (hpre1 := fun c => by rw [V3_o6]; exact .rfl) (hpost1 := fun c => by rw [V4_o6]; exact .rfl)
    (R2 := reg2 m) (hpre2 := fun c => by rw [V5_o6]; exact .rfl) (hpost2 := fun c => .rfl)

/-- The frame claim's post: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (Gen.V7_main_arg0 m (o6 m) c),
      (h c _ (mem_uc main_arg1 (by decide))).trans (Gen.V7_main_arg1 m (o6 m) c),
      (h c _ (mem_uc main_arg2 (by decide))).trans (Gen.V7_main_arg2 m (o6 m) c),
      (h c _ (mem_uc main_arg3 (by decide))).trans (Gen.V7_main_arg3 m (o6 m) c),
      (h c _ (mem_uc main_arg4 (by decide))).trans (Gen.V7_main_arg4 m (o6 m) c),
      (h c _ (mem_uc main_arg5 (by decide))).trans (Gen.V7_main_arg5 m (o6 m) c),
      (h c _ (mem_uc main_arg6 (by decide))).trans (Gen.V7_main_arg6 m (o6 m) c),
      (h c _ (mem_uc main_arg7 (by decide))).trans (Gen.V7_main_arg7 m (o6 m) c),
      (h c _ (mem_uc main_arg8 (by decide))).trans (Gen.V7_main_arg8 m (o6 m) c),
      (h c _ (mem_uc main_arg9 (by decide))).trans (Gen.V7_main_arg9 m (o6 m) c),
      (h c _ (mem_uc main_arg10 (by decide))).trans (Gen.V7_main_arg10 m (o6 m) c),
      (h c _ (mem_uc main_arg11 (by decide))).trans (Gen.V7_main_arg11 m (o6 m) c),
      (h c _ (mem_uc main_arg12 (by decide))).trans (Gen.V7_main_arg12 m (o6 m) c),
      (h c _ (mem_uc main_arg13 (by decide))).trans (Gen.V7_main_arg13 m (o6 m) c)⟩)
    (run_all m ρ)

end Cert.Kernel.Fr

end
-- ==== Proof.Runs0.lean ====
/-
  Region 0 (one layer's fused kernel on its 8 × 4 grid), the part every case of its body shares.

  A grid point is (m, k): m picks a band of 1280 output rows, k one of four slices of 2560 columns of the
  adjacency band. The body has two conditionals on k alone: at k = 0 it clears the accumulator, at k = 3 it
  adds the own rows, runs the perceptron and stores both outputs; in between it only accumulates. So the grid's
  points fall in three cases: k = 0, k ∈ {1, 2}, k = 3. Stated here, at any contents `V` of the core's buffers at
  the region's entry: each window's block at a point, that every input window's buffer holds its block at every
  point (fetched there or kept from an earlier point with the same block index), the two conditions in closed
  form over the linear point number, where the two output windows are idle (no store, no write-back: k ≠ 3) and
  where live (k = 3), and the memrefs the body is called with.
-/
import proofs.«410393_j66864050864374_3_alg».proof.Proof.Gen.KernelIdeal.Launch
import proofs.«410393_j66864050864374_3_alg».proof.Proof.Gen.KernelIdeal.Skeleton
import proofs.«410393_j66864050864374_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "k = 0": the accumulator is cleared. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "k = 3": the epilogue runs. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Output 7 is stored only when k = 3: idle, and not written back, at the other points. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel
/-- Output 8 is stored only when k = 3: idle, and not written back, at the other points. -/
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel

/-! ## The memrefs the body is called with -/

/-- One buffer of each output window, through which its contents are stated. -/
abbrev VO0_7 : View sig .tc .vmem S1280x256 .f32 := (Memref.whole cc0_stg7_0 : Memref sig .tc .vmem S1280x256 .f32).view
abbrev VO0_8 : View sig .tc .vmem S1280x256 .bf16 := (Memref.whole cc0_stg8_0 : Memref sig .tc .vmem S1280x256 .bf16).view
abbrev ms0_0 (t : Fin cfg0.N) : Memref sig .tc .vmem S1280x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10240x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1280x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1280x256 .bf16 := win0_8.stage (cfg0.slots t 8)
abbrev hs0_8 (t : Fin cfg0.N) : (ms0_8 t).IsWhole := hstage0_8 ((cfg0.slots t 8).cast nbuf0_8)
/-- The accumulator: a whole buffer of the kernel's own, carried from point to point. -/
abbrev scM0_0 : Memref sig .tc .vmem S1280x128 .f32 := Memref.whole cc0_scratch0
abbrev VS0_0 : View sig .tc .vmem S1280x128 .f32 := scM0_0.view

/-- The core's other scoped buffers (the other two regions' staging buffers and accumulators), which this region
    never opens. -/
abbrev Rest0 (c : Dev nD) : sProp 𝕄 :=
  Pipeline.scopedRestBut (Ix := Unit) (Name := ℕ) (U := UR sig nD τ) (Lvl := ℕ) (Val := Elt F) spec0 c [cc0_scratch0]

/-- What the launch hands the body beside the windows: the accumulator at some contents, the other scoped
    buffers unopened, the generator register. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA; rw [scopedRest0_split]; simp only [scM0_0, owns_whole]; try rfl

end Cert.KernelIdeal.Fr

end
-- ==== Proof.Run0A.lean ====
/-
  Region 0's body run once in the case k = 0: the accumulator is cleared, then the band's first slice is added; the outputs are not touched.
  The run is symbolic: on whole memrefs holding the input blocks (and, past the first slice, the accumulator's
  contents) the body ends holding the inputs as they were and each buffer it stored into with its stores written,
  as a list of pieces the run itself finds.
-/
import proofs.«410393_j66864050864374_3_alg».proof.Proof.Runs0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave, with the body's triple at those pieces. -/
noncomputable def kernelRun0_A (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) :
    Σ' (L7 : List (View.Piece (Elt F) S1280x256 .f32)) (L8 : List (View.Piece (Elt F) S1280x256 .bf16)), { LS0 : List (View.Piece (Elt F) S1280x128 .f32) //
      ∀ (xi7 : Vec F S1280x256 .f32) (xi8 : Vec F S1280x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__gin_fused_kernel i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc0__gin_fused_kernel_eq_skeleton]; unfold cc0__gin_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Fr

end
-- ==== Proof.Run0B.lean ====
/-
  Region 0's body run once in the case k = 1, 2: one more slice is added to the accumulator; the outputs are not touched.
  The run is symbolic: on whole memrefs holding the input blocks (and, past the first slice, the accumulator's
  contents) the body ends holding the inputs as they were and each buffer it stored into with its stores written,
  as a list of pieces the run itself finds.
-/
import proofs.«410393_j66864050864374_3_alg».proof.Proof.Runs0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave, with the body's triple at those pieces. -/
noncomputable def kernelRun0_B (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) :
    Σ' (L7 : List (View.Piece (Elt F) S1280x256 .f32)) (L8 : List (View.Piece (Elt F) S1280x256 .bf16)), { LS0 : List (View.Piece (Elt F) S1280x128 .f32) //
      ∀ (xi7 : Vec F S1280x256 .f32) (xi8 : Vec F S1280x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__gin_fused_kernel i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc0__gin_fused_kernel_eq_skeleton]; unfold cc0__gin_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Fr

end
-- ==== Proof.Run0C.lean ====
/-
  Region 0's body run once in the case k = 3: the last slice is added, then the own rows, the perceptron, and both outputs are stored whole.
  The run is symbolic: on whole memrefs holding the input blocks (and, past the first slice, the accumulator's
  contents) the body ends holding the inputs as they were and each buffer it stored into with its stores written,
  as a list of pieces the run itself finds.
-/
import proofs.«410393_j66864050864374_3_alg».proof.Proof.Runs0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave, with the body's triple at those pieces. -/
noncomputable def kernelRun0_C (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) :
    Σ' (L7 : List (View.Piece (Elt F) S1280x256 .f32)) (L8 : List (View.Piece (Elt F) S1280x256 .bf16)), { LS0 : List (View.Piece (Elt F) S1280x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__gin_fused_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__gin_fused_kernel_eq_skeleton]; unfold cc0__gin_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.KernelIdeal.Fr

end
-- ==== Proof.Frame0.lean ====
/-
  Region 0: what its buffers hold point by point, the proof data of its pipeline, and the body obligation.

  The accumulator is a scratch buffer the kernel carries from point to point: cleared and given the first slice's
  product at k = 0, one more slice's product added at k = 1, 2, 3; the two output blocks are stored whole at k = 3
  from the accumulator, the own rows and the perceptron's weights, and are neither stored nor written back at the
  other points. `outsAt0` says what the two output buffers and the accumulator hold after the body at linear
  point n, by recursion on n through the three cases; the region's invariant carries the accumulator at
  `outsAt0`'s third component from one point to the next, beside the core's other scoped buffers, unopened.
-/
import proofs.«410393_j66864050864374_3_alg».proof.Proof.Run0A
import proofs.«410393_j66864050864374_3_alg».proof.Proof.Run0B
import proofs.«410393_j66864050864374_3_alg».proof.Proof.Run0C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into the outputs: placeholders nothing consults (the windows are idle there). -/
def out0_A_7 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) : Vec F S1280x256 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 x0 x1 x2 x3 x4 x5 x6).1)
def out0_A_8 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) : Vec F S1280x256 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 hc1 x0 x1 x2 x3 x4 x5 x6).2.1)

/-- Case A's stores into the accumulator tile it. -/
theorem scover0_A_0 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (y : S1280x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1 S1280x128.size (by sl_kernel_rfl) y
/-- What case A leaves in the accumulator. -/
def sout0_A_0 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) : Vec F S1280x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1)

/-- Case B stores nothing into the outputs: placeholders nothing consults (the windows are idle there). -/
def out0_B_7 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) : Vec F S1280x256 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1)
def out0_B_8 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) : Vec F S1280x256 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1)

/-- Case B's stores into the accumulator tile it. -/
theorem scover0_B_0 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) (y : S1280x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.2.1 S1280x128.size (by sl_kernel_rfl) y
/-- What case B leaves in the accumulator. -/
def sout0_B_0 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : ¬cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) : Vec F S1280x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.2.1)

/-- Case C's stores tile output 7's block. -/
theorem cover0_C_7 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) (y : S1280x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1 S1280x256.size (by sl_kernel_rfl) y
/-- What case C leaves in output 7's buffer. -/
def out0_C_7 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) : Vec F S1280x256 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1)
/-- Case C's stores tile output 8's block. -/
theorem cover0_C_8 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) (y : S1280x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1 S1280x256.size (by sl_kernel_rfl) y
/-- What case C leaves in output 8's buffer. -/
def out0_C_8 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) : Vec F S1280x256 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1)

/-- Case C's stores into the accumulator tile it. -/
theorem scover0_C_0 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) (y : S1280x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1 S1280x128.size (by sl_kernel_rfl) y
/-- What case C leaves in the accumulator. -/
def sout0_C_0 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : cond0_1 i)
    (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) : Vec F S1280x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1)

/-! ## What the buffers hold after each point -/

/-- After the body at linear point `n`: output 7's buffer, output 8's buffer, the accumulator. -/
def outsAt0 (c : Dev nD) : (n : ℕ) → n < cfg0.N → Vec F S1280x256 .f32 × Vec F S1280x256 .bf16 × Vec F S1280x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 4 = 0 then
      if h1 : (n + 1) % 4 = 3 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 4 = 3 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2)

theorem outsAt0_A (c : Dev nD) (t : Fin cfg0.N) (h0 : t.val % 4 = 0) (h1 : ¬t.val % 4 = 3) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before linear point `n`: at the start what the launch hands over; afterwards the
    accumulator at what the point before left, the other scoped buffers unopened, the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ Rest0 c) ∗ (∃ r, prngReg c r)) := by
  cases n with
  | zero => exact absurd rfl hz
  | succ n => rfl

/-! ## The pipeline's proof data -/

/-- The arrays as the region finds them; after the body at a point each input's buffer at its block, the outputs'
    at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 16000000 in
/-- The body at any point: the inputs' buffers hold their blocks; the closed forms say which case the point is in; the
    invariant hands over the accumulator at what the point before left (at anything at the very first point) and
    takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [Dat.leavesExact_idle (dat0 V c) 8 t (idleAt0_8_A t ((hcond0_0 t).mpr h0) (fun h => h1 ((hcond0_1 t).mp h))) (noFlush0_8_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [show (dat0 V c).leavesExact 8 t = owns (c : Thread nD τ) (ms0_8 t) fullShare ((dat0 V c).after 8 t) from by
        unfold Dat.leavesExact; rw [liveAt0_8_C t (fun h => h0 ((hcond0_0 t).mp h)) ((hcond0_1 t).mpr h1)], after0_8]
      rw [outsAt0_C V c t h0 h1]
      unfold out0_C_7 out0_C_8 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dat0 V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ hne, PhiA0_eq]
  iintro ⟨⟨HS0, HR⟩, Hg⟩
  isplitl [HS0 HR]
  · isplitl [HS0]; · iexists _; iexact HS0
    iexact HR
  iexact Hg

end Cert.KernelIdeal.Fr

end
-- ==== Proof.Runs1.lean ====
/-
  Region 1 (one layer's fused kernel on its 8 × 4 grid), the part every case of its body shares.

  A grid point is (m, k): m picks a band of 1280 output rows, k one of four slices of 2560 columns of the
  adjacency band. The body has two conditionals on k alone: at k = 0 it clears the accumulator, at k = 3 it
  adds the own rows, runs the perceptron and stores both outputs; in between it only accumulates. So the grid's
  points fall in three cases: k = 0, k ∈ {1, 2}, k = 3. Stated here, at any contents `V` of the core's buffers at
  the region's entry: each window's block at a point, that every input window's buffer holds its block at every
  point (fetched there or kept from an earlier point with the same block index), the two conditions in closed
  form over the linear point number, where the two output windows are idle (no store, no write-back: k ≠ 3) and
  where live (k = 3), and the memrefs the body is called with.
-/
import proofs.«410393_j66864050864374_3_alg».proof.Proof.Gen.KernelIdeal.Launch
import proofs.«410393_j66864050864374_3_alg».proof.Proof.Gen.KernelIdeal.Skeleton
import proofs.«410393_j66864050864374_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "k = 0": the accumulator is cleared. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the epilogue runs. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Output 7 is stored only when k = 3: idle, and not written back, at the other points. -/
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
theorem liveAt1_7_C : ∀ t : Fin cfg1.N, ¬cond1_0 (grid1.coords t) → cond1_1 (grid1.coords t) → cfg1.idle 7 (grid1.coords t) = false := by decide +kernel
/-- Output 8 is stored only when k = 3: idle, and not written back, at the other points. -/
theorem idleAt1_8_A : ∀ t : Fin cfg1.N, cond1_0 (grid1.coords t) → ¬cond1_1 (grid1.coords t) → cfg1.idle 8 (grid1.coords t) = true := by decide +kernel
theorem noFlush1_8_A : ∀ t : Fin cfg1.N, cond1_0 (grid1.coords t) → ¬cond1_1 (grid1.coords t) → (cfg1.win 8).flush t = false := by decide +kernel
theorem idleAt1_8_B : ∀ t : Fin cfg1.N, ¬cond1_0 (grid1.coords t) → ¬cond1_1 (grid1.coords t) → cfg1.idle 8 (grid1.coords t) = true := by decide +kernel
theorem noFlush1_8_B : ∀ t : Fin cfg1.N, ¬cond1_0 (grid1.coords t) → ¬cond1_1 (grid1.coords t) → (cfg1.win 8).flush t = false := by decide +kernel
theorem liveAt1_8_C : ∀ t : Fin cfg1.N, ¬cond1_0 (grid1.coords t) → cond1_1 (grid1.coords t) → cfg1.idle 8 (grid1.coords t) = false := by decide +kernel

/-! ## The memrefs the body is called with -/

/-- One buffer of each output window, through which its contents are stated. -/
abbrev VO1_7 : View sig .tc .vmem S1280x256 .f32 := (Memref.whole cc1_stg7_0 : Memref sig .tc .vmem S1280x256 .f32).view
abbrev VO1_8 : View sig .tc .vmem S1280x256 .bf16 := (Memref.whole cc1_stg8_0 : Memref sig .tc .vmem S1280x256 .bf16).view
abbrev ms1_0 (t : Fin cfg1.N) : Memref sig .tc .vmem S1280x2560 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10240x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1280x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1280x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1280x256 .bf16 := win1_8.stage (cfg1.slots t 8)
abbrev hs1_8 (t : Fin cfg1.N) : (ms1_8 t).IsWhole := hstage1_8 ((cfg1.slots t 8).cast nbuf1_8)
/-- The accumulator: a whole buffer of the kernel's own, carried from point to point. -/
abbrev scM1_0 : Memref sig .tc .vmem S1280x256 .f32 := Memref.whole cc1_scratch0
abbrev VS1_0 : View sig .tc .vmem S1280x256 .f32 := scM1_0.view

/-- The core's other scoped buffers (the other two regions' staging buffers and accumulators), which this region
    never opens. -/
abbrev Rest1 (c : Dev nD) : sProp 𝕄 :=
  Pipeline.scopedRestBut (Ix := Unit) (Name := ℕ) (U := UR sig nD τ) (Lvl := ℕ) (Val := Elt F) spec1 c [cc1_scratch0]

/-- What the launch hands the body beside the windows: the accumulator at some contents, the other scoped
    buffers unopened, the generator register. -/
theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA; rw [scopedRest1_split]; simp only [scM1_0, owns_whole]; try rfl

end Cert.KernelIdeal.Fr

end
-- ==== Proof.Run1A.lean ====
/-
  Region 1's body run once in the case k = 0: the accumulator is cleared, then the band's first slice is added; the outputs are not touched.
  The run is symbolic: on whole memrefs holding the input blocks (and, past the first slice, the accumulator's
  contents) the body ends holding the inputs as they were and each buffer it stored into with its stores written,
  as a list of pieces the run itself finds.
-/
import proofs.«410393_j66864050864374_3_alg».proof.Proof.Runs1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave, with the body's triple at those pieces. -/
noncomputable def kernelRun1_A (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) :
    Σ' (L7 : List (View.Piece (Elt F) S1280x256 .f32)) (L8 : List (View.Piece (Elt F) S1280x256 .bf16)), { LS0 : List (View.Piece (Elt F) S1280x256 .f32) //
      ∀ (xi7 : Vec F S1280x256 .f32) (xi8 : Vec F S1280x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1__gin_fused_kernel i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc1__gin_fused_kernel_eq_skeleton]; unfold cc1__gin_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Fr

end
-- ==== Proof.Run1B.lean ====
/-
  Region 1's body run once in the case k = 1, 2: one more slice is added to the accumulator; the outputs are not touched.
  The run is symbolic: on whole memrefs holding the input blocks (and, past the first slice, the accumulator's
  contents) the body ends holding the inputs as they were and each buffer it stored into with its stores written,
  as a list of pieces the run itself finds.
-/
import proofs.«410393_j66864050864374_3_alg».proof.Proof.Runs1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave, with the body's triple at those pieces. -/
noncomputable def kernelRun1_B (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) :
    Σ' (L7 : List (View.Piece (Elt F) S1280x256 .f32)) (L8 : List (View.Piece (Elt F) S1280x256 .bf16)), { LS0 : List (View.Piece (Elt F) S1280x256 .f32) //
      ∀ (xi7 : Vec F S1280x256 .f32) (xi8 : Vec F S1280x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1__gin_fused_kernel i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc1__gin_fused_kernel_eq_skeleton]; unfold cc1__gin_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Fr

end
-- ==== Proof.Run1C.lean ====
/-
  Region 1's body run once in the case k = 3: the last slice is added, then the own rows, the perceptron, and both outputs are stored whole.
  The run is symbolic: on whole memrefs holding the input blocks (and, past the first slice, the accumulator's
  contents) the body ends holding the inputs as they were and each buffer it stored into with its stores written,
  as a list of pieces the run itself finds.
-/
import proofs.«410393_j66864050864374_3_alg».proof.Proof.Runs1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave, with the body's triple at those pieces. -/
noncomputable def kernelRun1_C (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) :
    Σ' (L7 : List (View.Piece (Elt F) S1280x256 .f32)) (L8 : List (View.Piece (Elt F) S1280x256 .bf16)), { LS0 : List (View.Piece (Elt F) S1280x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1__gin_fused_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__gin_fused_kernel_eq_skeleton]; unfold cc1__gin_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.KernelIdeal.Fr

end
-- ==== Proof.Frame1.lean ====
/-
  Region 1: what its buffers hold point by point, the proof data of its pipeline, and the body obligation.

  The accumulator is a scratch buffer the kernel carries from point to point: cleared and given the first slice's
  product at k = 0, one more slice's product added at k = 1, 2, 3; the two output blocks are stored whole at k = 3
  from the accumulator, the own rows and the perceptron's weights, and are neither stored nor written back at the
  other points. `outsAt1` says what the two output buffers and the accumulator hold after the body at linear
  point n, by recursion on n through the three cases; the region's invariant carries the accumulator at
  `outsAt1`'s third component from one point to the next, beside the core's other scoped buffers, unopened.
-/
import proofs.«410393_j66864050864374_3_alg».proof.Proof.Run1A
import proofs.«410393_j66864050864374_3_alg».proof.Proof.Run1B
import proofs.«410393_j66864050864374_3_alg».proof.Proof.Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into the outputs: placeholders nothing consults (the windows are idle there). -/
def out1_A_7 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) : Vec F S1280x256 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 hc1 x0 x1 x2 x3 x4 x5 x6).1)
def out1_A_8 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) : Vec F S1280x256 .bf16 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 hc1 x0 x1 x2 x3 x4 x5 x6).2.1)

/-- Case A's stores into the accumulator tile it. -/
theorem scover1_A_0 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (y : S1280x256.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1 S1280x256.size (by sl_kernel_rfl) y
/-- What case A leaves in the accumulator. -/
def sout1_A_0 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) : Vec F S1280x256 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1)

/-- Case B stores nothing into the outputs: placeholders nothing consults (the windows are idle there). -/
def out1_B_7 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0).1)
def out1_B_8 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .bf16 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.1)

/-- Case B's stores into the accumulator tile it. -/
theorem scover1_B_0 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) (y : S1280x256.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.2.1 S1280x256.size (by sl_kernel_rfl) y
/-- What case B leaves in the accumulator. -/
def sout1_B_0 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : ¬cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.2.1)

/-- Case C's stores tile output 7's block. -/
theorem cover1_C_7 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) (y : S1280x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0).1 S1280x256.size (by sl_kernel_rfl) y
/-- What case C leaves in output 7's buffer. -/
def out1_C_7 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0).1)
/-- Case C's stores tile output 8's block. -/
theorem cover1_C_8 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) (y : S1280x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.1 S1280x256.size (by sl_kernel_rfl) y
/-- What case C leaves in output 8's buffer. -/
def out1_C_8 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .bf16 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.1)

/-- Case C's stores into the accumulator tile it. -/
theorem scover1_C_0 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) (y : S1280x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.2.1 S1280x256.size (by sl_kernel_rfl) y
/-- What case C leaves in the accumulator. -/
def sout1_C_0 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : cond1_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.2.1)

/-! ## What the buffers hold after each point -/

/-- After the body at linear point `n`: output 7's buffer, output 8's buffer, the accumulator. -/
def outsAt1 (c : Dev nD) : (n : ℕ) → n < cfg1.N → Vec F S1280x256 .f32 × Vec F S1280x256 .bf16 × Vec F S1280x256 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 4 = 0 then
      if h1 : (n + 1) % 4 = 3 then
        False.elim (by omega)
      else
        (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 4 = 3 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2, out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2)
      else
        (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2, out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2)

theorem outsAt1_A (c : Dev nD) (t : Fin cfg1.N) (h0 : t.val % 4 = 0) (h1 : ¬t.val % 4 = 3) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2, out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before linear point `n`: at the start what the launch hands over; afterwards the
    accumulator at what the point before left, the other scoped buffers unopened, the generator register. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2) ∗ Rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ Rest1 c) ∗ (∃ r, prngReg c r)) := by
  cases n with
  | zero => exact absurd rfl hz
  | succ n => rfl

/-! ## The pipeline's proof data -/

/-- The arrays as the region finds them; after the body at a point each input's buffer at its block, the outputs'
    at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 16000000 in
/-- The body at any point: the inputs' buffers hold their blocks; the closed forms say which case the point is in; the
    invariant hands over the accumulator at what the point before left (at anything at the very first point) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [show (dat1 V c).leavesExact 8 t = owns (c : Thread nD τ) (ms1_8 t) fullShare ((dat1 V c).after 8 t) from by
        unfold Dat.leavesExact; rw [liveAt1_8_C t (fun h => h0 ((hcond1_0 t).mp h)) ((hcond1_1 t).mpr h1)], after1_8]
      rw [outsAt1_C V c t h0 h1]
      unfold out1_C_7 out1_C_8 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover1_C_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover1_C_8 c _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [Dat.leavesExact_idle (dat1 V c) 8 t (idleAt1_8_B t (fun h => h0 ((hcond1_0 t).mp h)) (fun h => h1 ((hcond1_1 t).mp h))) (noFlush1_8_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  iintro ⟨⟨HS0, HR⟩, Hg⟩
  isplitl [HS0 HR]
  · isplitl [HS0]; · iexists _; iexact HS0
    iexact HR
  iexact Hg

end Cert.KernelIdeal.Fr

end
-- ==== Proof.Runs2.lean ====
/-
  Region 2 (one layer's fused kernel on its 8 × 4 grid), the part every case of its body shares.

  A grid point is (m, k): m picks a band of 1280 output rows, k one of four slices of 2560 columns of the
  adjacency band. The body has two conditionals on k alone: at k = 0 it clears the accumulator, at k = 3 it
  adds the own rows, runs the perceptron and stores both outputs; in between it only accumulates. So the grid's
  points fall in three cases: k = 0, k ∈ {1, 2}, k = 3. Stated here, at any contents `V` of the core's buffers at
  the region's entry: each window's block at a point, that every input window's buffer holds its block at every
  point (fetched there or kept from an earlier point with the same block index), the two conditions in closed
  form over the linear point number, where the two output windows are idle (no store, no write-back: k ≠ 3) and
  where live (k = 3), and the memrefs the body is called with.
-/
import proofs.«410393_j66864050864374_3_alg».proof.Proof.Gen.KernelIdeal.Launch
import proofs.«410393_j66864050864374_3_alg».proof.Proof.Gen.KernelIdeal.Skeleton
import proofs.«410393_j66864050864374_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- "k = 0": the accumulator is cleared. -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- "k = 3": the epilogue runs. -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Output 7 is stored only when k = 3: idle, and not written back, at the other points. -/
theorem idleAt2_7_A : ∀ t : Fin cfg2.N, cond2_0 (grid2.coords t) → ¬cond2_1 (grid2.coords t) → cfg2.idle 7 (grid2.coords t) = true := by decide +kernel
theorem noFlush2_7_A : ∀ t : Fin cfg2.N, cond2_0 (grid2.coords t) → ¬cond2_1 (grid2.coords t) → (cfg2.win 7).flush t = false := by decide +kernel
theorem idleAt2_7_B : ∀ t : Fin cfg2.N, ¬cond2_0 (grid2.coords t) → ¬cond2_1 (grid2.coords t) → cfg2.idle 7 (grid2.coords t) = true := by decide +kernel
theorem noFlush2_7_B : ∀ t : Fin cfg2.N, ¬cond2_0 (grid2.coords t) → ¬cond2_1 (grid2.coords t) → (cfg2.win 7).flush t = false := by decide +kernel
theorem liveAt2_7_C : ∀ t : Fin cfg2.N, ¬cond2_0 (grid2.coords t) → cond2_1 (grid2.coords t) → cfg2.idle 7 (grid2.coords t) = false := by decide +kernel
/-- Output 8 is stored only when k = 3: idle, and not written back, at the other points. -/
theorem idleAt2_8_A : ∀ t : Fin cfg2.N, cond2_0 (grid2.coords t) → ¬cond2_1 (grid2.coords t) → cfg2.idle 8 (grid2.coords t) = true := by decide +kernel
theorem noFlush2_8_A : ∀ t : Fin cfg2.N, cond2_0 (grid2.coords t) → ¬cond2_1 (grid2.coords t) → (cfg2.win 8).flush t = false := by decide +kernel
theorem idleAt2_8_B : ∀ t : Fin cfg2.N, ¬cond2_0 (grid2.coords t) → ¬cond2_1 (grid2.coords t) → cfg2.idle 8 (grid2.coords t) = true := by decide +kernel
theorem noFlush2_8_B : ∀ t : Fin cfg2.N, ¬cond2_0 (grid2.coords t) → ¬cond2_1 (grid2.coords t) → (cfg2.win 8).flush t = false := by decide +kernel
theorem liveAt2_8_C : ∀ t : Fin cfg2.N, ¬cond2_0 (grid2.coords t) → cond2_1 (grid2.coords t) → cfg2.idle 8 (grid2.coords t) = false := by decide +kernel

/-! ## The memrefs the body is called with -/

/-- One buffer of each output window, through which its contents are stated. -/
abbrev VO2_7 : View sig .tc .vmem S1280x256 .f32 := (Memref.whole cc2_stg7_0 : Memref sig .tc .vmem S1280x256 .f32).view
abbrev VO2_8 : View sig .tc .vmem S1280x256 .bf16 := (Memref.whole cc2_stg8_0 : Memref sig .tc .vmem S1280x256 .bf16).view
abbrev ms2_0 (t : Fin cfg2.N) : Memref sig .tc .vmem S1280x2560 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10240x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1280x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x256 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256x256 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1280x256 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1280x256 .bf16 := win2_8.stage (cfg2.slots t 8)
abbrev hs2_8 (t : Fin cfg2.N) : (ms2_8 t).IsWhole := hstage2_8 ((cfg2.slots t 8).cast nbuf2_8)
/-- The accumulator: a whole buffer of the kernel's own, carried from point to point. -/
abbrev scM2_0 : Memref sig .tc .vmem S1280x256 .f32 := Memref.whole cc2_scratch0
abbrev VS2_0 : View sig .tc .vmem S1280x256 .f32 := scM2_0.view

/-- The core's other scoped buffers (the other two regions' staging buffers and accumulators), which this region
    never opens. -/
abbrev Rest2 (c : Dev nD) : sProp 𝕄 :=
  Pipeline.scopedRestBut (Ix := Unit) (Name := ℕ) (U := UR sig nD τ) (Lvl := ℕ) (Val := Elt F) spec2 c [cc2_scratch0]

/-- What the launch hands the body beside the windows: the accumulator at some contents, the other scoped
    buffers unopened, the generator register. -/
theorem PhiA2_eq (c : Dev nD) :
    (Pipeline.ΦA spec2 c : sProp 𝕄)
      = iprop(iprop((∃ d, owns (c : Thread nD τ) scM2_0 fullShare d) ∗ Rest2 c) ∗ (∃ r, prngReg c r)) := by
  unfold Pipeline.ΦA; rw [scopedRest2_split]; simp only [scM2_0, owns_whole]; try rfl

end Cert.KernelIdeal.Fr

end
-- ==== Proof.Run2A.lean ====
/-
  Region 2's body run once in the case k = 0: the accumulator is cleared, then the band's first slice is added; the outputs are not touched.
  The run is symbolic: on whole memrefs holding the input blocks (and, past the first slice, the accumulator's
  contents) the body ends holding the inputs as they were and each buffer it stored into with its stores written,
  as a list of pieces the run itself finds.
-/
import proofs.«410393_j66864050864374_3_alg».proof.Proof.Runs2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave, with the body's triple at those pieces. -/
noncomputable def kernelRun2_A (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) :
    Σ' (L7 : List (View.Piece (Elt F) S1280x256 .f32)) (L8 : List (View.Piece (Elt F) S1280x256 .bf16)), { LS0 : List (View.Piece (Elt F) S1280x256 .f32) //
      ∀ (xi7 : Vec F S1280x256 .f32) (xi8 : Vec F S1280x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc2__gin_fused_kernel i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc2__gin_fused_kernel_eq_skeleton]; unfold cc2__gin_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Fr

end
-- ==== Proof.Run2B.lean ====
/-
  Region 2's body run once in the case k = 1, 2: one more slice is added to the accumulator; the outputs are not touched.
  The run is symbolic: on whole memrefs holding the input blocks (and, past the first slice, the accumulator's
  contents) the body ends holding the inputs as they were and each buffer it stored into with its stores written,
  as a list of pieces the run itself finds.
-/
import proofs.«410393_j66864050864374_3_alg».proof.Proof.Runs2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave, with the body's triple at those pieces. -/
noncomputable def kernelRun2_B (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) :
    Σ' (L7 : List (View.Piece (Elt F) S1280x256 .f32)) (L8 : List (View.Piece (Elt F) S1280x256 .bf16)), { LS0 : List (View.Piece (Elt F) S1280x256 .f32) //
      ∀ (xi7 : Vec F S1280x256 .f32) (xi8 : Vec F S1280x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc2__gin_fused_kernel i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc2__gin_fused_kernel_eq_skeleton]; unfold cc2__gin_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Fr

end
-- ==== Proof.Run2C.lean ====
/-
  Region 2's body run once in the case k = 3: the last slice is added, then the own rows, the perceptron, and both outputs are stored whole.
  The run is symbolic: on whole memrefs holding the input blocks (and, past the first slice, the accumulator's
  contents) the body ends holding the inputs as they were and each buffer it stored into with its stores written,
  as a list of pieces the run itself finds.
-/
import proofs.«410393_j66864050864374_3_alg».proof.Proof.Runs2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave, with the body's triple at those pieces. -/
noncomputable def kernelRun2_C (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) :
    Σ' (L7 : List (View.Piece (Elt F) S1280x256 .f32)) (L8 : List (View.Piece (Elt F) S1280x256 .bf16)), { LS0 : List (View.Piece (Elt F) S1280x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc2__gin_fused_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc2__gin_fused_kernel_eq_skeleton]; unfold cc2__gin_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.KernelIdeal.Fr

end
-- ==== Proof.Frame2.lean ====
/-
  Region 2: what its buffers hold point by point, the proof data of its pipeline, and the body obligation.

  The accumulator is a scratch buffer the kernel carries from point to point: cleared and given the first slice's
  product at k = 0, one more slice's product added at k = 1, 2, 3; the two output blocks are stored whole at k = 3
  from the accumulator, the own rows and the perceptron's weights, and are neither stored nor written back at the
  other points. `outsAt2` says what the two output buffers and the accumulator hold after the body at linear
  point n, by recursion on n through the three cases; the region's invariant carries the accumulator at
  `outsAt2`'s third component from one point to the next, beside the core's other scoped buffers, unopened.
-/
import proofs.«410393_j66864050864374_3_alg».proof.Proof.Run2A
import proofs.«410393_j66864050864374_3_alg».proof.Proof.Run2B
import proofs.«410393_j66864050864374_3_alg».proof.Proof.Run2C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into the outputs: placeholders nothing consults (the windows are idle there). -/
def out2_A_7 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) : Vec F S1280x256 .f32 :=
  VO2_7.read (Elt F) (VO2_7.writes (Elt F) VO2_7.junk (kernelRun2_A c i arg2 harg2 arg3 harg3 arg4 harg4 arg5 harg5 arg6 harg6 arg7 harg7 arg8 harg8 arg9 harg9 arg10 harg10 arg11 harg11 hc0 hc1 x0 x1 x2 x3 x4 x5 x6).1)
def out2_A_8 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) : Vec F S1280x256 .bf16 :=
  VO2_8.read (Elt F) (VO2_8.writes (Elt F) VO2_8.junk (kernelRun2_A c i arg2 harg2 arg3 harg3 arg4 harg4 arg5 harg5 arg6 harg6 arg7 harg7 arg8 harg8 arg9 harg9 arg10 harg10 arg11 harg11 hc0 hc1 x0 x1 x2 x3 x4 x5 x6).2.1)

/-- Case A's stores into the accumulator tile it. -/
theorem scover2_A_0 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (y : S1280x256.Idx) :
    ∃ pc ∈ (kernelRun2_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun2_A c i arg2 harg2 arg3 harg3 arg4 harg4 arg5 harg5 arg6 harg6 arg7 harg7 arg8 harg8 arg9 harg9 arg10 harg10 arg11 harg11 hc0 hc1 x0 x1 x2 x3 x4 x5 x6).2.2.1 S1280x256.size (by sl_kernel_rfl) y
/-- What case A leaves in the accumulator. -/
def sout2_A_0 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) : Vec F S1280x256 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 hc0 hc1 x0 x1 x2 x3 x4 x5 x6).2.2.1)

/-- Case B stores nothing into the outputs: placeholders nothing consults (the windows are idle there). -/
def out2_B_7 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .f32 :=
  VO2_7.read (Elt F) (VO2_7.writes (Elt F) VO2_7.junk (kernelRun2_B c i arg2 harg2 arg3 harg3 arg4 harg4 arg5 harg5 arg6 harg6 arg7 harg7 arg8 harg8 arg9 harg9 arg10 harg10 arg11 harg11 hc0 hc1 x0 x1 x2 x3 x4 x5 x6 xs0).1)
def out2_B_8 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .bf16 :=
  VO2_8.read (Elt F) (VO2_8.writes (Elt F) VO2_8.junk (kernelRun2_B c i arg2 harg2 arg3 harg3 arg4 harg4 arg5 harg5 arg6 harg6 arg7 harg7 arg8 harg8 arg9 harg9 arg10 harg10 arg11 harg11 hc0 hc1 x0 x1 x2 x3 x4 x5 x6 xs0).2.1)

/-- Case B's stores into the accumulator tile it. -/
theorem scover2_B_0 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) (y : S1280x256.Idx) :
    ∃ pc ∈ (kernelRun2_B c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun2_B c i arg2 harg2 arg3 harg3 arg4 harg4 arg5 harg5 arg6 harg6 arg7 harg7 arg8 harg8 arg9 harg9 arg10 harg10 arg11 harg11 hc0 hc1 x0 x1 x2 x3 x4 x5 x6 xs0).2.2.1 S1280x256.size (by sl_kernel_rfl) y
/-- What case B leaves in the accumulator. -/
def sout2_B_0 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : ¬cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 hc0 hc1 x0 x1 x2 x3 x4 x5 x6 xs0).2.2.1)

/-- Case C's stores tile output 7's block. -/
theorem cover2_C_7 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) (y : S1280x256.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 x4 x5 x6 xs0).1 S1280x256.size (by sl_kernel_rfl) y
/-- What case C leaves in output 7's buffer. -/
def out2_C_7 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .f32 :=
  VO2_7.read (Elt F) (VO2_7.writes (Elt F) VO2_7.junk (kernelRun2_C c i arg2 harg2 arg3 harg3 arg4 harg4 arg5 harg5 arg6 harg6 arg7 harg7 arg8 harg8 arg9 harg9 arg10 harg10 arg11 harg11 hc0 hc1 x0 x1 x2 x3 x4 x5 x6 xs0).1)
/-- Case C's stores tile output 8's block. -/
theorem cover2_C_8 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) (y : S1280x256.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 x4 x5 x6 xs0).2.1 S1280x256.size (by sl_kernel_rfl) y
/-- What case C leaves in output 8's buffer. -/
def out2_C_8 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .bf16 :=
  VO2_8.read (Elt F) (VO2_8.writes (Elt F) VO2_8.junk (kernelRun2_C c i arg2 harg2 arg3 harg3 arg4 harg4 arg5 harg5 arg6 harg6 arg7 harg7 arg8 harg8 arg9 harg9 arg10 harg10 arg11 harg11 hc0 hc1 x0 x1 x2 x3 x4 x5 x6 xs0).2.1)

/-- Case C's stores into the accumulator tile it. -/
theorem scover2_C_0 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) (y : S1280x256.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 x4 x5 x6 xs0).2.2.1 S1280x256.size (by sl_kernel_rfl) y
/-- What case C leaves in the accumulator. -/
def sout2_C_0 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : cond2_1 i)
    (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) : Vec F S1280x256 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 hc0 hc1 x0 x1 x2 x3 x4 x5 x6 xs0).2.2.1)

/-! ## What the buffers hold after each point -/

/-- After the body at linear point `n`: output 7's buffer, output 8's buffer, the accumulator. -/
def outsAt2 (c : Dev nD) : (n : ℕ) → n < cfg2.N → Vec F S1280x256 .f32 × Vec F S1280x256 .bf16 × Vec F S1280x256 .f32
  | 0, hn => (out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 4 = 0 then
      if h1 : (n + 1) % 4 = 3 then
        False.elim (by omega)
      else
        (out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      if h1 : (n + 1) % 4 = 3 then
        (out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2, out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2)
      else
        (out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2, out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2)

theorem outsAt2_A (c : Dev nD) (t : Fin cfg2.N) (h0 : t.val % 4 = 0) (h1 : ¬t.val % 4 = 3) :
    outsAt2 V c t.val t.isLt = (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2, out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2, out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before linear point `n`: at the start what the launch hands over; afterwards the
    accumulator at what the point before left, the other scoped buffers unopened, the generator register. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2) ∗ Rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2.2) ∗ Rest2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2) ∗ Rest2 c) ∗ (∃ r, prngReg c r)) := by
  cases n with
  | zero => exact absurd rfl hz
  | succ n => rfl

/-! ## The pipeline's proof data -/

/-- The arrays as the region finds them; after the body at a point each input's buffer at its block, the outputs'
    at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
    | ⟨8, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
theorem after2_8 (c : Dev nD) (t : Fin cfg2.N) : (dat2 V c).after 8 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 16000000 in
/-- The body at any point: the inputs' buffers hold their blocks; the closed forms say which case the point is in; the
    invariant hands over the accumulator at what the point before left (at anything at the very first point) and
    takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [Dat.leavesExact_idle (dat2 V c) 7 t (idleAt2_7_A t ((hcond2_0 t).mpr h0) (fun h => h1 ((hcond2_1 t).mp h))) (noFlush2_7_A t ((hcond2_0 t).mpr h0) (fun h => h1 ((hcond2_1 t).mp h)))]
      rw [Dat.leavesExact_idle (dat2 V c) 8 t (idleAt2_8_A t ((hcond2_0 t).mpr h0) (fun h => h1 ((hcond2_1 t).mp h))) (noFlush2_8_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7_C t (fun h => h0 ((hcond2_0 t).mp h)) ((hcond2_1 t).mpr h1)], after2_7]
      rw [show (dat2 V c).leavesExact 8 t = owns (c : Thread nD τ) (ms2_8 t) fullShare ((dat2 V c).after 8 t) from by
        unfold Dat.leavesExact; rw [liveAt2_8_C t (fun h => h0 ((hcond2_0 t).mp h)) ((hcond2_1 t).mpr h1)], after2_8]
      rw [outsAt2_C V c t h0 h1]
      unfold out2_C_7 out2_C_8 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover2_C_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover2_C_8 c _ _ _ _ _ _ _ _ _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [Dat.leavesExact_idle (dat2 V c) 7 t (idleAt2_7_B t (fun h => h0 ((hcond2_0 t).mp h)) (fun h => h1 ((hcond2_1 t).mp h))) (noFlush2_7_B t (fun h => h0 ((hcond2_0 t).mp h)) (fun h => h1 ((hcond2_1 t).mp h)))]
      rw [Dat.leavesExact_idle (dat2 V c) 8 t (idleAt2_8_B t (fun h => h0 ((hcond2_0 t).mp h)) (fun h => h1 ((hcond2_1 t).mp h))) (noFlush2_8_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the launch's back: the accumulator's contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 32 := N_2; omega
  rw [show (dat2 V c).Φ (Fin.last cfg2.N) = PhiS2 V c (Fin.last cfg2.N).val (Nat.le_of_lt_succ (Fin.last cfg2.N).isLt) from rfl, PhiS2_pos V c _ _ hne, PhiA2_eq]
  iintro ⟨⟨HS0, HR⟩, Hg⟩
  isplitl [HS0 HR]
  · isplitl [HS0]; · iexists _; iexact HS0
    iexact HR
  iexact Hg

end Cert.KernelIdeal.Fr

end
-- ==== Proof.Segs.lean ====
/-
  The program's three kernel regions as segments of @main.

  Between two items of @main a core holds every unscoped buffer at named contents: the launch memory, then each host
  stretch applied, then, after a region, the region's output arrays at what its pipeline's write-backs leave and
  every other buffer untouched. The contents a region leaves feed the next region's proof data, so they are named
  in order: region 0's exit contents from the launch memory, region 1's from those, region 2's from those.
-/
import proofs.«410393_j66864050864374_3_alg».proof.Proof.Frame0
import proofs.«410393_j66864050864374_3_alg».proof.Proof.Frame1
import proofs.«410393_j66864050864374_3_alg».proof.Proof.Frame2
import proofs.«410393_j66864050864374_3_alg».proof.Proof.Gen.KernelIdeal.Regions
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between the items -/

/-- Region 0's entry contents, read at a TensorCore reference. -/
def U1 (c : Dev nD) (b : Ref sig .tc) : Buf (Elt F) ((c : Thread nD τ).loc b) := Gen.V1 m c b
theorem U1_eq (c : Dev nD) : U1 m c = (fun b : Ref sig .tc => Gen.V1 m c b) := rfl
/-- Region 0's exit contents: its arrays at what the pipeline leaves, every other buffer as entered. -/
def X2 (c : Dev nD) : Valuation τ sig (Elt F) :=
  Pipeline.withArrays spec0 c (Gen.V1 m c) fun w => (dat0 (U1 m) c).arrAt w cfg0.N
/-- What the regions leave, as far as region 0. -/
def o2 : Gen.Outs (F := F) := fun _ r c => X2 m c r
/-- Region 1's entry contents. -/
def U3 (c : Dev nD) (b : Ref sig .tc) : Buf (Elt F) ((c : Thread nD τ).loc b) := Gen.V3 m (o2 m) c b
theorem U3_eq (c : Dev nD) : U3 m c = (fun b : Ref sig .tc => Gen.V3 m (o2 m) c b) := rfl
def X4 (c : Dev nD) : Valuation τ sig (Elt F) :=
  Pipeline.withArrays spec1 c (Gen.V3 m (o2 m) c) fun w => (dat1 (U3 m) c).arrAt w cfg1.N
/-- What the regions leave, as far as region 1. -/
def o4 : Gen.Outs (F := F) := fun j r c => if j = 2 then X2 m c r else X4 m c r
/-- Region 2's entry contents. -/
def U5 (c : Dev nD) (b : Ref sig .tc) : Buf (Elt F) ((c : Thread nD τ).loc b) := Gen.V5 m (o4 m) c b
theorem U5_eq (c : Dev nD) : U5 m c = (fun b : Ref sig .tc => Gen.V5 m (o4 m) c b) := rfl
def X6 (c : Dev nD) : Valuation τ sig (Elt F) :=
  Pipeline.withArrays spec2 c (Gen.V5 m (o4 m) c) fun w => (dat2 (U5 m) c).arrAt w cfg2.N
/-- What the three regions leave. -/
def o6 : Gen.Outs (F := F) := fun j r c => if j = 2 then X2 m c r else if j = 4 then X4 m c r else X6 m c r

/-- Later regions do not change what earlier ones are entered from. -/
theorem V3_o4 (c : Dev nD) : Gen.V3 m (o4 m) c = Gen.V3 m (o2 m) c := rfl
theorem V3_o6 (c : Dev nD) : Gen.V3 m (o6 m) c = Gen.V3 m (o2 m) c := rfl
theorem V2_o6 (c : Dev nD) : Gen.V2 m (o6 m) c = Gen.V2 m (o2 m) c := rfl
theorem V4_o6 (c : Dev nD) : Gen.V4 m (o6 m) c = Gen.V4 m (o4 m) c := rfl
theorem V5_o6 (c : Dev nD) : Gen.V5 m (o6 m) c = Gen.V5 m (o4 m) c := rfl

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (U1 m) c
  | ⟨1, _⟩ => fun c => dat1 (U3 m) c
  | ⟨2, _⟩ => fun c => dat2 (U5 m) c

/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

/-- The contents after region 0, as one opaque valuation. -/
def P2 (c : Dev nD) : Valuation τ sig (Elt F) := Gen.V2 m (o2 m) c
theorem P2_eq (c : Dev nD) : P2 m c = Gen.V2 m (o2 m) c := rfl

/-- Region 0's output arrays at its exit are what the write-backs leave. -/
theorem hF0_7 (c : Dev nD) : (dat0 (U1 m) c).arrAt 7 cfg0.N = P2 m c (Pipeline.arrRef spec0 7) := by
  refine ((Pipeline.withArrays_arr spec0 launch0.win.arr_inj c (Gen.V1 m c) (fun w => (dat0 (U1 m) c).arrAt w cfg0.N) 7).symm.trans ?_)
  show X2 m c (Proc.devRef .tc main_call0_v27_0) = Gen.V2 m (o2 m) c main_call0_v27_0
  simp only [Gen.V2]
  rw [Function.update_of_ne (StableHlo.devRef_ne_of_ne (by decide) : (Proc.devRef .tc main_call0_v27_0 : DevRef τ sig) ≠ Proc.devRef .tc main_call0_v27_1), Function.update_self]
  rfl
theorem hF0_8 (c : Dev nD) : (dat0 (U1 m) c).arrAt 8 cfg0.N = P2 m c (Pipeline.arrRef spec0 8) := by
  refine ((Pipeline.withArrays_arr spec0 launch0.win.arr_inj c (Gen.V1 m c) (fun w => (dat0 (U1 m) c).arrAt w cfg0.N) 8).symm.trans ?_)
  show X2 m c (Proc.devRef .tc main_call0_v27_1) = Gen.V2 m (o2 m) c main_call0_v27_1
  simp only [Gen.V2]
  rw [Function.update_self]
  rfl
/-- Input window 0's array leaves the region as it entered. -/
theorem hF0_0 (c : Dev nD) : (dat0 (U1 m) c).arrAt 0 cfg0.N = P2 m c (Pipeline.arrRef spec0 0) := by
  refine ((dat0 (U1 m) c).arrAt_in 0 rfl _).trans ((A_eq0 (U1 m) c 0).trans ?_)
  exact (Gen.V2_of m (o2 m) c (Pipeline.arrRef spec0 0) (by decide)).symm
/-- Input window 1's array leaves the region as it entered. -/
theorem hF0_1 (c : Dev nD) : (dat0 (U1 m) c).arrAt 1 cfg0.N = P2 m c (Pipeline.arrRef spec0 1) := by
  refine ((dat0 (U1 m) c).arrAt_in 1 rfl _).trans ((A_eq0 (U1 m) c 1).trans ?_)
  exact (Gen.V2_of m (o2 m) c (Pipeline.arrRef spec0 1) (by decide)).symm
/-- Input window 2's array leaves the region as it entered. -/
theorem hF0_2 (c : Dev nD) : (dat0 (U1 m) c).arrAt 2 cfg0.N = P2 m c (Pipeline.arrRef spec0 2) := by
  refine ((dat0 (U1 m) c).arrAt_in 2 rfl _).trans ((A_eq0 (U1 m) c 2).trans ?_)
  exact (Gen.V2_of m (o2 m) c (Pipeline.arrRef spec0 2) (by decide)).symm
/-- Input window 3's array leaves the region as it entered. -/
theorem hF0_3 (c : Dev nD) : (dat0 (U1 m) c).arrAt 3 cfg0.N = P2 m c (Pipeline.arrRef spec0 3) := by
  refine ((dat0 (U1 m) c).arrAt_in 3 rfl _).trans ((A_eq0 (U1 m) c 3).trans ?_)
  exact (Gen.V2_of m (o2 m) c (Pipeline.arrRef spec0 3) (by decide)).symm
/-- Input window 4's array leaves the region as it entered. -/
theorem hF0_4 (c : Dev nD) : (dat0 (U1 m) c).arrAt 4 cfg0.N = P2 m c (Pipeline.arrRef spec0 4) := by
  refine ((dat0 (U1 m) c).arrAt_in 4 rfl _).trans ((A_eq0 (U1 m) c 4).trans ?_)
  exact (Gen.V2_of m (o2 m) c (Pipeline.arrRef spec0 4) (by decide)).symm
/-- Input window 5's array leaves the region as it entered. -/
theorem hF0_5 (c : Dev nD) : (dat0 (U1 m) c).arrAt 5 cfg0.N = P2 m c (Pipeline.arrRef spec0 5) := by
  refine ((dat0 (U1 m) c).arrAt_in 5 rfl _).trans ((A_eq0 (U1 m) c 5).trans ?_)
  exact (Gen.V2_of m (o2 m) c (Pipeline.arrRef spec0 5) (by decide)).symm
/-- Input window 6's array leaves the region as it entered. -/
theorem hF0_6 (c : Dev nD) : (dat0 (U1 m) c).arrAt 6 cfg0.N = P2 m c (Pipeline.arrRef spec0 6) := by
  refine ((dat0 (U1 m) c).arrAt_in 6 rfl _).trans ((A_eq0 (U1 m) c 6).trans ?_)
  exact (Gen.V2_of m (o2 m) c (Pipeline.arrRef spec0 6) (by decide)).symm

/-- Region 0's arrays at its exit are what the valuation after it names. -/
theorem hF0 (c : Dev nD) : ∀ w : Fin cfg0.W, (dat0 (U1 m) c).arrAt w cfg0.N = P2 m c (Pipeline.arrRef spec0 w)
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
  | ⟨6, _⟩ => hF0_6 m c
  | ⟨7, _⟩ => hF0_7 m c
  | ⟨8, _⟩ => hF0_8 m c

/-- Off the region's arrays nothing changes. -/
theorem hrest0 (c : Dev nD) : ∀ b, b ∉ Finset.univ.image (Pipeline.arrRef spec0) → P2 m c b = U1 m c b := fun b hb =>
  Gen.V2_of m (o2 m) c b (fun hm => hb (by
    simp only [List.mem_cons, List.mem_nil_iff, or_false] at hm
    rcases hm with rfl | rfl
    · exact Finset.mem_image.mpr ⟨7, Finset.mem_univ _, rfl⟩
    · exact Finset.mem_image.mpr ⟨8, Finset.mem_univ _, rfl⟩))

set_option backward.isDefEq.respectTransparency.types false in
/-- Region 0 as a segment: entered with every unscoped buffer at the contents before it, left with the region's
    arrays at what its write-backs leave and every other buffer untouched; the generator register goes into the
    region's invariant and comes back; nothing is owed; the kernel has no semaphore of its own. -/
def reg0 : RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (P2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U1 m c) fun _ => rfl
    rw [U1_eq m c, Pipeline.unscopedBufs_held] at hsplit
    rw [← U1_eq m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (U1 m) c)
    unfold Pipeline.ΦA
    iintro ⟨Hp, -, Hr⟩
    isplitl [Hr]; · iexact Hr
    iexact Hp
  hout c := by
    rw [Pipeline.ownSems0_none]
    refine (hout0 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U1 m c) (fun b => P2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The contents after region 1, as one opaque valuation. -/
def P4 (c : Dev nD) : Valuation τ sig (Elt F) := Gen.V4 m (o4 m) c
theorem P4_eq (c : Dev nD) : P4 m c = Gen.V4 m (o4 m) c := rfl

/-- Region 1's output arrays at its exit are what the write-backs leave. -/
theorem hF1_7 (c : Dev nD) : (dat1 (U3 m) c).arrAt 7 cfg1.N = P4 m c (Pipeline.arrRef spec1 7) := by
  refine ((Pipeline.withArrays_arr spec1 launch1.win.arr_inj c (Gen.V3 m (o2 m) c) (fun w => (dat1 (U3 m) c).arrAt w cfg1.N) 7).symm.trans ?_)
  show X4 m c (Proc.devRef .tc main_call0_v32_0) = Gen.V4 m (o4 m) c main_call0_v32_0
  simp only [Gen.V4]
  rw [Function.update_of_ne (StableHlo.devRef_ne_of_ne (by decide) : (Proc.devRef .tc main_call0_v32_0 : DevRef τ sig) ≠ Proc.devRef .tc main_call0_v32_1), Function.update_self]
  rfl
theorem hF1_8 (c : Dev nD) : (dat1 (U3 m) c).arrAt 8 cfg1.N = P4 m c (Pipeline.arrRef spec1 8) := by
  refine ((Pipeline.withArrays_arr spec1 launch1.win.arr_inj c (Gen.V3 m (o2 m) c) (fun w => (dat1 (U3 m) c).arrAt w cfg1.N) 8).symm.trans ?_)
  show X4 m c (Proc.devRef .tc main_call0_v32_1) = Gen.V4 m (o4 m) c main_call0_v32_1
  simp only [Gen.V4]
  rw [Function.update_self]
  rfl
/-- Input window 0's array leaves the region as it entered. -/
theorem hF1_0 (c : Dev nD) : (dat1 (U3 m) c).arrAt 0 cfg1.N = P4 m c (Pipeline.arrRef spec1 0) := by
  refine ((dat1 (U3 m) c).arrAt_in 0 rfl _).trans ((A_eq1 (U3 m) c 0).trans ?_)
  exact (Gen.V4_of m (o4 m) c (Pipeline.arrRef spec1 0) (by decide)).symm
/-- Input window 1's array leaves the region as it entered. -/
theorem hF1_1 (c : Dev nD) : (dat1 (U3 m) c).arrAt 1 cfg1.N = P4 m c (Pipeline.arrRef spec1 1) := by
  refine ((dat1 (U3 m) c).arrAt_in 1 rfl _).trans ((A_eq1 (U3 m) c 1).trans ?_)
  exact (Gen.V4_of m (o4 m) c (Pipeline.arrRef spec1 1) (by decide)).symm
/-- Input window 2's array leaves the region as it entered. -/
theorem hF1_2 (c : Dev nD) : (dat1 (U3 m) c).arrAt 2 cfg1.N = P4 m c (Pipeline.arrRef spec1 2) := by
  refine ((dat1 (U3 m) c).arrAt_in 2 rfl _).trans ((A_eq1 (U3 m) c 2).trans ?_)
  exact (Gen.V4_of m (o4 m) c (Pipeline.arrRef spec1 2) (by decide)).symm
/-- Input window 3's array leaves the region as it entered. -/
theorem hF1_3 (c : Dev nD) : (dat1 (U3 m) c).arrAt 3 cfg1.N = P4 m c (Pipeline.arrRef spec1 3) := by
  refine ((dat1 (U3 m) c).arrAt_in 3 rfl _).trans ((A_eq1 (U3 m) c 3).trans ?_)
  exact (Gen.V4_of m (o4 m) c (Pipeline.arrRef spec1 3) (by decide)).symm
/-- Input window 4's array leaves the region as it entered. -/
theorem hF1_4 (c : Dev nD) : (dat1 (U3 m) c).arrAt 4 cfg1.N = P4 m c (Pipeline.arrRef spec1 4) := by
  refine ((dat1 (U3 m) c).arrAt_in 4 rfl _).trans ((A_eq1 (U3 m) c 4).trans ?_)
  exact (Gen.V4_of m (o4 m) c (Pipeline.arrRef spec1 4) (by decide)).symm
/-- Input window 5's array leaves the region as it entered. -/
theorem hF1_5 (c : Dev nD) : (dat1 (U3 m) c).arrAt 5 cfg1.N = P4 m c (Pipeline.arrRef spec1 5) := by
  refine ((dat1 (U3 m) c).arrAt_in 5 rfl _).trans ((A_eq1 (U3 m) c 5).trans ?_)
  exact (Gen.V4_of m (o4 m) c (Pipeline.arrRef spec1 5) (by decide)).symm
/-- Input window 6's array leaves the region as it entered. -/
theorem hF1_6 (c : Dev nD) : (dat1 (U3 m) c).arrAt 6 cfg1.N = P4 m c (Pipeline.arrRef spec1 6) := by
  refine ((dat1 (U3 m) c).arrAt_in 6 rfl _).trans ((A_eq1 (U3 m) c 6).trans ?_)
  exact (Gen.V4_of m (o4 m) c (Pipeline.arrRef spec1 6) (by decide)).symm

/-- Region 1's arrays at its exit are what the valuation after it names. -/
theorem hF1 (c : Dev nD) : ∀ w : Fin cfg1.W, (dat1 (U3 m) c).arrAt w cfg1.N = P4 m c (Pipeline.arrRef spec1 w)
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
  | ⟨7, _⟩ => hF1_7 m c
  | ⟨8, _⟩ => hF1_8 m c

/-- Off the region's arrays nothing changes. -/
theorem hrest1 (c : Dev nD) : ∀ b, b ∉ Finset.univ.image (Pipeline.arrRef spec1) → P4 m c b = U3 m c b := fun b hb =>
  Gen.V4_of m (o4 m) c b (fun hm => hb (by
    simp only [List.mem_cons, List.mem_nil_iff, or_false] at hm
    rcases hm with rfl | rfl
    · exact Finset.mem_image.mpr ⟨7, Finset.mem_univ _, rfl⟩
    · exact Finset.mem_image.mpr ⟨8, Finset.mem_univ _, rfl⟩))

set_option backward.isDefEq.respectTransparency.types false in
/-- Region 1 as a segment: entered with every unscoped buffer at the contents before it, left with the region's
    arrays at what its write-backs leave and every other buffer untouched; the generator register goes into the
    region's invariant and comes back; nothing is owed; the kernel has no semaphore of its own. -/
def reg1 : RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (Gen.V3 m (o2 m) c) ∗ R c)
  post c := iprop(StableHlo.held (c : Thread nD τ) (Pipeline.ucRefs τ sig) (P4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (U3 m c) fun _ => rfl
    rw [U3_eq m c, Pipeline.unscopedBufs_held] at hsplit
    rw [← U3_eq m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (U3 m) c)
    unfold Pipeline.ΦA
    iintro ⟨Hp, -, Hr⟩
    isplitl [Hr]; · iexact Hr
    iexact Hp
  hout c := by
    rw [Pipeline.ownSems0_none]
    refine (hout1 (U3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U3 m c) (fun b => P4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The contents after region 2, as one opaque valuation. -/
def P6 (c : Dev nD) : Valuation τ sig (Elt F) := Gen.V6 m (o6 m) c
theorem P6_eq (c : Dev nD) : P6 m c = Gen.V6 m (o6 m) c := rfl

/-- Region 2's output arrays at its exit are what the write-backs leave. -/
theorem hF2_7 (c : Dev nD) : (dat2 (U5 m) c).arrAt 7 cfg2.N = P6 m c (Pipeline.arrRef spec2 7) := by
  refine ((Pipeline.withArrays_arr spec2 launch2.win.arr_inj c (Gen.V5 m (o4 m) c) (fun w => (dat2 (U5 m) c).arrAt w cfg2.N) 7).symm.trans ?_)
  show X6 m c (Proc.devRef .tc main_call0_v37_0) = Gen.V6 m (o6 m) c main_call0_v37_0
  simp only [Gen.V6]
  rw [Function.update_of_ne (StableHlo.devRef_ne_of_ne (by decide) : (Proc.devRef .tc main_call0_v37_0 : DevRef τ sig) ≠ Proc.devRef .tc main_call0_v37_1), Function.update_self]
  rfl
theorem hF2_8 (c : Dev nD) : (dat2 (U5 m) c).arrAt 8 cfg2.N = P6 m c (Pipeline.arrRef spec2 8) := by
  refine ((Pipeline.withArrays_arr spec2 launch2.win.arr_inj c (Gen.V5 m (o4 m) c) (fun w => (dat2 (U5 m) c).arrAt w cfg2.N) 8).symm.trans ?_)
  show X6 m c (Proc.devRef .tc main_call0_v37_1) = Gen.V6 m (o6 m) c main_call0_v37_1
  simp only [Gen.V6]
  rw [Function.update_self]
  rfl
/-- Input window 0's array leaves the region as it entered. -/
theorem hF2_0 (c : Dev nD) : (dat2 (U5 m) c).arrAt 0 cfg2.N = P6 m c (Pipeline.arrRef spec2 0) := by
  refine ((dat2 (U5 m) c).arrAt_in 0 rfl _).trans ((A_eq2 (U5 m) c 0).trans ?_)
  exact (Gen.V6_of m (o6 m) c (Pipeline.arrRef spec2 0) (by decide)).symm
/-- Input window 1's array leaves the region as it entered. -/
theorem hF2_1 (c : Dev nD) : (dat2 (U5 m) c).arrAt 1 cfg2.N = P6 m c (Pipeline.arrRef spec2 1) := by
  refine ((dat2 (U5 m) c).arrAt_in 1 rfl _).trans ((A_eq2 (U5 m) c 1).trans ?_)
  exact (Gen.V6_of m (o6 m) c (Pipeline.arrRef spec2 1) (by decide)).symm
/-- Input window 2's array leaves the region as it entered. -/
theorem hF2_2 (c : Dev nD) : (dat2 (U5 m) c).arrAt 2 cfg2.N = P6 m c (Pipeline.arrRef spec2 2) := by
  refine ((dat2 (U5 m) c).arrAt_in 2 rfl _).trans ((A_eq2 (U5 m) c 2).trans ?_)
  exact (Gen.V6_of m (o6 m) c (Pipeline.arrRef spec2 2) (by decide)).symm
/-- Input window 3's array leaves the region as it entered. -/
theorem hF2_3 (c : Dev nD) : (dat2 (U5 m) c).arrAt 3 cfg2.N = P6 m c (Pipeline.arrRef spec2 3) := by
  refine ((dat2 (U5 m) c).arrAt_in 3 rfl _).trans ((A_eq2 (U5 m) c 3).trans ?_)
  exact (Gen.V6_of m (o6 m) c (Pipeline.arrRef spec2 3) (by decide)).symm
/-- Input window 4's array leaves the region as it entered. -/
theorem hF2_4 (c : Dev nD) : (dat2 (U5 m) c).arrAt 4 cfg2.N = P6 m c (Pipeline.arrRef spec2 4) := by
  refine ((dat2 (U5 m) c).arrAt_in 4 rfl _).trans ((A_eq2 (U5 m) c 4).trans ?_)
  exact (Gen.V6_of m (o6 m) c (Pipeline.arrRef spec2 4) (by decide)).symm
/-- Input window 5's array leaves the region as it entered. -/
theorem hF2_5 (c : Dev nD) : (dat2 (U5 m) c).arrAt 5 cfg2.N = P6 m c (Pipeline.arrRef spec2 5) := by
  refine ((dat2 (U5 m) c).arrAt_in 5 rfl _).trans ((A_eq2 (U5 m) c 5).trans ?_)
  exact (Gen.V6_of m (o6 m) c (Pipeline.arrRef spec2 5) (by decide)).symm
/-- Input window 6's array leaves the region as it entered. -/
theorem hF2_6 (c : Dev nD) : (dat2 (U5 m) c).arrAt 6 cfg2.N = P6 m c (Pipeline.arrRef spec2 6) := by
  refine ((dat2 (U5 m) c).arrAt_in 6 rfl _).trans ((A_eq2 (U5 m) c 6).trans ?_)
  exact (Gen.V6_of m (o6 m) c (Pipeline.arrRef spec2 6) (by decide)).symm

/-- Region 2's arrays at its exit are what the valuation after it names. -/
theorem hF2 (c : Dev nD) : ∀ w : Fin cfg2.W, (dat2 (U5 m) c).arrAt w cfg2.N = P6 m c (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
  | ⟨7, _⟩ => hF2_7 m c
  | ⟨8, _⟩ => hF2_8 m c

/-- Off the region's arrays nothing changes. -/
theorem hrest2 (c : Dev nD) : ∀ b, b ∉ Finset.univ.image (Pipeline.arrRef spec2) → P6 m c b = U5 m c b := fun b hb =>
  Gen.V6_of m (o6 m) c b (fun hm => hb (by
    simp only [List.mem_cons, List.mem_nil_iff, or_false] at hm
    rcases hm with rfl | rfl
    · exact Finset.mem_image.mpr ⟨7, Finset.mem_univ _, rfl⟩
    · exact Finset.mem_image.mpr ⟨8, Finset.mem_univ _, rfl⟩))

set_option backward.isDefEq.respectTransparency.types false in
/-- Region 2 as a segment: entered with every unscoped buffer at the contents before it, left with the region's
    arrays at what its write-backs leave and every other buffer untouched; the generator register goes into the
    region's invariant and comes back; nothing is owed; the kernel has no semaphore of its own. -/
def reg2 : RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (Gen.V5 m (o4 m) c) ∗ R c)
  post c := iprop(StableHlo.held (c : Thread nD τ) (Pipeline.ucRefs τ sig) (P6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (U5 m c) fun _ => rfl
    rw [U5_eq m c, Pipeline.unscopedBufs_held] at hsplit
    rw [← U5_eq m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (U5 m) c)
    unfold Pipeline.ΦA
    iintro ⟨Hp, -, Hr⟩
    isplitl [Hr]; · iexact Hr
    iexact Hp
  hout c := by
    rw [Pipeline.ownSems0_none]
    refine (hout2 (U5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (U5 m c) (fun b => P6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.FrameMain.lean ====
/-
  The launch: @main as its seven items (four host stretches, three kernel regions), run from any memory with zero
  semaphore counters. Every weakly fair execution ends, and every unscoped buffer of every core then holds the last
  valuation's contents — the launch memory pushed through the host stretches and the three regions' write-backs.
  The frame claim (every argument array ends as launched) is that statement read at the fourteen arguments, which
  no item writes.
-/
import proofs.«410393_j66864050864374_3_alg».proof.Proof.Segs
import proofs.«410393_j66864050864374_3_alg».proof.Proof.RegionsVal

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
set_option maxHeartbeats 4000000 in
/-- Every weakly fair execution of @main ends with every unscoped buffer at the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V7 m (o6 m) c b) :=
  Gen.run_cond m (emb₁ : Emb (UR sig nD τ) 𝕄) () Variants.none L lv (fun _ _ => rfl) ρ (o6 m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, H⟩; iexact H)
    (R0 := reg0 m) (hpre0 := fun c => .rfl) (hpost0 := fun c => by rw [V2_o6]; exact .rfl)
    (R1 := reg1 m) (hpre1 := fun c => by rw [V3_o6]; exact .rfl) (hpost1 := fun c => by rw [V4_o6]; exact .rfl)
    (R2 := reg2 m) (hpre2 := fun c => by rw [V5_o6]; exact .rfl) (hpost2 := fun c => .rfl)

/-- The frame claim's post: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (Gen.V7_main_arg0 m (o6 m) c),
      (h c _ (mem_uc main_arg1 (by decide))).trans (Gen.V7_main_arg1 m (o6 m) c),
      (h c _ (mem_uc main_arg2 (by decide))).trans (Gen.V7_main_arg2 m (o6 m) c),
      (h c _ (mem_uc main_arg3 (by decide))).trans (Gen.V7_main_arg3 m (o6 m) c),
      (h c _ (mem_uc main_arg4 (by decide))).trans (Gen.V7_main_arg4 m (o6 m) c),
      (h c _ (mem_uc main_arg5 (by decide))).trans (Gen.V7_main_arg5 m (o6 m) c),
      (h c _ (mem_uc main_arg6 (by decide))).trans (Gen.V7_main_arg6 m (o6 m) c),
      (h c _ (mem_uc main_arg7 (by decide))).trans (Gen.V7_main_arg7 m (o6 m) c),
      (h c _ (mem_uc main_arg8 (by decide))).trans (Gen.V7_main_arg8 m (o6 m) c),
      (h c _ (mem_uc main_arg9 (by decide))).trans (Gen.V7_main_arg9 m (o6 m) c),
      (h c _ (mem_uc main_arg10 (by decide))).trans (Gen.V7_main_arg10 m (o6 m) c),
      (h c _ (mem_uc main_arg11 (by decide))).trans (Gen.V7_main_arg11 m (o6 m) c),
      (h c _ (mem_uc main_arg12 (by decide))).trans (Gen.V7_main_arg12 m (o6 m) c),
      (h c _ (mem_uc main_arg13 (by decide))).trans (Gen.V7_main_arg13 m (o6 m) c)⟩)
    (run_all m ρ)

end Cert.KernelIdeal.Fr

end
-- ==== Proof.PreIdx.lean ====
/-
  The precondition, read back at the edge-index array. The precondition is a conjunction of "all" tests, one scalar
  bit per test, joined by `and`; its last two conjuncts say that every entry of the integer array of edge indices,
  read as a signed 32-bit word, is at least 0 and below 10000. From "the conjunction is 1" this module extracts those
  two facts at every index, and their unsigned form: a signed word in [0, 10000) has the same value read unsigned,
  and that value is below 10000.

  The conjunction nests to the left, ((… ∧ c₆₆) ∧ c₇₀): each step keeps the right conjunct it needs and passes the left
  one on. A reduction by `and` over all axes that is 1 had a 1 at every element; a comparison bit that is 1 is the
  comparison of the signed values; the comparand is a constant broadcast to the array's shape.
-/
import proofs.«410393_j66864050864374_3_alg».proof.Pre_finite_inputs
import Idealize.ShloMosaic.Lib.StableHlo.Predicate
import Idealize.ShloMosaic.Lib.ReduceAll

noncomputable section

namespace Cert.PreIdx

open Idealize.ShloMosaic Cert.Pre_finite_inputs

variable [Cert.Pre_finite_inputs.Facts]

/-- The scalar shape has one index. -/
instance : Subsingleton S_.Idx := ⟨fun a b => funext fun d => d.elim0⟩

/-- A signed 32-bit word in [0, 10000) reads the same unsigned, below 10000. -/
theorem toNat_of_range (w : BitVec 32) (h0 : 0 ≤ w.toInt) (h1 : w.toInt < 10000) :
    w.toNat < 10000 ∧ w.toInt = (w.toNat : ℤ) := by
  have hw := w.isLt
  have hc := BitVec.toInt_eq_toNat_cond w
  split at hc <;> omega

/-- The last conjunct: the remaining conjunction is 1 and every index is below 10000. -/
theorem part4_dec {F : FTy → Type} [FloatOps F] (a1 : IVec S2x640000 32) (v67 : IVec S_ 1) (j : S_.Idx)
    (h : fn_part4 (F := F) a1 v67 j = 1#1) : v67 j = 1#1 ∧ ∀ i : S2x640000.Idx, (a1 i).toInt < 10000 := by
  unfold fn_part4 at h
  dsimp only at h
  obtain ⟨h1, h2⟩ := IntOp.andi_eq_one.1 h
  refine ⟨h1, fun i => ?_⟩
  have hi := Host.reduce_andi_all _ _ _ _ j h2 i
  have hlt := IntOp.cmpi_slt.1 hi
  have hc : (10000#32 : BitVec 32).toInt = 10000 := by decide
  exact hc ▸ hlt

/-- The last two conjuncts: every index is at least 0 and below 10000. -/
theorem part3_dec {F : FTy → Type} [FloatOps F] (a1 : IVec S2x640000 32) (a12 : FVec F S256x256 .f32)
    (a13 : FVec F S256 .f32) (v48 : IVec S_ 1) (v49 v50 : FVec F S256 .f32) (j : S_.Idx)
    (h : fn_part3 (F := F) a1 a12 a13 v48 v49 v50 j = 1#1) :
    ∀ i : S2x640000.Idx, 0 ≤ (a1 i).toInt ∧ (a1 i).toInt < 10000 := by
  unfold fn_part3 at h
  dsimp only at h
  obtain ⟨h67, hlt⟩ := part4_dec (F := F) a1 _ j h
  obtain ⟨-, h66⟩ := IntOp.andi_eq_one.1 h67
  intro i
  refine ⟨?_, hlt i⟩
  have hi := Host.reduce_andi_all _ _ _ _ j h66 i
  have hge := IntOp.cmpi_sge.1 hi
  have hc : (0#32 : BitVec 32).toInt = 0 := by decide
  exact hc ▸ hge

/-- THE RANGE OF THE EDGE INDICES: under the precondition every entry of the index array, read signed, lies in
    [0, 10000). -/
theorem idx_range {F : FTy → Type} [FloatOps F] (a0 : FVec F S10000x128 .f32) (a1 : IVec S2x640000 32)
    (a2 : FVec F S128x256 .f32) (a3 : FVec F S256 .f32) (a4 : FVec F S256x256 .f32) (a5 : FVec F S256 .f32)
    (a6 : FVec F S256x256 .f32) (a7 : FVec F S256 .f32) (a8 : FVec F S256x256 .f32) (a9 : FVec F S256 .f32)
    (a10 : FVec F S256x256 .f32) (a11 : FVec F S256 .f32) (a12 : FVec F S256x256 .f32) (a13 : FVec F S256 .f32)
    (h : Cert.Pre_finite_inputs.fn (F := F) a0 a1 a2 a3 a4 a5 a6 a7 a8 a9 a10 a11 a12 a13 = fun _ => 1#1) :
    ∀ i : S2x640000.Idx, 0 ≤ (a1 i).toInt ∧ (a1 i).toInt < 10000 := by
  have e := congrFun h (fun a => a.elim0)
  unfold Cert.Pre_finite_inputs.fn at e
  dsimp only at e
  unfold fn_part1 at e
  dsimp only at e
  unfold fn_part2 at e
  dsimp only at e
  exact part3_dec (F := F) a1 a12 a13 _ _ _ _ e

/-- The unsigned form: every entry is below 10000 as a natural number, and its signed value is that number. -/
theorem idx_toNat {F : FTy → Type} [FloatOps F] (a0 : FVec F S10000x128 .f32) (a1 : IVec S2x640000 32)
    (a2 : FVec F S128x256 .f32) (a3 : FVec F S256 .f32) (a4 : FVec F S256x256 .f32) (a5 : FVec F S256 .f32)
    (a6 : FVec F S256x256 .f32) (a7 : FVec F S256 .f32) (a8 : FVec F S256x256 .f32) (a9 : FVec F S256 .f32)
    (a10 : FVec F S256x256 .f32) (a11 : FVec F S256 .f32) (a12 : FVec F S256x256 .f32) (a13 : FVec F S256 .f32)
    (h : Cert.Pre_finite_inputs.fn (F := F) a0 a1 a2 a3 a4 a5 a6 a7 a8 a9 a10 a11 a12 a13 = fun _ => 1#1) :
    ∀ i : S2x640000.Idx, (a1 i).toNat < 10000 ∧ (a1 i).toInt = ((a1 i).toNat : ℤ) := fun i =>
  toNat_of_range (a1 i) (idx_range a0 a1 a2 a3 a4 a5 a6 a7 a8 a9 a10 a11 a12 a13 h i).1
    (idx_range a0 a1 a2 a3 a4 a5 a6 a7 a8 a9 a10 a11 a12 a13 h i).2

end Cert.PreIdx

end
-- ==== Proof.Spec.lean ====
/-
  The mathematics of the network, on plain index functions over the extended reals.

  A graph-isomorphism layer sends node features `h` (one row per node) to
  `mlp (h i + Σ_{e : dst e = i} h (src e))`: every node adds up the rows of the nodes that have an
  edge into it, adds its own row, and pushes the sum through a two-layer perceptron
  `v ↦ (relu (v · Wa + ba)) · Wb + bb`. The network is three such layers with a `relu` after the
  first two.

  Two spellings of one layer are stated here: `conv`, the sum over the edges as the reference
  writes it, and `convDense`, the same node sum written as a product with the edge-count matrix
  over a padded node set, as the kernel computes it; `convDense_eq` (in the algebra module) joins them.
-/
import Mathlib.Data.EReal.Basic
import Mathlib.Algebra.BigOperators.Fin

noncomputable section

namespace Cert.Spec

open scoped BigOperators

/-- An affine layer on one row: `q ↦ (Σᵢ v i · w i q) + b q` (weights stored input-major). -/
def dense {C D : ℕ} (w : Fin C → Fin D → EReal) (b : Fin D → EReal) (v : Fin C → EReal) : Fin D → EReal :=
  fun q => (∑ i : Fin C, v i * w i q) + b q

/-- `max · 0`, entry by entry. -/
def relu {D : ℕ} (v : Fin D → EReal) : Fin D → EReal := fun q => max (v q) 0

/-- The perceptron of one layer on one row. -/
def mlp {C : ℕ} (wa : Fin C → Fin 256 → EReal) (ba : Fin 256 → EReal) (wb : Fin 256 → Fin 256 → EReal)
    (bb : Fin 256 → EReal) (v : Fin C → EReal) : Fin 256 → EReal :=
  dense wb bb (relu (dense wa ba v))

/-- The rows of the nodes with an edge into node `i`, added up. -/
def agg {E N C : ℕ} (src dst : Fin E → Fin N) (h : Fin N → Fin C → EReal) (i : Fin N) : Fin C → EReal :=
  fun k => ∑ e ∈ Finset.univ.filter (fun e => dst e = i), h (src e) k

/-- One layer as the reference writes it. -/
def conv {E N C : ℕ} (src dst : Fin E → Fin N) (wa : Fin C → Fin 256 → EReal) (ba : Fin 256 → EReal)
    (wb : Fin 256 → Fin 256 → EReal) (bb : Fin 256 → EReal) (h : Fin N → Fin C → EReal) : Fin N → Fin 256 → EReal :=
  fun i => mlp wa ba wb bb (fun k => h i k + agg src dst h i k)

/-- One layer as the kernel computes it on a padded node set of `P` rows: the node sum is the product of the
    edge-count matrix `a` with the features `hb` (the same features as `h`, in the matrix unit's format). -/
def convDense {P C : ℕ} (a : Fin P → Fin P → EReal) (hb h : Fin P → Fin C → EReal) (wa : Fin C → Fin 256 → EReal)
    (ba : Fin 256 → EReal) (wb : Fin 256 → Fin 256 → EReal) (bb : Fin 256 → EReal) : Fin P → Fin 256 → EReal :=
  fun r => mlp wa ba wb bb (fun k => h r k + ∑ j : Fin P, a r j * hb j k)

/-- The whole network as the reference writes it. -/
def net {E N : ℕ} (src dst : Fin E → Fin N) (x : Fin N → Fin 128 → EReal)
    (w0a : Fin 128 → Fin 256 → EReal) (b0a : Fin 256 → EReal) (w0b : Fin 256 → Fin 256 → EReal) (b0b : Fin 256 → EReal)
    (w1a : Fin 256 → Fin 256 → EReal) (b1a : Fin 256 → EReal) (w1b : Fin 256 → Fin 256 → EReal) (b1b : Fin 256 → EReal)
    (w2a : Fin 256 → Fin 256 → EReal) (b2a : Fin 256 → EReal) (w2b : Fin 256 → Fin 256 → EReal) (b2b : Fin 256 → EReal) :
    Fin N → Fin 256 → EReal :=
  conv src dst w2a b2a w2b b2b
    (fun i => relu (conv src dst w1a b1a w1b b1b (fun i => relu (conv src dst w0a b0a w0b b0b x i)) i))

end Cert.Spec

end
-- ==== Proof.SpecArr.lean ====
/-
  The network of `Spec.lean` read off typed arrays: the edge list is a 2 × E array of 32-bit words (row 0 the
  source node of every edge, row 1 its target), a node number is the word read signed and, for totality, clamped
  into the node range (inside the range it is the word's own value), weights and biases are f32 arrays.
-/
import proofs.«410393_j66864050864374_3_alg».proof.Proof.Spec
import Idealize.ShloMosaic.Lib.ValueIdx
import Idealize.ShloMosaic.PureOps.Ideal

noncomputable section

namespace Cert.SpecArr

open Idealize.ShloMosaic Idealize.ShloMosaic.ValueIdx

/-- The node a 32-bit word names: its signed value, clamped into `[0, 10000)`. -/
def node (w : BitVec 32) : Fin 10000 := ⟨min w.toInt.toNat 9999, by omega⟩

theorem node_val_of_range {w : BitVec 32} (h0 : 0 ≤ w.toInt) (h1 : w.toInt < 10000) : ((node w).val : ℤ) = w.toInt := by
  unfold node
  have : w.toInt.toNat ≤ 9999 := by omega
  simp only [Nat.min_eq_left this]
  omega

/-- Source node of edge `e`. -/
def src (a1 : IVec ⟨2, ![2, 640000]⟩ 32) (e : Fin 640000) : Fin 10000 := node (a1 (ix2 0 e))
/-- Target node of edge `e`. -/
def dst (a1 : IVec ⟨2, ![2, 640000]⟩ 32) (e : Fin 640000) : Fin 10000 := node (a1 (ix2 1 e))

/-- A two-axis array as a family of rows of extended reals. -/
def rows {N K : ℕ} {φ : FTy} (a : FVec Ideal ⟨2, ![N, K]⟩ φ) : Fin N → Fin K → EReal := fun i k => a (ix2 i k)
/-- A one-axis array as a function of its index. -/
def vals {N : ℕ} {φ : FTy} (a : FVec Ideal ⟨1, ![N]⟩ φ) : Fin N → EReal := fun i => a (ix1 i)

/-- The network's result array from the fourteen argument arrays. -/
def out (a0 : FVec Ideal ⟨2, ![10000, 128]⟩ .f32) (a1 : IVec ⟨2, ![2, 640000]⟩ 32)
    (a2 : FVec Ideal ⟨2, ![128, 256]⟩ .f32) (a3 : FVec Ideal ⟨1, ![256]⟩ .f32)
    (a4 : FVec Ideal ⟨2, ![256, 256]⟩ .f32) (a5 : FVec Ideal ⟨1, ![256]⟩ .f32)
    (a6 : FVec Ideal ⟨2, ![256, 256]⟩ .f32) (a7 : FVec Ideal ⟨1, ![256]⟩ .f32)
    (a8 : FVec Ideal ⟨2, ![256, 256]⟩ .f32) (a9 : FVec Ideal ⟨1, ![256]⟩ .f32)
    (a10 : FVec Ideal ⟨2, ![256, 256]⟩ .f32) (a11 : FVec Ideal ⟨1, ![256]⟩ .f32)
    (a12 : FVec Ideal ⟨2, ![256, 256]⟩ .f32) (a13 : FVec Ideal ⟨1, ![256]⟩ .f32) :
    FVec Ideal ⟨2, ![10000, 256]⟩ .f32 :=
  fun j => Cert.Spec.net (src a1) (dst a1) (rows a0) (rows a2) (vals a3) (rows a4) (vals a5) (rows a6) (vals a7)
    (rows a8) (vals a9) (rows a10) (vals a11) (rows a12) (vals a13) (j 0) (j 1)

end Cert.SpecArr

end
-- ==== Proof.LibSegmentSum.lean ====
/-
  A sum of rows grouped by a list of row numbers (jax.ops.segment_sum; jnp's `x.at[idx].add(u)` with one index per
  update row), read at an element.

  The scatter-add prints as `Host.scatterAdd d x idx upd` with the scatter indices an (n, 1) column. At the ideal values
  element (r, k) of the result is x(r, k) plus the sum of upd(e, k) over the update rows e whose index, read as a SIGNED
  integer and not clamped, is r: an update whose index is negative or past the last row contributes nothing.
  The one-axis form (updates a list of n values, the operand a list of N values) reads the same way.
-/
import Idealize.ShloMosaic.PureOps.Ideal
import Idealize.ShloMosaic.PureOps.Contract
import Idealize.ShloMosaic.Lib.ValueIdx

noncomputable section

namespace Idealize.ShloMosaic.SegmentSum

open Idealize.ShloMosaic Idealize.ShloMosaic.ValueIdx

/-- A list with exactly one entry has that entry at every position it can be read at. -/
private theorem getElem_eq_of_singleton {β : Type} {l : List β} {b : β} (h : l = [b]) {i : Nat} (hi : i < l.length) : l[i] = b := by
  subst h
  match i, hi with
  | 0, _ => rfl
  | i + 1, hi => exact absurd hi (by simp)

/-! ## Rows: where an update element lands

  With the operand's row axis both inserted and start-indexed, the updates' column axis their one window axis, and the
  index vector along the column of scatter indices, update element (e, k') starts at row idx(e), column 0, and its window
  coordinate is (0, k'): it lands at (idx(e), k') when idx(e), read signed, is a row of the operand, and nowhere
  otherwise. -/

section rowsAux
variable {N n C w : Nat} (d : ScatterDims ⟨2, ![N, C]⟩ ⟨2, ![n, 1]⟩ ⟨2, ![n, C]⟩)
    (idx : IVec ⟨2, ![n, 1]⟩ w) (e : Fin n) (k' : Fin C)

/-- The operand's axes that are not inserted: the column axis alone. -/
theorem sKept_rows (hiw : d.insertedWindowDims = [0]) : d.sKept = [(1 : Fin 2)] := by
  show Shape.kept _ d.insertedWindowDims = [(1 : Fin 2)]
  rw [hiw]; rfl

/-- The updates' scatter axes: the row axis alone. -/
theorem uScatter_rows (huw : d.updateWindowDims = [1]) : d.uScatter = [(0 : Fin 2)] := by
  show Shape.kept _ d.updateWindowDims = [(0 : Fin 2)]
  rw [huw]; rfl

/-- On the row axis the window of update element (e, k') starts at the e-th scatter index, read signed. -/
theorem start_row (huw : d.updateWindowDims = [1]) (hsd : d.scatterDimsToOperandDims = [0]) (hivd : d.indexVectorDim = 1) :
    d.start (ix2 e k') idx (0 : Fin 2) = (idx (ix2 e (0 : Fin 1))).toInt := by
  have hm : (0 : Fin 2) ∈ d.scatterDimsToOperandDims := by rw [hsd]; exact List.mem_singleton.mpr rfl
  unfold ScatterDims.start
  rw [dif_pos hm]
  refine congrArg (fun q => (idx q).toInt) ?_
  funext b
  match b with
  | ⟨0, _⟩ =>
    unfold ScatterDims.siIdx
    rw [dif_neg (by rw [hivd]; exact Nat.zero_ne_one)]
    unfold ScatterDims.siCoord
    apply Fin.ext
    show ((ix2 e k') (d.uScatter[_]'_)).val = e.val
    rw [getElem_eq_of_singleton (uScatter_rows d huw)]
  | ⟨1, _⟩ =>
    unfold ScatterDims.siIdx
    rw [dif_pos (by rw [hivd])]
    apply Fin.ext
    show List.idxOf (0 : Fin 2) d.scatterDimsToOperandDims = 0
    rw [hsd]; simp

/-- On the column axis the window starts at 0: no scatter index addresses it. -/
theorem start_col (hsd : d.scatterDimsToOperandDims = [0]) : d.start (ix2 e k') idx (1 : Fin 2) = 0 := by
  have hm : (1 : Fin 2) ∉ d.scatterDimsToOperandDims := by rw [hsd]; simp
  unfold ScatterDims.start
  rw [dif_neg hm]

/-- The row axis is inserted: its window coordinate is 0. -/
theorem window_row (hiw : d.insertedWindowDims = [0]) : d.window (ix2 e k') (0 : Fin 2) = 0 := by
  have hk : (0 : Fin 2) ∉ d.sKept := by rw [sKept_rows d hiw]; simp
  unfold ScatterDims.window
  rw [dif_neg hk]

/-- The column axis carries the updates' window axis: its window coordinate is the update's column. -/
theorem window_col (huw : d.updateWindowDims = [1]) (hiw : d.insertedWindowDims = [0]) : d.window (ix2 e k') (1 : Fin 2) = k'.val := by
  have hk : (1 : Fin 2) ∈ d.sKept := by rw [sKept_rows d hiw]; exact List.mem_singleton.mpr rfl
  unfold ScatterDims.window
  rw [dif_pos hk, getElem_eq_of_singleton huw]
  rfl

/-- Update element (e, k') lands at (r, k) exactly when the e-th scatter index, read signed, is r and k' = k: the bounds
    on both axes then hold because r and k are positions in the operand. -/
theorem resultIdx_rows_iff (huw : d.updateWindowDims = [1]) (hiw : d.insertedWindowDims = [0])
    (hsd : d.scatterDimsToOperandDims = [0]) (hivd : d.indexVectorDim = 1) (r : Fin N) (k : Fin C) :
    d.resultIdx? (ix2 e k') idx = some (ix2 r k) ↔ (idx (ix2 e (0 : Fin 1))).toInt = (r.val : ℤ) ∧ k' = k := by
  have h0 := start_row d idx e k' huw hsd hivd
  have h1 := start_col d idx e k' hsd
  have w0 := window_row d e k' hiw
  have w1 := window_col d e k' huw hiw
  unfold ScatterDims.resultIdx?
  split
  · rename_i h
    rw [Option.some.injEq]
    constructor
    · intro hf
      have a0 : (d.start (ix2 e k') idx (0 : Fin 2) + (d.window (ix2 e k') (0 : Fin 2) : ℤ)).toNat = r.val :=
        congrArg (fun f => (f (0 : Fin 2)).val) hf
      have a1 : (d.start (ix2 e k') idx (1 : Fin 2) + (d.window (ix2 e k') (1 : Fin 2) : ℤ)).toNat = k.val :=
        congrArg (fun f => (f (1 : Fin 2)).val) hf
      have b0 := (h (0 : Fin 2)).1
      rw [h0, w0] at a0 b0
      rw [h1, w1] at a1
      refine ⟨by omega, Fin.ext (by omega)⟩
    · rintro ⟨hr, rfl⟩
      funext a
      match a with
      | ⟨0, _⟩ =>
        apply Fin.ext
        show (d.start (ix2 e k') idx (0 : Fin 2) + (d.window (ix2 e k') (0 : Fin 2) : ℤ)).toNat = r.val
        rw [h0, w0, hr]; omega
      | ⟨1, _⟩ =>
        apply Fin.ext
        show (d.start (ix2 e k') idx (1 : Fin 2) + (d.window (ix2 e k') (1 : Fin 2) : ℤ)).toNat = k'.val
        rw [h1, w1]; omega
  · rename_i h
    constructor
    · intro hf; exact absurd hf (by simp)
    · rintro ⟨hr, rfl⟩
      refine absurd (fun a => ?_) h
      match a with
      | ⟨0, _⟩ =>
        show 0 ≤ d.start (ix2 e k') idx (0 : Fin 2) + (d.window (ix2 e k') (0 : Fin 2) : ℤ) ∧
          d.start (ix2 e k') idx (0 : Fin 2) + (d.window (ix2 e k') (0 : Fin 2) : ℤ) < ((N : ℕ) : ℤ)
        rw [h0, w0, hr]; have := r.isLt; omega
      | ⟨1, _⟩ =>
        show 0 ≤ d.start (ix2 e k') idx (1 : Fin 2) + (d.window (ix2 e k') (1 : Fin 2) : ℤ) ∧
          d.start (ix2 e k') idx (1 : Fin 2) + (d.window (ix2 e k') (1 : Fin 2) : ℤ) < ((C : ℕ) : ℤ)
        rw [h1, w1]; have := k'.isLt; omega

end rowsAux

section rows
variable {N n C w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w)
include huw hiw hsd hivd

/-- Element (r, k) of a scatter-add of rows: the operand's element plus the update rows whose index is r, at column k. -/
theorem scatterAdd_rows {φ : FTy} (x : FVec Ideal ⟨2, ![N, C]⟩ φ) (upd : FVec Ideal ⟨2, ![n, C]⟩ φ) (r : Fin N) (k : Fin C) :
    Host.scatterAdd d x idx upd (ix2 r k)
      = x (ix2 r k) + ∑ e : Fin n, if (idx (ix2 e (0 : Fin 1))).toInt = (r.val : ℤ) then upd (ix2 e k) else 0 := by
  have hlands := fun (e : Fin n) (b : Fin C) => resultIdx_rows_iff d idx e b huw hiw hsd hivd r k
  unfold Host.scatterAdd
  rw [Ideal.hostScatterAdd_def]
  unfold Ideal.hostScatterAdd
  congr 1
  rw [Finset.sum_filter, sum_idx2]
  refine Finset.sum_congr rfl fun e _ => ?_
  by_cases hr : (idx (ix2 e (0 : Fin 1))).toInt = (r.val : ℤ)
  · rw [if_pos hr, Finset.sum_eq_single k]
    · rw [if_pos ((hlands e k).2 ⟨hr, rfl⟩)]
    · intro b _ hb
      rw [if_neg fun h => hb ((hlands e b).1 h).2]
    · intro hk; exact absurd (Finset.mem_univ k) hk
  · rw [if_neg hr]
    refine Finset.sum_eq_zero fun b _ => ?_
    rw [if_neg fun h => hr ((hlands e b).1 h).1]

end rows

/-! ## Values: where an update lands

  The one-axis form: the operand's only axis is inserted and start-indexed and the updates have no window axis, so
  update e starts at position idx(e) with window coordinate 0, and lands there when idx(e), read signed, is a position of
  the operand. -/

/-- A sum over the positions of a list of n values is the sum over their coordinates. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

section valsAux
variable {N n w : Nat} (d : ScatterDims ⟨1, ![N]⟩ ⟨2, ![n, 1]⟩ ⟨1, ![n]⟩) (idx : IVec ⟨2, ![n, 1]⟩ w) (e : Fin n)

/-- The operand's only axis is inserted: none is kept. -/
theorem sKept_vals (hiw : d.insertedWindowDims = [0]) : d.sKept = [] := by
  show Shape.kept _ d.insertedWindowDims = []
  rw [hiw]; rfl

/-- The updates' only axis is a scatter axis. -/
theorem uScatter_vals (huw : d.updateWindowDims = []) : d.uScatter = [(0 : Fin 1)] := by
  show Shape.kept _ d.updateWindowDims = [(0 : Fin 1)]
  rw [huw]; rfl

/-- The window of update e starts at the e-th scatter index, read signed. -/
theorem start_val (huw : d.updateWindowDims = []) (hsd : d.scatterDimsToOperandDims = [0]) (hivd : d.indexVectorDim = 1) :
    d.start (ix1 e) idx (0 : Fin 1) = (idx (ix2 e (0 : Fin 1))).toInt := by
  have hm : (0 : Fin 1) ∈ d.scatterDimsToOperandDims := by rw [hsd]; exact List.mem_singleton.mpr rfl
  unfold ScatterDims.start
  rw [dif_pos hm]
  refine congrArg (fun q => (idx q).toInt) ?_
  funext b
  match b with
  | ⟨0, _⟩ =>
    unfold ScatterDims.siIdx
    rw [dif_neg (by rw [hivd]; exact Nat.zero_ne_one)]
    unfold ScatterDims.siCoord
    apply Fin.ext
    show ((ix1 e) (d.uScatter[_]'_)).val = e.val
    rw [getElem_eq_of_singleton (uScatter_vals d huw)]
  | ⟨1, _⟩ =>
    unfold ScatterDims.siIdx
    rw [dif_pos (by rw [hivd])]
    apply Fin.ext
    show List.idxOf (0 : Fin 1) d.scatterDimsToOperandDims = 0
    rw [hsd]; simp

/-- The operand's axis is inserted: the window coordinate is 0. -/
theorem window_val (hiw : d.insertedWindowDims = [0]) : d.window (ix1 e) (0 : Fin 1) = 0 := by
  have hk : (0 : Fin 1) ∉ d.sKept := by rw [sKept_vals d hiw]; exact List.not_mem_nil
  unfold ScatterDims.window
  rw [dif_neg hk]

/-- Update e lands at position r exactly when the e-th scatter index, read signed, is r. -/
theorem resultIdx_vals_iff (huw : d.updateWindowDims = []) (hiw : d.insertedWindowDims = [0])
    (hsd : d.scatterDimsToOperandDims = [0]) (hivd : d.indexVectorDim = 1) (r : Fin N) :
    d.resultIdx? (ix1 e) idx = some (ix1 r) ↔ (idx (ix2 e (0 : Fin 1))).toInt = (r.val : ℤ) := by
  have h0 := start_val d idx e huw hsd hivd
  have w0 := window_val d e hiw
  unfold ScatterDims.resultIdx?
  split
  · rename_i h
    rw [Option.some.injEq]
    constructor
    · intro hf
      have a0 : (d.start (ix1 e) idx (0 : Fin 1) + (d.window (ix1 e) (0 : Fin 1) : ℤ)).toNat = r.val :=
        congrArg (fun f => (f (0 : Fin 1)).val) hf
      have b0 := (h (0 : Fin 1)).1
      rw [h0, w0] at a0 b0
      omega
    · intro hr
      funext a
      match a with
      | ⟨0, _⟩ =>
        apply Fin.ext
        show (d.start (ix1 e) idx (0 : Fin 1) + (d.window (ix1 e) (0 : Fin 1) : ℤ)).toNat = r.val
        rw [h0, w0, hr]; omega
  · rename_i h
    constructor
    · intro hf; exact absurd hf (by simp)
    · intro hr
      refine absurd (fun a => ?_) h
      match a with
      | ⟨0, _⟩ =>
        show 0 ≤ d.start (ix1 e) idx (0 : Fin 1) + (d.window (ix1 e) (0 : Fin 1) : ℤ) ∧
          d.start (ix1 e) idx (0 : Fin 1) + (d.window (ix1 e) (0 : Fin 1) : ℤ) < ((N : ℕ) : ℤ)
        rw [h0, w0, hr]; have := r.isLt; omega

end valsAux

section vals
variable {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w)
include huw hiw hsd hivd

/-- Entry r of a scatter-add of values: the operand's entry plus the updates whose index is r. -/
theorem scatterAdd_vals {φ : FTy} (x : FVec Ideal ⟨1, ![N]⟩ φ) (upd : FVec Ideal ⟨1, ![n]⟩ φ) (r : Fin N) :
    Host.scatterAdd d x idx upd (ix1 r)
      = x (ix1 r) + ∑ e : Fin n, if (idx (ix2 e (0 : Fin 1))).toInt = (r.val : ℤ) then upd (ix1 e) else 0 := by
  have hlands := fun (e : Fin n) => resultIdx_vals_iff d idx e huw hiw hsd hivd r
  unfold Host.scatterAdd
  rw [Ideal.hostScatterAdd_def]
  unfold Ideal.hostScatterAdd
  congr 1
  rw [Finset.sum_filter, sum_idx1]
  exact Finset.sum_congr rfl fun e _ => if_congr (hlands e) rfl rfl

end vals

end Idealize.ShloMosaic.SegmentSum

end
-- ==== Proof.LibGather.lean ====
/-
  Reading a row gather at an element.

  jnp's `table[idx]` over a two-axis table of N rows prints as a gather whose start indices are an (n, 1) column of
  row numbers: the table's first axis is collapsed and start-indexed, its second axis is the one offset axis of the
  result, and the index vector lies along axis 1 of the column.  Result element (p, k) is then the table's element
  (r, k), where r is the p-th start index read as a signed integer and clamped into [0, N - 1].
-/
import Idealize.ShloMosaic.PureOps.ShapeOps
import Idealize.ShloMosaic.Lib.ValueIdx

namespace Idealize.ShloMosaic.RowGather

open Idealize.ShloMosaic Idealize.ShloMosaic.ValueIdx

/-- A list known to be one element long, read at any position, gives that element. -/
theorem getElem_of_eq_singleton {β : Type} {l : List β} {b : β} (h : l = [b]) (i : Nat) (hi : i < l.length) : l[i] = b := by
  subst h
  have : i = 0 := by simpa using hi
  subst this; rfl

section
variable {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (k : Fin C)
include hoff hcoll hob hsim hivd

/-- On the table's row axis the operand index is the clamped start index. -/
theorem operandIdx_row : (d.operandIdx (ix2 p k) idx (0 : Fin 2)).val = min (idx (ix2 p 0)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - d.sliceSizes 0) = min (idx (ix2 p 0)).toInt.toNat (N - 1)
  rw [hsl]
  congr 3
  congr 1
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      simp [GatherDims.batchDims, Shape.kept, hoff, List.finRange]
    rw [getElem_of_eq_singleton hbd]
    rfl
  | ⟨1, _⟩ =>
    unfold GatherDims.siIdx
    rw [dif_pos (by rw [hivd])]
    apply Fin.ext
    show List.idxOf (0 : Fin 2) d.startIndexMap = 0
    rw [hsim]; simp

/-- On the table's column axis the operand index is the result's column. -/
theorem operandIdx_col : (d.operandIdx (ix2 p k) idx (1 : Fin 2)).val = k.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, Nat.add_zero, GatherDims.start,
    dif_neg hm, Nat.zero_add]
  unfold GatherDims.offCoord
  rw [dif_pos hk, getElem_of_eq_singleton hoff]
  rfl

/-- Element (p, k) of a row gather is the table's element (r, k), r the p-th start index read signed and clamped into the
    table. -/
theorem gather_rows {α : Type} (x : (⟨2, ![N, C]⟩ : Shape).Idx → α) (hN : 0 < N) :
    Host.gather d x idx (ix2 p k) = x (ix2 ⟨min (idx (ix2 p 0)).toInt.toNat (N - 1), by omega⟩ k) := by
  unfold Host.gather
  congr 1
  funext a
  apply Fin.ext
  match a with
  | ⟨0, _⟩ => exact operandIdx_row d hoff hcoll hob hsim hivd idx p k
  | ⟨1, _⟩ => exact operandIdx_col d hoff hcoll hob hsim hivd idx p k
end

end Idealize.ShloMosaic.RowGather
-- ==== Proof.RefValue.lean ====
/-
  What the reference program computes.

  The reference is three graph-isomorphism layers.  Each layer reads the source node of every edge (a negative
  node number wrapped once by the node count, then clamped into the node range), gathers the rows of the current
  features at those nodes, adds every gathered row into the row of a zero array named by the edge's target node
  (read signed, unclamped: an edge whose target is outside the range is dropped), adds the features themselves,
  and applies the two-layer perceptron; a relu sits between layers.  When every word of the edge list lies in
  [0, 10000) the wrap and the clamp are the identity and no edge is dropped, so a layer is `Spec.conv` over the
  node numbers `SpecArr.src` / `SpecArr.dst`, and the whole program is `Spec.net` read off the argument arrays.
-/
import proofs.«410393_j66864050864374_3_alg».proof.Proof.Gen.ReferenceIdeal.Read
import proofs.«410393_j66864050864374_3_alg».proof.Proof.SpecArr
import proofs.«410393_j66864050864374_3_alg».proof.Proof.LibSegmentSum
import proofs.«410393_j66864050864374_3_alg».proof.Proof.LibGather

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-! ## Words -/

/-- A non-negative word is not below zero, so the wrap keeps it. -/
theorem wrap_id (w : BitVec 32) (h0 : 0 ≤ w.toInt) :
    Scalar.select (IntOp.cmpi .slt w 0#32) (IntOp.addi w 10000#32) w = w := by
  have hc : IntOp.cmpi .slt w 0#32 = 0#1 := by
    unfold IntOp.cmpi
    have : w.slt 0#32 = false := by
      simp only [BitVec.slt, BitVec.toInt_zero, decide_eq_false_iff_not, not_lt]; exact h0
    rw [this]; rfl
  rw [hc, select_zero]

/-- Inside the node range a word names the node whose number is its signed value. -/
theorem toInt_eq_iff_node (w : BitVec 32) (h0 : 0 ≤ w.toInt) (h1 : w.toInt < 10000) (r : Fin 10000) :
    w.toInt = (r.val : ℤ) ↔ Cert.SpecArr.node w = r := by
  have hn := Cert.SpecArr.node_val_of_range h0 h1
  constructor
  · intro h; apply Fin.ext; omega
  · intro h; rw [← h]; exact hn.symm

/-! ## The edge list's two rows -/

section edges
variable (x1 : (⟨S2x640000, .i32⟩ : BufTy).Contents (Elt Ideal))

/-- The edge list's first row, flattened: entry `e` is the source word of edge `e`. -/
theorem v1_at (e : Fin 640000) : val_main_v1 (F := Ideal) x1 (ix1 e) = x1 (ix2 0 e) := by
  rw [val_main_v1_apply, val_main_v0_apply]
  congr 1
  funext a
  match a with
  | ⟨0, _⟩ => rfl
  | ⟨1, _⟩ => apply Fin.ext; show e.val % 640000 = e.val; omega

/-- The edge list's second row, flattened: entry `e` is the target word of edge `e`. -/
theorem v3_at (e : Fin 640000) : val_main_v3 (F := Ideal) x1 (ix1 e) = x1 (ix2 1 e) := by
  rw [val_main_v3_apply, val_main_v2_apply]
  congr 1
  funext a
  match a with
  | ⟨0, _⟩ => rfl
  | ⟨1, _⟩ => apply Fin.ext; show e.val % 640000 = e.val; omega

end edges

section wraps
variable (x1 : (⟨S2x640000, .i32⟩ : BufTy).Contents (Elt Ideal))

/-- First layer's source column: the wrapped source word of edge `e`, which is the word itself when it is not negative. -/
theorem v9_at (e : Fin 640000) (h0 : 0 ≤ (x1 (ix2 0 e)).toInt) :
    val_main_v9 (F := Ideal) x1 (ix2 e (0 : Fin 1)) = x1 (ix2 0 e) := by
  rw [val_main_v9_apply, show idx_main_v9 (ix2 e (0 : Fin 1)) = ix1 e from funext fun a => match a with | ⟨0, _⟩ => rfl,
    val_main_v8_apply, val_main_v5_apply, val_main_v7_apply, val_main_v4_apply, val_main_v6_apply, val_main_c_apply,
    val_main_c_0_apply, v1_at]
  exact wrap_id _ h0

/-- Second layer's source column. -/
theorem v32_at (e : Fin 640000) (h0 : 0 ≤ (x1 (ix2 0 e)).toInt) :
    val_main_v32 (F := Ideal) x1 (ix2 e (0 : Fin 1)) = x1 (ix2 0 e) := by
  rw [val_main_v32_apply, show idx_main_v32 (ix2 e (0 : Fin 1)) = ix1 e from funext fun a => match a with | ⟨0, _⟩ => rfl,
    val_main_v31_apply, val_main_v28_apply, val_main_v30_apply, val_main_v27_apply, val_main_v29_apply, val_main_c_3_apply,
    val_main_c_4_apply, v1_at]
  exact wrap_id _ h0

/-- Third layer's source column. -/
theorem v55_at (e : Fin 640000) (h0 : 0 ≤ (x1 (ix2 0 e)).toInt) :
    val_main_v55 (F := Ideal) x1 (ix2 e (0 : Fin 1)) = x1 (ix2 0 e) := by
  rw [val_main_v55_apply, show idx_main_v55 (ix2 e (0 : Fin 1)) = ix1 e from funext fun a => match a with | ⟨0, _⟩ => rfl,
    val_main_v54_apply, val_main_v51_apply, val_main_v53_apply, val_main_v50_apply, val_main_v52_apply, val_main_c_8_apply,
    val_main_c_9_apply, v1_at]
  exact wrap_id _ h0

/-- The three target columns: the raw target word of edge `e`. -/
theorem v12_at (e : Fin 640000) : val_main_v12 (F := Ideal) x1 (ix2 e (0 : Fin 1)) = x1 (ix2 1 e) := by
  rw [val_main_v12_apply, show idx_main_v12 (ix2 e (0 : Fin 1)) = ix1 e from funext fun a => match a with | ⟨0, _⟩ => rfl, v3_at]
theorem v35_at (e : Fin 640000) : val_main_v35 (F := Ideal) x1 (ix2 e (0 : Fin 1)) = x1 (ix2 1 e) := by
  rw [val_main_v35_apply, show idx_main_v35 (ix2 e (0 : Fin 1)) = ix1 e from funext fun a => match a with | ⟨0, _⟩ => rfl, v3_at]
theorem v58_at (e : Fin 640000) : val_main_v58 (F := Ideal) x1 (ix2 e (0 : Fin 1)) = x1 (ix2 1 e) := by
  rw [val_main_v58_apply, show idx_main_v58 (ix2 e (0 : Fin 1)) = ix1 e from funext fun a => match a with | ⟨0, _⟩ => rfl, v3_at]

end wraps

/-! ## The neighbour sum -/

section aggregate
variable {C : ℕ}
  (dg : GatherDims ⟨2, ![10000, C]⟩ ⟨2, ![640000, 1]⟩ ⟨2, ![640000, C]⟩)
  (hoff : dg.offsetDims = [1]) (hcoll : dg.collapsedSliceDims = [0]) (hob : dg.operandBatchingDims = [])
  (hsim : dg.startIndexMap = [0]) (hgiv : dg.indexVectorDim = 1)
  (ds : ScatterDims ⟨2, ![10000, C]⟩ ⟨2, ![640000, 1]⟩ ⟨2, ![640000, C]⟩)
  (huw : ds.updateWindowDims = [1]) (hiw : ds.insertedWindowDims = [0]) (hsd : ds.scatterDimsToOperandDims = [0])
  (hsiv : ds.indexVectorDim = 1)
  (x1 : IVec ⟨2, ![2, 640000]⟩ 32) (hr : ∀ i, 0 ≤ (x1 i).toInt ∧ (x1 i).toInt < 10000)
  (sidx didx : IVec ⟨2, ![640000, 1]⟩ 32)
  (hs : ∀ e : Fin 640000, sidx (ix2 e (0 : Fin 1)) = x1 (ix2 0 e))
  (hd : ∀ e : Fin 640000, didx (ix2 e (0 : Fin 1)) = x1 (ix2 1 e))
  (z h : FVec Ideal ⟨2, ![10000, C]⟩ .f32) (hz : ∀ i, z i = 0)
include hoff hcoll hob hsim hgiv huw hiw hsd hsiv hr hs hd hz

/-- Rows of `h` gathered at the edges' source nodes and added into a zero array at the edges' target nodes: row `r` of
    the result is the sum of the rows `h (src e)` over the edges `e` with `dst e = r`. -/
theorem aggregate_at (r : Fin 10000) (k : Fin C) :
    Host.scatterAdd ds z didx (Host.gather dg h sidx) (ix2 r k)
      = Cert.Spec.agg (Cert.SpecArr.src x1) (Cert.SpecArr.dst x1) (Cert.SpecArr.rows h) r k := by
  rw [SegmentSum.scatterAdd_rows ds huw hiw hsd hsiv didx z _ r k, hz, zero_add]
  unfold Cert.Spec.agg
  rw [Finset.sum_filter]
  refine Finset.sum_congr rfl fun e _ => ?_
  rw [RowGather.gather_rows dg hoff hcoll hob hsim hgiv sidx e k h (by decide), hd e]
  refine if_congr (toInt_eq_iff_node _ (hr _).1 (hr _).2 r) ?_ rfl
  show h (ix2 _ k) = h (ix2 (Cert.SpecArr.src x1 e) k)
  congr 2
  apply Fin.ext
  show min (sidx (ix2 e 0)).toInt.toNat (10000 - 1) = min (x1 (ix2 0 e)).toInt.toNat 9999
  rw [hs e]

end aggregate

/-! ## Indices and arrays -/

/-- Two indices given by a `match` on the axis are equal when their coordinates are. -/
local macro "idx2" : tactic => `(tactic| (funext a; match a with | ⟨0, _⟩ => rfl | ⟨1, _⟩ => rfl))
local macro "idx1" : tactic => `(tactic| (funext a; match a with | ⟨0, _⟩ => rfl))

/-- Rows of an f32 array of two axes. -/
abbrev R {N K : ℕ} (a : FVec Ideal ⟨2, ![N, K]⟩ .f32) : Fin N → Fin K → EReal := Cert.SpecArr.rows a
/-- Entries of an f32 array of one axis. -/
abbrev V {N : ℕ} (a : FVec Ideal ⟨1, ![N]⟩ .f32) : Fin N → EReal := Cert.SpecArr.vals a

/-! ## First layer -/

section layer1
variable (x0 : (⟨S10000x128, .f32⟩ : BufTy).Contents (Elt Ideal)) (x1 : (⟨S2x640000, .i32⟩ : BufTy).Contents (Elt Ideal))
  (x2 : (⟨S128x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (hr : ∀ i : S2x640000.Idx, 0 ≤ (x1 i).toInt ∧ (x1 i).toInt < 10000)

/-- The array the neighbour sum is added into is zero. -/
theorem v11_zero (i : S10000x128.Idx) : val_main_v11 (F := Ideal) i = 0 := by
  rw [val_main_v11_apply, val_main_cst_apply]; exact Ideal.ofBits_zero_f32

include hr in
/-- The first layer's neighbour sum. -/
theorem v13_at (i : Fin 10000) (k : Fin 128) :
    val_main_v13 (F := Ideal) x0 x1 (ix2 i k)
      = Spec.agg (SpecArr.src x1) (SpecArr.dst x1) (R x0) i k := by
  unfold val_main_v13 val_main_v10
  have key := aggregate_at (C := 128) gather_S10000x128_S640000x1_S640000x128_1_0_n_n_0_1_1128 rfl rfl rfl rfl rfl
    scatter_S10000x128_S640000x1_S640000x128_1_0_0_1 rfl rfl rfl rfl x1 hr (val_main_v9 (F := Ideal) x1) (val_main_v12 (F := Ideal) x1)
    (fun e => v9_at x1 e (hr _).1) (v12_at x1) (val_main_v11 (F := Ideal)) x0 v11_zero i k
  exact key

include hr in
/-- The first affine map of the first layer's perceptron, on the node's own row plus its neighbour sum. -/
theorem v18_at (i : Fin 10000) (q : Fin 256) :
    val_main_v18 (F := Ideal) x0 x1 x2 x3 (ix2 i q)
      = Spec.dense (R x2) (V x3) (fun k => R x0 i k + Spec.agg (SpecArr.src x1) (SpecArr.dst x1) (R x0) i k) q := by
  rw [val_main_v18_apply, val_main_v15_apply, val_main_v17_apply, val_main_v16_apply]
  unfold Cert.Spec.dense
  rw [Ideal.addf_def]
  refine congrArg₂ (· + ·) (Finset.sum_congr rfl fun k _ => ?_) (congrArg x3 (by idx1))
  rw [show lidx_main_v15 (ix2 i q) k = ix2 i k from by idx2, show ridx_main_v15 (ix2 i q) k = ix2 k q from by idx2,
    val_main_v14_apply, v13_at x0 x1 hr, Ideal.addf_def]
  rfl

include hr in
/-- The perceptron's hidden row: the relu of the first affine map. -/
theorem v20_at (i : Fin 10000) (q : Fin 256) :
    val_main_v20 (F := Ideal) x0 x1 x2 x3 (ix2 i q)
      = Spec.relu (Spec.dense (R x2) (V x3) (fun k => R x0 i k + Spec.agg (SpecArr.src x1) (SpecArr.dst x1) (R x0) i k)) q := by
  rw [val_main_v20_apply, val_main_v19_apply, val_main_cst_1_apply, v18_at x0 x1 x2 x3 hr, Ideal.maximumf_def,
    show (FloatOps.ofBits .f32 0x00000000#32 : Ideal .f32) = 0 from Ideal.ofBits_zero_f32]
  rfl

include hr in
/-- The first layer: the perceptron of every node's own row plus its neighbour sum. -/
theorem v24_at (i : Fin 10000) (q : Fin 256) :
    val_main_v24 (F := Ideal) x0 x1 x2 x3 x4 x5 (ix2 i q)
      = Spec.conv (SpecArr.src x1) (SpecArr.dst x1) (R x2) (V x3) (R x4) (V x5) (R x0) i q := by
  rw [val_main_v24_apply, val_main_v21_apply, val_main_v23_apply, val_main_v22_apply, Ideal.addf_def]
  show _ = (∑ k : Fin 256, Spec.relu (Spec.dense (R x2) (V x3) (fun k => R x0 i k + Spec.agg (SpecArr.src x1) (SpecArr.dst x1) (R x0) i k)) k
      * R x4 k q) + V x5 q
  refine congrArg₂ (· + ·) (Finset.sum_congr rfl fun k _ => ?_) (congrArg x5 (by idx1))
  rw [show lidx_main_v21 (ix2 i q) k = ix2 i k from by idx2, show ridx_main_v21 (ix2 i q) k = ix2 k q from by idx2,
    v20_at x0 x1 x2 x3 hr]
  rfl

include hr in
/-- The features after the first layer and its relu, row by row. -/
theorem v26_rows :
    R (val_main_v26 (F := Ideal) x0 x1 x2 x3 x4 x5)
      = fun i => Spec.relu (Spec.conv (SpecArr.src x1) (SpecArr.dst x1) (R x2) (V x3) (R x4) (V x5) (R x0) i) := by
  funext i q
  show val_main_v26 (F := Ideal) x0 x1 x2 x3 x4 x5 (ix2 i q) = _
  rw [val_main_v26_apply, val_main_v25_apply, val_main_cst_2_apply, v24_at x0 x1 x2 x3 x4 x5 hr, Ideal.maximumf_def,
    show (FloatOps.ofBits .f32 0x00000000#32 : Ideal .f32) = 0 from Ideal.ofBits_zero_f32]
  rfl

end layer1

/-! ## Second layer -/

section layer2
variable (x0 : (⟨S10000x128, .f32⟩ : BufTy).Contents (Elt Ideal)) (x1 : (⟨S2x640000, .i32⟩ : BufTy).Contents (Elt Ideal))
  (x2 : (⟨S128x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal))
  (hr : ∀ i : S2x640000.Idx, 0 ≤ (x1 i).toInt ∧ (x1 i).toInt < 10000)

/-- The features this layer starts from: the first layer's result after its relu. -/
local notation "h₁" => (val_main_v26 (F := Ideal) x0 x1 x2 x3 x4 x5)

/-- The array the neighbour sum is added into is zero. -/
theorem v34_zero (i : S10000x256.Idx) : val_main_v34 (F := Ideal) i = 0 := by
  rw [val_main_v34_apply, val_main_cst_5_apply]; exact Ideal.ofBits_zero_f32

include hr in
/-- The second layer's neighbour sum. -/
theorem v36_at (i : Fin 10000) (k : Fin 256) :
    val_main_v36 (F := Ideal) x0 x1 x2 x3 x4 x5 (ix2 i k)
      = Spec.agg (SpecArr.src x1) (SpecArr.dst x1) (R h₁) i k := by
  unfold val_main_v36 val_main_v33
  generalize val_main_v26 (F := Ideal) x0 x1 x2 x3 x4 x5 = h
  have key := aggregate_at (C := 256) gather_S10000x256_S640000x1_S640000x256_1_0_n_n_0_1_1256 rfl rfl rfl rfl rfl
    scatter_S10000x256_S640000x1_S640000x256_1_0_0_1 rfl rfl rfl rfl x1 hr (val_main_v32 (F := Ideal) x1) (val_main_v35 (F := Ideal) x1)
    (fun e => v32_at x1 e (hr _).1) (v35_at x1) (val_main_v34 (F := Ideal)) h v34_zero i k
  exact key

include hr in
/-- The first affine map of the second layer's perceptron, on the node's own row plus its neighbour sum. -/
theorem v41_at (i : Fin 10000) (q : Fin 256) :
    val_main_v41 (F := Ideal) x0 x1 x2 x3 x4 x5 x6 x7 (ix2 i q)
      = Spec.dense (R x6) (V x7) (fun k => R h₁ i k + Spec.agg (SpecArr.src x1) (SpecArr.dst x1) (R h₁) i k) q := by
  rw [val_main_v41_apply, val_main_v38_apply, val_main_v40_apply, val_main_v39_apply]
  unfold Cert.Spec.dense
  rw [Ideal.addf_def]
  refine congrArg₂ (· + ·) (Finset.sum_congr rfl fun k _ => ?_) (congrArg x7 (by idx1))
  rw [show lidx_main_v38 (ix2 i q) k = ix2 i k from by idx2, show ridx_main_v38 (ix2 i q) k = ix2 k q from by idx2,
    val_main_v37_apply, v36_at x0 x1 x2 x3 x4 x5 hr, Ideal.addf_def]
  rfl

include hr in
/-- The perceptron's hidden row: the relu of the first affine map. -/
theorem v43_at (i : Fin 10000) (q : Fin 256) :
    val_main_v43 (F := Ideal) x0 x1 x2 x3 x4 x5 x6 x7 (ix2 i q)
      = Spec.relu (Spec.dense (R x6) (V x7) (fun k => R h₁ i k + Spec.agg (SpecArr.src x1) (SpecArr.dst x1) (R h₁) i k)) q := by
  rw [val_main_v43_apply, val_main_v42_apply, val_main_cst_6_apply, v41_at x0 x1 x2 x3 x4 x5 x6 x7 hr, Ideal.maximumf_def,
    show (FloatOps.ofBits .f32 0x00000000#32 : Ideal .f32) = 0 from Ideal.ofBits_zero_f32]
  rfl

include hr in
/-- The second layer: the perceptron of every node's own row plus its neighbour sum. -/
theorem v47_at (i : Fin 10000) (q : Fin 256) :
    val_main_v47 (F := Ideal) x0 x1 x2 x3 x4 x5 x6 x7 x8 x9 (ix2 i q)
      = Spec.conv (SpecArr.src x1) (SpecArr.dst x1) (R x6) (V x7) (R x8) (V x9) (R h₁) i q := by
  rw [val_main_v47_apply, val_main_v44_apply, val_main_v46_apply, val_main_v45_apply, Ideal.addf_def]
  show _ = (∑ k : Fin 256, Spec.relu (Spec.dense (R x6) (V x7) (fun k => R h₁ i k + Spec.agg (SpecArr.src x1) (SpecArr.dst x1) (R h₁) i k)) k
      * R x8 k q) + V x9 q
  refine congrArg₂ (· + ·) (Finset.sum_congr rfl fun k _ => ?_) (congrArg x9 (by idx1))
  rw [show lidx_main_v44 (ix2 i q) k = ix2 i k from by idx2, show ridx_main_v44 (ix2 i q) k = ix2 k q from by idx2,
    v43_at x0 x1 x2 x3 x4 x5 x6 x7 hr]
  rfl

include hr in
/-- The features after the second layer and its relu, row by row. -/
theorem v49_rows :
    R (val_main_v49 (F := Ideal) x0 x1 x2 x3 x4 x5 x6 x7 x8 x9)
      = fun i => Spec.relu (Spec.conv (SpecArr.src x1) (SpecArr.dst x1) (R x6) (V x7) (R x8) (V x9) (R h₁) i) := by
  funext i q
  show val_main_v49 (F := Ideal) x0 x1 x2 x3 x4 x5 x6 x7 x8 x9 (ix2 i q) = _
  rw [val_main_v49_apply, val_main_v48_apply, val_main_cst_7_apply, v47_at x0 x1 x2 x3 x4 x5 x6 x7 x8 x9 hr, Ideal.maximumf_def,
    show (FloatOps.ofBits .f32 0x00000000#32 : Ideal .f32) = 0 from Ideal.ofBits_zero_f32]
  rfl

end layer2

/-! ## Third layer -/

section layer3
variable (x0 : (⟨S10000x128, .f32⟩ : BufTy).Contents (Elt Ideal)) (x1 : (⟨S2x640000, .i32⟩ : BufTy).Contents (Elt Ideal))
  (x2 : (⟨S128x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal))
  (x10 : (⟨S256x256, .f32⟩ : BufTy).Contents (Elt Ideal)) (x11 : (⟨S256, .f32⟩ : BufTy).Contents (Elt Ideal))
  (x12 : (⟨S256x256, .f32⟩ : BufTy).Contents (Elt Ideal)) (x13 : (⟨S256, .f32⟩ : BufTy).Contents (Elt Ideal))
  (hr : ∀ i : S2x640000.Idx, 0 ≤ (x1 i).toInt ∧ (x1 i).toInt < 10000)

/-- The features this layer starts from: the second layer's result after its relu. -/
local notation "h₂" => (val_main_v49 (F := Ideal) x0 x1 x2 x3 x4 x5 x6 x7 x8 x9)

/-- The array the neighbour sum is added into is zero. -/
theorem v57_zero (i : S10000x256.Idx) : val_main_v57 (F := Ideal) i = 0 := by
  rw [val_main_v57_apply, val_main_cst_10_apply]; exact Ideal.ofBits_zero_f32

include hr in
/-- The third layer's neighbour sum. -/
theorem v59_at (i : Fin 10000) (k : Fin 256) :
    val_main_v59 (F := Ideal) x0 x1 x2 x3 x4 x5 x6 x7 x8 x9 (ix2 i k)
      = Spec.agg (SpecArr.src x1) (SpecArr.dst x1) (R h₂) i k := by
  unfold val_main_v59 val_main_v56
  generalize val_main_v49 (F := Ideal) x0 x1 x2 x3 x4 x5 x6 x7 x8 x9 = h
  have key := aggregate_at (C := 256) gather_S10000x256_S640000x1_S640000x256_1_0_n_n_0_1_1256 rfl rfl rfl rfl rfl
    scatter_S10000x256_S640000x1_S640000x256_1_0_0_1 rfl rfl rfl rfl x1 hr (val_main_v55 (F := Ideal) x1) (val_main_v58 (F := Ideal) x1)
    (fun e => v55_at x1 e (hr _).1) (v58_at x1) (val_main_v57 (F := Ideal)) h v57_zero i k
  exact key

include hr in
/-- The first affine map of the third layer's perceptron, on the node's own row plus its neighbour sum. -/
theorem v64_at (i : Fin 10000) (q : Fin 256) :
    val_main_v64 (F := Ideal) x0 x1 x2 x3 x4 x5 x6 x7 x8 x9 x10 x11 (ix2 i q)
      = Spec.dense (R x10) (V x11) (fun k => R h₂ i k + Spec.agg (SpecArr.src x1) (SpecArr.dst x1) (R h₂) i k) q := by
  rw [val_main_v64_apply, val_main_v61_apply, val_main_v63_apply, val_main_v62_apply]
  unfold Cert.Spec.dense
  rw [Ideal.addf_def]
  refine congrArg₂ (· + ·) (Finset.sum_congr rfl fun k _ => ?_) (congrArg x11 (by idx1))
  rw [show lidx_main_v61 (ix2 i q) k = ix2 i k from by idx2, show ridx_main_v61 (ix2 i q) k = ix2 k q from by idx2,
    val_main_v60_apply, v59_at x0 x1 x2 x3 x4 x5 x6 x7 x8 x9 hr, Ideal.addf_def]
  rfl

include hr in
/-- The perceptron's hidden row: the relu of the first affine map. -/
theorem v66_at (i : Fin 10000) (q : Fin 256) :
    val_main_v66 (F := Ideal) x0 x1 x2 x3 x4 x5 x6 x7 x8 x9 x10 x11 (ix2 i q)
      = Spec.relu (Spec.dense (R x10) (V x11) (fun k => R h₂ i k + Spec.agg (SpecArr.src x1) (SpecArr.dst x1) (R h₂) i k)) q := by
  rw [val_main_v66_apply, val_main_v65_apply, val_main_cst_11_apply, v64_at x0 x1 x2 x3 x4 x5 x6 x7 x8 x9 x10 x11 hr, Ideal.maximumf_def,
    show (FloatOps.ofBits .f32 0x00000000#32 : Ideal .f32) = 0 from Ideal.ofBits_zero_f32]
  rfl

include hr in
/-- The third layer: the perceptron of every node's own row plus its neighbour sum. -/
theorem v70_at (i : Fin 10000) (q : Fin 256) :
    val_main_v70 (F := Ideal) x0 x1 x2 x3 x4 x5 x6 x7 x8 x9 x10 x11 x12 x13 (ix2 i q)
      = Spec.conv (SpecArr.src x1) (SpecArr.dst x1) (R x10) (V x11) (R x12) (V x13) (R h₂) i q := by
  rw [val_main_v70_apply, val_main_v67_apply, val_main_v69_apply, val_main_v68_apply, Ideal.addf_def]
  show _ = (∑ k : Fin 256, Spec.relu (Spec.dense (R x10) (V x11) (fun k => R h₂ i k + Spec.agg (SpecArr.src x1) (SpecArr.dst x1) (R h₂) i k)) k
      * R x12 k q) + V x13 q
  refine congrArg₂ (· + ·) (Finset.sum_congr rfl fun k _ => ?_) (congrArg x13 (by idx1))
  rw [show lidx_main_v67 (ix2 i q) k = ix2 i k from by idx2, show ridx_main_v67 (ix2 i q) k = ix2 k q from by idx2,
    v66_at x0 x1 x2 x3 x4 x5 x6 x7 x8 x9 x10 x11 hr]
  rfl

end layer3

/-! ## The whole program -/

/-- The last stage of the reference, as a function of the fourteen argument arrays, is the network. -/
theorem net_value
    (x0 : (⟨S10000x128, .f32⟩ : BufTy).Contents (Elt Ideal)) (x1 : (⟨S2x640000, .i32⟩ : BufTy).Contents (Elt Ideal))
    (x2 : (⟨S128x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (x10 : (⟨S256x256, .f32⟩ : BufTy).Contents (Elt Ideal)) (x11 : (⟨S256, .f32⟩ : BufTy).Contents (Elt Ideal))
    (x12 : (⟨S256x256, .f32⟩ : BufTy).Contents (Elt Ideal)) (x13 : (⟨S256, .f32⟩ : BufTy).Contents (Elt Ideal))
    (hr : ∀ i : S2x640000.Idx, 0 ≤ (x1 i).toInt ∧ (x1 i).toInt < 10000) :
    val_main_v70 (F := Ideal) x0 x1 x2 x3 x4 x5 x6 x7 x8 x9 x10 x11 x12 x13 = Cert.SpecArr.out x0 x1 x2 x3 x4 x5 x6 x7 x8 x9 x10 x11 x12 x13 := by
  funext j
  obtain ⟨i, q, rfl⟩ : ∃ (i : Fin 10000) (q : Fin 256), j = ix2 i q := ⟨j 0, j 1, eq_ix2 j⟩
  rw [v70_at x0 x1 x2 x3 x4 x5 x6 x7 x8 x9 x10 x11 x12 x13 hr, v49_rows x0 x1 x2 x3 x4 x5 x6 x7 x8 x9 hr, v26_rows x0 x1 x2 x3 x4 x5 hr]
  rfl

/-- The reference's result is the network of the argument arrays, when every word of the edge list is a node number. -/
theorem ref_value (m : (ℓ : Loc nD τ sig) → Buf (Elt Ideal) ℓ) (c : Dev nD)
    (hr : ∀ i : S2x640000.Idx, 0 ≤ ((m ((c.tc : Thread nD τ).loc main_arg1)) i).toInt
      ∧ ((m ((c.tc : Thread nD τ).loc main_arg1)) i).toInt < 10000) :
    Cert.ReferenceIdeal.Value.res_main_v70 (F := Ideal) m c
      = Cert.SpecArr.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) :=
  (val_main_v70_eq (F := Ideal) m c).trans (net_value _ _ _ _ _ _ _ _ _ _ _ _ _ _ hr)

/-- Every execution of the reference ends with the network of the argument arrays in its result buffer and the arguments
    unchanged, when every word of the edge list is a node number. -/
theorem ref_run (m : (ℓ : Loc nD τ sig) → Buf (Elt Ideal) ℓ) (ρ : Dev nD → PrngReg)
    (hr : ∀ (c : Dev nD) (i : S2x640000.Idx), 0 ≤ ((m ((c.tc : Thread nD τ).loc main_arg1)) i).toInt
      ∧ ((m ((c.tc : Thread nD τ).loc main_arg1)) i).toInt < 10000) :
    θ_run defs (onTc (τ := τ) (main (F := Ideal))) ⟨m, fun _ => 0, ρ⟩ fun r => ∀ c : Dev nD,
      r.2.mem ((c.tc : Thread nD τ).loc main_v70)
        = Cert.SpecArr.out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (ref_value m c (hr c)), (h c).2⟩)
    (Cert.ReferenceIdeal.Value.run (F := Ideal) m ρ)

end Cert.ReferenceIdeal.RefValue

end
-- ==== Proof.LibRows.lean ====
/-
  Row-wise reading of two-dimensional arrays at the ideal values, for any number of rows.

  A network that treats every row of its input alike (a chain of affine layers, pointwise
  functions, joins of feature vectors and reductions along the feature axis) is one function of a
  single row. This file says so layer by layer, at the level of whole arrays: an array is
  `ofRows f` when its row `i` is `f i`, and each layer sends `ofRows f` to `ofRows` of the
  layer's row function applied to `f i`. The statements hold for every row count, so the same
  lemma reads a block of rows and the whole array.

  * `lin w b v`: the affine map `j ↦ (∑ₖ v k · w (j,k)) + b j` (weights stored output-major).
  * `cat u v`: two feature vectors joined.
  * `rowMax`, `rowSum`: the fold of `max` from `⊥`, and the sum, over a row.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Idealize.ShloMosaic.Rows

open Idealize.ShloMosaic Idealize.ShloMosaic.ValueIdx

variable {N K M : ℕ}

/-! ## Arrays as families of rows -/

/-- The array whose row `i` is `f i`. -/
def ofRows (f : Fin N → Fin K → EReal) : FVec Ideal ⟨2, ![N, K]⟩ .f32 := fun i => f (i 0) (i 1)

/-- Row `i` of an array. -/
def rowOf (A : FVec Ideal ⟨2, ![N, K]⟩ .f32) (i : Fin N) : Fin K → EReal := fun k => A (ix2 i k)

theorem rowOf_ofRows (f : Fin N → Fin K → EReal) (i : Fin N) : rowOf (ofRows f) i = f i := rfl

theorem ofRows_apply (f : Fin N → Fin K → EReal) (i : Fin N) (k : Fin K) : ofRows f (ix2 i k) = f i k := rfl

theorem ofRows_rowOf (A : FVec Ideal ⟨2, ![N, K]⟩ .f32) : ofRows (rowOf A) = A :=
  funext fun i => (congrArg A (eq_ix2 i)).symm

/-- Two arrays are equal when they agree at every (row, column). -/
theorem ext_ix2 {A B : FVec Ideal ⟨2, ![N, K]⟩ .f32} (h : ∀ i k, A (ix2 i k) = B (ix2 i k)) : A = B :=
  funext fun j => by rw [eq_ix2 j]; exact h _ _

/-! ## A plain matrix product read at (row, column) -/

theorem plain_lhs_0 (i : (⟨2, ![N, M]⟩ : Shape).Idx) (q : (DotDims.plain N K M).contr.Idx) :
    ((DotDims.plain N K M).lhsIdx i q 0).val = (i 0).val := by
  unfold DotDims.lhsIdx
  rw [dif_neg (show ¬(0 : Fin (⟨2, ![N, K]⟩ : Shape).rank) ∈ (DotDims.plain N K M).lhsBatch from List.not_mem_nil),
    dif_pos (show (0 : Fin (⟨2, ![N, K]⟩ : Shape).rank) ∈ (DotDims.plain N K M).lhsNonContracting from List.mem_singleton.mpr rfl)]
  rfl

theorem plain_lhs_1 (i : (⟨2, ![N, M]⟩ : Shape).Idx) (q : (DotDims.plain N K M).contr.Idx) :
    ((DotDims.plain N K M).lhsIdx i q 1).val = (q ⟨0, Nat.one_pos⟩).val :=
  (DotDims.plain N K M).lhsIdx_val_of_single rfl i q

theorem plain_rhs_0 (i : (⟨2, ![N, M]⟩ : Shape).Idx) (q : (DotDims.plain N K M).contr.Idx) :
    ((DotDims.plain N K M).rhsIdx i q 0).val = (q ⟨0, Nat.one_pos⟩).val :=
  (DotDims.plain N K M).rhsIdx_val_of_single rfl i q

theorem plain_rhs_1 (i : (⟨2, ![N, M]⟩ : Shape).Idx) (q : (DotDims.plain N K M).contr.Idx) :
    ((DotDims.plain N K M).rhsIdx i q 1).val = (i 1).val := by
  unfold DotDims.rhsIdx
  rw [dif_neg (show ¬(1 : Fin (⟨2, ![K, M]⟩ : Shape).rank) ∈ (DotDims.plain N K M).rhsBatch from List.not_mem_nil),
    dif_pos (show (1 : Fin (⟨2, ![K, M]⟩ : Shape).rank) ∈ (DotDims.plain N K M).rhsNonContracting from List.mem_singleton.mpr rfl)]
  rfl

/-- The sum over the one contracted axis, re-indexed by its coordinate. -/
theorem plain_sum (l : FVec Ideal ⟨2, ![N, K]⟩ .f32) (r : FVec Ideal ⟨2, ![K, M]⟩ .f32) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into a zero accumulator, at (i, j): the sum over k of l (i,k) · r (k,j). -/
theorem matmul_plain_apply (l : FVec Ideal ⟨2, ![N, K]⟩ .f32) (r : FVec Ideal ⟨2, ![K, M]⟩ .f32) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum l r i j

/-- The host's product, at (i, j): the same sum. -/
theorem dotGeneral_plain_apply (l : FVec Ideal ⟨2, ![N, K]⟩ .f32) (r : FVec Ideal ⟨2, ![K, M]⟩ .f32) (i : Fin N) (j : Fin M) :
    Host.dotGeneral (DotDims.plain N K M) none l r (ix2 i j) = ∑ k : Fin K, l (ix2 i k) * r (ix2 k j) := by
  show FloatOps.dotGeneral (DotDims.plain N K M) none .single l r (ix2 i j) = _
  rw [Ideal.dotGeneral_apply]
  exact plain_sum l r i j

/-! ## An affine layer -/

/-- One affine layer on a row `v`: output feature `j` is `(∑ₖ v k · w (j,k)) + b j`. -/
def lin (w : FVec Ideal ⟨2, ![M, K]⟩ .f32) (b : FVec Ideal ⟨1, ![M]⟩ .f32) (v : Fin K → EReal) : Fin M → EReal :=
  fun j => (∑ k : Fin K, v k * w (ix2 j k)) + b (ix1 j)

/-- The kernel's spelling of an affine layer: product with the transposed weights into a zero accumulator, plus the
    bias laid along every row. -/
theorem klin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩) (sc : (⟨1, ![M]⟩ : Shape).ShapeCasts ⟨2, ![1, M]⟩)
    (bc : (⟨2, ![1, M]⟩ : Shape).Broadcasts ⟨2, ![N, M]⟩) :
    addf (matmul (DotDims.plain N K M) none h (transpose ⟨2, ![K, M]⟩ [1, 0] w tr) (constant ⟨2, ![N, M]⟩ .f32 0x00000000#32))
        (broadcastTo ⟨2, ![N, M]⟩ (shapeCast ⟨2, ![1, M]⟩ b sc) bc)
      = ofRows fun i => lin w b (rowOf h i) := by
  refine ext_ix2 fun i j => ?_
  rw [addf_apply, matmul_plain_apply, broadcastTo_1b_ab_apply, shapeCast_a_1a_apply, ofRows_apply]
  unfold lin rowOf
  exact congrArg (· + b (ix1 j)) (Finset.sum_congr rfl fun k _ => by rw [transpose_ix2_apply])

/-- The host's spelling: `dot_general` with the transposed weights, plus the bias broadcast in two steps. -/
theorem hlin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩)
    (b1 : (⟨1, ![M]⟩ : Shape).BroadcastsInDim ⟨2, ![1, M]⟩ ![1])
    (b2 : (⟨2, ![1, M]⟩ : Shape).BroadcastsInDim ⟨2, ![N, M]⟩ ![0, 1]) :
    addf (Host.dotGeneral (DotDims.plain N K M) none h (transpose ⟨2, ![K, M]⟩ [1, 0] w tr))
        (broadcastInDim ⟨2, ![N, M]⟩ ![0, 1] b2 (broadcastInDim ⟨2, ![1, M]⟩ ![1] b1 b))
      = ofRows fun i => lin w b (rowOf h i) := by
  refine ext_ix2 fun i j => ?_
  rw [addf_apply, dotGeneral_plain_apply, Idealize.ShloMosaic.broadcastInDim_oneRow_apply, ofRows_apply]
  have e : broadcastInDim ⟨2, ![1, M]⟩ ![1] b1 b (ix2 (0 : Fin 1) j) = b (ix1 j) :=
    broadcastInDim_apply ![1] b1 b (ix2 (0 : Fin 1) j) (ix1 j) fun a => by
      match a with
      | ⟨0, _⟩ =>
        show j.val = if M = 1 then 0 else j.val
        split
        · have := j.isLt; omega
        · rfl
  rw [e]
  unfold lin rowOf
  exact congrArg (· + b (ix1 j)) (Finset.sum_congr rfl fun k _ => by rw [transpose_ix2_apply])

/-! ## Two feature vectors joined -/

/-- `u` followed by `v`. -/
def cat {A B C : ℕ} (hC : A + B = C) (u : Fin A → EReal) (v : Fin B → EReal) : Fin C → EReal :=
  fun j => if h : j.val < A then u ⟨j.val, h⟩ else v ⟨j.val - A, by have := j.isLt; omega⟩

/-- Joining two arrays along the feature axis joins their rows. -/
theorem cat_eq {A B C : ℕ} (hC : A + B = C) (x₁ : FVec Ideal ⟨2, ![N, A]⟩ .f32) (x₂ : FVec Ideal ⟨2, ![N, B]⟩ .f32)
    (hc : Shape.Concatenates [⟨2, ![N, A]⟩, ⟨2, ![N, B]⟩] ⟨2, ![N, C]⟩ 1) :
    concatenate ⟨2, ![N, C]⟩ 1 [⟨⟨2, ![N, A]⟩, x₁⟩, ⟨⟨2, ![N, B]⟩, x₂⟩] hc
      = ofRows fun i => cat hC (rowOf x₁ i) (rowOf x₂ i) := by
  refine ext_ix2 fun i j => ?_
  rw [ofRows_apply]
  unfold cat rowOf
  by_cases h : j.val < A
  · rw [dif_pos h]
    exact concatenate_pair_apply_left 1 x₁ x₂ hc (ix2 i j) rfl (ix2 i ⟨j.val, h⟩) fun b => by
      match b with
      | ⟨0, _⟩ => rfl
      | ⟨1, _⟩ => rfl
  · rw [dif_neg h]
    have hj := j.isLt
    refine concatenate_pair_apply_right 1 x₁ x₂ hc (ix2 i j) rfl rfl (ix2 i ⟨j.val - A, by omega⟩) (fun b hb => ?_) ?_
    · match b with
      | ⟨0, _⟩ => rfl
      | ⟨1, _⟩ => exact absurd rfl hb
    · show j.val - A + A = j.val
      omega

/-! ## Pointwise operations, row by row -/

section Pointwise
variable (x y : FVec Ideal ⟨2, ![N, K]⟩ .f32)

theorem sin_rows : sin x = ofRows fun i k => Ideal.sin (rowOf x i k) := ext_ix2 fun _ _ => rfl
theorem cos_rows : cos x = ofRows fun i k => Ideal.cos (rowOf x i k) := ext_ix2 fun _ _ => rfl
theorem exp_rows : exp x = ofRows fun i k => Ideal.exp (rowOf x i k) := ext_ix2 fun _ _ => rfl
theorem hsin_rows : Host.sin x = ofRows fun i k => Ideal.sin (rowOf x i k) := ext_ix2 fun _ _ => rfl
theorem hcos_rows : Host.cos x = ofRows fun i k => Ideal.cos (rowOf x i k) := ext_ix2 fun _ _ => rfl
theorem hexp_rows : Host.exp x = ofRows fun i k => Ideal.exp (rowOf x i k) := ext_ix2 fun _ _ => rfl
theorem addf_rows : addf x y = ofRows fun i k => rowOf x i k + rowOf y i k := ext_ix2 fun _ _ => rfl
theorem subf_rows : subf x y = ofRows fun i k => rowOf x i k - rowOf y i k := ext_ix2 fun _ _ => rfl
theorem mulf_rows : mulf x y = ofRows fun i k => rowOf x i k * rowOf y i k := ext_ix2 fun _ _ => rfl
theorem maximumf_rows : maximumf x y = ofRows fun i k => max (rowOf x i k) (rowOf y i k) := ext_ix2 fun _ _ => rfl
theorem divf_rows : divf x y = ofRows fun i k => Ideal.div (rowOf x i k) (rowOf y i k) := ext_ix2 fun _ _ => rfl
theorem hdivf_rows : Host.divf x y = ofRows fun i k => Ideal.div (rowOf x i k) (rowOf y i k) := ext_ix2 fun _ _ => rfl

end Pointwise

/-- A row of a kernel's scalar splat. -/
theorem rowOf_broadcast (b : BitVec 32) (i : Fin N) :
    rowOf (broadcast ⟨2, ![N, K]⟩ (Scalar.ofBits (F := Ideal) .f32 b)) i = fun _ => Ideal.ofBits .f32 b := rfl

/-- A row of the host's scalar constant broadcast to an array. -/
theorem rowOf_broadcastInDim_const (b : BitVec 32) (hb : (⟨0, ![]⟩ : Shape).BroadcastsInDim ⟨2, ![N, K]⟩ ![]) (i : Fin N) :
    rowOf (broadcastInDim ⟨2, ![N, K]⟩ ![] hb (constant (F := Ideal) ⟨0, ![]⟩ .f32 b)) i = fun _ => Ideal.ofBits .f32 b :=
  funext fun k => broadcastInDim_scalar_apply hb _ (ix2 i k)

/-! ## One value per row -/

/-- The one-axis array whose entry `i` is `f i`. -/
def ofVals (f : Fin N → EReal) : FVec Ideal ⟨1, ![N]⟩ .f32 := fun i => f (i 0)

/-- Entry `i` of a one-axis array. -/
def valOf (c : FVec Ideal ⟨1, ![N]⟩ .f32) (i : Fin N) : EReal := c (ix1 i)

theorem valOf_ofVals (f : Fin N → EReal) (i : Fin N) : valOf (ofVals f) i = f i := rfl

theorem ext_ix1 {a b : FVec Ideal ⟨1, ![N]⟩ .f32} (h : ∀ i, a (ix1 i) = b (ix1 i)) : a = b :=
  funext fun j => by rw [eq_ix1 j]; exact h _

theorem maximumf_vals (a b : FVec Ideal ⟨1, ![N]⟩ .f32) : maximumf a b = ofVals fun i => max (valOf a i) (valOf b i) :=
  ext_ix1 fun _ => rfl

theorem valOf_broadcast (b : BitVec 32) (i : Fin N) :
    valOf (broadcast ⟨1, ![N]⟩ (Scalar.ofBits (F := Ideal) .f32 b)) i = Ideal.ofBits .f32 b := rfl

theorem valOf_broadcastInDim_const (b : BitVec 32) (hb : (⟨0, ![]⟩ : Shape).BroadcastsInDim ⟨1, ![N]⟩ ![]) (i : Fin N) :
    valOf (broadcastInDim ⟨1, ![N]⟩ ![] hb (constant (F := Ideal) ⟨0, ![]⟩ .f32 b)) i = Ideal.ofBits .f32 b :=
  broadcastInDim_scalar_apply hb _ (ix1 i)

/-- The index a reduction over the feature axis reads: row `i`, feature `k`. -/
theorem lift_ix1 (h : (⟨2, ![N, M]⟩ : Shape).Reduces [1] ⟨1, ![N]⟩) (i : Fin N) (k : Fin M) :
    h.lift (ix1 i) k = ix2 i k :=
  funext fun a => Fin.ext (by
    match a with
    | ⟨0, _⟩ => rfl
    | ⟨1, _⟩ => rfl)

/-- The largest entry of a row, folded from the word `0xFF800000`'s value. -/
def rowMax (v : Fin M → EReal) : EReal := (Finset.univ : Finset (Fin M)).fold max (Ideal.ofBits .f32 0xFF800000#32) v

/-- A kernel's maximum along the feature axis. -/
theorem kmax_eq (x : FVec Ideal ⟨2, ![N, M]⟩ .f32) (h : (⟨2, ![N, M]⟩ : Shape).Reduces [1] ⟨1, ![N]⟩)
    (hφ : FKind.Formats .f32) (hacc : (0xFF800000#32 : BitVec 32) = FKind.maximumf.neutral .f32 hφ) :
    multiReduction .maximumf [1] ⟨1, ![N]⟩ x 0xFF800000#32 h hφ hacc = ofVals fun i => rowMax (rowOf x i) := by
  refine ext_ix1 fun i => ?_
  rw [Ideal.multiReduction_maximumf_single]
  show _ = rowMax (rowOf x i)
  unfold rowMax
  congr 1
  funext k
  exact congrArg x (lift_ix1 h i k)

/-- The host's maximum along the feature axis, from the same initial word. -/
theorem hmax_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduce FloatOps.maximumf x (constant (F := Ideal) ⟨0, ![]⟩ .f32 0xFF800000#32) h' hu
      = ofVals fun i => rowMax (rowOf x i) := by
  refine ext_ix1 fun i => ?_
  rw [Host.reduce_eq_fold_single FloatOps.maximumf x _ h' h hu]
  show _ = rowMax (rowOf x i)
  unfold rowMax
  congr 1
  funext k
  exact congrArg x (lift_ix1 h i k)

/-- A kernel's sum along the feature axis. -/
theorem ksum_eq (x : FVec Ideal ⟨2, ![N, M]⟩ .f32) (h : (⟨2, ![N, M]⟩ : Shape).Reduces [1] ⟨1, ![N]⟩)
    (hφ : FKind.Formats .f32) (hacc : (0x00000000#32 : BitVec 32) = FKind.add.neutral .f32 hφ) :
    multiReduction .add [1] ⟨1, ![N]⟩ x 0x00000000#32 h hφ hacc = ofVals fun i => ∑ k : Fin M, rowOf x i k := by
  refine ext_ix1 fun i => ?_
  rw [Ideal.multiReduction_add_single]
  exact Finset.sum_congr rfl fun k _ => congrArg x (lift_ix1 h i k)

/-- The host's sum along the feature axis from a zero initial value. -/
theorem hsum_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduceAdd x (constant (F := Ideal) ⟨0, ![]⟩ .f32 0x00000000#32) h' hu
      = ofVals fun i => ∑ k : Fin M, rowOf x i k := by
  refine ext_ix1 fun i => ?_
  rw [hostReduceAdd_apply, Ideal.hostReduceAdd_single h' h]
  show Ideal.ofBits .f32 0x00000000#32 + _ = _
  rw [Ideal.ofBits_zero_f32, zero_add]
  exact Finset.sum_congr rfl fun k _ => congrArg x (lift_ix1 h i k)

/-! ## One value per row laid along the row -/

/-- The kernel's way: a unit feature axis added, then broadcast along it. -/
theorem kcol_eq (c : FVec Ideal ⟨1, ![N]⟩ .f32) (sc : (⟨1, ![N]⟩ : Shape).ShapeCasts ⟨2, ![N, 1]⟩)
    (bc : (⟨2, ![N, 1]⟩ : Shape).Broadcasts ⟨2, ![N, M]⟩) :
    broadcastTo ⟨2, ![N, M]⟩ (shapeCast ⟨2, ![N, 1]⟩ c sc) bc = ofRows fun i _ => valOf c i := by
  refine ext_ix2 fun i j => ?_
  have e1 := broadcastTo_apply (shapeCast ⟨2, ![N, 1]⟩ c sc) bc (ix2 i j) (ix2 i (0 : Fin 1)) (by
    intro a
    match a with
    | ⟨0, _⟩ =>
      show i.val = if N = 1 then 0 else i.val
      split
      · have := i.isLt; omega
      · rfl
    | ⟨1, _⟩ => rfl)
  have e2 := shapeCast_apply c sc (ix2 i (0 : Fin 1)) (ix1 i) (by
    rw [Shape.rowMajor_val_two, Shape.rowMajor_val_one]; show i.val = i.val * 1 + 0; omega)
  exact e1.trans e2

/-- A unit feature axis added to a one-axis array. -/
theorem kcol1_eq (c : FVec Ideal ⟨1, ![N]⟩ .f32) (sc : (⟨1, ![N]⟩ : Shape).ShapeCasts ⟨2, ![N, 1]⟩) :
    shapeCast ⟨2, ![N, 1]⟩ c sc = ofRows fun i _ => valOf c i := by
  refine ext_ix2 fun i j => ?_
  exact shapeCast_apply c sc (ix2 i j) (ix1 i) (by
    rw [Shape.rowMajor_val_two, Shape.rowMajor_val_one]; show i.val = i.val * 1 + j.val; have := j.isLt; omega)

/-- The host's way: two `broadcast_in_dim`s. -/
theorem hcol_eq (c : FVec Ideal ⟨1, ![N]⟩ .f32) (b1 : (⟨1, ![N]⟩ : Shape).BroadcastsInDim ⟨2, ![N, 1]⟩ ![0])
    (b2 : (⟨2, ![N, 1]⟩ : Shape).BroadcastsInDim ⟨2, ![N, M]⟩ ![0, 1]) :
    broadcastInDim ⟨2, ![N, M]⟩ ![0, 1] b2 (broadcastInDim ⟨2, ![N, 1]⟩ ![0] b1 c) = ofRows fun i _ => valOf c i := by
  refine ext_ix2 fun i j => ?_
  have e1 := broadcastInDim_apply ![0, 1] b2 (broadcastInDim ⟨2, ![N, 1]⟩ ![0] b1 c) (ix2 i j) (ix2 i (0 : Fin 1)) (by
    intro a
    match a with
    | ⟨0, _⟩ =>
      show i.val = if N = 1 then 0 else i.val
      split
      · have := i.isLt; omega
      · rfl
    | ⟨1, _⟩ => rfl)
  have e2 := broadcastInDim_apply ![0] b1 c (ix2 i (0 : Fin 1)) (ix1 i) (by
    intro a
    match a with
    | ⟨0, _⟩ =>
      show i.val = if N = 1 then 0 else i.val
      split
      · have := i.isLt; omega
      · rfl)
  exact e1.trans e2

end Idealize.ShloMosaic.Rows

end
-- ==== Proof.LibPlainAny.lean ====
/-
  A plain matrix product  a · b  (left operand N × K, right operand K × M, contracting the left operand's
  axis 1 with the right operand's axis 0) into a zero accumulator, read at (row, column) at the ideal values,
  WHATEVER THE OPERANDS' FLOAT FORMATS: at (i, j) it is the one sum  ∑ₖ a (i, k) · b (k, j).
  At the ideal values every float format is the extended reals, so a kernel that narrows its operands before
  the product computes the same sum; the statements hold for every size.
  Also: the squashing function `tanh` of an array read at an index.
-/
import proofs.«410393_j66864050864374_3_alg».proof.Proof.LibRows
import Idealize.ShloMosaic.Lib.ValueIdx
import Idealize.ShloMosaic.PureOps.Ideal.Laws

noncomputable section

namespace Idealize.ShloMosaic.Rows

open Idealize.ShloMosaic Idealize.ShloMosaic.ValueIdx

variable {N K M : ℕ}

/-- The contraction sum of a plain product re-indexed by the contracted coordinate, whatever the operands' float
    formats (at the ideal values every format is the extended reals). -/
theorem plain_sum_any {φ₁ φ₂ : FTy} (l : FVec Ideal ⟨2, ![N, K]⟩ φ₁) (r : FVec Ideal ⟨2, ![K, M]⟩ φ₂) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's plain product into a zero accumulator at (i, j), whatever the operands' float formats. -/
theorem matmul_plain_any {φ₁ φ₂ : FTy} (l : FVec Ideal ⟨2, ![N, K]⟩ φ₁) (r : FVec Ideal ⟨2, ![K, M]⟩ φ₂) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum_any l r i j

/-- The squashing function at an index. -/
theorem tanh_at {s : Shape} {φ : FTy} (x : FVec Ideal s φ) (i : s.Idx) : tanh x i = Ideal.tanh (x i) := rfl

end Idealize.ShloMosaic.Rows

end
-- ==== Proof.PayValue.lean ====
/-
  The arithmetic of the three layer kernels' bodies, read at one (row, column), at the ideal values.

  Each body keeps an accumulator of node sums and does three things. It resets the accumulator to zero. It adds to the
  accumulator the product of a tile of the edge-count matrix (1280 × 2560) with a slice of the features (2560 × C). And,
  at the last step, it adds the nodes' own rows to the accumulator and pushes the sum through the two-layer perceptron
    v ↦ (max (v · Wa + ba) 0) · Wb + bb,
  followed in the first two kernels by one more max with 0, and in the third by nothing. The last store is the same
  value narrowed to the matrix unit's format. C = 128 in the first kernel and 256 in the other two.

  At the ideal values every float format is the extended reals and narrowing is the identity, so each of these values,
  read at (p, q), is the plain formula: a product into a zero accumulator is the sum over the contracted coordinate, a
  bias row broadcast down the rows reads the row at its column, and max with a splat of zero is max with 0. The general
  statements come first, at every size; the twelve stores' values follow from them.
-/
import proofs.«410393_j66864050864374_3_alg».proof.Proof.Gen.KernelIdeal.Skeleton
import proofs.«410393_j66864050864374_3_alg».proof.Proof.Spec
import proofs.«410393_j66864050864374_3_alg».proof.Proof.LibRows
import proofs.«410393_j66864050864374_3_alg».proof.Proof.LibPlainAny
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.PayValue

open Idealize.ShloMosaic Idealize.ShloMosaic.ValueIdx Cert.KernelIdeal Cert.KernelIdeal.Gen
open scoped BigOperators

/-! ## The general statements, at every size -/

section General

variable {N C D : ℕ}

/-- A splat of the zero word reads 0 everywhere. -/
theorem zeros_apply {s : Shape} (i : s.Idx) :
    broadcast s (Scalar.ofBits (F := Ideal) .f32 0x00000000#32) i = 0 :=
  Ideal.ofBits_zero_f32

/-- Max with a splat of zero, at an index: max with 0. -/
theorem relu_apply {s : Shape} (x : FVec Ideal s .f32) (i : s.Idx) :
    maximumf x (broadcast s (Scalar.ofBits (F := Ideal) .f32 0x00000000#32)) i = max (x i) 0 :=
  congrArg (max (x i)) Ideal.ofBits_zero_f32

/-- The same after narrowing, which at the ideal values changes nothing. -/
theorem relu_narrow_apply {s : Shape} (x : FVec Ideal s .f32) (hlt : FTy.bits .bf16 < FTy.bits .f32) (i : s.Idx) :
    truncf .bf16 (maximumf x (broadcast s (Scalar.ofBits (F := Ideal) .f32 0x00000000#32))) hlt i = max (x i) 0 :=
  relu_apply x i

/-- AN ACCUMULATION STEP: the accumulator plus a plain product into a zero accumulator, at (p, k), is the
    accumulator there plus the sum over the contracted coordinate. -/
theorem accum_apply {φ₁ φ₂ : FTy} (acc : FVec Ideal ⟨2, ![N, D]⟩ .f32) (a : FVec Ideal ⟨2, ![N, C]⟩ φ₁)
    (h : FVec Ideal ⟨2, ![C, D]⟩ φ₂) (p : Fin N) (k : Fin D) :
    addf acc (matmul (DotDims.plain N C D) none a h (constant (F := Ideal) ⟨2, ![N, D]⟩ .f32 0x00000000#32)) (ix2 p k)
      = acc (ix2 p k) + ∑ j : Fin C, a (ix2 p j) * h (ix2 j k) :=
  congrArg (fun t => acc (ix2 p k) + t) (Rows.matmul_plain_any a h p k)

/-- AN AFFINE LAYER: a plain product into a zero accumulator plus a bias row broadcast down the rows, at (p, q), is
    the sum over the contracted coordinate plus the bias at q. -/
theorem affine_apply {φ₁ φ₂ : FTy} (x : FVec Ideal ⟨2, ![N, C]⟩ φ₁) (w : FVec Ideal ⟨2, ![C, D]⟩ φ₂)
    (b : FVec Ideal ⟨2, ![1, D]⟩ .f32) (hb : (⟨2, ![1, D]⟩ : Shape).Broadcasts ⟨2, ![N, D]⟩) (p : Fin N) (q : Fin D) :
    addf (matmul (DotDims.plain N C D) none x w (constant (F := Ideal) ⟨2, ![N, D]⟩ .f32 0x00000000#32))
        (broadcastTo ⟨2, ![N, D]⟩ b hb) (ix2 p q)
      = (∑ k : Fin C, x (ix2 p k) * w (ix2 k q)) + b (ix2 (0 : Fin 1) q) := by
  show matmul (DotDims.plain N C D) none x w (constant (F := Ideal) ⟨2, ![N, D]⟩ .f32 0x00000000#32) (ix2 p q)
      + broadcastTo ⟨2, ![N, D]⟩ b hb (ix2 p q) = _
  rw [Rows.matmul_plain_any x w p q, broadcastTo_1b_ab_apply b hb p q]

/-- THE PERCEPTRON of a body on the sum of two arrays' rows, before any closing max: the sum is narrowed, goes through
    the first affine layer, max with 0, is narrowed again, and goes through the second affine layer. At (p, q) this is
    the perceptron of row p of the sum, at q. -/
theorem mlp_apply (hlt : FTy.bits .bf16 < FTy.bits .f32) (hb : (⟨2, ![1, 256]⟩ : Shape).Broadcasts ⟨2, ![N, 256]⟩)
    (v19 v21 : FVec Ideal ⟨2, ![N, C]⟩ .f32) (v24 : FVec Ideal ⟨2, ![C, 256]⟩ .bf16) (v27 : FVec Ideal ⟨2, ![1, 256]⟩ .f32)
    (v34 : FVec Ideal ⟨2, ![256, 256]⟩ .bf16) (v37 : FVec Ideal ⟨2, ![1, 256]⟩ .f32) (p : Fin N) (q : Fin 256) :
    addf (matmul (DotDims.plain N 256 256) none
          (truncf .bf16 (maximumf (addf (matmul (DotDims.plain N C 256) none (truncf .bf16 (addf v19 v21) hlt) v24
              (constant (F := Ideal) ⟨2, ![N, 256]⟩ .f32 0x00000000#32)) (broadcastTo ⟨2, ![N, 256]⟩ v27 hb))
            (broadcast ⟨2, ![N, 256]⟩ (Scalar.ofBits (F := Ideal) .f32 0x00000000#32))) hlt)
          v34 (constant (F := Ideal) ⟨2, ![N, 256]⟩ .f32 0x00000000#32))
        (broadcastTo ⟨2, ![N, 256]⟩ v37 hb) (ix2 p q)
      = Cert.Spec.mlp (fun i q => v24 (ix2 i q)) (fun q => v27 (ix2 0 q)) (fun i q => v34 (ix2 i q))
          (fun q => v37 (ix2 0 q)) (fun k => v19 (ix2 p k) + v21 (ix2 p k)) q := by
  refine (affine_apply _ v34 v37 hb p q).trans ?_
  show _ = (∑ i : Fin 256, max ((∑ k : Fin C, (v19 (ix2 p k) + v21 (ix2 p k)) * v24 (ix2 k i)) + v27 (ix2 0 i)) 0
      * v34 (ix2 i q)) + v37 (ix2 0 q)
  congr 1
  refine Finset.sum_congr rfl fun i _ => ?_
  congr 1
  refine (relu_narrow_apply _ hlt (ix2 p i)).trans ?_
  congr 1
  exact affine_apply (truncf .bf16 (addf v19 v21) hlt) v24 v27 hb p i

end General

/-! ## The first kernel (C = 128) -/

/-- The reset: zero everywhere. -/
theorem pay0_1_apply (p : Fin 1280) (k : Fin 128) : (k0_pay1 (F := Ideal)) (ix2 p k) = 0 := by
  unfold k0_pay1
  rw [shapeCast_self]
  exact zeros_apply _

/-- The accumulation: the accumulator plus the tile of edge counts times the slice of features. -/
theorem pay0_2_apply (v6 : FVec Ideal S2560x128 .bf16) (v8 : FVec Ideal S1280x128 .f32) (v9 : FVec Ideal S1280x2560 .bf16)
    (p : Fin 1280) (k : Fin 128) :
    k0_pay2 (F := Ideal) v6 v8 v9 (ix2 p k) = v8 (ix2 p k) + ∑ j : Fin 2560, v9 (ix2 p j) * v6 (ix2 j k) := by
  unfold k0_pay2
  rw [shapeCast_self, shapeCast_self, shapeCast_self]
  exact accum_apply (N := 1280) (C := 2560) (D := 128) v8 v9 v6 p k

/-- The last step: max with 0 of the perceptron of own row plus node sum. -/
theorem pay0_3_apply (v19 v21 : FVec Ideal S1280x128 .f32) (v24 : FVec Ideal S128x256 .bf16) (v27 : FVec Ideal S1x256 .f32)
    (v34 : FVec Ideal S256x256 .bf16) (v37 : FVec Ideal S1x256 .f32) (p : Fin 1280) (q : Fin 256) :
    k0_pay3 (F := Ideal) v19 v21 v24 v27 v34 v37 (ix2 p q)
      = Cert.Spec.relu (Cert.Spec.mlp (fun i q => v24 (ix2 i q)) (fun q => v27 (ix2 0 q)) (fun i q => v34 (ix2 i q))
          (fun q => v37 (ix2 0 q)) (fun k => v19 (ix2 p k) + v21 (ix2 p k))) q := by
  unfold k0_pay3
  rw [shapeCast_self, shapeCast_self, shapeCast_self, shapeCast_self, shapeCast_self]
  refine (relu_apply _ (ix2 p q)).trans ?_
  exact congrArg (fun t => max t 0)
    (mlp_apply (N := 1280) (C := 128) Facts₀.bitsLt_bf16_f32 Facts₀.broadcasts_S1x256_S1280x256 v19 v21 v24 v27 v34 v37 p q)

/-- The same value narrowed for the next kernel's matrix unit. -/
theorem pay0_4_apply (v19 v21 : FVec Ideal S1280x128 .f32) (v24 : FVec Ideal S128x256 .bf16) (v27 : FVec Ideal S1x256 .f32)
    (v34 : FVec Ideal S256x256 .bf16) (v37 : FVec Ideal S1x256 .f32) (p : Fin 1280) (q : Fin 256) :
    k0_pay4 (F := Ideal) v19 v21 v24 v27 v34 v37 (ix2 p q)
      = Cert.Spec.relu (Cert.Spec.mlp (fun i q => v24 (ix2 i q)) (fun q => v27 (ix2 0 q)) (fun i q => v34 (ix2 i q))
          (fun q => v37 (ix2 0 q)) (fun k => v19 (ix2 p k) + v21 (ix2 p k))) q :=
  pay0_3_apply v19 v21 v24 v27 v34 v37 p q

/-! ## The second kernel (C = 256) -/

/-- The reset: zero everywhere. -/
theorem pay1_1_apply (p : Fin 1280) (k : Fin 256) : (k1_pay1 (F := Ideal)) (ix2 p k) = 0 := by
  unfold k1_pay1
  rw [shapeCast_self]
  exact zeros_apply _

/-- The accumulation: the accumulator plus the tile of edge counts times the slice of features. -/
theorem pay1_2_apply (v6 : FVec Ideal S2560x256 .bf16) (v8 : FVec Ideal S1280x256 .f32) (v9 : FVec Ideal S1280x2560 .bf16)
    (p : Fin 1280) (k : Fin 256) :
    k1_pay2 (F := Ideal) v6 v8 v9 (ix2 p k) = v8 (ix2 p k) + ∑ j : Fin 2560, v9 (ix2 p j) * v6 (ix2 j k) := by
  unfold k1_pay2
  rw [shapeCast_self, shapeCast_self, shapeCast_self]
  exact accum_apply (N := 1280) (C := 2560) (D := 256) v8 v9 v6 p k

/-- The last step: max with 0 of the perceptron of own row plus node sum. -/
theorem pay1_3_apply (v19 v21 : FVec Ideal S1280x256 .f32) (v24 : FVec Ideal S256x256 .bf16) (v27 : FVec Ideal S1x256 .f32)
    (v34 : FVec Ideal S256x256 .bf16) (v37 : FVec Ideal S1x256 .f32) (p : Fin 1280) (q : Fin 256) :
    k1_pay3 (F := Ideal) v19 v21 v24 v27 v34 v37 (ix2 p q)
      = Cert.Spec.relu (Cert.Spec.mlp (fun i q => v24 (ix2 i q)) (fun q => v27 (ix2 0 q)) (fun i q => v34 (ix2 i q))
          (fun q => v37 (ix2 0 q)) (fun k => v19 (ix2 p k) + v21 (ix2 p k))) q := by
  unfold k1_pay3
  rw [shapeCast_self, shapeCast_self, shapeCast_self, shapeCast_self, shapeCast_self]
  refine (relu_apply _ (ix2 p q)).trans ?_
  exact congrArg (fun t => max t 0)
    (mlp_apply (N := 1280) (C := 256) Facts₀.bitsLt_bf16_f32 Facts₀.broadcasts_S1x256_S1280x256 v19 v21 v24 v27 v34 v37 p q)

/-- The same value narrowed to the matrix unit's format. -/
theorem pay1_4_apply (v19 v21 : FVec Ideal S1280x256 .f32) (v24 : FVec Ideal S256x256 .bf16) (v27 : FVec Ideal S1x256 .f32)
    (v34 : FVec Ideal S256x256 .bf16) (v37 : FVec Ideal S1x256 .f32) (p : Fin 1280) (q : Fin 256) :
    k1_pay4 (F := Ideal) v19 v21 v24 v27 v34 v37 (ix2 p q)
      = Cert.Spec.relu (Cert.Spec.mlp (fun i q => v24 (ix2 i q)) (fun q => v27 (ix2 0 q)) (fun i q => v34 (ix2 i q))
          (fun q => v37 (ix2 0 q)) (fun k => v19 (ix2 p k) + v21 (ix2 p k))) q :=
  pay1_3_apply v19 v21 v24 v27 v34 v37 p q

/-! ## The third kernel (C = 256) -/

/-- The reset: zero everywhere. -/
theorem pay2_1_apply (p : Fin 1280) (k : Fin 256) : (k2_pay1 (F := Ideal)) (ix2 p k) = 0 := by
  unfold k2_pay1
  rw [shapeCast_self]
  exact zeros_apply _

/-- The accumulation: the accumulator plus the tile of edge counts times the slice of features. -/
theorem pay2_2_apply (v6 : FVec Ideal S2560x256 .bf16) (v8 : FVec Ideal S1280x256 .f32) (v9 : FVec Ideal S1280x2560 .bf16)
    (p : Fin 1280) (k : Fin 256) :
    k2_pay2 (F := Ideal) v6 v8 v9 (ix2 p k) = v8 (ix2 p k) + ∑ j : Fin 2560, v9 (ix2 p j) * v6 (ix2 j k) := by
  unfold k2_pay2
  rw [shapeCast_self, shapeCast_self, shapeCast_self]
  exact accum_apply (N := 1280) (C := 2560) (D := 256) v8 v9 v6 p k

/-- The last step: the perceptron of own row plus node sum, with no closing max. -/
theorem pay2_3_apply (v19 v21 : FVec Ideal S1280x256 .f32) (v24 : FVec Ideal S256x256 .bf16) (v27 : FVec Ideal S1x256 .f32)
    (v34 : FVec Ideal S256x256 .bf16) (v37 : FVec Ideal S1x256 .f32) (p : Fin 1280) (q : Fin 256) :
    k2_pay3 (F := Ideal) v19 v21 v24 v27 v34 v37 (ix2 p q)
      = Cert.Spec.mlp (fun i q => v24 (ix2 i q)) (fun q => v27 (ix2 0 q)) (fun i q => v34 (ix2 i q))
          (fun q => v37 (ix2 0 q)) (fun k => v19 (ix2 p k) + v21 (ix2 p k)) q := by
  unfold k2_pay3
  rw [shapeCast_self, shapeCast_self, shapeCast_self, shapeCast_self, shapeCast_self]
  exact mlp_apply (N := 1280) (C := 256) Facts₀.bitsLt_bf16_f32 Facts₀.broadcasts_S1x256_S1280x256 v19 v21 v24 v27 v34 v37 p q

/-- The same value narrowed to the matrix unit's format. -/
theorem pay2_4_apply (v19 v21 : FVec Ideal S1280x256 .f32) (v24 : FVec Ideal S256x256 .bf16) (v27 : FVec Ideal S1x256 .f32)
    (v34 : FVec Ideal S256x256 .bf16) (v37 : FVec Ideal S1x256 .f32) (p : Fin 1280) (q : Fin 256) :
    k2_pay4 (F := Ideal) v19 v21 v24 v27 v34 v37 (ix2 p q)
      = Cert.Spec.mlp (fun i q => v24 (ix2 i q)) (fun q => v27 (ix2 0 q)) (fun i q => v34 (ix2 i q))
          (fun q => v37 (ix2 0 q)) (fun k => v19 (ix2 p k) + v21 (ix2 p k)) q :=
  pay2_3_apply v19 v21 v24 v27 v34 v37 p q

end Cert.KernelIdeal.PayValue

end
-- ==== Proof.LibCountSum.lean ====
import Mathlib.Data.EReal.Basic
import Mathlib.Data.EReal.Operations
import Mathlib.Algebra.BigOperators.Group.Finset.Basic
import Mathlib.Algebra.Order.BigOperators.Group.Finset
import Mathlib.Data.Fintype.BigOperators
import Mathlib.Algebra.BigOperators.Fin

/-!
# Counting sums on the extended reals

On the extended reals `[-∞, +∞]` multiplication does not distribute over addition in
general (for instance `(1 + (-1)) * ∞ = 0` while `1 * ∞ + (-1) * ∞` is `∞ + (-∞) = -∞`).
It does distribute when the two summands of the left factor are non-negative, and a
finite count, written as a sum of ones, is a sum of non-negative terms.  This file
records the consequences:

* `ones_mul`: `(∑ e ∈ s, 1) * x = ∑ e ∈ s, x` for every extended real `x`, including `±∞`
  (for the empty index set both sides are `0`, because `0 * x = 0` for every `x`);
* `count_matmul`: for a finite family of edges `S` with a source map `src : E → J`,
  `∑ j, (#{e ∈ S | src e = j}) * h j = ∑ e ∈ S, h (src e)`, where the multiplicity
  `#{…}` is a sum of ones started at zero;
* `count_matmul_pair`: the same statement when the multiplicity is keyed by the pair
  (destination, source), which gives the row `i` of the product of the multiplicity
  matrix with the vector `h` as the sum of `h (src e)` over the edges with `dst e = i`;
* `sum_four_blocks`, `sum_four_blocks_fin`: a sum over `4 * n` consecutive naturals is
  the sum, accumulated from zero, of its four consecutive blocks of length `n`.
-/

namespace Cert.CountSum

open Finset

/-- A finite sum of ones in the extended reals is non-negative. -/
theorem ones_nonneg {ι : Type*} (s : Finset ι) : (0 : EReal) ≤ ∑ _e ∈ s, (1 : EReal) :=
  Finset.sum_nonneg (fun _ _ => zero_le_one)

/-- Multiplying by a finite count is repeated addition: `(∑ e ∈ s, 1) * x = ∑ e ∈ s, x`
for every extended real `x`.  Induction on `s`; the step uses distributivity for two
non-negative summands, `(1 + c) * x = 1 * x + c * x` with `c` a sum of ones. -/
theorem ones_mul {ι : Type*} (s : Finset ι) (x : EReal) :
    (∑ _e ∈ s, (1 : EReal)) * x = ∑ _e ∈ s, x := by
  classical
  induction s using Finset.induction_on with
  | empty => simp
  | insert a s ha ih =>
    rw [Finset.sum_insert ha, Finset.sum_insert ha,
      EReal.right_distrib_of_nonneg zero_le_one (ones_nonneg s), one_mul, ih]

/-- The same with the count accumulated from zero. -/
theorem zero_add_ones_mul {ι : Type*} (s : Finset ι) (x : EReal) :
    ((0 : EReal) + ∑ _e ∈ s, (1 : EReal)) * x = ∑ _e ∈ s, x := by
  rw [zero_add, ones_mul]

/-- Multiplicity-weighted sum: summing `h j` weighted by the number of edges of `S` whose
source is `j` equals summing `h (src e)` over the edges of `S`. -/
theorem count_matmul {E J : Type*} [Fintype J] [DecidableEq J] (S : Finset E) (src : E → J)
    (h : J → EReal) :
    ∑ j : J, ((0 : EReal) + ∑ _e ∈ S.filter (fun e => src e = j), (1 : EReal)) * h j
      = ∑ e ∈ S, h (src e) := by
  simp_rw [zero_add_ones_mul]
  exact Finset.sum_fiberwise' S src h

/-- The multiplicity keyed by the pair (destination, source): row `i` of the product of the
multiplicity matrix with `h` is the sum of `h (src e)` over the edges `e` with `dst e = i`. -/
theorem count_matmul_pair {E I J : Type*} [Fintype J] [DecidableEq I] [DecidableEq J]
    [Fintype E] (dst : E → I) (src : E → J) (h : J → EReal) (i : I) :
    ∑ j : J, ((0 : EReal)
        + ∑ _e ∈ Finset.univ.filter (fun e => (dst e, src e) = (i, j)), (1 : EReal)) * h j
      = ∑ e ∈ Finset.univ.filter (fun e => dst e = i), h (src e) := by
  rw [← count_matmul (Finset.univ.filter (fun e => dst e = i)) src h]
  refine Finset.sum_congr rfl (fun j _ => ?_)
  congr 3
  ext e
  simp [Prod.ext_iff]

/-- A sum over `4 * n` consecutive naturals, cut into four consecutive blocks of length `n`
and accumulated from zero. -/
theorem sum_four_blocks (n : ℕ) (f : ℕ → EReal) :
    ((((0 : EReal) + ∑ j ∈ Finset.range n, f j) + ∑ j ∈ Finset.range n, f (n + j))
        + ∑ j ∈ Finset.range n, f (2 * n + j)) + ∑ j ∈ Finset.range n, f (3 * n + j)
      = ∑ j ∈ Finset.range (4 * n), f j := by
  have h4 : 4 * n = ((n + n) + n) + n := by omega
  have h2 : 2 * n = n + n := by omega
  have h3 : 3 * n = (n + n) + n := by omega
  rw [h4, Finset.sum_range_add, Finset.sum_range_add, Finset.sum_range_add, zero_add, h2, h3]

/-- The same with the blocks indexed by `Fin n` and the whole range by `Fin (4 * n)`. -/
theorem sum_four_blocks_fin (n : ℕ) (f : ℕ → EReal) :
    ((((0 : EReal) + ∑ j : Fin n, f j.val) + ∑ j : Fin n, f (n + j.val))
        + ∑ j : Fin n, f (2 * n + j.val)) + ∑ j : Fin n, f (3 * n + j.val)
      = ∑ j : Fin (4 * n), f j.val := by
  rw [Fin.sum_univ_eq_sum_range (fun j => f j) n, Fin.sum_univ_eq_sum_range (fun j => f (n + j)) n,
    Fin.sum_univ_eq_sum_range (fun j => f (2 * n + j)) n,
    Fin.sum_univ_eq_sum_range (fun j => f (3 * n + j)) n,
    Fin.sum_univ_eq_sum_range (fun j => f j) (4 * n)]
  exact sum_four_blocks n f

/-- A zero multiplicity contributes nothing, whatever the other factor (including `±∞`). -/
theorem mul_zero_pad {J : Type*} (a : J → EReal) (j : J) (x : EReal) (hj : a j = 0) :
    a j * x = 0 := by
  rw [hj, zero_mul]

end Cert.CountSum
-- ==== Proof.KVal0.lean ====
/-
  Region 0's two output arrays after the region, at the ideal values.

  The region runs one layer's kernel on an 8 × 4 grid: band m of 1280 output rows, slice k of 2560 columns of the
  band of edge counts. Within a band the accumulator is cleared at k = 0 and gains, at every k, the product of the
  band's k-th tile of edge counts with the k-th slice of the features; at k = 3 the own rows are added, the sum goes
  through the perceptron, and the two output blocks are stored and written back. So after the region, row r of
  either output array is the layer's value at row r: the closing function of the perceptron of
  (own row r) + Σⱼ (count r j) · (features j), the sum over all 10240 columns, joined from the four slices.

  The road: what each case of the body leaves in each buffer, as a value of what it loaded; the accumulator after
  each point, by induction on the point; the block written back at k = 3 as a function of the whole arrays; the
  four slices joined into the whole row sum; and the cover of the output arrays by the eight written blocks.
-/
import proofs.«410393_j66864050864374_3_alg».proof.Proof.Frame0
import proofs.«410393_j66864050864374_3_alg».proof.Proof.PayValue
import proofs.«410393_j66864050864374_3_alg».proof.Proof.LibCountSum
import proofs.«410393_j66864050864374_3_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## What each case of the body leaves, as a value of what it loaded -/

section Pieces

variable {F : FTy → Type} [FloatOps F]

/-- Zero offsets, however spelt. -/
theorem piece0_hz : (![0, 0] : Fin 2 → Nat) = fun _ => 0 := funext fun a => by fin_cases a <;> rfl

/-- The rectangle of the features the body loads at a point: rows [2560·k, 2560·k + 2560), all columns. -/
abbrev piece0_rect (i : grid0.Coords) : Rect S10240x128 := Rect.unit (k0_off1 i) S2560x128.size (k0_off1_inb i)

/-- k = 0: the accumulator is cleared, read back, and gains the first slice's product. -/
theorem piece0_A (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : cond0_0 i) (hc1 : ¬cond0_1 i) (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 = k0_pay2 (View.ld x1 (piece0_rect i)) (k0_pay1 (F := F)) x0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1280x128) piece0_hz, View.readCov_unit_zero (S := S1280x128) _ piece0_hz]
  simp only [View.readAt_eq_ld, harg2.read_unread, harg3.read_unread, View.ld_unit_zero (S := S1280x2560) piece0_hz]
  rfl

/-- k = 1, 2: the accumulator gains this slice's product. -/
theorem piece0_B (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : ¬cond0_1 i) (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs0 = k0_pay2 (View.ld x1 (piece0_rect i)) xs0 x0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero piece0_hz]
  simp only [View.readAt_eq_ld, harg2.read_unread, harg3.read_unread, harg11.read_unread,
    View.ld_unit_zero (S := S1280x128) piece0_hz, View.ld_unit_zero (S := S1280x2560) piece0_hz]
  rfl

/-- k = 3: the accumulator gains the last slice's product; -/
theorem piece0_C (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : cond0_1 i) (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 xs0 = k0_pay2 (View.ld x1 (piece0_rect i)) xs0 x0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero piece0_hz]
  simp only [View.readAt_eq_ld, harg2.read_unread, harg3.read_unread, harg11.read_unread,
    View.ld_unit_zero (S := S1280x128) piece0_hz, View.ld_unit_zero (S := S1280x2560) piece0_hz]
  rfl

/-- the first output's block is the perceptron of the own rows plus the accumulator as just updated; -/
theorem piece0_C7 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : cond0_1 i) (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 = k0_pay3 x2 (k0_pay2 (View.ld x1 (piece0_rect i)) xs0 x0) x3 x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero piece0_hz, View.readCov_unit_zero (S := S1280x128) _ piece0_hz]
  simp only [View.readAt_eq_ld, harg2.read_unread, harg3.read_unread, harg4.read_unread, harg5.read_unread,
    harg6.read_unread, harg7.read_unread, harg8.read_unread, harg11.read_unread,
    View.ld_unit_zero (S := S1280x128) piece0_hz, View.ld_unit_zero (S := S1280x2560) piece0_hz,
    View.ld_unit_zero (S := S128x256) piece0_hz, View.ld_unit_zero (S := S1x256) piece0_hz,
    View.ld_unit_zero (S := S256x256) piece0_hz]
  rfl

/-- and the second output's block is the same value narrowed. -/
theorem piece0_C8 (c : Dev nD) (i : grid0.Coords) (arg2 : Memref sig .tc .vmem S1280x2560 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x128 .f32) (harg11 : arg11.IsWhole) (hc0 : ¬cond0_0 i) (hc1 : cond0_1 i) (x0 : Vec F S1280x2560 .bf16) (x1 : Vec F S10240x128 .bf16) (x2 : Vec F S1280x128 .f32) (x3 : Vec F S128x256 .bf16) (x4 : Vec F S1x256 .f32) (x5 : Vec F S256x256 .bf16) (x6 : Vec F S1x256 .f32) (xs0 : Vec F S1280x128 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 xs0 = k0_pay4 x2 (k0_pay2 (View.ld x1 (piece0_rect i)) xs0 x0) x3 x4 x5 x6 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero piece0_hz, View.readCov_unit_zero (S := S1280x128) _ piece0_hz]
  simp only [View.readAt_eq_ld, harg2.read_unread, harg3.read_unread, harg4.read_unread, harg5.read_unread,
    harg6.read_unread, harg7.read_unread, harg8.read_unread, harg11.read_unread,
    View.ld_unit_zero (S := S1280x128) piece0_hz, View.ld_unit_zero (S := S1280x2560) piece0_hz,
    View.ld_unit_zero (S := S128x256) piece0_hz, View.ld_unit_zero (S := S1x256) piece0_hz,
    View.ld_unit_zero (S := S256x256) piece0_hz]
  rfl

end Pieces

/-! ## The arrays and the blocks, at the ideal values -/

section Value

variable (V : (c : Dev nD) → (b : Ref sig .tc) → Buf (Elt Ideal) ((c : Thread nD τ).loc b))

/-- The arrays as the region finds them: edge counts, features in the matrix unit's format, own rows, and the
    perceptron's two weight matrices and two bias rows. -/
abbrev KVal0_A (c : Dev nD) : S10240x10240.Idx → EReal := V c (Pipeline.arrRef spec0 0)
abbrev KVal0_HB (c : Dev nD) : S10240x128.Idx → EReal := V c (Pipeline.arrRef spec0 1)
abbrev KVal0_H (c : Dev nD) : S10240x128.Idx → EReal := V c (Pipeline.arrRef spec0 2)
abbrev KVal0_Wa (c : Dev nD) : S128x256.Idx → EReal := V c (Pipeline.arrRef spec0 3)
abbrev KVal0_ba (c : Dev nD) : S1x256.Idx → EReal := V c (Pipeline.arrRef spec0 4)
abbrev KVal0_Wb (c : Dev nD) : S256x256.Idx → EReal := V c (Pipeline.arrRef spec0 5)
abbrev KVal0_bb (c : Dev nD) : S1x256.Idx → EReal := V c (Pipeline.arrRef spec0 6)

/-- The blocks the body loads at a point. -/
abbrev KVal0_x0 (c : Dev nD) (t : Fin cfg0.N) : FVec Ideal S1280x2560 .bf16 := iblk0 V c 0 t
abbrev KVal0_x1 (c : Dev nD) (t : Fin cfg0.N) : FVec Ideal S10240x128 .bf16 := iblk0 V c 1 t
abbrev KVal0_x2 (c : Dev nD) (t : Fin cfg0.N) : FVec Ideal S1280x128 .f32 := iblk0 V c 2 t
abbrev KVal0_x3 (c : Dev nD) (t : Fin cfg0.N) : FVec Ideal S128x256 .bf16 := iblk0 V c 3 t
abbrev KVal0_x4 (c : Dev nD) (t : Fin cfg0.N) : FVec Ideal S1x256 .f32 := iblk0 V c 4 t
abbrev KVal0_x5 (c : Dev nD) (t : Fin cfg0.N) : FVec Ideal S256x256 .bf16 := iblk0 V c 5 t
abbrev KVal0_x6 (c : Dev nD) (t : Fin cfg0.N) : FVec Ideal S1x256 .f32 := iblk0 V c 6 t

/-- The printed index maps over the grid, decided: point t = 4·m + k reads tile (m, k) of the edge counts, band m of the
    own rows, writes band m of the outputs, and reads the other arrays whole; the body's slice of the features
    starts at row 2560·k. -/
theorem KVal0_idx : ∀ t : Fin cfg0.N,
    win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 4 ∧ win0_7.index t (1 : Fin 2) = 0
    ∧ win0_8.index t (0 : Fin 2) = t.val / 4 ∧ win0_8.index t (1 : Fin 2) = 0
    ∧ k0_off1 (grid0.coords t) (0 : Fin 2) = 2560 * (t.val % 4) ∧ k0_off1 (grid0.coords t) (1 : Fin 2) = 0 :=
  (by decide +kernel : ∀ t : Fin grid0.N, _)

/-! ## Where a block's element sits in its array -/

theorem KVal0_N : cfg0.N = 32 := N_0

/-- Row p of the band of point t, as a row of the whole arrays. -/
def blockRow0 (t : Fin cfg0.N) (p : Fin 1280) : Fin 10240 :=
  ⟨1280 * (t.val / 4) + p.val, by have h : t.val < 32 := lt_of_lt_of_eq t.isLt KVal0_N; have := p.isLt; omega⟩

/-- The tile of edge counts at point t: rows of the band, columns of slice k. -/
theorem KVal0_x0_apply (c : Dev nD) (t : Fin cfg0.N) (p : Fin 1280) (j : Fin 2560) (hj : (t.val % 4) * 2560 + j.val < 10240) :
    KVal0_x0 V c t (ix2 p j) = KVal0_A V c (ix2 (blockRow0 t p) ⟨(t.val % 4) * 2560 + j.val, hj⟩) := by
  obtain ⟨e0, e1, -⟩ := KVal0_idx t
  show KVal0_A V c (((cfg0.win 0).blk t).view.emb (ix2 p j)) = _
  congr 1
  funext a; apply Fin.ext
  match a with
  | ⟨0, _⟩ => show win0_0.index t (0 : Fin 2) * 1280 + 1 * p.val = 1280 * (t.val / 4) + p.val; rw [e0]; omega
  | ⟨1, _⟩ => show win0_0.index t (1 : Fin 2) * 2560 + 1 * j.val = (t.val % 4) * 2560 + j.val; rw [e1]; omega

/-- The slice of the features the body loads at point t: rows of slice k. -/
theorem KVal0_x1_apply (c : Dev nD) (t : Fin cfg0.N) (j : Fin 2560) (i : Fin 128) (hj : (t.val % 4) * 2560 + j.val < 10240) :
    View.ld (Val := Elt Ideal) (e' := EltTy.bf16) (KVal0_x1 V c t) (piece0_rect (grid0.coords t)) (ix2 j i) = KVal0_HB V c (ix2 ⟨(t.val % 4) * 2560 + j.val, hj⟩ i) := by
  obtain ⟨-, -, e0, e1, -, -, -, -, -, -, -, -, -, -, -, -, -, -, o0, o1⟩ := KVal0_idx t
  show KVal0_HB V c (((cfg0.win 1).blk t).view.emb ((piece0_rect (grid0.coords t)).emb (ix2 j i))) = _
  congr 1
  funext a; apply Fin.ext
  match a with
  | ⟨0, _⟩ => show win0_1.index t (0 : Fin 2) * 10240 + 1 * (k0_off1 (grid0.coords t) (0 : Fin 2) + 1 * j.val) = (t.val % 4) * 2560 + j.val; rw [e0, o0]; omega
  | ⟨1, _⟩ => show win0_1.index t (1 : Fin 2) * 128 + 1 * (k0_off1 (grid0.coords t) (1 : Fin 2) + 1 * i.val) = i.val; rw [e1, o1]; omega

/-- The band of own rows at point t. -/
theorem KVal0_x2_apply (c : Dev nD) (t : Fin cfg0.N) (p : Fin 1280) (k : Fin 128) :
    KVal0_x2 V c t (ix2 p k) = KVal0_H V c (ix2 (blockRow0 t p) k) := by
  obtain ⟨-, -, -, -, e0, e1, -⟩ := KVal0_idx t
  show KVal0_H V c (((cfg0.win 2).blk t).view.emb (ix2 p k)) = _
  congr 1
  funext a; apply Fin.ext
  match a with
  | ⟨0, _⟩ => show win0_2.index t (0 : Fin 2) * 1280 + 1 * p.val = 1280 * (t.val / 4) + p.val; rw [e0]; omega
  | ⟨1, _⟩ => show win0_2.index t (1 : Fin 2) * 128 + 1 * k.val = k.val; rw [e1]; omega

/-- The weights and bias rows are read whole at every point. -/
theorem KVal0_x3_eq (c : Dev nD) (t : Fin cfg0.N) : KVal0_x3 V c t = KVal0_Wa V c := by
  obtain ⟨-, -, -, -, -, -, e0, e1, -⟩ := KVal0_idx t
  funext y
  show KVal0_Wa V c (((cfg0.win 3).blk t).view.emb y) = _
  congr 1
  funext a; apply Fin.ext
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

theorem KVal0_x4_eq (c : Dev nD) (t : Fin cfg0.N) : KVal0_x4 V c t = KVal0_ba V c := by
  obtain ⟨-, -, -, -, -, -, -, -, e0, e1, -⟩ := KVal0_idx t
  funext y
  show KVal0_ba V c (((cfg0.win 4).blk t).view.emb y) = _
  congr 1
  funext a; apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

theorem KVal0_x5_eq (c : Dev nD) (t : Fin cfg0.N) : KVal0_x5 V c t = KVal0_Wb V c := by
  obtain ⟨-, -, -, -, -, -, -, -, -, -, e0, e1, -⟩ := KVal0_idx t
  funext y
  show KVal0_Wb V c (((cfg0.win 5).blk t).view.emb y) = _
  congr 1
  funext a; apply Fin.ext
  match a with
  | ⟨0, _⟩ => show win0_5.index t (0 : Fin 2) * 256 + 1 * (y 0).val = (y 0).val; rw [e0]; omega
  | ⟨1, _⟩ => show win0_5.index t (1 : Fin 2) * 256 + 1 * (y 1).val = (y 1).val; rw [e1]; omega

theorem KVal0_x6_eq (c : Dev nD) (t : Fin cfg0.N) : KVal0_x6 V c t = KVal0_bb V c := by
  obtain ⟨-, -, -, -, -, -, -, -, -, -, -, -, e0, e1, -⟩ := KVal0_idx t
  funext y
  show KVal0_bb V c (((cfg0.win 6).blk t).view.emb y) = _
  congr 1
  funext a; apply Fin.ext
  match a with
  | ⟨0, _⟩ => show win0_6.index t (0 : Fin 2) * 1 + 1 * (y 0).val = (y 0).val; rw [e0]; omega
  | ⟨1, _⟩ => show win0_6.index t (1 : Fin 2) * 256 + 1 * (y 1).val = (y 1).val; rw [e1]; omega

/-! ## The accumulator after each point -/

/-- Column j's term of row r's node sum at feature i, as a function of the natural number j (zero past the end). -/
def rowPt0 (c : Dev nD) (r : Fin 10240) (i : Fin 128) (j : ℕ) : EReal :=
  if h : j < 10240 then KVal0_A V c (ix2 r ⟨j, h⟩) * KVal0_HB V c (ix2 ⟨j, h⟩ i) else 0

/-- Slice k of a row's terms, added up. -/
def accAt0_slice (f : ℕ → EReal) (k : ℕ) : EReal := ∑ j : Fin 2560, f (k * 2560 + j.val)

/-- The running sum over the slices 0 … k, accumulated from zero in the order the grid visits them. -/
def accAt0 (f : ℕ → EReal) : ℕ → EReal
  | 0 => 0 + accAt0_slice f 0
  | k + 1 => accAt0 f k + accAt0_slice f (k + 1)

/-- The product the body adds at point t, at (p, i): slice k of row (band, p)'s terms. -/
theorem accAt0_prod (c : Dev nD) (t : Fin cfg0.N) (p : Fin 1280) (i : Fin 128) :
    (∑ j : Fin 2560, KVal0_x0 V c t (ix2 p j)
        * View.ld (Val := Elt Ideal) (e' := EltTy.bf16) (KVal0_x1 V c t) (piece0_rect (grid0.coords t)) (ix2 j i))
      = accAt0_slice (rowPt0 V c (blockRow0 t p) i) (t.val % 4) := by
  refine Finset.sum_congr rfl fun j _ => ?_
  have hj : (t.val % 4) * 2560 + j.val < 10240 := by have := j.isLt; omega
  rw [KVal0_x0_apply V c t p j hj, KVal0_x1_apply V c t j i hj]
  unfold rowPt0
  rw [dif_pos hj]

/-- k = 0: the accumulator is zero plus the first slice. -/
theorem accAt0_stepA (c : Dev nD) (t : Fin cfg0.N) (h0 : t.val % 4 = 0) (p : Fin 1280) (i : Fin 128) :
    ((outsAt0 V c t.val t.isLt).2.2 : S1280x128.Idx → EReal) (ix2 p i)
      = accAt0 (rowPt0 V c (blockRow0 t p) i) (t.val % 4) := by
  have h1 : ¬t.val % 4 = 3 := by omega
  rw [outsAt0_A V c t h0 h1]
  dsimp only
  refine (congrFun (piece0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) (ix2 p i)).trans ?_
  refine (PayValue.pay0_2_apply (View.ld (Val := Elt Ideal) (e' := EltTy.bf16) (KVal0_x1 V c t) (piece0_rect (grid0.coords t))) (k0_pay1 (F := Ideal)) (KVal0_x0 V c t) p i).trans ?_
  rw [PayValue.pay0_1_apply p i, accAt0_prod V c t p i, h0]
  rfl

/-- k > 0: the accumulator is what the point before left plus this slice. -/
theorem accAt0_stepB (c : Dev nD) (t : Fin cfg0.N) (h0 : ¬t.val % 4 = 0) (p : Fin 1280) (i : Fin 128) :
    ((outsAt0 V c t.val t.isLt).2.2 : S1280x128.Idx → EReal) (ix2 p i)
      = ((outsAt0 V c (t.val - 1) (Nat.lt_of_le_of_lt (Nat.sub_le _ _) t.isLt)).2.2 : S1280x128.Idx → EReal) (ix2 p i)
        + accAt0_slice (rowPt0 V c (blockRow0 t p) i) (t.val % 4) := by
  by_cases h1 : t.val % 4 = 3
  · rw [outsAt0_C V c t h0 h1]
    dsimp only
    refine (congrFun (piece0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2) (ix2 p i)).trans ?_
    refine (PayValue.pay0_2_apply (View.ld (Val := Elt Ideal) (e' := EltTy.bf16) (KVal0_x1 V c t) (piece0_rect (grid0.coords t))) (outsAt0 V c (t.val - 1) (Nat.lt_of_le_of_lt (Nat.sub_le _ _) t.isLt)).2.2 (KVal0_x0 V c t) p i).trans ?_
    rw [accAt0_prod V c t p i]
  · rw [outsAt0_B V c t h0 h1]
    dsimp only
    refine (congrFun (piece0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2) (ix2 p i)).trans ?_
    refine (PayValue.pay0_2_apply (View.ld (Val := Elt Ideal) (e' := EltTy.bf16) (KVal0_x1 V c t) (piece0_rect (grid0.coords t))) (outsAt0 V c (t.val - 1) (Nat.lt_of_le_of_lt (Nat.sub_le _ _) t.isLt)).2.2 (KVal0_x0 V c t) p i).trans ?_
    rw [accAt0_prod V c t p i]

/-- THE ACCUMULATOR after point t = 4·m + k, at (p, i): the slices 0 … k of row (m, p)'s terms, accumulated from
    zero — by induction on the point. -/
theorem accAt0_inv (c : Dev nD) : ∀ (n : ℕ) (t : Fin cfg0.N), t.val = n → ∀ (p : Fin 1280) (i : Fin 128),
    ((outsAt0 V c t.val t.isLt).2.2 : S1280x128.Idx → EReal) (ix2 p i)
      = accAt0 (rowPt0 V c (blockRow0 t p) i) (t.val % 4) := by
  intro n
  induction n with
  | zero =>
    intro t ht p i
    exact accAt0_stepA V c t (by omega) p i
  | succ n ih =>
    intro t ht p i
    by_cases h0 : t.val % 4 = 0
    · exact accAt0_stepA V c t h0 p i
    · rw [accAt0_stepB V c t h0 p i]
      have hlt : t.val - 1 < cfg0.N := Nat.lt_of_le_of_lt (Nat.sub_le _ _) t.isLt
      have e := ih ⟨t.val - 1, hlt⟩ (by show t.val - 1 = n; omega) p i
      have hrow : blockRow0 ⟨t.val - 1, hlt⟩ p = blockRow0 t p := Fin.ext (by
        show 1280 * ((t.val - 1) / 4) + p.val = 1280 * (t.val / 4) + p.val
        have : (t.val - 1) / 4 = t.val / 4 := by omega
        rw [this])
      rw [hrow] at e
      obtain ⟨k, hk⟩ : ∃ k, t.val % 4 = k + 1 := ⟨t.val % 4 - 1, by omega⟩
      have hk' : (t.val - 1) % 4 = k := by omega
      rw [hk]
      show _ = accAt0 _ k + accAt0_slice _ (k + 1)
      rw [← hk']
      exact congrArg (fun z => z + accAt0_slice (rowPt0 V c (blockRow0 t p) i) ((t.val - 1) % 4 + 1)) e

/-! ## The four slices joined: the whole row sum -/

/-- After the last slice the running sum is the sum over all 10240 columns. -/
theorem accAt0_three (f : ℕ → EReal) : accAt0 f 3 = ∑ j : Fin 10240, f j.val := by
  have e := Cert.CountSum.sum_four_blocks_fin 2560 f
  have s0 : accAt0_slice f 0 = ∑ j : Fin 2560, f j.val :=
    Finset.sum_congr rfl fun j _ => by rw [Nat.zero_mul, Nat.zero_add]
  have s1 : accAt0_slice f 1 = ∑ j : Fin 2560, f (2560 + j.val) :=
    Finset.sum_congr rfl fun j _ => by rw [Nat.one_mul]
  have s2 : accAt0_slice f 2 = ∑ j : Fin 2560, f (2 * 2560 + j.val) := rfl
  have s3 : accAt0_slice f 3 = ∑ j : Fin 2560, f (3 * 2560 + j.val) := rfl
  show (((0 + accAt0_slice f 0) + accAt0_slice f 1) + accAt0_slice f 2) + accAt0_slice f 3 = _
  rw [s0, s1, s2, s3]
  exact e

/-- The accumulator as just updated at point t (what the last step reads), at (p, i). -/
theorem accAt0_now (c : Dev nD) (t : Fin cfg0.N) (h0 : ¬t.val % 4 = 0) (p : Fin 1280) (i : Fin 128) :
    k0_pay2 (F := Ideal) (View.ld (Val := Elt Ideal) (e' := EltTy.bf16) (KVal0_x1 V c t) (piece0_rect (grid0.coords t)))
        (outsAt0 V c (t.val - 1) (Nat.lt_of_le_of_lt (Nat.sub_le _ _) t.isLt)).2.2 (KVal0_x0 V c t) (ix2 p i)
      = accAt0 (rowPt0 V c (blockRow0 t p) i) (t.val % 4) := by
  refine (PayValue.pay0_2_apply (View.ld (Val := Elt Ideal) (e' := EltTy.bf16) (KVal0_x1 V c t) (piece0_rect (grid0.coords t))) (outsAt0 V c (t.val - 1) (Nat.lt_of_le_of_lt (Nat.sub_le _ _) t.isLt)).2.2 (KVal0_x0 V c t) p i).trans ?_
  rw [accAt0_prod V c t p i]
  exact (accAt0_stepB V c t h0 p i).symm.trans (accAt0_inv V c t.val t rfl p i)

/-- At k = 3 it is the whole node sum of row (band, p) at feature i. -/
theorem accAt0_last (c : Dev nD) (t : Fin cfg0.N) (h1 : t.val % 4 = 3) (p : Fin 1280) (i : Fin 128) :
    accAt0 (rowPt0 V c (blockRow0 t p) i) (t.val % 4)
      = ∑ j : Fin 10240, KVal0_A V c (ix2 (blockRow0 t p) j) * KVal0_HB V c (ix2 j i) := by
  rw [h1, accAt0_three]
  refine Finset.sum_congr rfl fun j _ => ?_
  unfold rowPt0
  rw [dif_pos j.isLt]

/-! ## The layer's value, and the block written back at k = 3 -/

/-- The closing function of this layer: max with 0. -/
def act0 : (Fin 256 → EReal) → Fin 256 → EReal := Cert.Spec.relu

/-- The last step's two stores at (p, q): the closing function of the perceptron of own row plus accumulator. -/
theorem act0_pay (v19 v21 : FVec Ideal S1280x128 .f32) (v24 : FVec Ideal S128x256 .bf16) (v27 : FVec Ideal S1x256 .f32)
    (v34 : FVec Ideal S256x256 .bf16) (v37 : FVec Ideal S1x256 .f32) (p : Fin 1280) (q : Fin 256) :
    k0_pay3 (F := Ideal) v19 v21 v24 v27 v34 v37 (ix2 p q)
        = act0 (Cert.Spec.mlp (fun i q => v24 (ix2 i q)) (fun q => v27 (ix2 0 q)) (fun i q => v34 (ix2 i q))
            (fun q => v37 (ix2 0 q)) (fun k => v19 (ix2 p k) + v21 (ix2 p k))) q
      ∧ k0_pay4 (F := Ideal) v19 v21 v24 v27 v34 v37 (ix2 p q)
        = act0 (Cert.Spec.mlp (fun i q => v24 (ix2 i q)) (fun q => v27 (ix2 0 q)) (fun i q => v34 (ix2 i q))
            (fun q => v37 (ix2 0 q)) (fun k => v19 (ix2 p k) + v21 (ix2 p k))) q :=
  ⟨PayValue.pay0_3_apply v19 v21 v24 v27 v34 v37 p q, PayValue.pay0_4_apply v19 v21 v24 v27 v34 v37 p q⟩

/-- THE LAYER at row r, column q, as a function of the whole arrays: the closing function of the perceptron of
    (own row r) + Σⱼ (count r j) · (features j). -/
def final0_G (c : Dev nD) : S10240x256.Idx → EReal := fun y =>
  act0 (Cert.Spec.convDense (fun r j => KVal0_A V c (ix2 r j)) (fun j k => KVal0_HB V c (ix2 j k))
    (fun r k => KVal0_H V c (ix2 r k)) (fun i q => KVal0_Wa V c (ix2 i q)) (fun q => KVal0_ba V c (ix2 0 q))
    (fun i q => KVal0_Wb V c (ix2 i q)) (fun q => KVal0_bb V c (ix2 0 q)) (y 0)) (y 1)

/-- The perceptron of own row plus accumulator, at the blocks of point t with k = 3, is the layer at row (band, p). -/
theorem flushed0_mlp (c : Dev nD) (t : Fin cfg0.N) (h0 : ¬t.val % 4 = 0) (h1 : t.val % 4 = 3) (p : Fin 1280) (q : Fin 256) :
    act0 (Cert.Spec.mlp (fun i q => KVal0_x3 V c t (ix2 i q)) (fun q => KVal0_x4 V c t (ix2 0 q))
        (fun i q => KVal0_x5 V c t (ix2 i q)) (fun q => KVal0_x6 V c t (ix2 0 q))
        (fun k => KVal0_x2 V c t (ix2 p k)
          + k0_pay2 (F := Ideal) (View.ld (Val := Elt Ideal) (e' := EltTy.bf16) (KVal0_x1 V c t) (piece0_rect (grid0.coords t)))
              (outsAt0 V c (t.val - 1) (Nat.lt_of_le_of_lt (Nat.sub_le _ _) t.isLt)).2.2 (KVal0_x0 V c t) (ix2 p k))) q
      = final0_G V c (ix2 (blockRow0 t p) q) := by
  rw [KVal0_x3_eq V c t, KVal0_x4_eq V c t, KVal0_x5_eq V c t, KVal0_x6_eq V c t]
  show _ = act0 (Cert.Spec.mlp (fun i q => KVal0_Wa V c (ix2 i q)) (fun q => KVal0_ba V c (ix2 0 q))
    (fun i q => KVal0_Wb V c (ix2 i q)) (fun q => KVal0_bb V c (ix2 0 q))
    (fun k => KVal0_H V c (ix2 (blockRow0 t p) k)
      + ∑ j : Fin 10240, KVal0_A V c (ix2 (blockRow0 t p) j) * KVal0_HB V c (ix2 j k))) q
  refine congrArg (fun v => act0 (Cert.Spec.mlp (fun i q => KVal0_Wa V c (ix2 i q)) (fun q => KVal0_ba V c (ix2 0 q))
    (fun i q => KVal0_Wb V c (ix2 i q)) (fun q => KVal0_bb V c (ix2 0 q)) v) q) (funext fun k => ?_)
  rw [KVal0_x2_apply V c t p k, accAt0_now V c t h0 p k, accAt0_last V c t h1 p k]

/-- An element of an output block at point t sits at row (band, p), column q of its array. -/
theorem flushed0_at7 (c : Dev nD) (t : Fin cfg0.N) (G : S10240x256.Idx → EReal) (p : Fin 1280) (q : Fin 256) :
    (((cfg0.win 7).blk t).view.read (Elt Ideal) G : S1280x256.Idx → EReal) (ix2 p q) = G (ix2 (blockRow0 t p) q) := by
  obtain ⟨-, -, -, -, -, -, -, -, -, -, -, -, -, -, e0, e1, -⟩ := KVal0_idx t
  show G (((cfg0.win 7).blk t).view.emb (ix2 p q)) = _
  congr 1
  funext a; apply Fin.ext
  match a with
  | ⟨0, _⟩ => show win0_7.index t (0 : Fin 2) * 1280 + 1 * p.val = 1280 * (t.val / 4) + p.val; rw [e0]; omega
  | ⟨1, _⟩ => show win0_7.index t (1 : Fin 2) * 256 + 1 * q.val = q.val; rw [e1]; omega

theorem flushed0_at8 (c : Dev nD) (t : Fin cfg0.N) (G : S10240x256.Idx → EReal) (p : Fin 1280) (q : Fin 256) :
    (((cfg0.win 8).blk t).view.read (Elt Ideal) G : S1280x256.Idx → EReal) (ix2 p q) = G (ix2 (blockRow0 t p) q) := by
  obtain ⟨-, -, -, -, -, -, -, -, -, -, -, -, -, -, -, -, e0, e1, -⟩ := KVal0_idx t
  show G (((cfg0.win 8).blk t).view.emb (ix2 p q)) = _
  congr 1
  funext a; apply Fin.ext
  match a with
  | ⟨0, _⟩ => show win0_8.index t (0 : Fin 2) * 1280 + 1 * p.val = 1280 * (t.val / 4) + p.val; rw [e0]; omega
  | ⟨1, _⟩ => show win0_8.index t (1 : Fin 2) * 256 + 1 * q.val = q.val; rw [e1]; omega

/-- WHAT THE WRITE-BACK AT k = 3 WRITES into the first output: the band's block of the layer. -/
theorem flushed0_7 (c : Dev nD) (t : Fin cfg0.N) (hf : (cfg0.win 7).flush t = true) :
    (dat0 V c).flushed 7 t = ((cfg0.win 7).blk t).view.read (Elt Ideal) (final0_G V c) := by
  have h1 : t.val % 4 = 3 := (flush0_7 t).mp hf
  have h0 : ¬t.val % 4 = 0 := by omega
  show (cfg0.win 7).cut (grid0.coords t) ((dat0 V c).after 7 t) = _
  rw [after0_7, outsAt0_C V c t h0 h1]
  dsimp only
  refine funext fun (y : S1280x256.Idx) => ?_
  obtain ⟨p, q, rfl⟩ : ∃ (p : Fin 1280) (q : Fin 256), y = ix2 p q := ⟨y 0, y 1, eq_ix2 y⟩
  refine Eq.trans ?_ (flushed0_at7 c t (final0_G V c) p q).symm
  refine (congrFun (piece0_C7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2) (ix2 p q)).trans ?_
  refine (act0_pay (KVal0_x2 V c t) (k0_pay2 (F := Ideal) (View.ld (Val := Elt Ideal) (e' := EltTy.bf16) (KVal0_x1 V c t) (piece0_rect (grid0.coords t))) (outsAt0 V c (t.val - 1) (Nat.lt_of_le_of_lt (Nat.sub_le _ _) t.isLt)).2.2 (KVal0_x0 V c t)) (KVal0_x3 V c t) (KVal0_x4 V c t) (KVal0_x5 V c t) (KVal0_x6 V c t) p q).1.trans ?_
  exact flushed0_mlp V c t h0 h1 p q

/-- and into the second output: the same block, narrowed. -/
theorem flushed0_8 (c : Dev nD) (t : Fin cfg0.N) (hf : (cfg0.win 8).flush t = true) :
    (dat0 V c).flushed 8 t = ((cfg0.win 8).blk t).view.read (Elt Ideal) (final0_G V c) := by
  have h1 : t.val % 4 = 3 := (flush0_8 t).mp hf
  have h0 : ¬t.val % 4 = 0 := by omega
  show (cfg0.win 8).cut (grid0.coords t) ((dat0 V c).after 8 t) = _
  rw [after0_8, outsAt0_C V c t h0 h1]
  dsimp only
  refine funext fun (y : S1280x256.Idx) => ?_
  obtain ⟨p, q, rfl⟩ : ∃ (p : Fin 1280) (q : Fin 256), y = ix2 p q := ⟨y 0, y 1, eq_ix2 y⟩
  refine Eq.trans ?_ (flushed0_at8 c t (final0_G V c) p q).symm
  refine (congrFun (piece0_C8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2) (ix2 p q)).trans ?_
  refine (act0_pay (KVal0_x2 V c t) (k0_pay2 (F := Ideal) (View.ld (Val := Elt Ideal) (e' := EltTy.bf16) (KVal0_x1 V c t) (piece0_rect (grid0.coords t))) (outsAt0 V c (t.val - 1) (Nat.lt_of_le_of_lt (Nat.sub_le _ _) t.isLt)).2.2 (KVal0_x0 V c t)) (KVal0_x3 V c t) (KVal0_x4 V c t) (KVal0_x5 V c t) (KVal0_x6 V c t) p q).2.trans ?_
  exact flushed0_mlp V c t h0 h1 p q

/-! ## The cover, and the arrays after the region -/

/-- The point that writes row r's band back: k = 3 of band r / 1280. -/
def cov0_pt (r : ℕ) (hr : r < 10240) : Fin cfg0.N :=
  ⟨4 * (r / 1280) + 3, by rw [KVal0_N]; omega⟩

theorem cov0_7 (i : S10240x256.Idx) :
    ∃ t : Fin cfg0.N, (cfg0.win 7).flush t = true ∧ i ∈ ((cfg0.win 7).blk t).view.set := by
  have hi0 : (i 0).val < 10240 := (i 0).isLt
  have hi1 : (i 1).val < 256 := (i 1).isLt
  refine ⟨cov0_pt (i 0).val hi0, (flush0_7 _).mpr (by show (4 * ((i 0).val / 1280) + 3) % 4 = 3; omega), ?_⟩
  obtain ⟨-, -, -, -, -, -, -, -, -, -, -, -, -, -, e0, e1, -⟩ := KVal0_idx (cov0_pt (i 0).val hi0)
  have ev : (cov0_pt (i 0).val hi0).val / 4 = (i 0).val / 1280 := by show (4 * ((i 0).val / 1280) + 3) / 4 = _; omega
  show i ∈ ((View.whole (Pipeline.arrRef spec0 7)).slice (win0_7.rect (cov0_pt (i 0).val hi0))).set
  rw [View.set_slice_whole, Rect.mem_set_unit]
  intro a
  match a with
  | ⟨0, _⟩ =>
    show win0_7.index (cov0_pt (i 0).val hi0) (0 : Fin 2) * 1280 ≤ (i 0).val ∧ (i 0).val < win0_7.index (cov0_pt (i 0).val hi0) (0 : Fin 2) * 1280 + 1280
    rw [e0, ev]; omega
  | ⟨1, _⟩ =>
    show win0_7.index (cov0_pt (i 0).val hi0) (1 : Fin 2) * 256 ≤ (i 1).val ∧ (i 1).val < win0_7.index (cov0_pt (i 0).val hi0) (1 : Fin 2) * 256 + 256
    rw [e1]; omega

theorem cov0_8 (i : S10240x256.Idx) :
    ∃ t : Fin cfg0.N, (cfg0.win 8).flush t = true ∧ i ∈ ((cfg0.win 8).blk t).view.set := by
  have hi0 : (i 0).val < 10240 := (i 0).isLt
  have hi1 : (i 1).val < 256 := (i 1).isLt
  refine ⟨cov0_pt (i 0).val hi0, (flush0_8 _).mpr (by show (4 * ((i 0).val / 1280) + 3) % 4 = 3; omega), ?_⟩
  obtain ⟨-, -, -, -, -, -, -, -, -, -, -, -, -, -, -, -, e0, e1, -⟩ := KVal0_idx (cov0_pt (i 0).val hi0)
  have ev : (cov0_pt (i 0).val hi0).val / 4 = (i 0).val / 1280 := by show (4 * ((i 0).val / 1280) + 3) / 4 = _; omega
  show i ∈ ((View.whole (Pipeline.arrRef spec0 8)).slice (win0_8.rect (cov0_pt (i 0).val hi0))).set
  rw [View.set_slice_whole, Rect.mem_set_unit]
  intro a
  match a with
  | ⟨0, _⟩ =>
    show win0_8.index (cov0_pt (i 0).val hi0) (0 : Fin 2) * 1280 ≤ (i 0).val ∧ (i 0).val < win0_8.index (cov0_pt (i 0).val hi0) (0 : Fin 2) * 1280 + 1280
    rw [e0, ev]; omega
  | ⟨1, _⟩ =>
    show win0_8.index (cov0_pt (i 0).val hi0) (1 : Fin 2) * 256 ≤ (i 1).val ∧ (i 1).val < win0_8.index (cov0_pt (i 0).val hi0) (1 : Fin 2) * 256 + 256
    rw [e1]; omega

/-- THE FIRST OUTPUT ARRAY after the region: the layer, row by row. -/
theorem final0_7 (c : Dev nD) (r : Fin 10240) (q : Fin 256) :
    ((dat0 (F := Ideal) V c).arrAt 7 cfg0.N : S10240x256.Idx → EReal) (ix2 r q)
      = act0 (Cert.Spec.convDense (fun r j => (V c (Pipeline.arrRef spec0 0) : S10240x10240.Idx → EReal) (ix2 r j))
          (fun j k => (V c (Pipeline.arrRef spec0 1) : S10240x128.Idx → EReal) (ix2 j k))
          (fun r k => (V c (Pipeline.arrRef spec0 2) : S10240x128.Idx → EReal) (ix2 r k))
          (fun i q => (V c (Pipeline.arrRef spec0 3) : S128x256.Idx → EReal) (ix2 i q))
          (fun q => (V c (Pipeline.arrRef spec0 4) : S1x256.Idx → EReal) (ix2 0 q))
          (fun i q => (V c (Pipeline.arrRef spec0 5) : S256x256.Idx → EReal) (ix2 i q))
          (fun q => (V c (Pipeline.arrRef spec0 6) : S1x256.Idx → EReal) (ix2 0 q)) r) q :=
  congrFun ((dat0 (F := Ideal) V c).arrAt_eq_of_cover 7 (final0_G V c) (flushed0_7 V c) (cov0_7)) (ix2 r q)

/-- THE SECOND OUTPUT ARRAY after the region: the same values, in the matrix unit's format. -/
theorem final0_8 (c : Dev nD) (r : Fin 10240) (q : Fin 256) :
    ((dat0 (F := Ideal) V c).arrAt 8 cfg0.N : S10240x256.Idx → EReal) (ix2 r q)
      = act0 (Cert.Spec.convDense (fun r j => (V c (Pipeline.arrRef spec0 0) : S10240x10240.Idx → EReal) (ix2 r j))
          (fun j k => (V c (Pipeline.arrRef spec0 1) : S10240x128.Idx → EReal) (ix2 j k))
          (fun r k => (V c (Pipeline.arrRef spec0 2) : S10240x128.Idx → EReal) (ix2 r k))
          (fun i q => (V c (Pipeline.arrRef spec0 3) : S128x256.Idx → EReal) (ix2 i q))
          (fun q => (V c (Pipeline.arrRef spec0 4) : S1x256.Idx → EReal) (ix2 0 q))
          (fun i q => (V c (Pipeline.arrRef spec0 5) : S256x256.Idx → EReal) (ix2 i q))
          (fun q => (V c (Pipeline.arrRef spec0 6) : S1x256.Idx → EReal) (ix2 0 q)) r) q :=
  congrFun ((dat0 (F := Ideal) V c).arrAt_eq_of_cover 8 (final0_G V c) (flushed0_8 V c) (cov0_8)) (ix2 r q)

end Value

end Cert.KernelIdeal.Fr

end
-- ==== Proof.KVal1.lean ====
/-
  Region 1's two output arrays after the region, at the ideal values.

  The region runs one layer's kernel on an 8 × 4 grid: band m of 1280 output rows, slice k of 2560 columns of the
  band of edge counts. Within a band the accumulator is cleared at k = 0 and gains, at every k, the product of the
  band's k-th tile of edge counts with the k-th slice of the features; at k = 3 the own rows are added, the sum goes
  through the perceptron, and the two output blocks are stored and written back. So after the region, row r of
  either output array is the layer's value at row r: the closing function of the perceptron of
  (own row r) + Σⱼ (count r j) · (features j), the sum over all 10240 columns, joined from the four slices.

  The road: what each case of the body leaves in each buffer, as a value of what it loaded; the accumulator after
  each point, by induction on the point; the block written back at k = 3 as a function of the whole arrays; the
  four slices joined into the whole row sum; and the cover of the output arrays by the eight written blocks.
-/
import proofs.«410393_j66864050864374_3_alg».proof.Proof.Frame1
import proofs.«410393_j66864050864374_3_alg».proof.Proof.PayValue
import proofs.«410393_j66864050864374_3_alg».proof.Proof.LibCountSum
import proofs.«410393_j66864050864374_3_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## What each case of the body leaves, as a value of what it loaded -/

section Pieces

variable {F : FTy → Type} [FloatOps F]

/-- Zero offsets, however spelt. -/
theorem piece1_hz : (![0, 0] : Fin 2 → Nat) = fun _ => 0 := funext fun a => by fin_cases a <;> rfl

/-- The rectangle of the features the body loads at a point: rows [2560·k, 2560·k + 2560), all columns. -/
abbrev piece1_rect (i : grid1.Coords) : Rect S10240x256 := Rect.unit (k1_off1 i) S2560x256.size (k1_off1_inb i)

/-- k = 0: the accumulator is cleared, read back, and gains the first slice's product. -/
theorem piece1_A (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond1_0 i) (hc1 : ¬cond1_1 i) (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) :
    sout1_A_0 c i arg2 harg2 arg3 harg3 arg4 harg4 arg5 harg5 arg6 harg6 arg7 harg7 arg8 harg8 arg9 harg9 arg10 harg10 arg11 harg11 hc0 hc1 x0 x1 x2 x3 x4 x5 x6 = k1_pay2 (View.ld x1 (piece1_rect i)) (k1_pay1 (F := F)) x0 := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun1_A
  dsimp only
  sl_unfold_words
  rw [View.canon_cons_unit_zero (S := S1280x256) piece1_hz, View.readCov_unit_zero (S := S1280x256) _ piece1_hz]
  simp only [View.readAt_eq_ld, harg2.read_unread, harg3.read_unread, View.ld_unit_zero (S := S1280x2560) piece1_hz]
  rfl

/-- k = 1, 2: the accumulator gains this slice's product. -/
theorem piece1_B (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : ¬cond1_1 i) (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) :
    sout1_B_0 c i arg2 harg2 arg3 harg3 arg4 harg4 arg5 harg5 arg6 harg6 arg7 harg7 arg8 harg8 arg9 harg9 arg10 harg10 arg11 harg11 hc0 hc1 x0 x1 x2 x3 x4 x5 x6 xs0 = k1_pay2 (View.ld x1 (piece1_rect i)) xs0 x0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun1_B
  dsimp only
  sl_unfold_words
  rw [View.canon_unit_zero piece1_hz]
  simp only [View.readAt_eq_ld, harg2.read_unread, harg3.read_unread, harg11.read_unread,
    View.ld_unit_zero (S := S1280x256) piece1_hz, View.ld_unit_zero (S := S1280x2560) piece1_hz]
  rfl

/-- k = 3: the accumulator gains the last slice's product; -/
theorem piece1_C (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : cond1_1 i) (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) :
    sout1_C_0 c i arg2 harg2 arg3 harg3 arg4 harg4 arg5 harg5 arg6 harg6 arg7 harg7 arg8 harg8 arg9 harg9 arg10 harg10 arg11 harg11 hc0 hc1 x0 x1 x2 x3 x4 x5 x6 xs0 = k1_pay2 (View.ld x1 (piece1_rect i)) xs0 x0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun1_C
  dsimp only
  sl_unfold_words
  rw [View.canon_unit_zero piece1_hz]
  simp only [View.readAt_eq_ld, harg2.read_unread, harg3.read_unread, harg11.read_unread,
    View.ld_unit_zero (S := S1280x256) piece1_hz, View.ld_unit_zero (S := S1280x2560) piece1_hz]
  rfl

/-- the first output's block is the perceptron of the own rows plus the accumulator as just updated; -/
theorem piece1_C7 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : cond1_1 i) (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) :
    out1_C_7 c i arg2 harg2 arg3 harg3 arg4 harg4 arg5 harg5 arg6 harg6 arg7 harg7 arg8 harg8 arg9 harg9 arg10 harg10 arg11 harg11 hc0 hc1 x0 x1 x2 x3 x4 x5 x6 xs0 = k1_pay3 x2 (k1_pay2 (View.ld x1 (piece1_rect i)) xs0 x0) x3 x4 x5 x6 := by
  unfold out1_C_7
  rw [View.read_writes_eq_canon _ _ _ (cover1_C_7 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun1_C
  dsimp only
  sl_unfold_words
  rw [View.canon_unit_zero piece1_hz, View.readCov_unit_zero (S := S1280x256) _ piece1_hz]
  simp only [View.readAt_eq_ld, harg2.read_unread, harg3.read_unread, harg4.read_unread, harg5.read_unread,
    harg6.read_unread, harg7.read_unread, harg8.read_unread, harg11.read_unread,
    View.ld_unit_zero (S := S1280x256) piece1_hz, View.ld_unit_zero (S := S1280x2560) piece1_hz,
    View.ld_unit_zero (S := S256x256) piece1_hz, View.ld_unit_zero (S := S1x256) piece1_hz,
    View.ld_unit_zero (S := S256x256) piece1_hz]
  rfl

/-- and the second output's block is the same value narrowed. -/
theorem piece1_C8 (c : Dev nD) (i : grid1.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond1_0 i) (hc1 : cond1_1 i) (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) :
    out1_C_8 c i arg2 harg2 arg3 harg3 arg4 harg4 arg5 harg5 arg6 harg6 arg7 harg7 arg8 harg8 arg9 harg9 arg10 harg10 arg11 harg11 hc0 hc1 x0 x1 x2 x3 x4 x5 x6 xs0 = k1_pay4 x2 (k1_pay2 (View.ld x1 (piece1_rect i)) xs0 x0) x3 x4 x5 x6 := by
  unfold out1_C_8
  rw [View.read_writes_eq_canon _ _ _ (cover1_C_8 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun1_C
  dsimp only
  sl_unfold_words
  rw [View.canon_unit_zero piece1_hz, View.readCov_unit_zero (S := S1280x256) _ piece1_hz]
  simp only [View.readAt_eq_ld, harg2.read_unread, harg3.read_unread, harg4.read_unread, harg5.read_unread,
    harg6.read_unread, harg7.read_unread, harg8.read_unread, harg11.read_unread,
    View.ld_unit_zero (S := S1280x256) piece1_hz, View.ld_unit_zero (S := S1280x2560) piece1_hz,
    View.ld_unit_zero (S := S256x256) piece1_hz, View.ld_unit_zero (S := S1x256) piece1_hz,
    View.ld_unit_zero (S := S256x256) piece1_hz]
  rfl

end Pieces

/-! ## The arrays and the blocks, at the ideal values -/

section Value

variable (V : (c : Dev nD) → (b : Ref sig .tc) → Buf (Elt Ideal) ((c : Thread nD τ).loc b))

/-- The arrays as the region finds them: edge counts, features in the matrix unit's format, own rows, and the
    perceptron's two weight matrices and two bias rows. -/
abbrev KVal1_A (c : Dev nD) : S10240x10240.Idx → EReal := V c (Pipeline.arrRef spec1 0)
abbrev KVal1_HB (c : Dev nD) : S10240x256.Idx → EReal := V c (Pipeline.arrRef spec1 1)
abbrev KVal1_H (c : Dev nD) : S10240x256.Idx → EReal := V c (Pipeline.arrRef spec1 2)
abbrev KVal1_Wa (c : Dev nD) : S256x256.Idx → EReal := V c (Pipeline.arrRef spec1 3)
abbrev KVal1_ba (c : Dev nD) : S1x256.Idx → EReal := V c (Pipeline.arrRef spec1 4)
abbrev KVal1_Wb (c : Dev nD) : S256x256.Idx → EReal := V c (Pipeline.arrRef spec1 5)
abbrev KVal1_bb (c : Dev nD) : S1x256.Idx → EReal := V c (Pipeline.arrRef spec1 6)

/-- The blocks the body loads at a point. -/
abbrev KVal1_x0 (c : Dev nD) (t : Fin cfg1.N) : FVec Ideal S1280x2560 .bf16 := iblk1 V c 0 t
abbrev KVal1_x1 (c : Dev nD) (t : Fin cfg1.N) : FVec Ideal S10240x256 .bf16 := iblk1 V c 1 t
abbrev KVal1_x2 (c : Dev nD) (t : Fin cfg1.N) : FVec Ideal S1280x256 .f32 := iblk1 V c 2 t
abbrev KVal1_x3 (c : Dev nD) (t : Fin cfg1.N) : FVec Ideal S256x256 .bf16 := iblk1 V c 3 t
abbrev KVal1_x4 (c : Dev nD) (t : Fin cfg1.N) : FVec Ideal S1x256 .f32 := iblk1 V c 4 t
abbrev KVal1_x5 (c : Dev nD) (t : Fin cfg1.N) : FVec Ideal S256x256 .bf16 := iblk1 V c 5 t
abbrev KVal1_x6 (c : Dev nD) (t : Fin cfg1.N) : FVec Ideal S1x256 .f32 := iblk1 V c 6 t

/-- The printed index maps over the grid, decided: point t = 4·m + k reads tile (m, k) of the edge counts, band m of the
    own rows, writes band m of the outputs, and reads the other arrays whole; the body's slice of the features
    starts at row 2560·k. -/
theorem KVal1_idx : ∀ t : Fin cfg1.N,
    win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val / 4 ∧ win1_7.index t (1 : Fin 2) = 0
    ∧ win1_8.index t (0 : Fin 2) = t.val / 4 ∧ win1_8.index t (1 : Fin 2) = 0
    ∧ k1_off1 (grid1.coords t) (0 : Fin 2) = 2560 * (t.val % 4) ∧ k1_off1 (grid1.coords t) (1 : Fin 2) = 0 :=
  (by decide +kernel : ∀ t : Fin grid1.N, _)

/-! ## Where a block's element sits in its array -/

theorem KVal1_N : cfg1.N = 32 := N_1

/-- Row p of the band of point t, as a row of the whole arrays. -/
def blockRow1 (t : Fin cfg1.N) (p : Fin 1280) : Fin 10240 :=
  ⟨1280 * (t.val / 4) + p.val, by have h : t.val < 32 := lt_of_lt_of_eq t.isLt KVal1_N; have := p.isLt; omega⟩

/-- The tile of edge counts at point t: rows of the band, columns of slice k. -/
theorem KVal1_x0_apply (c : Dev nD) (t : Fin cfg1.N) (p : Fin 1280) (j : Fin 2560) (hj : (t.val % 4) * 2560 + j.val < 10240) :
    KVal1_x0 V c t (ix2 p j) = KVal1_A V c (ix2 (blockRow1 t p) ⟨(t.val % 4) * 2560 + j.val, hj⟩) := by
  obtain ⟨e0, e1, -⟩ := KVal1_idx t
  show KVal1_A V c (((cfg1.win 0).blk t).view.emb (ix2 p j)) = _
  congr 1
  funext a; apply Fin.ext
  match a with
  | ⟨0, _⟩ => show win1_0.index t (0 : Fin 2) * 1280 + 1 * p.val = 1280 * (t.val / 4) + p.val; rw [e0]; omega
  | ⟨1, _⟩ => show win1_0.index t (1 : Fin 2) * 2560 + 1 * j.val = (t.val % 4) * 2560 + j.val; rw [e1]; omega

/-- The slice of the features the body loads at point t: rows of slice k. -/
theorem KVal1_x1_apply (c : Dev nD) (t : Fin cfg1.N) (j : Fin 2560) (i : Fin 256) (hj : (t.val % 4) * 2560 + j.val < 10240) :
    View.ld (Val := Elt Ideal) (e' := EltTy.bf16) (KVal1_x1 V c t) (piece1_rect (grid1.coords t)) (ix2 j i) = KVal1_HB V c (ix2 ⟨(t.val % 4) * 2560 + j.val, hj⟩ i) := by
  obtain ⟨-, -, e0, e1, -, -, -, -, -, -, -, -, -, -, -, -, -, -, o0, o1⟩ := KVal1_idx t
  show KVal1_HB V c (((cfg1.win 1).blk t).view.emb ((piece1_rect (grid1.coords t)).emb (ix2 j i))) = _
  congr 1
  funext a; apply Fin.ext
  match a with
  | ⟨0, _⟩ => show win1_1.index t (0 : Fin 2) * 10240 + 1 * (k1_off1 (grid1.coords t) (0 : Fin 2) + 1 * j.val) = (t.val % 4) * 2560 + j.val; rw [e0, o0]; omega
  | ⟨1, _⟩ => show win1_1.index t (1 : Fin 2) * 256 + 1 * (k1_off1 (grid1.coords t) (1 : Fin 2) + 1 * i.val) = i.val; rw [e1, o1]; omega

/-- The band of own rows at point t. -/
theorem KVal1_x2_apply (c : Dev nD) (t : Fin cfg1.N) (p : Fin 1280) (k : Fin 256) :
    KVal1_x2 V c t (ix2 p k) = KVal1_H V c (ix2 (blockRow1 t p) k) := by
  obtain ⟨-, -, -, -, e0, e1, -⟩ := KVal1_idx t
  show KVal1_H V c (((cfg1.win 2).blk t).view.emb (ix2 p k)) = _
  congr 1
  funext a; apply Fin.ext
  match a with
  | ⟨0, _⟩ => show win1_2.index t (0 : Fin 2) * 1280 + 1 * p.val = 1280 * (t.val / 4) + p.val; rw [e0]; omega
  | ⟨1, _⟩ => show win1_2.index t (1 : Fin 2) * 256 + 1 * k.val = k.val; rw [e1]; omega

/-- The weights and bias rows are read whole at every point. -/
theorem KVal1_x3_eq (c : Dev nD) (t : Fin cfg1.N) : KVal1_x3 V c t = KVal1_Wa V c := by
  obtain ⟨-, -, -, -, -, -, e0, e1, -⟩ := KVal1_idx t
  funext y
  show KVal1_Wa V c (((cfg1.win 3).blk t).view.emb y) = _
  congr 1
  funext a; apply Fin.ext
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

theorem KVal1_x4_eq (c : Dev nD) (t : Fin cfg1.N) : KVal1_x4 V c t = KVal1_ba V c := by
  obtain ⟨-, -, -, -, -, -, -, -, e0, e1, -⟩ := KVal1_idx t
  funext y
  show KVal1_ba V c (((cfg1.win 4).blk t).view.emb y) = _
  congr 1
  funext a; apply Fin.ext
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

theorem KVal1_x5_eq (c : Dev nD) (t : Fin cfg1.N) : KVal1_x5 V c t = KVal1_Wb V c := by
  obtain ⟨-, -, -, -, -, -, -, -, -, -, e0, e1, -⟩ := KVal1_idx t
  funext y
  show KVal1_Wb V c (((cfg1.win 5).blk t).view.emb y) = _
  congr 1
  funext a; apply Fin.ext
  match a with
  | ⟨0, _⟩ => show win1_5.index t (0 : Fin 2) * 256 + 1 * (y 0).val = (y 0).val; rw [e0]; omega
  | ⟨1, _⟩ => show win1_5.index t (1 : Fin 2) * 256 + 1 * (y 1).val = (y 1).val; rw [e1]; omega

theorem KVal1_x6_eq (c : Dev nD) (t : Fin cfg1.N) : KVal1_x6 V c t = KVal1_bb V c := by
  obtain ⟨-, -, -, -, -, -, -, -, -, -, -, -, e0, e1, -⟩ := KVal1_idx t
  funext y
  show KVal1_bb V c (((cfg1.win 6).blk t).view.emb y) = _
  congr 1
  funext a; apply Fin.ext
  match a with
  | ⟨0, _⟩ => show win1_6.index t (0 : Fin 2) * 1 + 1 * (y 0).val = (y 0).val; rw [e0]; omega
  | ⟨1, _⟩ => show win1_6.index t (1 : Fin 2) * 256 + 1 * (y 1).val = (y 1).val; rw [e1]; omega

/-! ## The accumulator after each point -/

/-- Column j's term of row r's node sum at feature i, as a function of the natural number j (zero past the end). -/
def rowPt1 (c : Dev nD) (r : Fin 10240) (i : Fin 256) (j : ℕ) : EReal :=
  if h : j < 10240 then KVal1_A V c (ix2 r ⟨j, h⟩) * KVal1_HB V c (ix2 ⟨j, h⟩ i) else 0

/-- Slice k of a row's terms, added up. -/
def accAt1_slice (f : ℕ → EReal) (k : ℕ) : EReal := ∑ j : Fin 2560, f (k * 2560 + j.val)

/-- The running sum over the slices 0 … k, accumulated from zero in the order the grid visits them. -/
def accAt1 (f : ℕ → EReal) : ℕ → EReal
  | 0 => 0 + accAt1_slice f 0
  | k + 1 => accAt1 f k + accAt1_slice f (k + 1)

/-- The product the body adds at point t, at (p, i): slice k of row (band, p)'s terms. -/
theorem accAt1_prod (c : Dev nD) (t : Fin cfg1.N) (p : Fin 1280) (i : Fin 256) :
    (∑ j : Fin 2560, KVal1_x0 V c t (ix2 p j)
        * View.ld (Val := Elt Ideal) (e' := EltTy.bf16) (KVal1_x1 V c t) (piece1_rect (grid1.coords t)) (ix2 j i))
      = accAt1_slice (rowPt1 V c (blockRow1 t p) i) (t.val % 4) := by
  refine Finset.sum_congr rfl fun j _ => ?_
  have hj : (t.val % 4) * 2560 + j.val < 10240 := by have := j.isLt; omega
  rw [KVal1_x0_apply V c t p j hj, KVal1_x1_apply V c t j i hj]
  unfold rowPt1
  rw [dif_pos hj]

/-- k = 0: the accumulator is zero plus the first slice. -/
theorem accAt1_stepA (c : Dev nD) (t : Fin cfg1.N) (h0 : t.val % 4 = 0) (p : Fin 1280) (i : Fin 256) :
    ((outsAt1 V c t.val t.isLt).2.2 : S1280x256.Idx → EReal) (ix2 p i)
      = accAt1 (rowPt1 V c (blockRow1 t p) i) (t.val % 4) := by
  have h1 : ¬t.val % 4 = 3 := by omega
  rw [outsAt1_A V c t h0 h1]
  dsimp only
  refine (congrFun (piece1_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) (ix2 p i)).trans ?_
  refine (PayValue.pay1_2_apply (View.ld (Val := Elt Ideal) (e' := EltTy.bf16) (KVal1_x1 V c t) (piece1_rect (grid1.coords t))) (k1_pay1 (F := Ideal)) (KVal1_x0 V c t) p i).trans ?_
  rw [PayValue.pay1_1_apply p i, accAt1_prod V c t p i, h0]
  rfl

/-- k > 0: the accumulator is what the point before left plus this slice. -/
theorem accAt1_stepB (c : Dev nD) (t : Fin cfg1.N) (h0 : ¬t.val % 4 = 0) (p : Fin 1280) (i : Fin 256) :
    ((outsAt1 V c t.val t.isLt).2.2 : S1280x256.Idx → EReal) (ix2 p i)
      = ((outsAt1 V c (t.val - 1) (Nat.lt_of_le_of_lt (Nat.sub_le _ _) t.isLt)).2.2 : S1280x256.Idx → EReal) (ix2 p i)
        + accAt1_slice (rowPt1 V c (blockRow1 t p) i) (t.val % 4) := by
  by_cases h1 : t.val % 4 = 3
  · rw [outsAt1_C V c t h0 h1]
    dsimp only
    refine (congrFun (piece1_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2) (ix2 p i)).trans ?_
    refine (PayValue.pay1_2_apply (View.ld (Val := Elt Ideal) (e' := EltTy.bf16) (KVal1_x1 V c t) (piece1_rect (grid1.coords t))) (outsAt1 V c (t.val - 1) (Nat.lt_of_le_of_lt (Nat.sub_le _ _) t.isLt)).2.2 (KVal1_x0 V c t) p i).trans ?_
    rw [accAt1_prod V c t p i]
  · rw [outsAt1_B V c t h0 h1]
    dsimp only
    refine (congrFun (piece1_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2) (ix2 p i)).trans ?_
    refine (PayValue.pay1_2_apply (View.ld (Val := Elt Ideal) (e' := EltTy.bf16) (KVal1_x1 V c t) (piece1_rect (grid1.coords t))) (outsAt1 V c (t.val - 1) (Nat.lt_of_le_of_lt (Nat.sub_le _ _) t.isLt)).2.2 (KVal1_x0 V c t) p i).trans ?_
    rw [accAt1_prod V c t p i]

/-- THE ACCUMULATOR after point t = 4·m + k, at (p, i): the slices 0 … k of row (m, p)'s terms, accumulated from
    zero — by induction on the point. -/
theorem accAt1_inv (c : Dev nD) : ∀ (n : ℕ) (t : Fin cfg1.N), t.val = n → ∀ (p : Fin 1280) (i : Fin 256),
    ((outsAt1 V c t.val t.isLt).2.2 : S1280x256.Idx → EReal) (ix2 p i)
      = accAt1 (rowPt1 V c (blockRow1 t p) i) (t.val % 4) := by
  intro n
  induction n with
  | zero =>
    intro t ht p i
    exact accAt1_stepA V c t (by omega) p i
  | succ n ih =>
    intro t ht p i
    by_cases h0 : t.val % 4 = 0
    · exact accAt1_stepA V c t h0 p i
    · rw [accAt1_stepB V c t h0 p i]
      have hlt : t.val - 1 < cfg1.N := Nat.lt_of_le_of_lt (Nat.sub_le _ _) t.isLt
      have e := ih ⟨t.val - 1, hlt⟩ (by show t.val - 1 = n; omega) p i
      have hrow : blockRow1 ⟨t.val - 1, hlt⟩ p = blockRow1 t p := Fin.ext (by
        show 1280 * ((t.val - 1) / 4) + p.val = 1280 * (t.val / 4) + p.val
        have : (t.val - 1) / 4 = t.val / 4 := by omega
        rw [this])
      rw [hrow] at e
      obtain ⟨k, hk⟩ : ∃ k, t.val % 4 = k + 1 := ⟨t.val % 4 - 1, by omega⟩
      have hk' : (t.val - 1) % 4 = k := by omega
      rw [hk]
      show _ = accAt1 _ k + accAt1_slice _ (k + 1)
      rw [← hk']
      exact congrArg (fun z => z + accAt1_slice (rowPt1 V c (blockRow1 t p) i) ((t.val - 1) % 4 + 1)) e

/-! ## The four slices joined: the whole row sum -/

/-- After the last slice the running sum is the sum over all 10240 columns. -/
theorem accAt1_three (f : ℕ → EReal) : accAt1 f 3 = ∑ j : Fin 10240, f j.val := by
  have e := Cert.CountSum.sum_four_blocks_fin 2560 f
  have s0 : accAt1_slice f 0 = ∑ j : Fin 2560, f j.val :=
    Finset.sum_congr rfl fun j _ => by rw [Nat.zero_mul, Nat.zero_add]
  have s1 : accAt1_slice f 1 = ∑ j : Fin 2560, f (2560 + j.val) :=
    Finset.sum_congr rfl fun j _ => by rw [Nat.one_mul]
  have s2 : accAt1_slice f 2 = ∑ j : Fin 2560, f (2 * 2560 + j.val) := rfl
  have s3 : accAt1_slice f 3 = ∑ j : Fin 2560, f (3 * 2560 + j.val) := rfl
  show (((0 + accAt1_slice f 0) + accAt1_slice f 1) + accAt1_slice f 2) + accAt1_slice f 3 = _
  rw [s0, s1, s2, s3]
  exact e

/-- The accumulator as just updated at point t (what the last step reads), at (p, i). -/
theorem accAt1_now (c : Dev nD) (t : Fin cfg1.N) (h0 : ¬t.val % 4 = 0) (p : Fin 1280) (i : Fin 256) :
    k1_pay2 (F := Ideal) (View.ld (Val := Elt Ideal) (e' := EltTy.bf16) (KVal1_x1 V c t) (piece1_rect (grid1.coords t)))
        (outsAt1 V c (t.val - 1) (Nat.lt_of_le_of_lt (Nat.sub_le _ _) t.isLt)).2.2 (KVal1_x0 V c t) (ix2 p i)
      = accAt1 (rowPt1 V c (blockRow1 t p) i) (t.val % 4) := by
  refine (PayValue.pay1_2_apply (View.ld (Val := Elt Ideal) (e' := EltTy.bf16) (KVal1_x1 V c t) (piece1_rect (grid1.coords t))) (outsAt1 V c (t.val - 1) (Nat.lt_of_le_of_lt (Nat.sub_le _ _) t.isLt)).2.2 (KVal1_x0 V c t) p i).trans ?_
  rw [accAt1_prod V c t p i]
  exact (accAt1_stepB V c t h0 p i).symm.trans (accAt1_inv V c t.val t rfl p i)

/-- At k = 3 it is the whole node sum of row (band, p) at feature i. -/
theorem accAt1_last (c : Dev nD) (t : Fin cfg1.N) (h1 : t.val % 4 = 3) (p : Fin 1280) (i : Fin 256) :
    accAt1 (rowPt1 V c (blockRow1 t p) i) (t.val % 4)
      = ∑ j : Fin 10240, KVal1_A V c (ix2 (blockRow1 t p) j) * KVal1_HB V c (ix2 j i) := by
  rw [h1, accAt1_three]
  refine Finset.sum_congr rfl fun j _ => ?_
  unfold rowPt1
  rw [dif_pos j.isLt]

/-! ## The layer's value, and the block written back at k = 3 -/

/-- The closing function of this layer: max with 0. -/
def act1 : (Fin 256 → EReal) → Fin 256 → EReal := Cert.Spec.relu

/-- The last step's two stores at (p, q): the closing function of the perceptron of own row plus accumulator. -/
theorem act1_pay (v19 v21 : FVec Ideal S1280x256 .f32) (v24 : FVec Ideal S256x256 .bf16) (v27 : FVec Ideal S1x256 .f32)
    (v34 : FVec Ideal S256x256 .bf16) (v37 : FVec Ideal S1x256 .f32) (p : Fin 1280) (q : Fin 256) :
    k1_pay3 (F := Ideal) v19 v21 v24 v27 v34 v37 (ix2 p q)
        = act1 (Cert.Spec.mlp (fun i q => v24 (ix2 i q)) (fun q => v27 (ix2 0 q)) (fun i q => v34 (ix2 i q))
            (fun q => v37 (ix2 0 q)) (fun k => v19 (ix2 p k) + v21 (ix2 p k))) q
      ∧ k1_pay4 (F := Ideal) v19 v21 v24 v27 v34 v37 (ix2 p q)
        = act1 (Cert.Spec.mlp (fun i q => v24 (ix2 i q)) (fun q => v27 (ix2 0 q)) (fun i q => v34 (ix2 i q))
            (fun q => v37 (ix2 0 q)) (fun k => v19 (ix2 p k) + v21 (ix2 p k))) q :=
  ⟨PayValue.pay1_3_apply v19 v21 v24 v27 v34 v37 p q, PayValue.pay1_4_apply v19 v21 v24 v27 v34 v37 p q⟩

/-- THE LAYER at row r, column q, as a function of the whole arrays: the closing function of the perceptron of
    (own row r) + Σⱼ (count r j) · (features j). -/
def final1_G (c : Dev nD) : S10240x256.Idx → EReal := fun y =>
  act1 (Cert.Spec.convDense (fun r j => KVal1_A V c (ix2 r j)) (fun j k => KVal1_HB V c (ix2 j k))
    (fun r k => KVal1_H V c (ix2 r k)) (fun i q => KVal1_Wa V c (ix2 i q)) (fun q => KVal1_ba V c (ix2 0 q))
    (fun i q => KVal1_Wb V c (ix2 i q)) (fun q => KVal1_bb V c (ix2 0 q)) (y 0)) (y 1)

/-- The perceptron of own row plus accumulator, at the blocks of point t with k = 3, is the layer at row (band, p). -/
theorem flushed1_mlp (c : Dev nD) (t : Fin cfg1.N) (h0 : ¬t.val % 4 = 0) (h1 : t.val % 4 = 3) (p : Fin 1280) (q : Fin 256) :
    act1 (Cert.Spec.mlp (fun i q => KVal1_x3 V c t (ix2 i q)) (fun q => KVal1_x4 V c t (ix2 0 q))
        (fun i q => KVal1_x5 V c t (ix2 i q)) (fun q => KVal1_x6 V c t (ix2 0 q))
        (fun k => KVal1_x2 V c t (ix2 p k)
          + k1_pay2 (F := Ideal) (View.ld (Val := Elt Ideal) (e' := EltTy.bf16) (KVal1_x1 V c t) (piece1_rect (grid1.coords t)))
              (outsAt1 V c (t.val - 1) (Nat.lt_of_le_of_lt (Nat.sub_le _ _) t.isLt)).2.2 (KVal1_x0 V c t) (ix2 p k))) q
      = final1_G V c (ix2 (blockRow1 t p) q) := by
  rw [KVal1_x3_eq V c t, KVal1_x4_eq V c t, KVal1_x5_eq V c t, KVal1_x6_eq V c t]
  show _ = act1 (Cert.Spec.mlp (fun i q => KVal1_Wa V c (ix2 i q)) (fun q => KVal1_ba V c (ix2 0 q))
    (fun i q => KVal1_Wb V c (ix2 i q)) (fun q => KVal1_bb V c (ix2 0 q))
    (fun k => KVal1_H V c (ix2 (blockRow1 t p) k)
      + ∑ j : Fin 10240, KVal1_A V c (ix2 (blockRow1 t p) j) * KVal1_HB V c (ix2 j k))) q
  refine congrArg (fun v => act1 (Cert.Spec.mlp (fun i q => KVal1_Wa V c (ix2 i q)) (fun q => KVal1_ba V c (ix2 0 q))
    (fun i q => KVal1_Wb V c (ix2 i q)) (fun q => KVal1_bb V c (ix2 0 q)) v) q) (funext fun k => ?_)
  rw [KVal1_x2_apply V c t p k, accAt1_now V c t h0 p k, accAt1_last V c t h1 p k]

/-- An element of an output block at point t sits at row (band, p), column q of its array. -/
theorem flushed1_at7 (c : Dev nD) (t : Fin cfg1.N) (G : S10240x256.Idx → EReal) (p : Fin 1280) (q : Fin 256) :
    (((cfg1.win 7).blk t).view.read (Elt Ideal) G : S1280x256.Idx → EReal) (ix2 p q) = G (ix2 (blockRow1 t p) q) := by
  obtain ⟨-, -, -, -, -, -, -, -, -, -, -, -, -, -, e0, e1, -⟩ := KVal1_idx t
  show G (((cfg1.win 7).blk t).view.emb (ix2 p q)) = _
  congr 1
  funext a; apply Fin.ext
  match a with
  | ⟨0, _⟩ => show win1_7.index t (0 : Fin 2) * 1280 + 1 * p.val = 1280 * (t.val / 4) + p.val; rw [e0]; omega
  | ⟨1, _⟩ => show win1_7.index t (1 : Fin 2) * 256 + 1 * q.val = q.val; rw [e1]; omega

theorem flushed1_at8 (c : Dev nD) (t : Fin cfg1.N) (G : S10240x256.Idx → EReal) (p : Fin 1280) (q : Fin 256) :
    (((cfg1.win 8).blk t).view.read (Elt Ideal) G : S1280x256.Idx → EReal) (ix2 p q) = G (ix2 (blockRow1 t p) q) := by
  obtain ⟨-, -, -, -, -, -, -, -, -, -, -, -, -, -, -, -, e0, e1, -⟩ := KVal1_idx t
  show G (((cfg1.win 8).blk t).view.emb (ix2 p q)) = _
  congr 1
  funext a; apply Fin.ext
  match a with
  | ⟨0, _⟩ => show win1_8.index t (0 : Fin 2) * 1280 + 1 * p.val = 1280 * (t.val / 4) + p.val; rw [e0]; omega
  | ⟨1, _⟩ => show win1_8.index t (1 : Fin 2) * 256 + 1 * q.val = q.val; rw [e1]; omega

/-- WHAT THE WRITE-BACK AT k = 3 WRITES into the first output: the band's block of the layer. -/
theorem flushed1_7 (c : Dev nD) (t : Fin cfg1.N) (hf : (cfg1.win 7).flush t = true) :
    (dat1 V c).flushed 7 t = ((cfg1.win 7).blk t).view.read (Elt Ideal) (final1_G V c) := by
  have h1 : t.val % 4 = 3 := (flush1_7 t).mp hf
  have h0 : ¬t.val % 4 = 0 := by omega
  show (cfg1.win 7).cut (grid1.coords t) ((dat1 V c).after 7 t) = _
  rw [after1_7, outsAt1_C V c t h0 h1]
  dsimp only
  refine funext fun (y : S1280x256.Idx) => ?_
  obtain ⟨p, q, rfl⟩ : ∃ (p : Fin 1280) (q : Fin 256), y = ix2 p q := ⟨y 0, y 1, eq_ix2 y⟩
  refine Eq.trans ?_ (flushed1_at7 c t (final1_G V c) p q).symm
  refine (congrFun (piece1_C7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2) (ix2 p q)).trans ?_
  refine (act1_pay (KVal1_x2 V c t) (k1_pay2 (F := Ideal) (View.ld (Val := Elt Ideal) (e' := EltTy.bf16) (KVal1_x1 V c t) (piece1_rect (grid1.coords t))) (outsAt1 V c (t.val - 1) (Nat.lt_of_le_of_lt (Nat.sub_le _ _) t.isLt)).2.2 (KVal1_x0 V c t)) (KVal1_x3 V c t) (KVal1_x4 V c t) (KVal1_x5 V c t) (KVal1_x6 V c t) p q).1.trans ?_
  exact flushed1_mlp V c t h0 h1 p q

/-- and into the second output: the same block, narrowed. -/
theorem flushed1_8 (c : Dev nD) (t : Fin cfg1.N) (hf : (cfg1.win 8).flush t = true) :
    (dat1 V c).flushed 8 t = ((cfg1.win 8).blk t).view.read (Elt Ideal) (final1_G V c) := by
  have h1 : t.val % 4 = 3 := (flush1_8 t).mp hf
  have h0 : ¬t.val % 4 = 0 := by omega
  show (cfg1.win 8).cut (grid1.coords t) ((dat1 V c).after 8 t) = _
  rw [after1_8, outsAt1_C V c t h0 h1]
  dsimp only
  refine funext fun (y : S1280x256.Idx) => ?_
  obtain ⟨p, q, rfl⟩ : ∃ (p : Fin 1280) (q : Fin 256), y = ix2 p q := ⟨y 0, y 1, eq_ix2 y⟩
  refine Eq.trans ?_ (flushed1_at8 c t (final1_G V c) p q).symm
  refine (congrFun (piece1_C8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2) (ix2 p q)).trans ?_
  refine (act1_pay (KVal1_x2 V c t) (k1_pay2 (F := Ideal) (View.ld (Val := Elt Ideal) (e' := EltTy.bf16) (KVal1_x1 V c t) (piece1_rect (grid1.coords t))) (outsAt1 V c (t.val - 1) (Nat.lt_of_le_of_lt (Nat.sub_le _ _) t.isLt)).2.2 (KVal1_x0 V c t)) (KVal1_x3 V c t) (KVal1_x4 V c t) (KVal1_x5 V c t) (KVal1_x6 V c t) p q).2.trans ?_
  exact flushed1_mlp V c t h0 h1 p q

/-! ## The cover, and the arrays after the region -/

/-- The point that writes row r's band back: k = 3 of band r / 1280. -/
def cov1_pt (r : ℕ) (hr : r < 10240) : Fin cfg1.N :=
  ⟨4 * (r / 1280) + 3, by rw [KVal1_N]; omega⟩

theorem cov1_7 (i : S10240x256.Idx) :
    ∃ t : Fin cfg1.N, (cfg1.win 7).flush t = true ∧ i ∈ ((cfg1.win 7).blk t).view.set := by
  have hi0 : (i 0).val < 10240 := (i 0).isLt
  have hi1 : (i 1).val < 256 := (i 1).isLt
  refine ⟨cov1_pt (i 0).val hi0, (flush1_7 _).mpr (by show (4 * ((i 0).val / 1280) + 3) % 4 = 3; omega), ?_⟩
  obtain ⟨-, -, -, -, -, -, -, -, -, -, -, -, -, -, e0, e1, -⟩ := KVal1_idx (cov1_pt (i 0).val hi0)
  have ev : (cov1_pt (i 0).val hi0).val / 4 = (i 0).val / 1280 := by show (4 * ((i 0).val / 1280) + 3) / 4 = _; omega
  show i ∈ ((View.whole (Pipeline.arrRef spec1 7)).slice (win1_7.rect (cov1_pt (i 0).val hi0))).set
  rw [View.set_slice_whole, Rect.mem_set_unit]
  intro a
  match a with
  | ⟨0, _⟩ =>
    show win1_7.index (cov1_pt (i 0).val hi0) (0 : Fin 2) * 1280 ≤ (i 0).val ∧ (i 0).val < win1_7.index (cov1_pt (i 0).val hi0) (0 : Fin 2) * 1280 + 1280
    rw [e0, ev]; omega
  | ⟨1, _⟩ =>
    show win1_7.index (cov1_pt (i 0).val hi0) (1 : Fin 2) * 256 ≤ (i 1).val ∧ (i 1).val < win1_7.index (cov1_pt (i 0).val hi0) (1 : Fin 2) * 256 + 256
    rw [e1]; omega

theorem cov1_8 (i : S10240x256.Idx) :
    ∃ t : Fin cfg1.N, (cfg1.win 8).flush t = true ∧ i ∈ ((cfg1.win 8).blk t).view.set := by
  have hi0 : (i 0).val < 10240 := (i 0).isLt
  have hi1 : (i 1).val < 256 := (i 1).isLt
  refine ⟨cov1_pt (i 0).val hi0, (flush1_8 _).mpr (by show (4 * ((i 0).val / 1280) + 3) % 4 = 3; omega), ?_⟩
  obtain ⟨-, -, -, -, -, -, -, -, -, -, -, -, -, -, -, -, e0, e1, -⟩ := KVal1_idx (cov1_pt (i 0).val hi0)
  have ev : (cov1_pt (i 0).val hi0).val / 4 = (i 0).val / 1280 := by show (4 * ((i 0).val / 1280) + 3) / 4 = _; omega
  show i ∈ ((View.whole (Pipeline.arrRef spec1 8)).slice (win1_8.rect (cov1_pt (i 0).val hi0))).set
  rw [View.set_slice_whole, Rect.mem_set_unit]
  intro a
  match a with
  | ⟨0, _⟩ =>
    show win1_8.index (cov1_pt (i 0).val hi0) (0 : Fin 2) * 1280 ≤ (i 0).val ∧ (i 0).val < win1_8.index (cov1_pt (i 0).val hi0) (0 : Fin 2) * 1280 + 1280
    rw [e0, ev]; omega
  | ⟨1, _⟩ =>
    show win1_8.index (cov1_pt (i 0).val hi0) (1 : Fin 2) * 256 ≤ (i 1).val ∧ (i 1).val < win1_8.index (cov1_pt (i 0).val hi0) (1 : Fin 2) * 256 + 256
    rw [e1]; omega

/-- THE FIRST OUTPUT ARRAY after the region: the layer, row by row. -/
theorem final1_7 (c : Dev nD) (r : Fin 10240) (q : Fin 256) :
    ((dat1 (F := Ideal) V c).arrAt 7 cfg1.N : S10240x256.Idx → EReal) (ix2 r q)
      = act1 (Cert.Spec.convDense (fun r j => (V c (Pipeline.arrRef spec1 0) : S10240x10240.Idx → EReal) (ix2 r j))
          (fun j k => (V c (Pipeline.arrRef spec1 1) : S10240x256.Idx → EReal) (ix2 j k))
          (fun r k => (V c (Pipeline.arrRef spec1 2) : S10240x256.Idx → EReal) (ix2 r k))
          (fun i q => (V c (Pipeline.arrRef spec1 3) : S256x256.Idx → EReal) (ix2 i q))
          (fun q => (V c (Pipeline.arrRef spec1 4) : S1x256.Idx → EReal) (ix2 0 q))
          (fun i q => (V c (Pipeline.arrRef spec1 5) : S256x256.Idx → EReal) (ix2 i q))
          (fun q => (V c (Pipeline.arrRef spec1 6) : S1x256.Idx → EReal) (ix2 0 q)) r) q :=
  congrFun ((dat1 (F := Ideal) V c).arrAt_eq_of_cover 7 (final1_G V c) (flushed1_7 V c) (cov1_7)) (ix2 r q)

/-- THE SECOND OUTPUT ARRAY after the region: the same values, in the matrix unit's format. -/
theorem final1_8 (c : Dev nD) (r : Fin 10240) (q : Fin 256) :
    ((dat1 (F := Ideal) V c).arrAt 8 cfg1.N : S10240x256.Idx → EReal) (ix2 r q)
      = act1 (Cert.Spec.convDense (fun r j => (V c (Pipeline.arrRef spec1 0) : S10240x10240.Idx → EReal) (ix2 r j))
          (fun j k => (V c (Pipeline.arrRef spec1 1) : S10240x256.Idx → EReal) (ix2 j k))
          (fun r k => (V c (Pipeline.arrRef spec1 2) : S10240x256.Idx → EReal) (ix2 r k))
          (fun i q => (V c (Pipeline.arrRef spec1 3) : S256x256.Idx → EReal) (ix2 i q))
          (fun q => (V c (Pipeline.arrRef spec1 4) : S1x256.Idx → EReal) (ix2 0 q))
          (fun i q => (V c (Pipeline.arrRef spec1 5) : S256x256.Idx → EReal) (ix2 i q))
          (fun q => (V c (Pipeline.arrRef spec1 6) : S1x256.Idx → EReal) (ix2 0 q)) r) q :=
  congrFun ((dat1 (F := Ideal) V c).arrAt_eq_of_cover 8 (final1_G V c) (flushed1_8 V c) (cov1_8)) (ix2 r q)

end Value

end Cert.KernelIdeal.Fr

end
-- ==== Proof.KVal2.lean ====
/-
  Region 2's two output arrays after the region, at the ideal values.

  The region runs one layer's kernel on an 8 × 4 grid: band m of 1280 output rows, slice k of 2560 columns of the
  band of edge counts. Within a band the accumulator is cleared at k = 0 and gains, at every k, the product of the
  band's k-th tile of edge counts with the k-th slice of the features; at k = 3 the own rows are added, the sum goes
  through the perceptron, and the two output blocks are stored and written back. So after the region, row r of
  either output array is the layer's value at row r: the closing function of the perceptron of
  (own row r) + Σⱼ (count r j) · (features j), the sum over all 10240 columns, joined from the four slices.

  The road: what each case of the body leaves in each buffer, as a value of what it loaded; the accumulator after
  each point, by induction on the point; the block written back at k = 3 as a function of the whole arrays; the
  four slices joined into the whole row sum; and the cover of the output arrays by the eight written blocks.
-/
import proofs.«410393_j66864050864374_3_alg».proof.Proof.Frame2
import proofs.«410393_j66864050864374_3_alg».proof.Proof.PayValue
import proofs.«410393_j66864050864374_3_alg».proof.Proof.LibCountSum
import proofs.«410393_j66864050864374_3_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## What each case of the body leaves, as a value of what it loaded -/

section Pieces

variable {F : FTy → Type} [FloatOps F]

/-- Zero offsets, however spelt. -/
theorem piece2_hz : (![0, 0] : Fin 2 → Nat) = fun _ => 0 := funext fun a => by fin_cases a <;> rfl

/-- The rectangle of the features the body loads at a point: rows [2560·k, 2560·k + 2560), all columns. -/
abbrev piece2_rect (i : grid2.Coords) : Rect S10240x256 := Rect.unit (k2_off1 i) S2560x256.size (k2_off1_inb i)

/-- k = 0: the accumulator is cleared, read back, and gains the first slice's product. -/
theorem piece2_A (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : cond2_0 i) (hc1 : ¬cond2_1 i) (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) :
    sout2_A_0 c i arg2 harg2 arg3 harg3 arg4 harg4 arg5 harg5 arg6 harg6 arg7 harg7 arg8 harg8 arg9 harg9 arg10 harg10 arg11 harg11 hc0 hc1 x0 x1 x2 x3 x4 x5 x6 = k2_pay2 (View.ld x1 (piece2_rect i)) (k2_pay1 (F := F)) x0 := by
  unfold sout2_A_0
  rw [View.read_writes_eq_canon _ _ _ (scover2_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun2_A
  dsimp only
  sl_unfold_words
  rw [View.canon_cons_unit_zero (S := S1280x256) piece2_hz, View.readCov_unit_zero (S := S1280x256) _ piece2_hz]
  simp only [View.readAt_eq_ld, harg2.read_unread, harg3.read_unread, View.ld_unit_zero (S := S1280x2560) piece2_hz]
  rfl

/-- k = 1, 2: the accumulator gains this slice's product. -/
theorem piece2_B (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : ¬cond2_1 i) (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) :
    sout2_B_0 c i arg2 harg2 arg3 harg3 arg4 harg4 arg5 harg5 arg6 harg6 arg7 harg7 arg8 harg8 arg9 harg9 arg10 harg10 arg11 harg11 hc0 hc1 x0 x1 x2 x3 x4 x5 x6 xs0 = k2_pay2 (View.ld x1 (piece2_rect i)) xs0 x0 := by
  unfold sout2_B_0
  rw [View.read_writes_eq_canon _ _ _ (scover2_B_0 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun2_B
  dsimp only
  sl_unfold_words
  rw [View.canon_unit_zero piece2_hz]
  simp only [View.readAt_eq_ld, harg2.read_unread, harg3.read_unread, harg11.read_unread,
    View.ld_unit_zero (S := S1280x256) piece2_hz, View.ld_unit_zero (S := S1280x2560) piece2_hz]
  rfl

/-- k = 3: the accumulator gains the last slice's product; -/
theorem piece2_C (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : cond2_1 i) (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) :
    sout2_C_0 c i arg2 harg2 arg3 harg3 arg4 harg4 arg5 harg5 arg6 harg6 arg7 harg7 arg8 harg8 arg9 harg9 arg10 harg10 arg11 harg11 hc0 hc1 x0 x1 x2 x3 x4 x5 x6 xs0 = k2_pay2 (View.ld x1 (piece2_rect i)) xs0 x0 := by
  unfold sout2_C_0
  rw [View.read_writes_eq_canon _ _ _ (scover2_C_0 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun2_C
  dsimp only
  sl_unfold_words
  rw [View.canon_unit_zero piece2_hz]
  simp only [View.readAt_eq_ld, harg2.read_unread, harg3.read_unread, harg11.read_unread,
    View.ld_unit_zero (S := S1280x256) piece2_hz, View.ld_unit_zero (S := S1280x2560) piece2_hz]
  rfl

/-- the first output's block is the perceptron of the own rows plus the accumulator as just updated; -/
theorem piece2_C7 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : cond2_1 i) (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) :
    out2_C_7 c i arg2 harg2 arg3 harg3 arg4 harg4 arg5 harg5 arg6 harg6 arg7 harg7 arg8 harg8 arg9 harg9 arg10 harg10 arg11 harg11 hc0 hc1 x0 x1 x2 x3 x4 x5 x6 xs0 = k2_pay3 x2 (k2_pay2 (View.ld x1 (piece2_rect i)) xs0 x0) x3 x4 x5 x6 := by
  unfold out2_C_7
  rw [View.read_writes_eq_canon _ _ _ (cover2_C_7 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun2_C
  dsimp only
  sl_unfold_words
  rw [View.canon_unit_zero piece2_hz, View.readCov_unit_zero (S := S1280x256) _ piece2_hz]
  simp only [View.readAt_eq_ld, harg2.read_unread, harg3.read_unread, harg4.read_unread, harg5.read_unread,
    harg6.read_unread, harg7.read_unread, harg8.read_unread, harg11.read_unread,
    View.ld_unit_zero (S := S1280x256) piece2_hz, View.ld_unit_zero (S := S1280x2560) piece2_hz,
    View.ld_unit_zero (S := S256x256) piece2_hz, View.ld_unit_zero (S := S1x256) piece2_hz,
    View.ld_unit_zero (S := S256x256) piece2_hz]
  rfl

/-- and the second output's block is the same value narrowed. -/
theorem piece2_C8 (c : Dev nD) (i : grid2.Coords) (arg2 : Memref sig .tc .vmem S1280x2560 .bf16) (harg2 : arg2.IsWhole) (arg3 : Memref sig .tc .vmem S10240x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1280x256 .f32) (harg9 : arg9.IsWhole) (arg10 : Memref sig .tc .vmem S1280x256 .bf16) (harg10 : arg10.IsWhole) (arg11 : Memref sig .tc .vmem S1280x256 .f32) (harg11 : arg11.IsWhole) (hc0 : ¬cond2_0 i) (hc1 : cond2_1 i) (x0 : Vec F S1280x2560 .bf16) (x1 : Vec F S10240x256 .bf16) (x2 : Vec F S1280x256 .f32) (x3 : Vec F S256x256 .bf16) (x4 : Vec F S1x256 .f32) (x5 : Vec F S256x256 .bf16) (x6 : Vec F S1x256 .f32) (xs0 : Vec F S1280x256 .f32) :
    out2_C_8 c i arg2 harg2 arg3 harg3 arg4 harg4 arg5 harg5 arg6 harg6 arg7 harg7 arg8 harg8 arg9 harg9 arg10 harg10 arg11 harg11 hc0 hc1 x0 x1 x2 x3 x4 x5 x6 xs0 = k2_pay4 x2 (k2_pay2 (View.ld x1 (piece2_rect i)) xs0 x0) x3 x4 x5 x6 := by
  unfold out2_C_8
  rw [View.read_writes_eq_canon _ _ _ (cover2_C_8 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun2_C
  dsimp only
  sl_unfold_words
  rw [View.canon_unit_zero piece2_hz, View.readCov_unit_zero (S := S1280x256) _ piece2_hz]
  simp only [View.readAt_eq_ld, harg2.read_unread, harg3.read_unread, harg4.read_unread, harg5.read_unread,
    harg6.read_unread, harg7.read_unread, harg8.read_unread, harg11.read_unread,
    View.ld_unit_zero (S := S1280x256) piece2_hz, View.ld_unit_zero (S := S1280x2560) piece2_hz,
    View.ld_unit_zero (S := S256x256) piece2_hz, View.ld_unit_zero (S := S1x256) piece2_hz,
    View.ld_unit_zero (S := S256x256) piece2_hz]
  rfl

end Pieces

/-! ## The arrays and the blocks, at the ideal values -/

section Value

variable (V : (c : Dev nD) → (b : Ref sig .tc) → Buf (Elt Ideal) ((c : Thread nD τ).loc b))

/-- The arrays as the region finds them: edge counts, features in the matrix unit's format, own rows, and the
    perceptron's two weight matrices and two bias rows. -/
abbrev KVal2_A (c : Dev nD) : S10240x10240.Idx → EReal := V c (Pipeline.arrRef spec2 0)
abbrev KVal2_HB (c : Dev nD) : S10240x256.Idx → EReal := V c (Pipeline.arrRef spec2 1)
abbrev KVal2_H (c : Dev nD) : S10240x256.Idx → EReal := V c (Pipeline.arrRef spec2 2)
abbrev KVal2_Wa (c : Dev nD) : S256x256.Idx → EReal := V c (Pipeline.arrRef spec2 3)
abbrev KVal2_ba (c : Dev nD) : S1x256.Idx → EReal := V c (Pipeline.arrRef spec2 4)
abbrev KVal2_Wb (c : Dev nD) : S256x256.Idx → EReal := V c (Pipeline.arrRef spec2 5)
abbrev KVal2_bb (c : Dev nD) : S1x256.Idx → EReal := V c (Pipeline.arrRef spec2 6)

/-- The blocks the body loads at a point. -/
abbrev KVal2_x0 (c : Dev nD) (t : Fin cfg2.N) : FVec Ideal S1280x2560 .bf16 := iblk2 V c 0 t
abbrev KVal2_x1 (c : Dev nD) (t : Fin cfg2.N) : FVec Ideal S10240x256 .bf16 := iblk2 V c 1 t
abbrev KVal2_x2 (c : Dev nD) (t : Fin cfg2.N) : FVec Ideal S1280x256 .f32 := iblk2 V c 2 t
abbrev KVal2_x3 (c : Dev nD) (t : Fin cfg2.N) : FVec Ideal S256x256 .bf16 := iblk2 V c 3 t
abbrev KVal2_x4 (c : Dev nD) (t : Fin cfg2.N) : FVec Ideal S1x256 .f32 := iblk2 V c 4 t
abbrev KVal2_x5 (c : Dev nD) (t : Fin cfg2.N) : FVec Ideal S256x256 .bf16 := iblk2 V c 5 t
abbrev KVal2_x6 (c : Dev nD) (t : Fin cfg2.N) : FVec Ideal S1x256 .f32 := iblk2 V c 6 t

/-- The printed index maps over the grid, decided: point t = 4·m + k reads tile (m, k) of the edge counts, band m of the
    own rows, writes band m of the outputs, and reads the other arrays whole; the body's slice of the features
    starts at row 2560·k. -/
theorem KVal2_idx : ∀ t : Fin cfg2.N,
    win2_0.index t (0 : Fin 2) = t.val / 4 ∧ win2_0.index t (1 : Fin 2) = t.val % 4
    ∧ win2_1.index t (0 : Fin 2) = 0 ∧ win2_1.index t (1 : Fin 2) = 0
    ∧ win2_2.index t (0 : Fin 2) = t.val / 4 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val / 4 ∧ win2_7.index t (1 : Fin 2) = 0
    ∧ win2_8.index t (0 : Fin 2) = t.val / 4 ∧ win2_8.index t (1 : Fin 2) = 0
    ∧ k2_off1 (grid2.coords t) (0 : Fin 2) = 2560 * (t.val % 4) ∧ k2_off1 (grid2.coords t) (1 : Fin 2) = 0 :=
  (by decide +kernel : ∀ t : Fin grid2.N, _)

/-! ## Where a block's element sits in its array -/

theorem KVal2_N : cfg2.N = 32 := N_2

/-- Row p of the band of point t, as a row of the whole arrays. -/
def blockRow2 (t : Fin cfg2.N) (p : Fin 1280) : Fin 10240 :=
  ⟨1280 * (t.val / 4) + p.val, by have h : t.val < 32 := lt_of_lt_of_eq t.isLt KVal2_N; have := p.isLt; omega⟩

/-- The tile of edge counts at point t: rows of the band, columns of slice k. -/
theorem KVal2_x0_apply (c : Dev nD) (t : Fin cfg2.N) (p : Fin 1280) (j : Fin 2560) (hj : (t.val % 4) * 2560 + j.val < 10240) :
    KVal2_x0 V c t (ix2 p j) = KVal2_A V c (ix2 (blockRow2 t p) ⟨(t.val % 4) * 2560 + j.val, hj⟩) := by
  obtain ⟨e0, e1, -⟩ := KVal2_idx t
  show KVal2_A V c (((cfg2.win 0).blk t).view.emb (ix2 p j)) = _
  congr 1
  funext a; apply Fin.ext
  match a with
  | ⟨0, _⟩ => show win2_0.index t (0 : Fin 2) * 1280 + 1 * p.val = 1280 * (t.val / 4) + p.val; rw [e0]; omega
  | ⟨1, _⟩ => show win2_0.index t (1 : Fin 2) * 2560 + 1 * j.val = (t.val % 4) * 2560 + j.val; rw [e1]; omega

/-- The slice of the features the body loads at point t: rows of slice k. -/
theorem KVal2_x1_apply (c : Dev nD) (t : Fin cfg2.N) (j : Fin 2560) (i : Fin 256) (hj : (t.val % 4) * 2560 + j.val < 10240) :
    View.ld (Val := Elt Ideal) (e' := EltTy.bf16) (KVal2_x1 V c t) (piece2_rect (grid2.coords t)) (ix2 j i) = KVal2_HB V c (ix2 ⟨(t.val % 4) * 2560 + j.val, hj⟩ i) := by
  obtain ⟨-, -, e0, e1, -, -, -, -, -, -, -, -, -, -, -, -, -, -, o0, o1⟩ := KVal2_idx t
  show KVal2_HB V c (((cfg2.win 1).blk t).view.emb ((piece2_rect (grid2.coords t)).emb (ix2 j i))) = _
  congr 1
  funext a; apply Fin.ext
  match a with
  | ⟨0, _⟩ => show win2_1.index t (0 : Fin 2) * 10240 + 1 * (k2_off1 (grid2.coords t) (0 : Fin 2) + 1 * j.val) = (t.val % 4) * 2560 + j.val; rw [e0, o0]; omega
  | ⟨1, _⟩ => show win2_1.index t (1 : Fin 2) * 256 + 1 * (k2_off1 (grid2.coords t) (1 : Fin 2) + 1 * i.val) = i.val; rw [e1, o1]; omega

/-- The band of own rows at point t. -/
theorem KVal2_x2_apply (c : Dev nD) (t : Fin cfg2.N) (p : Fin 1280) (k : Fin 256) :
    KVal2_x2 V c t (ix2 p k) = KVal2_H V c (ix2 (blockRow2 t p) k) := by
  obtain ⟨-, -, -, -, e0, e1, -⟩ := KVal2_idx t
  show KVal2_H V c (((cfg2.win 2).blk t).view.emb (ix2 p k)) = _
  congr 1
  funext a; apply Fin.ext
  match a with
  | ⟨0, _⟩ => show win2_2.index t (0 : Fin 2) * 1280 + 1 * p.val = 1280 * (t.val / 4) + p.val; rw [e0]; omega
  | ⟨1, _⟩ => show win2_2.index t (1 : Fin 2) * 256 + 1 * k.val = k.val; rw [e1]; omega

/-- The weights and bias rows are read whole at every point. -/
theorem KVal2_x3_eq (c : Dev nD) (t : Fin cfg2.N) : KVal2_x3 V c t = KVal2_Wa V c := by
  obtain ⟨-, -, -, -, -, -, e0, e1, -⟩ := KVal2_idx t
  funext y
  show KVal2_Wa V c (((cfg2.win 3).blk t).view.emb y) = _
  congr 1
  funext a; apply Fin.ext
  match a with
  | ⟨0, _⟩ => show win2_3.index t (0 : Fin 2) * 256 + 1 * (y 0).val = (y 0).val; rw [e0]; omega
  | ⟨1, _⟩ => show win2_3.index t (1 : Fin 2) * 256 + 1 * (y 1).val = (y 1).val; rw [e1]; omega

theorem KVal2_x4_eq (c : Dev nD) (t : Fin cfg2.N) : KVal2_x4 V c t = KVal2_ba V c := by
  obtain ⟨-, -, -, -, -, -, -, -, e0, e1, -⟩ := KVal2_idx t
  funext y
  show KVal2_ba V c (((cfg2.win 4).blk t).view.emb y) = _
  congr 1
  funext a; apply Fin.ext
  match a with
  | ⟨0, _⟩ => show win2_4.index t (0 : Fin 2) * 1 + 1 * (y 0).val = (y 0).val; rw [e0]; omega
  | ⟨1, _⟩ => show win2_4.index t (1 : Fin 2) * 256 + 1 * (y 1).val = (y 1).val; rw [e1]; omega

theorem KVal2_x5_eq (c : Dev nD) (t : Fin cfg2.N) : KVal2_x5 V c t = KVal2_Wb V c := by
  obtain ⟨-, -, -, -, -, -, -, -, -, -, e0, e1, -⟩ := KVal2_idx t
  funext y
  show KVal2_Wb V c (((cfg2.win 5).blk t).view.emb y) = _
  congr 1
  funext a; apply Fin.ext
  match a with
  | ⟨0, _⟩ => show win2_5.index t (0 : Fin 2) * 256 + 1 * (y 0).val = (y 0).val; rw [e0]; omega
  | ⟨1, _⟩ => show win2_5.index t (1 : Fin 2) * 256 + 1 * (y 1).val = (y 1).val; rw [e1]; omega

theorem KVal2_x6_eq (c : Dev nD) (t : Fin cfg2.N) : KVal2_x6 V c t = KVal2_bb V c := by
  obtain ⟨-, -, -, -, -, -, -, -, -, -, -, -, e0, e1, -⟩ := KVal2_idx t
  funext y
  show KVal2_bb V c (((cfg2.win 6).blk t).view.emb y) = _
  congr 1
  funext a; apply Fin.ext
  match a with
  | ⟨0, _⟩ => show win2_6.index t (0 : Fin 2) * 1 + 1 * (y 0).val = (y 0).val; rw [e0]; omega
  | ⟨1, _⟩ => show win2_6.index t (1 : Fin 2) * 256 + 1 * (y 1).val = (y 1).val; rw [e1]; omega

/-! ## The accumulator after each point -/

/-- Column j's term of row r's node sum at feature i, as a function of the natural number j (zero past the end). -/
def rowPt2 (c : Dev nD) (r : Fin 10240) (i : Fin 256) (j : ℕ) : EReal :=
  if h : j < 10240 then KVal2_A V c (ix2 r ⟨j, h⟩) * KVal2_HB V c (ix2 ⟨j, h⟩ i) else 0

/-- Slice k of a row's terms, added up. -/
def accAt2_slice (f : ℕ → EReal) (k : ℕ) : EReal := ∑ j : Fin 2560, f (k * 2560 + j.val)

/-- The running sum over the slices 0 … k, accumulated from zero in the order the grid visits them. -/
def accAt2 (f : ℕ → EReal) : ℕ → EReal
  | 0 => 0 + accAt2_slice f 0
  | k + 1 => accAt2 f k + accAt2_slice f (k + 1)

/-- The product the body adds at point t, at (p, i): slice k of row (band, p)'s terms. -/
theorem accAt2_prod (c : Dev nD) (t : Fin cfg2.N) (p : Fin 1280) (i : Fin 256) :
    (∑ j : Fin 2560, KVal2_x0 V c t (ix2 p j)
        * View.ld (Val := Elt Ideal) (e' := EltTy.bf16) (KVal2_x1 V c t) (piece2_rect (grid2.coords t)) (ix2 j i))
      = accAt2_slice (rowPt2 V c (blockRow2 t p) i) (t.val % 4) := by
  refine Finset.sum_congr rfl fun j _ => ?_
  have hj : (t.val % 4) * 2560 + j.val < 10240 := by have := j.isLt; omega
  rw [KVal2_x0_apply V c t p j hj, KVal2_x1_apply V c t j i hj]
  unfold rowPt2
  rw [dif_pos hj]

/-- k = 0: the accumulator is zero plus the first slice. -/
theorem accAt2_stepA (c : Dev nD) (t : Fin cfg2.N) (h0 : t.val % 4 = 0) (p : Fin 1280) (i : Fin 256) :
    ((outsAt2 V c t.val t.isLt).2.2 : S1280x256.Idx → EReal) (ix2 p i)
      = accAt2 (rowPt2 V c (blockRow2 t p) i) (t.val % 4) := by
  have h1 : ¬t.val % 4 = 3 := by omega
  rw [outsAt2_A V c t h0 h1]
  dsimp only
  refine (congrFun (piece2_A (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) (ix2 p i)).trans ?_
  refine (PayValue.pay2_2_apply (View.ld (Val := Elt Ideal) (e' := EltTy.bf16) (KVal2_x1 V c t) (piece2_rect (grid2.coords t))) (k2_pay1 (F := Ideal)) (KVal2_x0 V c t) p i).trans ?_
  rw [PayValue.pay2_1_apply p i, accAt2_prod V c t p i, h0]
  rfl

/-- k > 0: the accumulator is what the point before left plus this slice. -/
theorem accAt2_stepB (c : Dev nD) (t : Fin cfg2.N) (h0 : ¬t.val % 4 = 0) (p : Fin 1280) (i : Fin 256) :
    ((outsAt2 V c t.val t.isLt).2.2 : S1280x256.Idx → EReal) (ix2 p i)
      = ((outsAt2 V c (t.val - 1) (Nat.lt_of_le_of_lt (Nat.sub_le _ _) t.isLt)).2.2 : S1280x256.Idx → EReal) (ix2 p i)
        + accAt2_slice (rowPt2 V c (blockRow2 t p) i) (t.val % 4) := by
  by_cases h1 : t.val % 4 = 3
  · rw [outsAt2_C V c t h0 h1]
    dsimp only
    refine (congrFun (piece2_C (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2) (ix2 p i)).trans ?_
    refine (PayValue.pay2_2_apply (View.ld (Val := Elt Ideal) (e' := EltTy.bf16) (KVal2_x1 V c t) (piece2_rect (grid2.coords t))) (outsAt2 V c (t.val - 1) (Nat.lt_of_le_of_lt (Nat.sub_le _ _) t.isLt)).2.2 (KVal2_x0 V c t) p i).trans ?_
    rw [accAt2_prod V c t p i]
  · rw [outsAt2_B V c t h0 h1]
    dsimp only
    refine (congrFun (piece2_B (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2) (ix2 p i)).trans ?_
    refine (PayValue.pay2_2_apply (View.ld (Val := Elt Ideal) (e' := EltTy.bf16) (KVal2_x1 V c t) (piece2_rect (grid2.coords t))) (outsAt2 V c (t.val - 1) (Nat.lt_of_le_of_lt (Nat.sub_le _ _) t.isLt)).2.2 (KVal2_x0 V c t) p i).trans ?_
    rw [accAt2_prod V c t p i]

/-- THE ACCUMULATOR after point t = 4·m + k, at (p, i): the slices 0 … k of row (m, p)'s terms, accumulated from
    zero — by induction on the point. -/
theorem accAt2_inv (c : Dev nD) : ∀ (n : ℕ) (t : Fin cfg2.N), t.val = n → ∀ (p : Fin 1280) (i : Fin 256),
    ((outsAt2 V c t.val t.isLt).2.2 : S1280x256.Idx → EReal) (ix2 p i)
      = accAt2 (rowPt2 V c (blockRow2 t p) i) (t.val % 4) := by
  intro n
  induction n with
  | zero =>
    intro t ht p i
    exact accAt2_stepA V c t (by omega) p i
  | succ n ih =>
    intro t ht p i
    by_cases h0 : t.val % 4 = 0
    · exact accAt2_stepA V c t h0 p i
    · rw [accAt2_stepB V c t h0 p i]
      have hlt : t.val - 1 < cfg2.N := Nat.lt_of_le_of_lt (Nat.sub_le _ _) t.isLt
      have e := ih ⟨t.val - 1, hlt⟩ (by show t.val - 1 = n; omega) p i
      have hrow : blockRow2 ⟨t.val - 1, hlt⟩ p = blockRow2 t p := Fin.ext (by
        show 1280 * ((t.val - 1) / 4) + p.val = 1280 * (t.val / 4) + p.val
        have : (t.val - 1) / 4 = t.val / 4 := by omega
        rw [this])
      rw [hrow] at e
      obtain ⟨k, hk⟩ : ∃ k, t.val % 4 = k + 1 := ⟨t.val % 4 - 1, by omega⟩
      have hk' : (t.val - 1) % 4 = k := by omega
      rw [hk]
      show _ = accAt2 _ k + accAt2_slice _ (k + 1)
      rw [← hk']
      exact congrArg (fun z => z + accAt2_slice (rowPt2 V c (blockRow2 t p) i) ((t.val - 1) % 4 + 1)) e

/-! ## The four slices joined: the whole row sum -/

/-- After the last slice the running sum is the sum over all 10240 columns. -/
theorem accAt2_three (f : ℕ → EReal) : accAt2 f 3 = ∑ j : Fin 10240, f j.val := by
  have e := Cert.CountSum.sum_four_blocks_fin 2560 f
  have s0 : accAt2_slice f 0 = ∑ j : Fin 2560, f j.val :=
    Finset.sum_congr rfl fun j _ => by rw [Nat.zero_mul, Nat.zero_add]
  have s1 : accAt2_slice f 1 = ∑ j : Fin 2560, f (2560 + j.val) :=
    Finset.sum_congr rfl fun j _ => by rw [Nat.one_mul]
  have s2 : accAt2_slice f 2 = ∑ j : Fin 2560, f (2 * 2560 + j.val) := rfl
  have s3 : accAt2_slice f 3 = ∑ j : Fin 2560, f (3 * 2560 + j.val) := rfl
  show (((0 + accAt2_slice f 0) + accAt2_slice f 1) + accAt2_slice f 2) + accAt2_slice f 3 = _
  rw [s0, s1, s2, s3]
  exact e

/-- The accumulator as just updated at point t (what the last step reads), at (p, i). -/
theorem accAt2_now (c : Dev nD) (t : Fin cfg2.N) (h0 : ¬t.val % 4 = 0) (p : Fin 1280) (i : Fin 256) :
    k2_pay2 (F := Ideal) (View.ld (Val := Elt Ideal) (e' := EltTy.bf16) (KVal2_x1 V c t) (piece2_rect (grid2.coords t)))
        (outsAt2 V c (t.val - 1) (Nat.lt_of_le_of_lt (Nat.sub_le _ _) t.isLt)).2.2 (KVal2_x0 V c t) (ix2 p i)
      = accAt2 (rowPt2 V c (blockRow2 t p) i) (t.val % 4) := by
  refine (PayValue.pay2_2_apply (View.ld (Val := Elt Ideal) (e' := EltTy.bf16) (KVal2_x1 V c t) (piece2_rect (grid2.coords t))) (outsAt2 V c (t.val - 1) (Nat.lt_of_le_of_lt (Nat.sub_le _ _) t.isLt)).2.2 (KVal2_x0 V c t) p i).trans ?_
  rw [accAt2_prod V c t p i]
  exact (accAt2_stepB V c t h0 p i).symm.trans (accAt2_inv V c t.val t rfl p i)

/-- At k = 3 it is the whole node sum of row (band, p) at feature i. -/
theorem accAt2_last (c : Dev nD) (t : Fin cfg2.N) (h1 : t.val % 4 = 3) (p : Fin 1280) (i : Fin 256) :
    accAt2 (rowPt2 V c (blockRow2 t p) i) (t.val % 4)
      = ∑ j : Fin 10240, KVal2_A V c (ix2 (blockRow2 t p) j) * KVal2_HB V c (ix2 j i) := by
  rw [h1, accAt2_three]
  refine Finset.sum_congr rfl fun j _ => ?_
  unfold rowPt2
  rw [dif_pos j.isLt]

/-! ## The layer's value, and the block written back at k = 3 -/

/-- The closing function of this layer: the identity (the last layer has no closing max). -/
def act2 : (Fin 256 → EReal) → Fin 256 → EReal := fun v => v

/-- The last step's two stores at (p, q): the closing function of the perceptron of own row plus accumulator. -/
theorem act2_pay (v19 v21 : FVec Ideal S1280x256 .f32) (v24 : FVec Ideal S256x256 .bf16) (v27 : FVec Ideal S1x256 .f32)
    (v34 : FVec Ideal S256x256 .bf16) (v37 : FVec Ideal S1x256 .f32) (p : Fin 1280) (q : Fin 256) :
    k2_pay3 (F := Ideal) v19 v21 v24 v27 v34 v37 (ix2 p q)
        = act2 (Cert.Spec.mlp (fun i q => v24 (ix2 i q)) (fun q => v27 (ix2 0 q)) (fun i q => v34 (ix2 i q))
            (fun q => v37 (ix2 0 q)) (fun k => v19 (ix2 p k) + v21 (ix2 p k))) q
      ∧ k2_pay4 (F := Ideal) v19 v21 v24 v27 v34 v37 (ix2 p q)
        = act2 (Cert.Spec.mlp (fun i q => v24 (ix2 i q)) (fun q => v27 (ix2 0 q)) (fun i q => v34 (ix2 i q))
            (fun q => v37 (ix2 0 q)) (fun k => v19 (ix2 p k) + v21 (ix2 p k))) q :=
  ⟨PayValue.pay2_3_apply v19 v21 v24 v27 v34 v37 p q, PayValue.pay2_4_apply v19 v21 v24 v27 v34 v37 p q⟩

/-- THE LAYER at row r, column q, as a function of the whole arrays: the closing function of the perceptron of
    (own row r) + Σⱼ (count r j) · (features j). -/
def final2_G (c : Dev nD) : S10240x256.Idx → EReal := fun y =>
  act2 (Cert.Spec.convDense (fun r j => KVal2_A V c (ix2 r j)) (fun j k => KVal2_HB V c (ix2 j k))
    (fun r k => KVal2_H V c (ix2 r k)) (fun i q => KVal2_Wa V c (ix2 i q)) (fun q => KVal2_ba V c (ix2 0 q))
    (fun i q => KVal2_Wb V c (ix2 i q)) (fun q => KVal2_bb V c (ix2 0 q)) (y 0)) (y 1)

/-- The perceptron of own row plus accumulator, at the blocks of point t with k = 3, is the layer at row (band, p). -/
theorem flushed2_mlp (c : Dev nD) (t : Fin cfg2.N) (h0 : ¬t.val % 4 = 0) (h1 : t.val % 4 = 3) (p : Fin 1280) (q : Fin 256) :
    act2 (Cert.Spec.mlp (fun i q => KVal2_x3 V c t (ix2 i q)) (fun q => KVal2_x4 V c t (ix2 0 q))
        (fun i q => KVal2_x5 V c t (ix2 i q)) (fun q => KVal2_x6 V c t (ix2 0 q))
        (fun k => KVal2_x2 V c t (ix2 p k)
          + k2_pay2 (F := Ideal) (View.ld (Val := Elt Ideal) (e' := EltTy.bf16) (KVal2_x1 V c t) (piece2_rect (grid2.coords t)))
              (outsAt2 V c (t.val - 1) (Nat.lt_of_le_of_lt (Nat.sub_le _ _) t.isLt)).2.2 (KVal2_x0 V c t) (ix2 p k))) q
      = final2_G V c (ix2 (blockRow2 t p) q) := by
  rw [KVal2_x3_eq V c t, KVal2_x4_eq V c t, KVal2_x5_eq V c t, KVal2_x6_eq V c t]
  show _ = act2 (Cert.Spec.mlp (fun i q => KVal2_Wa V c (ix2 i q)) (fun q => KVal2_ba V c (ix2 0 q))
    (fun i q => KVal2_Wb V c (ix2 i q)) (fun q => KVal2_bb V c (ix2 0 q))
    (fun k => KVal2_H V c (ix2 (blockRow2 t p) k)
      + ∑ j : Fin 10240, KVal2_A V c (ix2 (blockRow2 t p) j) * KVal2_HB V c (ix2 j k))) q
  refine congrArg (fun v => act2 (Cert.Spec.mlp (fun i q => KVal2_Wa V c (ix2 i q)) (fun q => KVal2_ba V c (ix2 0 q))
    (fun i q => KVal2_Wb V c (ix2 i q)) (fun q => KVal2_bb V c (ix2 0 q)) v) q) (funext fun k => ?_)
  rw [KVal2_x2_apply V c t p k, accAt2_now V c t h0 p k, accAt2_last V c t h1 p k]

/-- An element of an output block at point t sits at row (band, p), column q of its array. -/
theorem flushed2_at7 (c : Dev nD) (t : Fin cfg2.N) (G : S10240x256.Idx → EReal) (p : Fin 1280) (q : Fin 256) :
    (((cfg2.win 7).blk t).view.read (Elt Ideal) G : S1280x256.Idx → EReal) (ix2 p q) = G (ix2 (blockRow2 t p) q) := by
  obtain ⟨-, -, -, -, -, -, -, -, -, -, -, -, -, -, e0, e1, -⟩ := KVal2_idx t
  show G (((cfg2.win 7).blk t).view.emb (ix2 p q)) = _
  congr 1
  funext a; apply Fin.ext
  match a with
  | ⟨0, _⟩ => show win2_7.index t (0 : Fin 2) * 1280 + 1 * p.val = 1280 * (t.val / 4) + p.val; rw [e0]; omega
  | ⟨1, _⟩ => show win2_7.index t (1 : Fin 2) * 256 + 1 * q.val = q.val; rw [e1]; omega

theorem flushed2_at8 (c : Dev nD) (t : Fin cfg2.N) (G : S10240x256.Idx → EReal) (p : Fin 1280) (q : Fin 256) :
    (((cfg2.win 8).blk t).view.read (Elt Ideal) G : S1280x256.Idx → EReal) (ix2 p q) = G (ix2 (blockRow2 t p) q) := by
  obtain ⟨-, -, -, -, -, -, -, -, -, -, -, -, -, -, -, -, e0, e1, -⟩ := KVal2_idx t
  show G (((cfg2.win 8).blk t).view.emb (ix2 p q)) = _
  congr 1
  funext a; apply Fin.ext
  match a with
  | ⟨0, _⟩ => show win2_8.index t (0 : Fin 2) * 1280 + 1 * p.val = 1280 * (t.val / 4) + p.val; rw [e0]; omega
  | ⟨1, _⟩ => show win2_8.index t (1 : Fin 2) * 256 + 1 * q.val = q.val; rw [e1]; omega

/-- WHAT THE WRITE-BACK AT k = 3 WRITES into the first output: the band's block of the layer. -/
theorem flushed2_7 (c : Dev nD) (t : Fin cfg2.N) (hf : (cfg2.win 7).flush t = true) :
    (dat2 V c).flushed 7 t = ((cfg2.win 7).blk t).view.read (Elt Ideal) (final2_G V c) := by
  have h1 : t.val % 4 = 3 := (flush2_7 t).mp hf
  have h0 : ¬t.val % 4 = 0 := by omega
  show (cfg2.win 7).cut (grid2.coords t) ((dat2 V c).after 7 t) = _
  rw [after2_7, outsAt2_C V c t h0 h1]
  dsimp only
  refine funext fun (y : S1280x256.Idx) => ?_
  obtain ⟨p, q, rfl⟩ : ∃ (p : Fin 1280) (q : Fin 256), y = ix2 p q := ⟨y 0, y 1, eq_ix2 y⟩
  refine Eq.trans ?_ (flushed2_at7 c t (final2_G V c) p q).symm
  refine (congrFun (piece2_C7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2) (ix2 p q)).trans ?_
  refine (act2_pay (KVal2_x2 V c t) (k2_pay2 (F := Ideal) (View.ld (Val := Elt Ideal) (e' := EltTy.bf16) (KVal2_x1 V c t) (piece2_rect (grid2.coords t))) (outsAt2 V c (t.val - 1) (Nat.lt_of_le_of_lt (Nat.sub_le _ _) t.isLt)).2.2 (KVal2_x0 V c t)) (KVal2_x3 V c t) (KVal2_x4 V c t) (KVal2_x5 V c t) (KVal2_x6 V c t) p q).1.trans ?_
  exact flushed2_mlp V c t h0 h1 p q

/-- and into the second output: the same block, narrowed. -/
theorem flushed2_8 (c : Dev nD) (t : Fin cfg2.N) (hf : (cfg2.win 8).flush t = true) :
    (dat2 V c).flushed 8 t = ((cfg2.win 8).blk t).view.read (Elt Ideal) (final2_G V c) := by
  have h1 : t.val % 4 = 3 := (flush2_8 t).mp hf
  have h0 : ¬t.val % 4 = 0 := by omega
  show (cfg2.win 8).cut (grid2.coords t) ((dat2 V c).after 8 t) = _
  rw [after2_8, outsAt2_C V c t h0 h1]
  dsimp only
  refine funext fun (y : S1280x256.Idx) => ?_
  obtain ⟨p, q, rfl⟩ : ∃ (p : Fin 1280) (q : Fin 256), y = ix2 p q := ⟨y 0, y 1, eq_ix2 y⟩
  refine Eq.trans ?_ (flushed2_at8 c t (final2_G V c) p q).symm
  refine (congrFun (piece2_C8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2) (ix2 p q)).trans ?_
  refine (act2_pay (KVal2_x2 V c t) (k2_pay2 (F := Ideal) (View.ld (Val := Elt Ideal) (e' := EltTy.bf16) (KVal2_x1 V c t) (piece2_rect (grid2.coords t))) (outsAt2 V c (t.val - 1) (Nat.lt_of_le_of_lt (Nat.sub_le _ _) t.isLt)).2.2 (KVal2_x0 V c t)) (KVal2_x3 V c t) (KVal2_x4 V c t) (KVal2_x5 V c t) (KVal2_x6 V c t) p q).2.trans ?_
  exact flushed2_mlp V c t h0 h1 p q

/-! ## The cover, and the arrays after the region -/

/-- The point that writes row r's band back: k = 3 of band r / 1280. -/
def cov2_pt (r : ℕ) (hr : r < 10240) : Fin cfg2.N :=
  ⟨4 * (r / 1280) + 3, by rw [KVal2_N]; omega⟩

theorem cov2_7 (i : S10240x256.Idx) :
    ∃ t : Fin cfg2.N, (cfg2.win 7).flush t = true ∧ i ∈ ((cfg2.win 7).blk t).view.set := by
  have hi0 : (i 0).val < 10240 := (i 0).isLt
  have hi1 : (i 1).val < 256 := (i 1).isLt
  refine ⟨cov2_pt (i 0).val hi0, (flush2_7 _).mpr (by show (4 * ((i 0).val / 1280) + 3) % 4 = 3; omega), ?_⟩
  obtain ⟨-, -, -, -, -, -, -, -, -, -, -, -, -, -, e0, e1, -⟩ := KVal2_idx (cov2_pt (i 0).val hi0)
  have ev : (cov2_pt (i 0).val hi0).val / 4 = (i 0).val / 1280 := by show (4 * ((i 0).val / 1280) + 3) / 4 = _; omega
  show i ∈ ((View.whole (Pipeline.arrRef spec2 7)).slice (win2_7.rect (cov2_pt (i 0).val hi0))).set
  rw [View.set_slice_whole, Rect.mem_set_unit]
  intro a
  match a with
  | ⟨0, _⟩ =>
    show win2_7.index (cov2_pt (i 0).val hi0) (0 : Fin 2) * 1280 ≤ (i 0).val ∧ (i 0).val < win2_7.index (cov2_pt (i 0).val hi0) (0 : Fin 2) * 1280 + 1280
    rw [e0, ev]; omega
  | ⟨1, _⟩ =>
    show win2_7.index (cov2_pt (i 0).val hi0) (1 : Fin 2) * 256 ≤ (i 1).val ∧ (i 1).val < win2_7.index (cov2_pt (i 0).val hi0) (1 : Fin 2) * 256 + 256
    rw [e1]; omega

theorem cov2_8 (i : S10240x256.Idx) :
    ∃ t : Fin cfg2.N, (cfg2.win 8).flush t = true ∧ i ∈ ((cfg2.win 8).blk t).view.set := by
  have hi0 : (i 0).val < 10240 := (i 0).isLt
  have hi1 : (i 1).val < 256 := (i 1).isLt
  refine ⟨cov2_pt (i 0).val hi0, (flush2_8 _).mpr (by show (4 * ((i 0).val / 1280) + 3) % 4 = 3; omega), ?_⟩
  obtain ⟨-, -, -, -, -, -, -, -, -, -, -, -, -, -, -, -, e0, e1, -⟩ := KVal2_idx (cov2_pt (i 0).val hi0)
  have ev : (cov2_pt (i 0).val hi0).val / 4 = (i 0).val / 1280 := by show (4 * ((i 0).val / 1280) + 3) / 4 = _; omega
  show i ∈ ((View.whole (Pipeline.arrRef spec2 8)).slice (win2_8.rect (cov2_pt (i 0).val hi0))).set
  rw [View.set_slice_whole, Rect.mem_set_unit]
  intro a
  match a with
  | ⟨0, _⟩ =>
    show win2_8.index (cov2_pt (i 0).val hi0) (0 : Fin 2) * 1280 ≤ (i 0).val ∧ (i 0).val < win2_8.index (cov2_pt (i 0).val hi0) (0 : Fin 2) * 1280 + 1280
    rw [e0, ev]; omega
  | ⟨1, _⟩ =>
    show win2_8.index (cov2_pt (i 0).val hi0) (1 : Fin 2) * 256 ≤ (i 1).val ∧ (i 1).val < win2_8.index (cov2_pt (i 0).val hi0) (1 : Fin 2) * 256 + 256
    rw [e1]; omega

/-- THE FIRST OUTPUT ARRAY after the region: the layer, row by row. -/
theorem final2_7 (c : Dev nD) (r : Fin 10240) (q : Fin 256) :
    ((dat2 (F := Ideal) V c).arrAt 7 cfg2.N : S10240x256.Idx → EReal) (ix2 r q)
      = act2 (Cert.Spec.convDense (fun r j => (V c (Pipeline.arrRef spec2 0) : S10240x10240.Idx → EReal) (ix2 r j))
          (fun j k => (V c (Pipeline.arrRef spec2 1) : S10240x256.Idx → EReal) (ix2 j k))
          (fun r k => (V c (Pipeline.arrRef spec2 2) : S10240x256.Idx → EReal) (ix2 r k))
          (fun i q => (V c (Pipeline.arrRef spec2 3) : S256x256.Idx → EReal) (ix2 i q))
          (fun q => (V c (Pipeline.arrRef spec2 4) : S1x256.Idx → EReal) (ix2 0 q))
          (fun i q => (V c (Pipeline.arrRef spec2 5) : S256x256.Idx → EReal) (ix2 i q))
          (fun q => (V c (Pipeline.arrRef spec2 6) : S1x256.Idx → EReal) (ix2 0 q)) r) q :=
  congrFun ((dat2 (F := Ideal) V c).arrAt_eq_of_cover 7 (final2_G V c) (flushed2_7 V c) (cov2_7)) (ix2 r q)

/-- THE SECOND OUTPUT ARRAY after the region: the same values, in the matrix unit's format. -/
theorem final2_8 (c : Dev nD) (r : Fin 10240) (q : Fin 256) :
    ((dat2 (F := Ideal) V c).arrAt 8 cfg2.N : S10240x256.Idx → EReal) (ix2 r q)
      = act2 (Cert.Spec.convDense (fun r j => (V c (Pipeline.arrRef spec2 0) : S10240x10240.Idx → EReal) (ix2 r j))
          (fun j k => (V c (Pipeline.arrRef spec2 1) : S10240x256.Idx → EReal) (ix2 j k))
          (fun r k => (V c (Pipeline.arrRef spec2 2) : S10240x256.Idx → EReal) (ix2 r k))
          (fun i q => (V c (Pipeline.arrRef spec2 3) : S256x256.Idx → EReal) (ix2 i q))
          (fun q => (V c (Pipeline.arrRef spec2 4) : S1x256.Idx → EReal) (ix2 0 q))
          (fun i q => (V c (Pipeline.arrRef spec2 5) : S256x256.Idx → EReal) (ix2 i q))
          (fun q => (V c (Pipeline.arrRef spec2 6) : S1x256.Idx → EReal) (ix2 0 q)) r) q :=
  congrFun ((dat2 (F := Ideal) V c).arrAt_eq_of_cover 8 (final2_G V c) (flushed2_8 V c) (cov2_8)) (ix2 r q)

end Value

end Cert.KernelIdeal.Fr

end
-- ==== Proof.LibHostCalls.lean ====
/-
  Reading back host lines that came from a module-local function (a `func.call` such as jnp.take's `@_take` or jnp.clip's
  `@clip`, whose operations are the typed-reference builders `TRef.unary`, `TRef.binary`, …).

  A typed builder writes its result through `TRef.toBuf` and reads its operands through `TRef.ofBuf`, both casts along the
  reference's `ty_eq`.  A value passed from one operation of the function to the next is therefore wrapped
  `ofBuf (toBuf v)`: moved to the buffer's own type and back.  `cast_round` says such a round trip is the value, whatever
  the two equalities' proofs are, so `simp only [TRef.toBuf, TRef.ofBuf, cast_round]` cancels every pair syntactically,
  without looking at any buffer's type.  What is left afterwards is at most one cast around the whole result — removed by
  `refine eq_of_heq ((cast_heq _ _).trans (heq_of_eq ?_))` — and casts around the values read from the valuation, each
  rewritten by a local equation `∀ h, cast h (W b) = W b := fun _ => rfl` stated at the buffer's literal type.
  A long line is best read in parts, each from an arbitrary valuation, joined by the library's `StableHlo.after_append`.
-/
import Idealize.ShloMosaic.Lib.StableHlo.Run

noncomputable section

namespace HostCalls

open Idealize.ShloMosaic Idealize.ShloMosaic.StableHlo

/-- A value moved to another type along an equality and back is the value, whatever the two equalities' proofs. -/
theorem cast_round {A B : Type} (h1 : A = B) (h2 : B = A) (v : A) : cast h2 (cast h1 v) = v := by
  subst h1; rfl

end HostCalls

end
-- ==== Proof.LibScatterPairs.lean ====
/-
  A scatter-add of single values at positions named by PAIRS of indices (jnp's `x.at[rows, cols].add(u)` with one
  row number and one column number per update), read at an element.

  The scatter-add prints as `Host.scatterAdd d x idx upd` with the scatter indices an (n, 2) array — update e carries the
  row number idx(e, 0) and the column number idx(e, 1) — the updates a list of n values, both axes of the operand
  inserted and start-indexed. At the ideal values element (r, j) of the result is x(r, j) plus the sum of upd(e) over
  the updates e whose two indices, read as SIGNED integers and not clamped, are r and j: an update with an index that is
  negative or past the end of its axis contributes nothing.
-/
import Idealize.ShloMosaic.PureOps.Ideal
import Idealize.ShloMosaic.PureOps.Contract
import Idealize.ShloMosaic.Lib.ValueIdx

noncomputable section

namespace Idealize.ShloMosaic.ScatterPairs

open Idealize.ShloMosaic Idealize.ShloMosaic.ValueIdx

/-- A list with exactly one entry has that entry at every position it can be read at. -/
private theorem getElem_eq_of_singleton {β : Type} {l : List β} {b : β} (h : l = [b]) {i : Nat} (hi : i < l.length) : l[i] = b := by
  subst h
  match i, hi with
  | 0, _ => rfl
  | i + 1, hi => exact absurd hi (by simp)

/-- A sum over the positions of a list of n values is the sum over their coordinates. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

/-! ## Where an update lands

  Both axes of the operand are inserted and start-indexed, the updates have no window axis, and the index vector runs
  along the second axis of the scatter indices: update e starts at row idx(e, 0), column idx(e, 1), with window
  coordinate (0, 0), and lands there when both numbers, read signed, are positions on their axes. -/

section pairsAux
variable {N M n w : Nat} (d : ScatterDims ⟨2, ![N, M]⟩ ⟨2, ![n, 2]⟩ ⟨1, ![n]⟩) (idx : IVec ⟨2, ![n, 2]⟩ w) (e : Fin n)

/-- Both of the operand's axes are inserted: none is kept. -/
theorem sKept_pairs (hiw : d.insertedWindowDims = [0, 1]) : d.sKept = [] := by
  show Shape.kept _ d.insertedWindowDims = []
  rw [hiw]; rfl

/-- The updates' only axis is a scatter axis. -/
theorem uScatter_pairs (huw : d.updateWindowDims = []) : d.uScatter = [(0 : Fin 1)] := by
  show Shape.kept _ d.updateWindowDims = [(0 : Fin 1)]
  rw [huw]; rfl

/-- On the row axis the window of update e starts at the first of its two scatter indices, read signed. -/
theorem start_row (huw : d.updateWindowDims = []) (hsd : d.scatterDimsToOperandDims = [0, 1]) (hivd : d.indexVectorDim = 1) :
    d.start (ix1 e) idx (0 : Fin 2) = (idx (ix2 e (0 : Fin 2))).toInt := by
  have hm : (0 : Fin 2) ∈ d.scatterDimsToOperandDims := by rw [hsd]; simp
  unfold ScatterDims.start
  rw [dif_pos hm]
  refine congrArg (fun q => (idx q).toInt) ?_
  funext b
  match b with
  | ⟨0, _⟩ =>
    unfold ScatterDims.siIdx
    rw [dif_neg (by rw [hivd]; exact Nat.zero_ne_one)]
    unfold ScatterDims.siCoord
    apply Fin.ext
    show ((ix1 e) (d.uScatter[_]'_)).val = e.val
    rw [getElem_eq_of_singleton (uScatter_pairs d huw)]
  | ⟨1, _⟩ =>
    unfold ScatterDims.siIdx
    rw [dif_pos (by rw [hivd])]
    apply Fin.ext
    show List.idxOf (0 : Fin 2) d.scatterDimsToOperandDims = 0
    rw [hsd]; simp

/-- On the column axis it starts at the second of the two, read signed. -/
theorem start_col (huw : d.updateWindowDims = []) (hsd : d.scatterDimsToOperandDims = [0, 1]) (hivd : d.indexVectorDim = 1) :
    d.start (ix1 e) idx (1 : Fin 2) = (idx (ix2 e (1 : Fin 2))).toInt := by
  have hm : (1 : Fin 2) ∈ d.scatterDimsToOperandDims := by rw [hsd]; simp
  unfold ScatterDims.start
  rw [dif_pos hm]
  refine congrArg (fun q => (idx q).toInt) ?_
  funext b
  match b with
  | ⟨0, _⟩ =>
    unfold ScatterDims.siIdx
    rw [dif_neg (by rw [hivd]; exact Nat.zero_ne_one)]
    unfold ScatterDims.siCoord
    apply Fin.ext
    show ((ix1 e) (d.uScatter[_]'_)).val = e.val
    rw [getElem_eq_of_singleton (uScatter_pairs d huw)]
  | ⟨1, _⟩ =>
    unfold ScatterDims.siIdx
    rw [dif_pos (by rw [hivd])]
    apply Fin.ext
    show List.idxOf (1 : Fin 2) d.scatterDimsToOperandDims = 1
    rw [hsd]; simp

/-- Both axes are inserted: the window coordinate is 0 on each. -/
theorem window_zero (hiw : d.insertedWindowDims = [0, 1]) (a : Fin 2) : d.window (ix1 e) a = 0 := by
  have hk : a ∉ d.sKept := by rw [sKept_pairs d hiw]; exact List.not_mem_nil
  unfold ScatterDims.window
  rw [dif_neg hk]

/-- Update e lands at (r, j) exactly when its two scatter indices, read signed, are r and j: the bounds on both axes then
    hold because r and j are positions in the operand. -/
theorem resultIdx_pairs_iff (huw : d.updateWindowDims = []) (hiw : d.insertedWindowDims = [0, 1])
    (hsd : d.scatterDimsToOperandDims = [0, 1]) (hivd : d.indexVectorDim = 1) (r : Fin N) (j : Fin M) :
    d.resultIdx? (ix1 e) idx = some (ix2 r j)
      ↔ (idx (ix2 e (0 : Fin 2))).toInt = (r.val : ℤ) ∧ (idx (ix2 e (1 : Fin 2))).toInt = (j.val : ℤ) := by
  have h0 := start_row d idx e huw hsd hivd
  have h1 := start_col d idx e huw hsd hivd
  have w0 := window_zero d e hiw (0 : Fin 2)
  have w1 := window_zero d e hiw (1 : Fin 2)
  unfold ScatterDims.resultIdx?
  split
  · rename_i h
    rw [Option.some.injEq]
    constructor
    · intro hf
      have a0 : (d.start (ix1 e) idx (0 : Fin 2) + (d.window (ix1 e) (0 : Fin 2) : ℤ)).toNat = r.val :=
        congrArg (fun f => (f (0 : Fin 2)).val) hf
      have a1 : (d.start (ix1 e) idx (1 : Fin 2) + (d.window (ix1 e) (1 : Fin 2) : ℤ)).toNat = j.val :=
        congrArg (fun f => (f (1 : Fin 2)).val) hf
      have b0 := (h (0 : Fin 2)).1
      have b1 := (h (1 : Fin 2)).1
      rw [h0, w0] at a0 b0
      rw [h1, w1] at a1 b1
      refine ⟨by omega, by omega⟩
    · rintro ⟨hr, hj⟩
      funext a
      match a with
      | ⟨0, _⟩ =>
        apply Fin.ext
        show (d.start (ix1 e) idx (0 : Fin 2) + (d.window (ix1 e) (0 : Fin 2) : ℤ)).toNat = r.val
        rw [h0, w0, hr]; omega
      | ⟨1, _⟩ =>
        apply Fin.ext
        show (d.start (ix1 e) idx (1 : Fin 2) + (d.window (ix1 e) (1 : Fin 2) : ℤ)).toNat = j.val
        rw [h1, w1, hj]; omega
  · rename_i h
    constructor
    · intro hf; exact absurd hf (by simp)
    · rintro ⟨hr, hj⟩
      refine absurd (fun a => ?_) h
      match a with
      | ⟨0, _⟩ =>
        show 0 ≤ d.start (ix1 e) idx (0 : Fin 2) + (d.window (ix1 e) (0 : Fin 2) : ℤ) ∧
          d.start (ix1 e) idx (0 : Fin 2) + (d.window (ix1 e) (0 : Fin 2) : ℤ) < ((N : ℕ) : ℤ)
        rw [h0, w0, hr]; have := r.isLt; omega
      | ⟨1, _⟩ =>
        show 0 ≤ d.start (ix1 e) idx (1 : Fin 2) + (d.window (ix1 e) (1 : Fin 2) : ℤ) ∧
          d.start (ix1 e) idx (1 : Fin 2) + (d.window (ix1 e) (1 : Fin 2) : ℤ) < ((M : ℕ) : ℤ)
        rw [h1, w1, hj]; have := j.isLt; omega

end pairsAux

section pairs
variable {N M n w : Nat} (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hivd : d.indexVectorDim = 1) (idx : IVec ⟨2, ![n, 2]⟩ w)
include huw hiw hsd hivd

/-- Element (r, j) of a scatter-add of values at pairs of indices: the operand's element plus the updates whose pair of
    indices is (r, j). -/
theorem scatterAdd_pairs {φ : FTy} (x : FVec Ideal ⟨2, ![N, M]⟩ φ) (upd : FVec Ideal ⟨1, ![n]⟩ φ) (r : Fin N) (j : Fin M) :
    Host.scatterAdd d x idx upd (ix2 r j)
      = x (ix2 r j) + ∑ e ∈ Finset.univ.filter (fun e : Fin n =>
          (idx (ix2 e (0 : Fin 2))).toInt = (r.val : ℤ) ∧ (idx (ix2 e (1 : Fin 2))).toInt = (j.val : ℤ)), upd (ix1 e) := by
  have hlands := fun (e : Fin n) => resultIdx_pairs_iff d idx e huw hiw hsd hivd r j
  unfold Host.scatterAdd
  rw [Ideal.hostScatterAdd_def]
  unfold Ideal.hostScatterAdd
  congr 1
  rw [Finset.sum_filter, Finset.sum_filter, sum_idx1]
  exact Finset.sum_congr rfl fun e _ => if_congr (hlands e) rfl rfl

end pairs

end Idealize.ShloMosaic.ScatterPairs

end
-- ==== Proof.HostValue.lean ====
/-
  What the host lines of the program compute, read at one element, at the ideal values.

  The program's host text is four stretches of array operations around its three kernels. Before the first kernel:
  the edge list's two rows are cut out, a negative node number is wrapped by adding the padded node count, the two
  columns are put side by side, and a matrix of zeros receives a one at (target, source) for every edge — the
  edge-count matrix; the node features get 240 rows of zeros below them; weights change format (the identity on
  extended reals) and bias rows become one-row matrices. Before the second and third kernel the same for that layer's
  weights and biases. After the last kernel the first 10000 rows are cut out.
-/
import proofs.«410393_j66864050864374_3_alg».proof.Proof.Gen.KernelIdeal.Launch
import proofs.«410393_j66864050864374_3_alg».proof.Proof.SpecArr
import proofs.«410393_j66864050864374_3_alg».proof.Proof.LibHostCalls
import Idealize.ShloMosaic.Lib.StableHlo.Run
import Idealize.ShloMosaic.Lib.ValueIdx
import Idealize.ShloMosaic.Lib.KernelVsHost
import Idealize.ShloMosaic.Lib.IdealHost
import proofs.«410393_j66864050864374_3_alg».proof.Proof.LibScatterPairs
import Idealize.ShloMosaic.Lib.Pipeline.Value

noncomputable section

namespace Cert.KernelIdeal.HostValue

open Idealize.ShloMosaic Idealize.ShloMosaic.ValueIdx Idealize.ShloMosaic.StableHlo
open Cert.KernelIdeal Cert.KernelIdeal.Gen

/-- A list of 256 values laid out as a one-row matrix reads, at column q of its row, entry q of the list. -/
theorem bias_row (x : S256.Idx → EReal) (q : Fin 256) :
    broadcastInDim S1x256 ![1] bcast_S256_S1x256_1 x (ix2 0 q) = x (ix1 q) := by
  unfold broadcastInDim
  refine congrArg x (funext fun a => ?_)
  match a with
  | ⟨0, _⟩ => rfl

/-! ## Before the first kernel: weights, biases, padded features -/

/-- The first layer's first weight matrix only changes format: entry by entry it is the argument's. -/
theorem w0a_apply (W : Valuation τ sig (Elt Ideal)) (i : Fin 128) (q : Fin 256) :
    (StableHlo.after (hostOps0 (F := Ideal)) W (Proc.devRef .tc main_call0_v23) : S128x256.Idx → EReal) (ix2 i q)
      = (W (Proc.devRef .tc main_arg2) : S128x256.Idx → EReal) (ix2 i q) := by
  have e : @Eq (S128x256.Idx → EReal) (StableHlo.after (hostOps0 (F := Ideal)) W (Proc.devRef .tc main_call0_v23))
      (truncf (F := Ideal) .bf16 (W (Proc.devRef .tc main_arg2) : FVec Ideal S128x256 .f32) bitsLt_bf16_f32) := by
    after_results; rfl
  rw [e]; rfl

/-- The first layer's second weight matrix likewise. -/
theorem w0b_apply (W : Valuation τ sig (Elt Ideal)) (i q : Fin 256) :
    (StableHlo.after (hostOps0 (F := Ideal)) W (Proc.devRef .tc main_call0_v24) : S256x256.Idx → EReal) (ix2 i q)
      = (W (Proc.devRef .tc main_arg4) : S256x256.Idx → EReal) (ix2 i q) := by
  have e : @Eq (S256x256.Idx → EReal) (StableHlo.after (hostOps0 (F := Ideal)) W (Proc.devRef .tc main_call0_v24))
      (truncf (F := Ideal) .bf16 (W (Proc.devRef .tc main_arg4) : FVec Ideal S256x256 .f32) bitsLt_bf16_f32) := by
    after_results; rfl
  rw [e]; rfl

/-- The first layer's first bias, laid as a one-row matrix, reads the bias. -/
theorem b0a_apply (W : Valuation τ sig (Elt Ideal)) (q : Fin 256) :
    (StableHlo.after (hostOps0 (F := Ideal)) W (Proc.devRef .tc main_call0_v25) : S1x256.Idx → EReal) (ix2 0 q)
      = (W (Proc.devRef .tc main_arg3) : S256.Idx → EReal) (ix1 q) := by
  have e : @Eq (S1x256.Idx → EReal) (StableHlo.after (hostOps0 (F := Ideal)) W (Proc.devRef .tc main_call0_v25))
      (broadcastInDim S1x256 ![1] bcast_S256_S1x256_1 (W (Proc.devRef .tc main_arg3) : S256.Idx → EReal)) := by
    after_results; rfl
  rw [e]
  exact bias_row _ q

/-- The first layer's second bias likewise. -/
theorem b0b_apply (W : Valuation τ sig (Elt Ideal)) (q : Fin 256) :
    (StableHlo.after (hostOps0 (F := Ideal)) W (Proc.devRef .tc main_call0_v26) : S1x256.Idx → EReal) (ix2 0 q)
      = (W (Proc.devRef .tc main_arg5) : S256.Idx → EReal) (ix1 q) := by
  have e : @Eq (S1x256.Idx → EReal) (StableHlo.after (hostOps0 (F := Ideal)) W (Proc.devRef .tc main_call0_v26))
      (broadcastInDim S1x256 ![1] bcast_S256_S1x256_1 (W (Proc.devRef .tc main_arg5) : S256.Idx → EReal)) := by
    after_results; rfl
  rw [e]
  exact bias_row _ q

/-- Node features with 240 rows of padding below them read, at a row that is a node's, that node's features. -/
theorem pad_rows (x : S10000x128.Idx → EReal) (v : S_.Idx → EReal) (i : Fin 10000) (k : Fin 128) :
    pad S10240x128 ![0, 0] ![240, 0] ![0, 0] x v pads_S10000x128_S10240x128_02400_000 h_S_ (ix2 ⟨i.val, by omega⟩ k)
      = x (ix2 i k) :=
  pad_apply_of_inside _ _ _ x v pads_S10000x128_S10240x128_02400_000 h_S_ _ (ix2 i k) fun a => by
    match a with
    | ⟨0, _⟩ => show i.val = 0 + i.val * (0 + 1); omega
    | ⟨1, _⟩ => show k.val = 0 + k.val * (0 + 1); omega

/-- The padded node features read, at a node's row, the node's features. -/
theorem xpad_apply (W : Valuation τ sig (Elt Ideal)) (i : Fin 10000) (k : Fin 128) :
    (StableHlo.after (hostOps0 (F := Ideal)) W (Proc.devRef .tc main_call0_v21) : S10240x128.Idx → EReal) (ix2 ⟨i.val, by omega⟩ k)
      = (W (Proc.devRef .tc main_arg0) : S10000x128.Idx → EReal) (ix2 i k) := by
  have e : @Eq (S10240x128.Idx → EReal) (StableHlo.after (hostOps0 (F := Ideal)) W (Proc.devRef .tc main_call0_v21))
      (pad S10240x128 ![0, 0] ![240, 0] ![0, 0] (W (Proc.devRef .tc main_arg0) : S10000x128.Idx → EReal)
        (sitofp (F := Ideal) .f32 (constantI S_ 32 0#32)) pads_S10000x128_S10240x128_02400_000 h_S_) := by
    after_results; rfl
  rw [e]
  exact pad_rows _ _ i k

/-- The padded node features in the matrix unit's format likewise: the change of format is the identity. -/
theorem xbf_apply (W : Valuation τ sig (Elt Ideal)) (i : Fin 10000) (k : Fin 128) :
    (StableHlo.after (hostOps0 (F := Ideal)) W (Proc.devRef .tc main_call0_v22) : S10240x128.Idx → EReal) (ix2 ⟨i.val, by omega⟩ k)
      = (W (Proc.devRef .tc main_arg0) : S10000x128.Idx → EReal) (ix2 i k) := by
  have e : @Eq (S10240x128.Idx → EReal) (StableHlo.after (hostOps0 (F := Ideal)) W (Proc.devRef .tc main_call0_v22))
      (truncf (F := Ideal) .bf16 (pad S10240x128 ![0, 0] ![240, 0] ![0, 0] (W (Proc.devRef .tc main_arg0) : FVec Ideal S10000x128 .f32)
        (sitofp (F := Ideal) .f32 (constantI S_ 32 0#32)) pads_S10000x128_S10240x128_02400_000 h_S_) bitsLt_bf16_f32) := by
    after_results; rfl
  rw [e]
  exact pad_rows _ _ i k

/-! ## The edge-count matrix

  The program cuts the two rows out of the edge array, wraps a negative node number by adding the padded node count,
  lays the wrapped targets and the wrapped sources side by side as an (edge, 2) array of index pairs, and adds a one
  into a matrix of zeros at every pair. With every node number in range nothing is wrapped and nothing is dropped:
  entry (r, j) counts the edges from node j to node r. -/

/-- Row 0 of the edge array (the sources) as a list. -/
abbrev row0 (a1 : IVec S2x640000 32) : IVec S640000 32 :=
  shapeCast S640000 (extractStridedSlice S1x640000 ![0, 0] a1 slices_S2x640000_S1x640000_0_0) shapeCasts_S1x640000_S640000
/-- Row 1 of the edge array (the targets) as a list. -/
abbrev row1 (a1 : IVec S2x640000 32) : IVec S640000 32 :=
  shapeCast S640000 (extractStridedSlice S1x640000 ![1, 0] a1 slices_S2x640000_S1x640000_1_0) shapeCasts_S1x640000_S640000

/-- Row 0, cut out and laid as a list, reads at e the array at (0, e). -/
theorem row0_apply (a1 : IVec S2x640000 32) (e : Fin 640000) : row0 a1 (ix1 e) = a1 (ix2 0 e) := by
  refine (shapeCast_apply _ _ (ix1 e) (ix2 (0 : Fin 1) e) ?_).trans ?_
  · rw [Shape.rowMajor_val_two, Shape.rowMajor_val_one]
    show (0 : Nat) * 640000 + e.val = e.val
    omega
  · exact extractStridedSlice_apply _ _ _ _ (ix2 0 e) fun a => by
      match a with
      | ⟨0, _⟩ => rfl
      | ⟨1, _⟩ => show e.val = 0 + e.val; omega

/-- Row 1 likewise. -/
theorem row1_apply (a1 : IVec S2x640000 32) (e : Fin 640000) : row1 a1 (ix1 e) = a1 (ix2 1 e) := by
  refine (shapeCast_apply _ _ (ix1 e) (ix2 (0 : Fin 1) e) ?_).trans ?_
  · rw [Shape.rowMajor_val_two, Shape.rowMajor_val_one]
    show (0 : Nat) * 640000 + e.val = e.val
    omega
  · exact extractStridedSlice_apply _ _ _ _ (ix2 1 e) fun a => by
      match a with
      | ⟨0, _⟩ => rfl
      | ⟨1, _⟩ => show e.val = 0 + e.val; omega

/-- A word that is not negative when read signed is left alone by "add the padded node count if negative". -/
theorem wrap_word (w : BitVec 32) (h0 : 0 ≤ w.toInt) :
    Scalar.select (IntOp.cmpi .slt w 0#32) (IntOp.addi w 10240#32) w = w := by
  have hc : IntOp.cmpi .slt w 0#32 = 0#1 := by
    show BitVec.ofBool (w.slt 0#32) = 0#1
    have hs : w.slt 0#32 = false := by
      rw [BitVec.slt_eq_decide]
      exact decide_eq_false (by rw [BitVec.toInt_zero]; omega)
    rw [hs]; rfl
  rw [hc, select_zero]

/-- A list of node numbers with the negative ones wrapped, as the program writes it. -/
def wrapNeg (v : IVec S640000 32) : IVec S640000 32 :=
  select (cmpi .slt v (broadcastInDim S640000 ![] bcast_S_S640000 (constantI S_ 32 0#32)))
    (addi v (broadcastInDim S640000 ![] bcast_S_S640000 (constantI S_ 32 10240#32))) v

/-- Where the number is not negative the wrap leaves it. -/
theorem wrapNeg_apply (v : IVec S640000 32) (e : Fin 640000) (h0 : 0 ≤ (v (ix1 e)).toInt) : wrapNeg v (ix1 e) = v (ix1 e) :=
  wrap_word (v (ix1 e)) h0

/-- The (edge, 2) array of index pairs from the list of targets and the list of sources: column 0 the wrapped targets,
    column 1 the wrapped sources. -/
def pairIdx (u1 u0 : IVec S640000 32) : IVec S640000x2 32 :=
  concatenate S640000x2 1
    [⟨S640000x1, broadcastInDim S640000x1 ![0] bcast_S640000_S640000x1_0 (wrapNeg u1)⟩,
     ⟨S640000x1, broadcastInDim S640000x1 ![0] bcast_S640000_S640000x1_0 (wrapNeg u0)⟩]
    concatenates_S640000x1_S640000x1_S640000x2_d1

/-- A list laid as a one-column matrix reads, at row e of its column, entry e of the list. -/
theorem col_apply (v : IVec S640000 32) (e : Fin 640000) :
    broadcastInDim S640000x1 ![0] bcast_S640000_S640000x1_0 v (ix2 e (0 : Fin 1)) = v (ix1 e) :=
  broadcastInDim_apply _ _ v _ (ix1 e) fun a => by
    match a with
    | ⟨0, _⟩ => rfl

/-- Where the target is not negative, column 0 of the index pairs is the target. -/
theorem pairIdx_col0 (u1 u0 : IVec S640000 32) (e : Fin 640000) (h0 : 0 ≤ (u1 (ix1 e)).toInt) :
    pairIdx u1 u0 (ix2 e (0 : Fin 2)) = u1 (ix1 e) := by
  unfold pairIdx
  refine (concatenate_pair_apply_left (t := S640000x2) (s₁ := S640000x1) (s₂ := S640000x1) 1 _ _
    concatenates_S640000x1_S640000x1_S640000x2_d1 (ix2 e (0 : Fin 2)) rfl (ix2 e (0 : Fin 1)) fun b => ?_).trans ?_
  · match b with
    | ⟨0, _⟩ => rfl
    | ⟨1, _⟩ => rfl
  · rw [col_apply, wrapNeg_apply _ _ h0]

/-- Where the source is not negative, column 1 is the source. -/
theorem pairIdx_col1 (u1 u0 : IVec S640000 32) (e : Fin 640000) (h0 : 0 ≤ (u0 (ix1 e)).toInt) :
    pairIdx u1 u0 (ix2 e (1 : Fin 2)) = u0 (ix1 e) := by
  unfold pairIdx
  refine (concatenate_pair_apply_right (t := S640000x2) (s₁ := S640000x1) (s₂ := S640000x1) 1 _ _
    concatenates_S640000x1_S640000x1_S640000x2_d1 (ix2 e (1 : Fin 2)) rfl rfl (ix2 e (0 : Fin 1)) (fun b hb => ?_) ?_).trans ?_
  · match b with
    | ⟨0, _⟩ => rfl
    | ⟨1, _⟩ => exact absurd rfl hb
  · rfl
  · rw [col_apply, wrapNeg_apply _ _ h0]

/-- A word that names a node, read signed, is that node's number. -/
theorem toInt_eq_iff (w : BitVec 32) (h0 : 0 ≤ w.toInt) (h1 : w.toInt < 10000) (r : Fin 10240) :
    w.toInt = (r.val : ℤ) ↔ (Cert.SpecArr.node w).val = r.val := by
  have hn := Cert.SpecArr.node_val_of_range h0 h1
  constructor
  · intro h; omega
  · intro h; omega

/-- Entry (r, j) of the matrix the program writes — ones added into zeros at the index pairs, then a change of
    format — is the number of edges whose target is r and whose source is j, when every node number is in range. -/
theorem adj_value (u1 u0 : IVec S640000 32)
    (h1 : ∀ e : Fin 640000, 0 ≤ (u1 (ix1 e)).toInt ∧ (u1 (ix1 e)).toInt < 10000)
    (h0 : ∀ e : Fin 640000, 0 ≤ (u0 (ix1 e)).toInt ∧ (u0 (ix1 e)).toInt < 10000) (r j : Fin 10240) :
    (truncf (F := Ideal) .bf16
        (Host.scatterAdd scatter_S10240x10240_S640000x2_S640000_n_01_01_1
          (broadcastInDim S10240x10240 ![] bcast_S_S10240x10240 (constant (F := Ideal) S_ .f32 0x00000000#32))
          (pairIdx u1 u0)
          (broadcastInDim S640000 ![] bcast_S_S640000 (constant (F := Ideal) S_ .f32 0x3F800000#32)))
        bitsLt_bf16_f32 : S10240x10240.Idx → EReal) (ix2 r j)
      = (0 : EReal) + ∑ _e ∈ Finset.univ.filter (fun e : Fin 640000 =>
          (Cert.SpecArr.node (u1 (ix1 e))).val = r.val ∧ (Cert.SpecArr.node (u0 (ix1 e))).val = j.val), (1 : EReal) := by
  rw [truncf_apply,
    ScatterPairs.scatterAdd_pairs scatter_S10240x10240_S640000x2_S640000_n_01_01_1 rfl rfl rfl rfl (pairIdx u1 u0) _ _ r j,
    broadcastInDim_scalar_apply, constant_apply, Ideal.ofBits_zero_f32]
  refine congrArg (fun s => (0 : EReal) + s) ?_
  refine Finset.sum_congr (Finset.filter_congr fun e _ => ?_) fun e _ => ?_
  · rw [pairIdx_col0 u1 u0 e (h1 e).1, pairIdx_col1 u1 u0 e (h0 e).1]
    exact and_congr (toInt_eq_iff _ (h1 e).1 (h1 e).2 r) (toInt_eq_iff _ (h0 e).1 (h0 e).2 j)
  · rw [broadcastInDim_scalar_apply, constant_apply, Ideal.ofBits_one_f32]

/-- The first stretch in two parts: the four lines that cut the two rows out, and the rest. -/
theorem hostOps0_split : hostOps0 (F := Ideal) = (hostOps0 (F := Ideal)).take 4 ++ (hostOps0 (F := Ideal)).drop 4 :=
  (List.take_append_drop 4 _).symm

/-- After the four lines the list of targets is row 1 of the edge array … -/
theorem head_targets (W : Valuation τ sig (Elt Ideal)) :
    @Eq (S640000.Idx → BitVec 32) (StableHlo.after ((hostOps0 (F := Ideal)).take 4) W (Proc.devRef .tc main_call0_v3))
      (row1 (W (Proc.devRef .tc main_arg1) : IVec S2x640000 32)) := by
  simp only [hostOps0, List.take_succ_cons, List.take_zero]
  after_results; rfl

/-- … and the list of sources is row 0. -/
theorem head_sources (W : Valuation τ sig (Elt Ideal)) :
    @Eq (S640000.Idx → BitVec 32) (StableHlo.after ((hostOps0 (F := Ideal)).take 4) W (Proc.devRef .tc main_call0_v1))
      (row0 (W (Proc.devRef .tc main_arg1) : IVec S2x640000 32)) := by
  simp only [hostOps0, List.take_succ_cons, List.take_zero]
  after_results; rfl

/-- The rest, from any contents: the matrix is written from the two lists as `adj_value` reads it. -/
theorem tail_adj (W : Valuation τ sig (Elt Ideal)) :
    @Eq (S10240x10240.Idx → EReal) (StableHlo.after ((hostOps0 (F := Ideal)).drop 4) W (Proc.devRef .tc main_call0_v20))
      (truncf (F := Ideal) .bf16
        (Host.scatterAdd scatter_S10240x10240_S640000x2_S640000_n_01_01_1
          (broadcastInDim S10240x10240 ![] bcast_S_S10240x10240 (constant (F := Ideal) S_ .f32 0x00000000#32))
          (pairIdx (W (Proc.devRef .tc main_call0_v3) : IVec S640000 32) (W (Proc.devRef .tc main_call0_v1) : IVec S640000 32))
          (broadcastInDim S640000 ![] bcast_S_S640000 (constant (F := Ideal) S_ .f32 0x3F800000#32)))
        bitsLt_bf16_f32) := by
  have h3 : ∀ h, cast h (W (Proc.devRef .tc main_call0_v3)) = (W (Proc.devRef .tc main_call0_v3) : IVec S640000 32) := fun _ => rfl
  have h1 : ∀ h, cast h (W (Proc.devRef .tc main_call0_v1)) = (W (Proc.devRef .tc main_call0_v1) : IVec S640000 32) := fun _ => rfl
  simp only [hostOps0, List.drop_succ_cons, List.drop_zero]
  after_results
  dsimp only [TRef.toBuf, TRef.ofBuf]
  repeat rw [HostCalls.cast_round]
  rw [h3, h1]
  refine eq_of_heq ((cast_heq _ _).trans (heq_of_eq ?_))
  rfl

theorem adj_apply (W : Valuation τ sig (Elt Ideal))
    (hr : ∀ i : S2x640000.Idx, 0 ≤ ((W (Proc.devRef .tc main_arg1) : IVec S2x640000 32) i).toInt
      ∧ ((W (Proc.devRef .tc main_arg1) : IVec S2x640000 32) i).toInt < 10000) (r j : Fin 10240) :
    (StableHlo.after (hostOps0 (F := Ideal)) W (Proc.devRef .tc main_call0_v20) : S10240x10240.Idx → EReal) (ix2 r j)
      = (0 : EReal) + ∑ _e ∈ Finset.univ.filter (fun e : Fin 640000 =>
          (Cert.SpecArr.dst (W (Proc.devRef .tc main_arg1)) e).val = r.val
            ∧ (Cert.SpecArr.src (W (Proc.devRef .tc main_arg1)) e).val = j.val), (1 : EReal) := by
  rw [hostOps0_split, StableHlo.after_append, tail_adj, head_targets, head_sources,
    adj_value _ _ (fun e => by rw [row1_apply]; exact hr _) (fun e => by rw [row0_apply]; exact hr _) r j]
  refine congrArg (fun s => (0 : EReal) + s) (Finset.sum_congr (Finset.filter_congr fun e _ => ?_) fun _ _ => rfl)
  rw [row1_apply, row0_apply]
  exact Iff.rfl

/-! ## Before the second and the third kernel: that layer's weights and biases -/

/-- The second layer's first weight matrix only changes format. -/
theorem w1a_apply (W : Valuation τ sig (Elt Ideal)) (i q : Fin 256) :
    (StableHlo.after (hostOps1 (F := Ideal)) W (Proc.devRef .tc main_call0_v28) : S256x256.Idx → EReal) (ix2 i q)
      = (W (Proc.devRef .tc main_arg6) : S256x256.Idx → EReal) (ix2 i q) := by
  have e : @Eq (S256x256.Idx → EReal) (StableHlo.after (hostOps1 (F := Ideal)) W (Proc.devRef .tc main_call0_v28))
      (truncf (F := Ideal) .bf16 (W (Proc.devRef .tc main_arg6) : FVec Ideal S256x256 .f32) bitsLt_bf16_f32) := by
    after_results; rfl
  rw [e]; rfl

/-- The second layer's second weight matrix likewise. -/
theorem w1b_apply (W : Valuation τ sig (Elt Ideal)) (i q : Fin 256) :
    (StableHlo.after (hostOps1 (F := Ideal)) W (Proc.devRef .tc main_call0_v29) : S256x256.Idx → EReal) (ix2 i q)
      = (W (Proc.devRef .tc main_arg8) : S256x256.Idx → EReal) (ix2 i q) := by
  have e : @Eq (S256x256.Idx → EReal) (StableHlo.after (hostOps1 (F := Ideal)) W (Proc.devRef .tc main_call0_v29))
      (truncf (F := Ideal) .bf16 (W (Proc.devRef .tc main_arg8) : FVec Ideal S256x256 .f32) bitsLt_bf16_f32) := by
    after_results; rfl
  rw [e]; rfl

/-- The second layer's first bias as a one-row matrix reads the bias. -/
theorem b1a_apply (W : Valuation τ sig (Elt Ideal)) (q : Fin 256) :
    (StableHlo.after (hostOps1 (F := Ideal)) W (Proc.devRef .tc main_call0_v30) : S1x256.Idx → EReal) (ix2 0 q)
      = (W (Proc.devRef .tc main_arg7) : S256.Idx → EReal) (ix1 q) := by
  have e : @Eq (S1x256.Idx → EReal) (StableHlo.after (hostOps1 (F := Ideal)) W (Proc.devRef .tc main_call0_v30))
      (broadcastInDim S1x256 ![1] bcast_S256_S1x256_1 (W (Proc.devRef .tc main_arg7) : S256.Idx → EReal)) := by
    after_results; rfl
  rw [e]
  exact bias_row _ q

/-- The second layer's second bias likewise. -/
theorem b1b_apply (W : Valuation τ sig (Elt Ideal)) (q : Fin 256) :
    (StableHlo.after (hostOps1 (F := Ideal)) W (Proc.devRef .tc main_call0_v31) : S1x256.Idx → EReal) (ix2 0 q)
      = (W (Proc.devRef .tc main_arg9) : S256.Idx → EReal) (ix1 q) := by
  have e : @Eq (S1x256.Idx → EReal) (StableHlo.after (hostOps1 (F := Ideal)) W (Proc.devRef .tc main_call0_v31))
      (broadcastInDim S1x256 ![1] bcast_S256_S1x256_1 (W (Proc.devRef .tc main_arg9) : S256.Idx → EReal)) := by
    after_results; rfl
  rw [e]
  exact bias_row _ q

/-- The third layer's first weight matrix only changes format. -/
theorem w2a_apply (W : Valuation τ sig (Elt Ideal)) (i q : Fin 256) :
    (StableHlo.after (hostOps2 (F := Ideal)) W (Proc.devRef .tc main_call0_v33) : S256x256.Idx → EReal) (ix2 i q)
      = (W (Proc.devRef .tc main_arg10) : S256x256.Idx → EReal) (ix2 i q) := by
  have e : @Eq (S256x256.Idx → EReal) (StableHlo.after (hostOps2 (F := Ideal)) W (Proc.devRef .tc main_call0_v33))
      (truncf (F := Ideal) .bf16 (W (Proc.devRef .tc main_arg10) : FVec Ideal S256x256 .f32) bitsLt_bf16_f32) := by
    after_results; rfl
  rw [e]; rfl

/-- The third layer's second weight matrix likewise. -/
theorem w2b_apply (W : Valuation τ sig (Elt Ideal)) (i q : Fin 256) :
    (StableHlo.after (hostOps2 (F := Ideal)) W (Proc.devRef .tc main_call0_v34) : S256x256.Idx → EReal) (ix2 i q)
      = (W (Proc.devRef .tc main_arg12) : S256x256.Idx → EReal) (ix2 i q) := by
  have e : @Eq (S256x256.Idx → EReal) (StableHlo.after (hostOps2 (F := Ideal)) W (Proc.devRef .tc main_call0_v34))
      (truncf (F := Ideal) .bf16 (W (Proc.devRef .tc main_arg12) : FVec Ideal S256x256 .f32) bitsLt_bf16_f32) := by
    after_results; rfl
  rw [e]; rfl

/-- The third layer's first bias as a one-row matrix reads the bias. -/
theorem b2a_apply (W : Valuation τ sig (Elt Ideal)) (q : Fin 256) :
    (StableHlo.after (hostOps2 (F := Ideal)) W (Proc.devRef .tc main_call0_v35) : S1x256.Idx → EReal) (ix2 0 q)
      = (W (Proc.devRef .tc main_arg11) : S256.Idx → EReal) (ix1 q) := by
  have e : @Eq (S1x256.Idx → EReal) (StableHlo.after (hostOps2 (F := Ideal)) W (Proc.devRef .tc main_call0_v35))
      (broadcastInDim S1x256 ![1] bcast_S256_S1x256_1 (W (Proc.devRef .tc main_arg11) : S256.Idx → EReal)) := by
    after_results; rfl
  rw [e]
  exact bias_row _ q

/-- The third layer's second bias likewise. -/
theorem b2b_apply (W : Valuation τ sig (Elt Ideal)) (q : Fin 256) :
    (StableHlo.after (hostOps2 (F := Ideal)) W (Proc.devRef .tc main_call0_v36) : S1x256.Idx → EReal) (ix2 0 q)
      = (W (Proc.devRef .tc main_arg13) : S256.Idx → EReal) (ix1 q) := by
  have e : @Eq (S1x256.Idx → EReal) (StableHlo.after (hostOps2 (F := Ideal)) W (Proc.devRef .tc main_call0_v36))
      (broadcastInDim S1x256 ![1] bcast_S256_S1x256_1 (W (Proc.devRef .tc main_arg13) : S256.Idx → EReal)) := by
    after_results; rfl
  rw [e]
  exact bias_row _ q

/-! ## After the last kernel -/

/-- The result is the first 10000 rows of the last kernel's padded output. -/
theorem out_apply (W : Valuation τ sig (Elt Ideal)) (i : Fin 10000) (q : Fin 256) :
    (StableHlo.after (hostOps3 (F := Ideal)) W (Proc.devRef .tc main_v0) : S10000x256.Idx → EReal) (ix2 i q)
      = (W (Proc.devRef .tc main_call0_v37_0) : S10240x256.Idx → EReal) (ix2 ⟨i.val, by omega⟩ q) := by
  have e : @Eq (S10000x256.Idx → EReal) (StableHlo.after (hostOps3 (F := Ideal)) W (Proc.devRef .tc main_v0))
      (extractStridedSlice S10000x256 ![0, 0] (W (Proc.devRef .tc main_call0_v37_0) : S10240x256.Idx → EReal)
        slices_S10240x256_S10000x256_0_0) := by
    after_results; rfl
  rw [e]
  unfold extractStridedSlice
  refine congrArg (W (Proc.devRef .tc main_call0_v37_0) : S10240x256.Idx → EReal) (funext fun a => ?_)
  match a with
  | ⟨0, _⟩ => exact Fin.ext (Nat.zero_add _)
  | ⟨1, _⟩ => exact Fin.ext (Nat.zero_add _)

end Cert.KernelIdeal.HostValue

end
-- ==== Proof.SpecAlg.lean ====
import proofs.«410393_j66864050864374_3_alg».proof.Proof.Spec
import proofs.«410393_j66864050864374_3_alg».proof.Proof.LibCountSum

/-!
# The dense spelling of a layer equals the edge-sum spelling

A layer adds to the row of node `i` the rows of the nodes with an edge into `i`.  The reference
writes this node sum as a sum over the edges `e` with `dst e = i`; the dense spelling writes it as
row `i` of the product of the edge-count matrix `a` with the feature matrix, over a node set padded
from `N` to `P ≥ N` rows.  Here `a r j` is the number of edges `j → r`, given as a sum of ones
started at zero.

`convDense_eq`: on every genuine row `i < N` the two spellings of one layer agree, provided the
padded feature matrices restrict to the genuine features on the rows below `N`.  A padded column
`j ≥ N` has no edge leaving it, so its count is `0` and its term is `0 * _ = 0` whatever the
padded feature row holds (even `±∞`); a count is a finite sum of ones, so multiplying by it is
repeated addition on the extended reals.

`netDense_eq`: the three-layer network, each layer in its dense spelling on the padded node set
with a `relu` after the first two, agrees on every genuine row with the network as the reference
writes it.  The padded rows of the intermediate layers are never read on a genuine row, because
their counts are zero.
-/

namespace Cert.SpecAlg

open Cert.Spec

/-- One layer: the dense spelling on the padded node set agrees with the edge-sum spelling on
every genuine row. -/
theorem convDense_eq {E N P C : ℕ} (hNP : N ≤ P) (src dst : Fin E → Fin N)
    (a : Fin P → Fin P → EReal)
    (ha : ∀ r j : Fin P, a r j = (0 : EReal)
      + ∑ _e ∈ Finset.univ.filter
          (fun e : Fin E => (dst e).val = r.val ∧ (src e).val = j.val), (1 : EReal))
    (hb hp : Fin P → Fin C → EReal) (h : Fin N → Fin C → EReal)
    (hhb : ∀ (i : Fin N) (k : Fin C), hb ⟨i.val, lt_of_lt_of_le i.isLt hNP⟩ k = h i k)
    (hhp : ∀ (i : Fin N) (k : Fin C), hp ⟨i.val, lt_of_lt_of_le i.isLt hNP⟩ k = h i k)
    (wa : Fin C → Fin 256 → EReal) (ba : Fin 256 → EReal) (wb : Fin 256 → Fin 256 → EReal)
    (bb : Fin 256 → EReal) (i : Fin N) :
    convDense a hb hp wa ba wb bb ⟨i.val, lt_of_lt_of_le i.isLt hNP⟩
      = conv src dst wa ba wb bb h i := by
  unfold convDense conv
  congr 1
  funext k
  rw [hhp]
  congr 1
  unfold agg
  -- the edges into `i`, regrouped by their source seen as a padded index
  have key := Cert.CountSum.count_matmul (Finset.univ.filter (fun e : Fin E => dst e = i))
    (fun e => (⟨(src e).val, lt_of_lt_of_le (src e).isLt hNP⟩ : Fin P)) (fun j => hb j k)
  simp only [hhb] at key
  rw [← key]
  refine Finset.sum_congr rfl (fun j _ => ?_)
  rw [ha]
  congr 3
  ext e
  simp [Fin.ext_iff]

/-- The three-layer network: dense spelling on the padded node set against the reference
spelling, on every genuine row. -/
theorem netDense_eq {E N P : ℕ} (hNP : N ≤ P) (src dst : Fin E → Fin N)
    (a : Fin P → Fin P → EReal)
    (ha : ∀ r j : Fin P, a r j = (0 : EReal)
      + ∑ _e ∈ Finset.univ.filter
          (fun e : Fin E => (dst e).val = r.val ∧ (src e).val = j.val), (1 : EReal))
    (x : Fin N → Fin 128 → EReal)
    (w0a : Fin 128 → Fin 256 → EReal) (b0a : Fin 256 → EReal)
    (w0b : Fin 256 → Fin 256 → EReal) (b0b : Fin 256 → EReal)
    (w1a : Fin 256 → Fin 256 → EReal) (b1a : Fin 256 → EReal)
    (w1b : Fin 256 → Fin 256 → EReal) (b1b : Fin 256 → EReal)
    (w2a : Fin 256 → Fin 256 → EReal) (b2a : Fin 256 → EReal)
    (w2b : Fin 256 → Fin 256 → EReal) (b2b : Fin 256 → EReal)
    (h0b h0 : Fin P → Fin 128 → EReal) (o0b o0 o1b o1 o2 : Fin P → Fin 256 → EReal)
    (hh0b : ∀ (i : Fin N) (k : Fin 128), h0b ⟨i.val, lt_of_lt_of_le i.isLt hNP⟩ k = x i k)
    (hh0 : ∀ (i : Fin N) (k : Fin 128), h0 ⟨i.val, lt_of_lt_of_le i.isLt hNP⟩ k = x i k)
    (e0 : ∀ r, o0 r = relu (convDense a h0b h0 w0a b0a w0b b0b r))
    (e0b : ∀ r, o0b r = relu (convDense a h0b h0 w0a b0a w0b b0b r))
    (e1 : ∀ r, o1 r = relu (convDense a o0b o0 w1a b1a w1b b1b r))
    (e1b : ∀ r, o1b r = relu (convDense a o0b o0 w1a b1a w1b b1b r))
    (e2 : ∀ r, o2 r = convDense a o1b o1 w2a b2a w2b b2b r) (i : Fin N) :
    o2 ⟨i.val, lt_of_lt_of_le i.isLt hNP⟩
      = net src dst x w0a b0a w0b b0b w1a b1a w1b b1b w2a b2a w2b b2b i := by
  -- first layer on the genuine rows
  have l0 : ∀ i : Fin N, convDense a h0b h0 w0a b0a w0b b0b ⟨i.val, lt_of_lt_of_le i.isLt hNP⟩
      = conv src dst w0a b0a w0b b0b x i :=
    fun i => convDense_eq hNP src dst a ha h0b h0 x hh0b hh0 w0a b0a w0b b0b i
  -- second layer on the genuine rows
  have l1 : ∀ i : Fin N, convDense a o0b o0 w1a b1a w1b b1b ⟨i.val, lt_of_lt_of_le i.isLt hNP⟩
      = conv src dst w1a b1a w1b b1b (fun i => relu (conv src dst w0a b0a w0b b0b x i)) i :=
    fun i => convDense_eq hNP src dst a ha o0b o0
      (fun i => relu (conv src dst w0a b0a w0b b0b x i))
      (fun i k => by rw [e0b, l0]) (fun i k => by rw [e0, l0]) w1a b1a w1b b1b i
  -- third layer
  rw [e2]
  unfold net
  exact convDense_eq hNP src dst a ha o1b o1
    (fun i => relu (conv src dst w1a b1a w1b b1b
      (fun i => relu (conv src dst w0a b0a w0b b0b x i)) i))
    (fun i k => by rw [e1b, l1]) (fun i k => by rw [e1, l1]) w2a b2a w2b b2b i

end Cert.SpecAlg
-- ==== Proof.KernelValue.lean ====
import proofs.«410393_j66864050864374_3_alg».proof.Proof.Segs
import proofs.«410393_j66864050864374_3_alg».proof.Proof.KVal0
import proofs.«410393_j66864050864374_3_alg».proof.Proof.KVal1
import proofs.«410393_j66864050864374_3_alg».proof.Proof.KVal2
import proofs.«410393_j66864050864374_3_alg».proof.Proof.HostValue
import proofs.«410393_j66864050864374_3_alg».proof.Proof.SpecArr
import proofs.«410393_j66864050864374_3_alg».proof.Proof.SpecAlg

/-!
# The program's result is the network function of its arguments

The program is four host stretches around three kernel regions.  Between two items every unscoped buffer of a
core is held at named contents: the launch memory, then a host stretch applied, then a region's two output arrays
replaced by what the region leaves.  This file reads the result buffer off the last of these contents.

* Reading backwards: the result buffer is the first 10000 rows of region 2's first output array; a region's output
  array holds, entry by entry, its layer's dense spelling (edge-count matrix times features, plus the own row,
  through the two-layer perceptron; `relu` after layers one and two) on the arrays the region is entered with; those
  are the previous region's two outputs (untouched by the host stretch in between), the edge-count matrix (written
  once, before the first region, and never again), and the layer's weights and bias rows, which the host stretch just
  before the region copies from the arguments (never written by anything).
* `value_of_regions` does this reading for ANY contents the regions might leave, from one hypothesis per output
  array, and ends with the algebraic identity between the dense spelling on 10240 padded rows and the sum over the
  edges on the 10000 genuine rows (`Cert.SpecAlg.netDense_eq`).
* `region0_7` … `region2_7` discharge those hypotheses at the contents the three pipelines actually leave.
* `kernel_value` is the conclusion: under the hypothesis that every word of the edge list, read signed, lies in
  `[0, 10000)`, the result buffer is `Cert.SpecArr.out` of the fourteen argument arrays.
-/

noncomputable section

namespace Cert.KernelIdeal.KVal
open Cert.KernelIdeal Cert.KernelIdeal.Gen
open Idealize.ShloMosaic Idealize.ShloMosaic.TcCoe Idealize.ShloMosaic.ValueIdx

section core
variable (m : (ℓ : Loc nD τ sig) → Buf (Elt Ideal) ℓ) (outs : Gen.Outs (F := Ideal)) (c : Dev nD)

/-- The result buffer from what the three regions leave. For ANY contents `outs` the regions may leave: if each
    region's two output arrays hold, entry by entry, that layer's dense spelling on the arrays the region is entered
    with (`relu` applied after the first two layers), then the result buffer after the last host stretch is the
    network function of the fourteen arguments. The host stretches supply the rest: the edge-count matrix from the
    edge list, the node features padded below, the weights and bias rows from the arguments, and the final cut of
    the first 10000 rows; no stretch and no region touches an argument or the edge-count matrix afterwards. -/
theorem value_of_regions
    (hr : ∀ i : S2x640000.Idx, 0 ≤ ((m ((c.tc : Thread nD τ).loc main_arg1)) i).toInt
      ∧ ((m ((c.tc : Thread nD τ).loc main_arg1)) i).toInt < 10000)
    (R0_7 : ∀ (r : Fin 10240) (q : Fin 256),
      (Gen.V2 m outs c main_call0_v27_0 : S10240x256.Idx → EReal) (ix2 r q)
        = Cert.Spec.relu (Cert.Spec.convDense
          (fun r j => (Gen.V1 m c main_call0_v20 : S10240x10240.Idx → EReal) (ix2 r j))
          (fun j k => (Gen.V1 m c main_call0_v22 : S10240x128.Idx → EReal) (ix2 j k))
          (fun r k => (Gen.V1 m c main_call0_v21 : S10240x128.Idx → EReal) (ix2 r k))
          (fun i q => (Gen.V1 m c main_call0_v23 : S128x256.Idx → EReal) (ix2 i q))
          (fun q => (Gen.V1 m c main_call0_v25 : S1x256.Idx → EReal) (ix2 0 q))
          (fun i q => (Gen.V1 m c main_call0_v24 : S256x256.Idx → EReal) (ix2 i q))
          (fun q => (Gen.V1 m c main_call0_v26 : S1x256.Idx → EReal) (ix2 0 q)) r) q)
    (R0_8 : ∀ (r : Fin 10240) (q : Fin 256),
      (Gen.V2 m outs c main_call0_v27_1 : S10240x256.Idx → EReal) (ix2 r q)
        = Cert.Spec.relu (Cert.Spec.convDense
          (fun r j => (Gen.V1 m c main_call0_v20 : S10240x10240.Idx → EReal) (ix2 r j))
          (fun j k => (Gen.V1 m c main_call0_v22 : S10240x128.Idx → EReal) (ix2 j k))
          (fun r k => (Gen.V1 m c main_call0_v21 : S10240x128.Idx → EReal) (ix2 r k))
          (fun i q => (Gen.V1 m c main_call0_v23 : S128x256.Idx → EReal) (ix2 i q))
          (fun q => (Gen.V1 m c main_call0_v25 : S1x256.Idx → EReal) (ix2 0 q))
          (fun i q => (Gen.V1 m c main_call0_v24 : S256x256.Idx → EReal) (ix2 i q))
          (fun q => (Gen.V1 m c main_call0_v26 : S1x256.Idx → EReal) (ix2 0 q)) r) q)
    (R1_7 : ∀ (r : Fin 10240) (q : Fin 256),
      (Gen.V4 m outs c main_call0_v32_0 : S10240x256.Idx → EReal) (ix2 r q)
        = Cert.Spec.relu (Cert.Spec.convDense
          (fun r j => (Gen.V3 m outs c main_call0_v20 : S10240x10240.Idx → EReal) (ix2 r j))
          (fun j k => (Gen.V3 m outs c main_call0_v27_1 : S10240x256.Idx → EReal) (ix2 j k))
          (fun r k => (Gen.V3 m outs c main_call0_v27_0 : S10240x256.Idx → EReal) (ix2 r k))
          (fun i q => (Gen.V3 m outs c main_call0_v28 : S256x256.Idx → EReal) (ix2 i q))
          (fun q => (Gen.V3 m outs c main_call0_v30 : S1x256.Idx → EReal) (ix2 0 q))
          (fun i q => (Gen.V3 m outs c main_call0_v29 : S256x256.Idx → EReal) (ix2 i q))
          (fun q => (Gen.V3 m outs c main_call0_v31 : S1x256.Idx → EReal) (ix2 0 q)) r) q)
    (R1_8 : ∀ (r : Fin 10240) (q : Fin 256),
      (Gen.V4 m outs c main_call0_v32_1 : S10240x256.Idx → EReal) (ix2 r q)
        = Cert.Spec.relu (Cert.Spec.convDense
          (fun r j => (Gen.V3 m outs c main_call0_v20 : S10240x10240.Idx → EReal) (ix2 r j))
          (fun j k => (Gen.V3 m outs c main_call0_v27_1 : S10240x256.Idx → EReal) (ix2 j k))
          (fun r k => (Gen.V3 m outs c main_call0_v27_0 : S10240x256.Idx → EReal) (ix2 r k))
          (fun i q => (Gen.V3 m outs c main_call0_v28 : S256x256.Idx → EReal) (ix2 i q))
          (fun q => (Gen.V3 m outs c main_call0_v30 : S1x256.Idx → EReal) (ix2 0 q))
          (fun i q => (Gen.V3 m outs c main_call0_v29 : S256x256.Idx → EReal) (ix2 i q))
          (fun q => (Gen.V3 m outs c main_call0_v31 : S1x256.Idx → EReal) (ix2 0 q)) r) q)
    (R2_7 : ∀ (r : Fin 10240) (q : Fin 256),
      (Gen.V6 m outs c main_call0_v37_0 : S10240x256.Idx → EReal) (ix2 r q)
        = (Cert.Spec.convDense
          (fun r j => (Gen.V5 m outs c main_call0_v20 : S10240x10240.Idx → EReal) (ix2 r j))
          (fun j k => (Gen.V5 m outs c main_call0_v32_1 : S10240x256.Idx → EReal) (ix2 j k))
          (fun r k => (Gen.V5 m outs c main_call0_v32_0 : S10240x256.Idx → EReal) (ix2 r k))
          (fun i q => (Gen.V5 m outs c main_call0_v33 : S256x256.Idx → EReal) (ix2 i q))
          (fun q => (Gen.V5 m outs c main_call0_v35 : S1x256.Idx → EReal) (ix2 0 q))
          (fun i q => (Gen.V5 m outs c main_call0_v34 : S256x256.Idx → EReal) (ix2 i q))
          (fun q => (Gen.V5 m outs c main_call0_v36 : S1x256.Idx → EReal) (ix2 0 q)) r) q) :
    (Gen.V7 m outs c main_v0 : S10000x256.Idx → EReal)
      = Cert.SpecArr.out (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) := by
  funext j
  obtain ⟨i, q, rfl⟩ : ∃ i q, j = ix2 i q := ⟨j 0, j 1, eq_ix2 j⟩
  show _ = Cert.Spec.net _ _ _ _ _ _ _ _ _ _ _ _ _ _ _ i q
  refine (HostValue.out_apply (Gen.V6 m outs c) i q).trans ?_
  -- an argument is never written: it is read at its launch contents after every stage
  have g1 : ∀ r : Ref sig .tc, r ∉ hostOps0_W → Gen.V1 m c r = m ((c.tc : Thread nD τ).loc r) :=
    fun r h => (Gen.V1_of m c r h).trans rfl
  have g2 : ∀ r : Ref sig .tc, r ∉ hostOps0_W → r ∉ ([main_call0_v27_0, main_call0_v27_1] : List (Ref sig .tc)) →
      Gen.V2 m outs c r = m ((c.tc : Thread nD τ).loc r) :=
    fun r h h' => (Gen.V2_of m outs c r h').trans (g1 r h)
  have g4 : ∀ r : Ref sig .tc, r ∉ hostOps0_W → r ∉ ([main_call0_v27_0, main_call0_v27_1] : List (Ref sig .tc)) →
      r ∉ hostOps1_W → r ∉ ([main_call0_v32_0, main_call0_v32_1] : List (Ref sig .tc)) →
      Gen.V4 m outs c r = m ((c.tc : Thread nD τ).loc r) :=
    fun r h h' h'' h''' => (Gen.V4_of m outs c r h''').trans ((Gen.V3_of m outs c r h'').trans (g2 r h h'))
  -- the edge-count matrix is written once, before the first region
  have a3 : Gen.V3 m outs c main_call0_v20 = Gen.V1 m c main_call0_v20 :=
    (Gen.V3_of m outs c _ (by decide)).trans (Gen.V2_of m outs c _ (by decide))
  have a5 : Gen.V5 m outs c main_call0_v20 = Gen.V1 m c main_call0_v20 :=
    (Gen.V5_of m outs c _ (by decide)).trans ((Gen.V4_of m outs c _ (by decide)).trans a3)
  -- a region's outputs pass the next host stretch unchanged
  have s1 : Gen.V3 m outs c main_call0_v27_0 = Gen.V2 m outs c main_call0_v27_0 := Gen.V3_of m outs c _ (by decide)
  have s1b : Gen.V3 m outs c main_call0_v27_1 = Gen.V2 m outs c main_call0_v27_1 := Gen.V3_of m outs c _ (by decide)
  have s2 : Gen.V5 m outs c main_call0_v32_0 = Gen.V4 m outs c main_call0_v32_0 := Gen.V5_of m outs c _ (by decide)
  have s2b : Gen.V5 m outs c main_call0_v32_1 = Gen.V4 m outs c main_call0_v32_1 := Gen.V5_of m outs c _ (by decide)
  -- weights and bias rows of the three layers
  have hw0a : (fun i q => (Gen.V1 m c main_call0_v23 : S128x256.Idx → EReal) (ix2 i q))
      = Cert.SpecArr.rows (φ := .f32) (m ((c.tc : Thread nD τ).loc main_arg2)) := funext fun i => funext fun q => HostValue.w0a_apply (Gen.V0 m c) i q
  have hb0a : (fun q => (Gen.V1 m c main_call0_v25 : S1x256.Idx → EReal) (ix2 0 q))
      = Cert.SpecArr.vals (φ := .f32) (m ((c.tc : Thread nD τ).loc main_arg3)) := funext fun q => HostValue.b0a_apply (Gen.V0 m c) q
  have hw0b : (fun i q => (Gen.V1 m c main_call0_v24 : S256x256.Idx → EReal) (ix2 i q))
      = Cert.SpecArr.rows (φ := .f32) (m ((c.tc : Thread nD τ).loc main_arg4)) := funext fun i => funext fun q => HostValue.w0b_apply (Gen.V0 m c) i q
  have hb0b : (fun q => (Gen.V1 m c main_call0_v26 : S1x256.Idx → EReal) (ix2 0 q))
      = Cert.SpecArr.vals (φ := .f32) (m ((c.tc : Thread nD τ).loc main_arg5)) := funext fun q => HostValue.b0b_apply (Gen.V0 m c) q
  have hw1a : (fun i q => (Gen.V3 m outs c main_call0_v28 : S256x256.Idx → EReal) (ix2 i q))
      = Cert.SpecArr.rows (φ := .f32) (m ((c.tc : Thread nD τ).loc main_arg6)) := funext fun i => funext fun q =>
    (HostValue.w1a_apply (Gen.V2 m outs c) i q).trans
      (congrArg (fun X : S256x256.Idx → EReal => X (ix2 i q)) (g2 main_arg6 (by decide) (by decide)))
  have hb1a : (fun q => (Gen.V3 m outs c main_call0_v30 : S1x256.Idx → EReal) (ix2 0 q))
      = Cert.SpecArr.vals (φ := .f32) (m ((c.tc : Thread nD τ).loc main_arg7)) := funext fun q =>
    (HostValue.b1a_apply (Gen.V2 m outs c) q).trans
      (congrArg (fun X : S256.Idx → EReal => X (ix1 q)) (g2 main_arg7 (by decide) (by decide)))
  have hw1b : (fun i q => (Gen.V3 m outs c main_call0_v29 : S256x256.Idx → EReal) (ix2 i q))
      = Cert.SpecArr.rows (φ := .f32) (m ((c.tc : Thread nD τ).loc main_arg8)) := funext fun i => funext fun q =>
    (HostValue.w1b_apply (Gen.V2 m outs c) i q).trans
      (congrArg (fun X : S256x256.Idx → EReal => X (ix2 i q)) (g2 main_arg8 (by decide) (by decide)))
  have hb1b : (fun q => (Gen.V3 m outs c main_call0_v31 : S1x256.Idx → EReal) (ix2 0 q))
      = Cert.SpecArr.vals (φ := .f32) (m ((c.tc : Thread nD τ).loc main_arg9)) := funext fun q =>
    (HostValue.b1b_apply (Gen.V2 m outs c) q).trans
      (congrArg (fun X : S256.Idx → EReal => X (ix1 q)) (g2 main_arg9 (by decide) (by decide)))
  have hw2a : (fun i q => (Gen.V5 m outs c main_call0_v33 : S256x256.Idx → EReal) (ix2 i q))
      = Cert.SpecArr.rows (φ := .f32) (m ((c.tc : Thread nD τ).loc main_arg10)) := funext fun i => funext fun q =>
    (HostValue.w2a_apply (Gen.V4 m outs c) i q).trans
      (congrArg (fun X : S256x256.Idx → EReal => X (ix2 i q)) (g4 main_arg10 (by decide) (by decide) (by decide) (by decide)))
  have hb2a : (fun q => (Gen.V5 m outs c main_call0_v35 : S1x256.Idx → EReal) (ix2 0 q))
      = Cert.SpecArr.vals (φ := .f32) (m ((c.tc : Thread nD τ).loc main_arg11)) := funext fun q =>
    (HostValue.b2a_apply (Gen.V4 m outs c) q).trans
      (congrArg (fun X : S256.Idx → EReal => X (ix1 q)) (g4 main_arg11 (by decide) (by decide) (by decide) (by decide)))
  have hw2b : (fun i q => (Gen.V5 m outs c main_call0_v34 : S256x256.Idx → EReal) (ix2 i q))
      = Cert.SpecArr.rows (φ := .f32) (m ((c.tc : Thread nD τ).loc main_arg12)) := funext fun i => funext fun q =>
    (HostValue.w2b_apply (Gen.V4 m outs c) i q).trans
      (congrArg (fun X : S256x256.Idx → EReal => X (ix2 i q)) (g4 main_arg12 (by decide) (by decide) (by decide) (by decide)))
  have hb2b : (fun q => (Gen.V5 m outs c main_call0_v36 : S1x256.Idx → EReal) (ix2 0 q))
      = Cert.SpecArr.vals (φ := .f32) (m ((c.tc : Thread nD τ).loc main_arg13)) := funext fun q =>
    (HostValue.b2b_apply (Gen.V4 m outs c) q).trans
      (congrArg (fun X : S256.Idx → EReal => X (ix1 q)) (g4 main_arg13 (by decide) (by decide) (by decide) (by decide)))
  -- the three layers in their dense spelling, over the arguments
  have e0 := fun r q => R0_7 r q
  have e0b := fun r q => R0_8 r q
  have e1 := fun r q => R1_7 r q
  have e1b := fun r q => R1_8 r q
  have e2 := fun r q => R2_7 r q
  simp only [hw0a, hb0a, hw0b, hb0b] at e0 e0b
  simp only [a3, s1, s1b, hw1a, hb1a, hw1b, hb1b] at e1 e1b
  simp only [a5, s2, s2b, hw2a, hb2a, hw2b, hb2b] at e2
  exact congrFun (Cert.SpecAlg.netDense_eq (E := 640000) (N := 10000) (P := 10240) (by omega)
    (Cert.SpecArr.src (m ((c.tc : Thread nD τ).loc main_arg1))) (Cert.SpecArr.dst (m ((c.tc : Thread nD τ).loc main_arg1)))
    (fun r j => (Gen.V1 m c main_call0_v20 : S10240x10240.Idx → EReal) (ix2 r j))
    (fun r j => HostValue.adj_apply (Gen.V0 m c) hr r j)
    (Cert.SpecArr.rows (φ := .f32) (m ((c.tc : Thread nD τ).loc main_arg0)))
    (Cert.SpecArr.rows (φ := .f32) (m ((c.tc : Thread nD τ).loc main_arg2))) (Cert.SpecArr.vals (φ := .f32) (m ((c.tc : Thread nD τ).loc main_arg3))) (Cert.SpecArr.rows (φ := .f32) (m ((c.tc : Thread nD τ).loc main_arg4))) (Cert.SpecArr.vals (φ := .f32) (m ((c.tc : Thread nD τ).loc main_arg5)))
    (Cert.SpecArr.rows (φ := .f32) (m ((c.tc : Thread nD τ).loc main_arg6))) (Cert.SpecArr.vals (φ := .f32) (m ((c.tc : Thread nD τ).loc main_arg7))) (Cert.SpecArr.rows (φ := .f32) (m ((c.tc : Thread nD τ).loc main_arg8))) (Cert.SpecArr.vals (φ := .f32) (m ((c.tc : Thread nD τ).loc main_arg9)))
    (Cert.SpecArr.rows (φ := .f32) (m ((c.tc : Thread nD τ).loc main_arg10))) (Cert.SpecArr.vals (φ := .f32) (m ((c.tc : Thread nD τ).loc main_arg11))) (Cert.SpecArr.rows (φ := .f32) (m ((c.tc : Thread nD τ).loc main_arg12))) (Cert.SpecArr.vals (φ := .f32) (m ((c.tc : Thread nD τ).loc main_arg13)))
    (fun j k => (Gen.V1 m c main_call0_v22 : S10240x128.Idx → EReal) (ix2 j k))
    (fun r k => (Gen.V1 m c main_call0_v21 : S10240x128.Idx → EReal) (ix2 r k))
    (fun r q => (Gen.V2 m outs c main_call0_v27_1 : S10240x256.Idx → EReal) (ix2 r q))
    (fun r q => (Gen.V2 m outs c main_call0_v27_0 : S10240x256.Idx → EReal) (ix2 r q))
    (fun r q => (Gen.V4 m outs c main_call0_v32_1 : S10240x256.Idx → EReal) (ix2 r q))
    (fun r q => (Gen.V4 m outs c main_call0_v32_0 : S10240x256.Idx → EReal) (ix2 r q))
    (fun r q => (Gen.V6 m outs c main_call0_v37_0 : S10240x256.Idx → EReal) (ix2 r q))
    (fun i k => HostValue.xbf_apply (Gen.V0 m c) i k) (fun i k => HostValue.xpad_apply (Gen.V0 m c) i k)
    (fun r => funext (e0 r)) (fun r => funext (e0b r)) (fun r => funext (e1 r)) (fun r => funext (e1b r))
    (fun r => funext (e2 r)) i) q

end core

section final
variable (m : (ℓ : Loc nD τ sig) → Buf (Elt Ideal) ℓ) (c : Dev nD)

/-! ## What each region leaves, entry by entry -/

/-- Region 0's first output array: the first layer's dense spelling with `relu`, on the arrays it is entered with. -/
theorem region0_7 (r : Fin 10240) (q : Fin 256) :
    (Gen.V2 m (Fr.o6 m) c main_call0_v27_0 : S10240x256.Idx → EReal) (ix2 r q)
      = Cert.Spec.relu (Cert.Spec.convDense
          (fun r j => (Gen.V1 m c main_call0_v20 : S10240x10240.Idx → EReal) (ix2 r j))
          (fun j k => (Gen.V1 m c main_call0_v22 : S10240x128.Idx → EReal) (ix2 j k))
          (fun r k => (Gen.V1 m c main_call0_v21 : S10240x128.Idx → EReal) (ix2 r k))
          (fun i q => (Gen.V1 m c main_call0_v23 : S128x256.Idx → EReal) (ix2 i q))
          (fun q => (Gen.V1 m c main_call0_v25 : S1x256.Idx → EReal) (ix2 0 q))
          (fun i q => (Gen.V1 m c main_call0_v24 : S256x256.Idx → EReal) (ix2 i q))
          (fun q => (Gen.V1 m c main_call0_v26 : S1x256.Idx → EReal) (ix2 0 q)) r) q := by
  rw [Fr.V2_o6, ← Fr.P2_eq]
  have h := congrArg (fun X : S10240x256.Idx → EReal => X (ix2 r q)) (Fr.hF0_7 m c)
  have f := Fr.final0_7 (Fr.U1 m) c r q
  rw [Fr.U1_eq, Fr.act0] at f
  exact h.symm.trans f
/-- Region 0's second output array holds the same values. -/
theorem region0_8 (r : Fin 10240) (q : Fin 256) :
    (Gen.V2 m (Fr.o6 m) c main_call0_v27_1 : S10240x256.Idx → EReal) (ix2 r q)
      = Cert.Spec.relu (Cert.Spec.convDense
          (fun r j => (Gen.V1 m c main_call0_v20 : S10240x10240.Idx → EReal) (ix2 r j))
          (fun j k => (Gen.V1 m c main_call0_v22 : S10240x128.Idx → EReal) (ix2 j k))
          (fun r k => (Gen.V1 m c main_call0_v21 : S10240x128.Idx → EReal) (ix2 r k))
          (fun i q => (Gen.V1 m c main_call0_v23 : S128x256.Idx → EReal) (ix2 i q))
          (fun q => (Gen.V1 m c main_call0_v25 : S1x256.Idx → EReal) (ix2 0 q))
          (fun i q => (Gen.V1 m c main_call0_v24 : S256x256.Idx → EReal) (ix2 i q))
          (fun q => (Gen.V1 m c main_call0_v26 : S1x256.Idx → EReal) (ix2 0 q)) r) q := by
  rw [Fr.V2_o6, ← Fr.P2_eq]
  have h := congrArg (fun X : S10240x256.Idx → EReal => X (ix2 r q)) (Fr.hF0_8 m c)
  have f := Fr.final0_8 (Fr.U1 m) c r q
  rw [Fr.U1_eq, Fr.act0] at f
  exact h.symm.trans f
/-- Region 1's first output array: the second layer's dense spelling with `relu`. -/
theorem region1_7 (r : Fin 10240) (q : Fin 256) :
    (Gen.V4 m (Fr.o6 m) c main_call0_v32_0 : S10240x256.Idx → EReal) (ix2 r q)
      = Cert.Spec.relu (Cert.Spec.convDense
          (fun r j => (Gen.V3 m (Fr.o6 m) c main_call0_v20 : S10240x10240.Idx → EReal) (ix2 r j))
          (fun j k => (Gen.V3 m (Fr.o6 m) c main_call0_v27_1 : S10240x256.Idx → EReal) (ix2 j k))
          (fun r k => (Gen.V3 m (Fr.o6 m) c main_call0_v27_0 : S10240x256.Idx → EReal) (ix2 r k))
          (fun i q => (Gen.V3 m (Fr.o6 m) c main_call0_v28 : S256x256.Idx → EReal) (ix2 i q))
          (fun q => (Gen.V3 m (Fr.o6 m) c main_call0_v30 : S1x256.Idx → EReal) (ix2 0 q))
          (fun i q => (Gen.V3 m (Fr.o6 m) c main_call0_v29 : S256x256.Idx → EReal) (ix2 i q))
          (fun q => (Gen.V3 m (Fr.o6 m) c main_call0_v31 : S1x256.Idx → EReal) (ix2 0 q)) r) q := by
  rw [Fr.V4_o6, Fr.V3_o6, ← Fr.P4_eq]
  have h := congrArg (fun X : S10240x256.Idx → EReal => X (ix2 r q)) (Fr.hF1_7 m c)
  have f := Fr.final1_7 (Fr.U3 m) c r q
  rw [Fr.U3_eq, Fr.act1] at f
  exact h.symm.trans f
/-- Region 1's second output array holds the same values. -/
theorem region1_8 (r : Fin 10240) (q : Fin 256) :
    (Gen.V4 m (Fr.o6 m) c main_call0_v32_1 : S10240x256.Idx → EReal) (ix2 r q)
      = Cert.Spec.relu (Cert.Spec.convDense
          (fun r j => (Gen.V3 m (Fr.o6 m) c main_call0_v20 : S10240x10240.Idx → EReal) (ix2 r j))
          (fun j k => (Gen.V3 m (Fr.o6 m) c main_call0_v27_1 : S10240x256.Idx → EReal) (ix2 j k))
          (fun r k => (Gen.V3 m (Fr.o6 m) c main_call0_v27_0 : S10240x256.Idx → EReal) (ix2 r k))
          (fun i q => (Gen.V3 m (Fr.o6 m) c main_call0_v28 : S256x256.Idx → EReal) (ix2 i q))
          (fun q => (Gen.V3 m (Fr.o6 m) c main_call0_v30 : S1x256.Idx → EReal) (ix2 0 q))
          (fun i q => (Gen.V3 m (Fr.o6 m) c main_call0_v29 : S256x256.Idx → EReal) (ix2 i q))
          (fun q => (Gen.V3 m (Fr.o6 m) c main_call0_v31 : S1x256.Idx → EReal) (ix2 0 q)) r) q := by
  rw [Fr.V4_o6, Fr.V3_o6, ← Fr.P4_eq]
  have h := congrArg (fun X : S10240x256.Idx → EReal => X (ix2 r q)) (Fr.hF1_8 m c)
  have f := Fr.final1_8 (Fr.U3 m) c r q
  rw [Fr.U3_eq, Fr.act1] at f
  exact h.symm.trans f
/-- Region 2's first output array: the third layer's dense spelling, no `relu`. -/
theorem region2_7 (r : Fin 10240) (q : Fin 256) :
    (Gen.V6 m (Fr.o6 m) c main_call0_v37_0 : S10240x256.Idx → EReal) (ix2 r q)
      = (Cert.Spec.convDense
          (fun r j => (Gen.V5 m (Fr.o6 m) c main_call0_v20 : S10240x10240.Idx → EReal) (ix2 r j))
          (fun j k => (Gen.V5 m (Fr.o6 m) c main_call0_v32_1 : S10240x256.Idx → EReal) (ix2 j k))
          (fun r k => (Gen.V5 m (Fr.o6 m) c main_call0_v32_0 : S10240x256.Idx → EReal) (ix2 r k))
          (fun i q => (Gen.V5 m (Fr.o6 m) c main_call0_v33 : S256x256.Idx → EReal) (ix2 i q))
          (fun q => (Gen.V5 m (Fr.o6 m) c main_call0_v35 : S1x256.Idx → EReal) (ix2 0 q))
          (fun i q => (Gen.V5 m (Fr.o6 m) c main_call0_v34 : S256x256.Idx → EReal) (ix2 i q))
          (fun q => (Gen.V5 m (Fr.o6 m) c main_call0_v36 : S1x256.Idx → EReal) (ix2 0 q)) r) q := by
  rw [Fr.V5_o6, ← Fr.P6_eq]
  have h := congrArg (fun X : S10240x256.Idx → EReal => X (ix2 r q)) (Fr.hF2_7 m c)
  have f := Fr.final2_7 (Fr.U5 m) c r q
  rw [Fr.U5_eq, Fr.act2] at f
  exact h.symm.trans f
/-- THE VALUE: after all of the program, with the regions' contents as the three pipelines leave them, the result
    buffer holds the network function of the fourteen argument arrays, provided every word of the edge list names a
    node (lies in `[0, 10000)` read signed). -/
theorem kernel_value
    (hr : ∀ i : S2x640000.Idx, 0 ≤ ((m ((c.tc : Thread nD τ).loc main_arg1)) i).toInt
      ∧ ((m ((c.tc : Thread nD τ).loc main_arg1)) i).toInt < 10000) :
    (Gen.V7 m (Fr.o6 m) c main_v0 : S10000x256.Idx → EReal)
      = Cert.SpecArr.out (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) :=
  value_of_regions m (Fr.o6 m) c hr (region0_7 m c) (region0_8 m c) (region1_7 m c) (region1_8 m c) (region2_7 m c)

end final

end Cert.KernelIdeal.KVal

end
-- ==== Proof.Algebraic.lean ====
/-
  The algebraic conjunct, assembled.

  At the ideal values the kernel program and the reference program both compute the network of `Spec.lean` read off
  the fourteen argument arrays.  The precondition puts every word of the edge list in [0, 10000); under that range the
  kernel's result array is the network of its arguments, and so is the reference's result array of its own arguments;
  the two memories agree on the arguments, so the two results are the same array, and each run leaves its arguments as
  launched.
-/
import proofs.«410393_j66864050864374_3_alg».proof.Defs
import proofs.«410393_j66864050864374_3_alg».proof.Proof.PreIdx
import proofs.«410393_j66864050864374_3_alg».proof.Proof.RefValue
import proofs.«410393_j66864050864374_3_alg».proof.Proof.FrameMain
import proofs.«410393_j66864050864374_3_alg».proof.Proof.KernelValue

noncomputable section

namespace Cert.Proof.Parts

open Idealize.ShloMosaic Idealize.ShloMosaic.TcCoe Idealize.SL.Sem

variable [hKernelIdeal : Cert.KernelIdeal.Facts] [hReferenceIdeal : Cert.ReferenceIdeal.Facts]
  [hPre_finite_inputs : Cert.Pre_finite_inputs.Facts]

/-- The network of the kernel program's argument arrays on device `c`: the value both programs end with. -/
abbrev netOf (m : (ℓ : Loc Cert.KernelIdeal.nD Cert.KernelIdeal.τ Cert.KernelIdeal.sig) → Buf (Elt Ideal) ℓ) (c : Dev Cert.KernelIdeal.nD) :
    FVec Ideal ⟨2, ![10000, 256]⟩ .f32 :=
  Cert.SpecArr.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    (m ((c.tc : Thread Cert.KernelIdeal.nD Cert.KernelIdeal.τ).loc Cert.KernelIdeal.main_arg10)) (m ((c.tc : Thread Cert.KernelIdeal.nD Cert.KernelIdeal.τ).loc Cert.KernelIdeal.main_arg11))
    (m ((c.tc : Thread Cert.KernelIdeal.nD Cert.KernelIdeal.τ).loc Cert.KernelIdeal.main_arg12)) (m ((c.tc : Thread Cert.KernelIdeal.nD Cert.KernelIdeal.τ).loc Cert.KernelIdeal.main_arg13))

/-- Under the precondition every word of the kernel program's edge list is a node number. -/
theorem edge_range (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S2x640000.Idx) :
    0 ≤ ((m ((c.tc : Thread Cert.KernelIdeal.nD Cert.KernelIdeal.τ).loc Cert.KernelIdeal.main_arg1)) i).toInt
      ∧ ((m ((c.tc : Thread Cert.KernelIdeal.nD Cert.KernelIdeal.τ).loc Cert.KernelIdeal.main_arg1)) i).toInt < 10000 :=
  Cert.PreIdx.idx_range (F := Ideal) _ _ _ _ _ _ _ _ _ _ _ _ _ _ (hpre c) i

/-- Memories that agree on the arguments have the same network. -/
theorem netOf_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.SpecArr.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
      = netOf m c := by
  rw [h0, h1, h2, h3, h4, h5, h6, h7, h8, h9, h10, h11, h12, h13]

/-- The two programs, from memories agreeing on the arguments, end with the same result and unchanged arguments. -/
theorem algebraic : Cert.algebraic_KernelIdeal_ReferenceIdeal := fun m ρ m' ρ' hpre hagree =>
  ⟨fun c => netOf m c,
    (θ_run _ _ _).mono (fun r h c =>
      ⟨(h c _ (Cert.KernelIdeal.Fr.mem_uc Cert.KernelIdeal.main_v0 (by decide))).trans
          (Cert.KernelIdeal.KVal.kernel_value m c (edge_range m hpre c)),
        (h c _ (Cert.KernelIdeal.Fr.mem_uc Cert.KernelIdeal.main_arg0 (by decide))).trans (Cert.KernelIdeal.Gen.V7_main_arg0 m (Cert.KernelIdeal.Fr.o6 m) c),
        (h c _ (Cert.KernelIdeal.Fr.mem_uc Cert.KernelIdeal.main_arg1 (by decide))).trans (Cert.KernelIdeal.Gen.V7_main_arg1 m (Cert.KernelIdeal.Fr.o6 m) c),
        (h c _ (Cert.KernelIdeal.Fr.mem_uc Cert.KernelIdeal.main_arg2 (by decide))).trans (Cert.KernelIdeal.Gen.V7_main_arg2 m (Cert.KernelIdeal.Fr.o6 m) c),
        (h c _ (Cert.KernelIdeal.Fr.mem_uc Cert.KernelIdeal.main_arg3 (by decide))).trans (Cert.KernelIdeal.Gen.V7_main_arg3 m (Cert.KernelIdeal.Fr.o6 m) c),
        (h c _ (Cert.KernelIdeal.Fr.mem_uc Cert.KernelIdeal.main_arg4 (by decide))).trans (Cert.KernelIdeal.Gen.V7_main_arg4 m (Cert.KernelIdeal.Fr.o6 m) c),
        (h c _ (Cert.KernelIdeal.Fr.mem_uc Cert.KernelIdeal.main_arg5 (by decide))).trans (Cert.KernelIdeal.Gen.V7_main_arg5 m (Cert.KernelIdeal.Fr.o6 m) c),
        (h c _ (Cert.KernelIdeal.Fr.mem_uc Cert.KernelIdeal.main_arg6 (by decide))).trans (Cert.KernelIdeal.Gen.V7_main_arg6 m (Cert.KernelIdeal.Fr.o6 m) c),
        (h c _ (Cert.KernelIdeal.Fr.mem_uc Cert.KernelIdeal.main_arg7 (by decide))).trans (Cert.KernelIdeal.Gen.V7_main_arg7 m (Cert.KernelIdeal.Fr.o6 m) c),
        (h c _ (Cert.KernelIdeal.Fr.mem_uc Cert.KernelIdeal.main_arg8 (by decide))).trans (Cert.KernelIdeal.Gen.V7_main_arg8 m (Cert.KernelIdeal.Fr.o6 m) c),
        (h c _ (Cert.KernelIdeal.Fr.mem_uc Cert.KernelIdeal.main_arg9 (by decide))).trans (Cert.KernelIdeal.Gen.V7_main_arg9 m (Cert.KernelIdeal.Fr.o6 m) c),
        (h c _ (Cert.KernelIdeal.Fr.mem_uc Cert.KernelIdeal.main_arg10 (by decide))).trans (Cert.KernelIdeal.Gen.V7_main_arg10 m (Cert.KernelIdeal.Fr.o6 m) c),
        (h c _ (Cert.KernelIdeal.Fr.mem_uc Cert.KernelIdeal.main_arg11 (by decide))).trans (Cert.KernelIdeal.Gen.V7_main_arg11 m (Cert.KernelIdeal.Fr.o6 m) c),
        (h c _ (Cert.KernelIdeal.Fr.mem_uc Cert.KernelIdeal.main_arg12 (by decide))).trans (Cert.KernelIdeal.Gen.V7_main_arg12 m (Cert.KernelIdeal.Fr.o6 m) c),
        (h c _ (Cert.KernelIdeal.Fr.mem_uc Cert.KernelIdeal.main_arg13 (by decide))).trans (Cert.KernelIdeal.Gen.V7_main_arg13 m (Cert.KernelIdeal.Fr.o6 m) c)⟩)
      (Cert.KernelIdeal.Fr.run_all (F := Ideal) m ρ),
    (θ_run _ _ _).mono (fun r h c =>
      ⟨(h c).1.trans (by
          obtain ⟨h0, h1, h2, h3, h4, h5, h6, h7, h8, h9, h10, h11, h12, h13⟩ := hagree c
          exact netOf_agree m m' c h0 h1 h2 h3 h4 h5 h6 h7 h8 h9 h10 h11 h12 h13),
        (h c).2⟩)
      (Cert.ReferenceIdeal.RefValue.ref_run m' ρ' (fun c i => by
        rw [(hagree c).2.1]
        exact edge_range m hpre c i))⟩

/-- The reference program runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.Parts

end
-- ==== Proof.lean ====
/-
  The certificate of a three-layer graph-isomorphism network.

  The reference adds, at every node, the feature rows of the nodes with an edge into it (a gather of the source rows
  followed by a segment sum over the target nodes), adds the node's own row, and applies a two-layer perceptron; a
  max with 0 follows the first two layers. The kernel builds the edge-count matrix once (a scatter of ones at the
  (target, source) pairs of a node set padded from 10000 to 10240 rows) and computes every layer's node sum as the
  product of that matrix with the features, accumulated over four column slices of a band of 1280 rows, the perceptron
  run on the finished band. Over the extended reals the two agree when every edge word is a node number: a count is
  a finite sum of ones, and a non-negative factor distributes over a sum of extended reals, so (count) · row is the row
  added up once per edge; the padded rows and columns carry a zero count and never reach a real node.

  Frames: the three regions' pipelines are run from the body's symbolic execution in its three cases (first slice,
  middle slices, last slice with the perceptron), the accumulator carried from point to point in the region's
  invariant; the same text serves the word-level program and the idealized one. The value: the regions' output
  arrays read off those runs, the host lines read at an index, the reference's run read layer by layer, and the
  counting law that joins them.
-/
import proofs.«410393_j66864050864374_3_alg».proof.Defs
import proofs.«410393_j66864050864374_3_alg».proof.Proof.Gen.Kernel
import proofs.«410393_j66864050864374_3_alg».proof.Proof.Gen.KernelIdeal
import proofs.«410393_j66864050864374_3_alg».proof.Proof.Gen.ReferenceIdeal
import proofs.«410393_j66864050864374_3_alg».proof.Proof.Gen.Pre_finite_inputs
import proofs.«410393_j66864050864374_3_alg».proof.Proof.BFrameMain
import proofs.«410393_j66864050864374_3_alg».proof.Proof.FrameMain
import proofs.«410393_j66864050864374_3_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Fr.frame (F := Bits) m ρ,
  fun m ρ _ => Cert.KernelIdeal.Fr.frame (F := Ideal) m ρ,
  Cert.Proof.Parts.frame_ri,
  trivial,
  Cert.Proof.Parts.algebraic⟩

end Cert.Proof

end
